-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x56x56 : Shape := ⟨4, ![8, 64, 56, 56]⟩
abbrev S8x128x28x28 : Shape := ⟨4, ![8, 128, 28, 28]⟩
abbrev S8x256x14x14 : Shape := ⟨4, ![8, 256, 14, 14]⟩
abbrev S8x512x7x7 : Shape := ⟨4, ![8, 512, 7, 7]⟩
abbrev S56x56x20000 : Shape := ⟨3, ![56, 56, 20000]⟩
abbrev S28x28x20000 : Shape := ⟨3, ![28, 28, 20000]⟩
abbrev S14x14x20000 : Shape := ⟨3, ![14, 14, 20000]⟩
abbrev S7x7x20000 : Shape := ⟨3, ![7, 7, 20000]⟩
abbrev S64x20000 : Shape := ⟨2, ![64, 20000]⟩
abbrev S128x20000 : Shape := ⟨2, ![128, 20000]⟩
abbrev S256x20000 : Shape := ⟨2, ![256, 20000]⟩
abbrev S512x20000 : Shape := ⟨2, ![512, 20000]⟩
abbrev S8000 : Shape := ⟨1, ![8000]⟩
abbrev S_ : Shape := ⟨0, ![]⟩

class Facts : Prop where
  bcast_S_S8x64x56x56 : S_.BroadcastsInDim S8x64x56x56 (![] : Fin 0 → Fin S8x64x56x56.rank)
  reducesTo_S8x64x56x56_S_d0_1_2_3 : S8x64x56x56.ReducesTo [0, 1, 2, 3] S_
  h_S_ : 0 < S_.numel
  bcast_S_S8x128x28x28 : S_.BroadcastsInDim S8x128x28x28 (![] : Fin 0 → Fin S8x128x28x28.rank)
  reducesTo_S8x128x28x28_S_d0_1_2_3 : S8x128x28x28.ReducesTo [0, 1, 2, 3] S_
  bcast_S_S8x256x14x14 : S_.BroadcastsInDim S8x256x14x14 (![] : Fin 0 → Fin S8x256x14x14.rank)
  reducesTo_S8x256x14x14_S_d0_1_2_3 : S8x256x14x14.ReducesTo [0, 1, 2, 3] S_
  bcast_S_S8x512x7x7 : S_.BroadcastsInDim S8x512x7x7 (![] : Fin 0 → Fin S8x512x7x7.rank)
  reducesTo_S8x512x7x7_S_d0_1_2_3 : S8x512x7x7.ReducesTo [0, 1, 2, 3] S_
  bcast_S_S56x56x20000 : S_.BroadcastsInDim S56x56x20000 (![] : Fin 0 → Fin S56x56x20000.rank)
  reducesTo_S56x56x20000_S_d0_1_2 : S56x56x20000.ReducesTo [0, 1, 2] S_
  bcast_S_S28x28x20000 : S_.BroadcastsInDim S28x28x20000 (![] : Fin 0 → Fin S28x28x20000.rank)
  reducesTo_S28x28x20000_S_d0_1_2 : S28x28x20000.ReducesTo [0, 1, 2] S_
  bcast_S_S14x14x20000 : S_.BroadcastsInDim S14x14x20000 (![] : Fin 0 → Fin S14x14x20000.rank)
  reducesTo_S14x14x20000_S_d0_1_2 : S14x14x20000.ReducesTo [0, 1, 2] S_
  bcast_S_S7x7x20000 : S_.BroadcastsInDim S7x7x20000 (![] : Fin 0 → Fin S7x7x20000.rank)
  reducesTo_S7x7x20000_S_d0_1_2 : S7x7x20000.ReducesTo [0, 1, 2] S_
  bcast_S_S64x20000 : S_.BroadcastsInDim S64x20000 (![] : Fin 0 → Fin S64x20000.rank)
  reducesTo_S64x20000_S_d0_1 : S64x20000.ReducesTo [0, 1] S_
  bcast_S_S128x20000 : S_.BroadcastsInDim S128x20000 (![] : Fin 0 → Fin S128x20000.rank)
  reducesTo_S128x20000_S_d0_1 : S128x20000.ReducesTo [0, 1] S_
  bcast_S_S256x20000 : S_.BroadcastsInDim S256x20000 (![] : Fin 0 → Fin S256x20000.rank)
  reducesTo_S256x20000_S_d0_1 : S256x20000.ReducesTo [0, 1] S_
  bcast_S_S512x20000 : S_.BroadcastsInDim S512x20000 (![] : Fin 0 → Fin S512x20000.rank)
  reducesTo_S512x20000_S_d0_1 : S512x20000.ReducesTo [0, 1] S_
  bcast_S_S8000 : S_.BroadcastsInDim S8000 (![] : Fin 0 → Fin S8000.rank)
  reducesTo_S8000_S_d0 : S8000.ReducesTo [0] S_

variable [Facts]

def fn_part3 {F : FTy → Type} [FloatOps F] (main_arg11 : FVec F S512x20000 .f32) (main_arg12 : IVec S8000 32) (main_v48 : IVec S_ 1) (main_v49 : FVec F S256x20000 .f32) (main_v50 : FVec F S256x20000 .f32) : IVec S_ 1 :=
  let main_v51 : IVec S256x20000 1 := cmpf .olt main_v49 main_v50
  let main_c_19 : IVec S_ 1 := constantI S_ 1 1#1
  let main_v52 : IVec S_ 1 := (fun x v => Host.reduce IntOp.andi x v reducesTo_S256x20000_S_d0_1 h_S_) main_v51 main_c_19
  let main_v53 : IVec S_ 1 := andi main_v48 main_v52
  let main_v54 : FVec F S512x20000 .f32 := Host.absf main_arg11
  let main_cst_20 : FVec F S_ .f32 := constant S_ .f32 0x7F800000#32
  let main_v55 : FVec F S512x20000 .f32 := broadcastInDim S512x20000 ![] bcast_S_S512x20000 main_cst_20
  let main_v56 : IVec S512x20000 1 := cmpf .olt main_v54 main_v55
  let main_c_21 : IVec S_ 1 := constantI S_ 1 1#1
  let main_v57 : IVec S_ 1 := (fun x v => Host.reduce IntOp.andi x v reducesTo_S512x20000_S_d0_1 h_S_) main_v56 main_c_21
  let main_v58 : IVec S_ 1 := andi main_v53 main_v57
  let main_c_22 : IVec S_ 32 := constantI S_ 32 0#32
  let main_v59 : IVec S8000 32 := broadcastInDim S8000 ![] bcast_S_S8000 main_c_22
  let main_v60 : IVec S8000 1 := cmpi .sge main_arg12 main_v59
  let main_c_23 : IVec S_ 1 := constantI S_ 1 1#1
  let main_v61 : IVec S_ 1 := (fun x v => Host.reduce IntOp.andi x v reducesTo_S8000_S_d0 h_S_) main_v60 main_c_23
  let main_v62 : IVec S_ 1 := andi main_v58 main_v61
  let main_c_24 : IVec S_ 32 := constantI S_ 32 20000#32
  let main_v63 : IVec S8000 32 := broadcastInDim S8000 ![] bcast_S_S8000 main_c_24
  let main_v64 : IVec S8000 1 := cmpi .slt main_arg12 main_v63
  let main_c_25 : IVec S_ 1 := constantI S_ 1 1#1
  let main_v65 : IVec S_ 1 := (fun x v => Host.reduce IntOp.andi x v reducesTo_S8000_S_d0 h_S_) main_v64 main_c_25
  let main_v66 : IVec S_ 1 := andi main_v62 main_v65
  main_v66

def fn_part2 {F : FTy → Type} [FloatOps F] (main_arg7 : FVec F S7x7x20000 .f32) (main_arg8 : FVec F S64x20000 .f32) (main_arg9 : FVec F S128x20000 .f32) (main_arg10 : FVec F S256x20000 .f32) (main_arg11 : FVec F S512x20000 .f32) (main_arg12 : IVec S8000 32) (main_v33 : IVec S_ 1) : IVec S_ 1 :=
  let main_v34 : FVec F S7x7x20000 .f32 := Host.absf main_arg7
  let main_cst_12 : FVec F S_ .f32 := constant S_ .f32 0x7F800000#32
  let main_v35 : FVec F S7x7x20000 .f32 := broadcastInDim S7x7x20000 ![] bcast_S_S7x7x20000 main_cst_12
  let main_v36 : IVec S7x7x20000 1 := cmpf .olt main_v34 main_v35
  let main_c_13 : IVec S_ 1 := constantI S_ 1 1#1
  let main_v37 : IVec S_ 1 := (fun x v => Host.reduce IntOp.andi x v reducesTo_S7x7x20000_S_d0_1_2 h_S_) main_v36 main_c_13
  let main_v38 : IVec S_ 1 := andi main_v33 main_v37
  let main_v39 : FVec F S64x20000 .f32 := Host.absf main_arg8
  let main_cst_14 : FVec F S_ .f32 := constant S_ .f32 0x7F800000#32
  let main_v40 : FVec F S64x20000 .f32 := broadcastInDim S64x20000 ![] bcast_S_S64x20000 main_cst_14
  let main_v41 : IVec S64x20000 1 := cmpf .olt main_v39 main_v40
  let main_c_15 : IVec S_ 1 := constantI S_ 1 1#1
  let main_v42 : IVec S_ 1 := (fun x v => Host.reduce IntOp.andi x v reducesTo_S64x20000_S_d0_1 h_S_) main_v41 main_c_15
  let main_v43 : IVec S_ 1 := andi main_v38 main_v42
  let main_v44 : FVec F S128x20000 .f32 := Host.absf main_arg9
  let main_cst_16 : FVec F S_ .f32 := constant S_ .f32 0x7F800000#32
  let main_v45 : FVec F S128x20000 .f32 := broadcastInDim S128x20000 ![] bcast_S_S128x20000 main_cst_16
  let main_v46 : IVec S128x20000 1 := cmpf .olt main_v44 main_v45
  let main_c_17 : IVec S_ 1 := constantI S_ 1 1#1
  let main_v47 : IVec S_ 1 := (fun x v => Host.reduce IntOp.andi x v reducesTo_S128x20000_S_d0_1 h_S_) main_v46 main_c_17
  let main_v48 : IVec S_ 1 := andi main_v43 main_v47
  let main_v49 : FVec F S256x20000 .f32 := Host.absf main_arg10
  let main_cst_18 : FVec F S_ .f32 := constant S_ .f32 0x7F800000#32
  let main_v50 : FVec F S256x20000 .f32 := broadcastInDim S256x20000 ![] bcast_S_S256x20000 main_cst_18
  fn_part3 (F := F) main_arg11 main_arg12 main_v48 main_v49 main_v50

def fn_part1 {F : FTy → Type} [FloatOps F] (main_arg4 : FVec F S56x56x20000 .f32) (main_arg5 : FVec F S28x28x20000 .f32) (main_arg6 : FVec F S14x14x20000 .f32) (main_arg7 : FVec F S7x7x20000 .f32) (main_arg8 : FVec F S64x20000 .f32) (main_arg9 : FVec F S128x20000 .f32) (main_arg10 : FVec F S256x20000 .f32) (main_arg11 : FVec F S512x20000 .f32) (main_arg12 : IVec S8000 32) (main_v13 : IVec S_ 1) (main_v16 : IVec S8x512x7x7 1) : IVec S_ 1 :=
  let main_c_5 : IVec S_ 1 := constantI S_ 1 1#1
  let main_v17 : IVec S_ 1 := (fun x v => Host.reduce IntOp.andi x v reducesTo_S8x512x7x7_S_d0_1_2_3 h_S_) main_v16 main_c_5
  let main_v18 : IVec S_ 1 := andi main_v13 main_v17
  let main_v19 : FVec F S56x56x20000 .f32 := Host.absf main_arg4
  let main_cst_6 : FVec F S_ .f32 := constant S_ .f32 0x7F800000#32
  let main_v20 : FVec F S56x56x20000 .f32 := broadcastInDim S56x56x20000 ![] bcast_S_S56x56x20000 main_cst_6
  let main_v21 : IVec S56x56x20000 1 := cmpf .olt main_v19 main_v20
  let main_c_7 : IVec S_ 1 := constantI S_ 1 1#1
  let main_v22 : IVec S_ 1 := (fun x v => Host.reduce IntOp.andi x v reducesTo_S56x56x20000_S_d0_1_2 h_S_) main_v21 main_c_7
  let main_v23 : IVec S_ 1 := andi main_v18 main_v22
  let main_v24 : FVec F S28x28x20000 .f32 := Host.absf main_arg5
  let main_cst_8 : FVec F S_ .f32 := constant S_ .f32 0x7F800000#32
  let main_v25 : FVec F S28x28x20000 .f32 := broadcastInDim S28x28x20000 ![] bcast_S_S28x28x20000 main_cst_8
  let main_v26 : IVec S28x28x20000 1 := cmpf .olt main_v24 main_v25
  let main_c_9 : IVec S_ 1 := constantI S_ 1 1#1
  let main_v27 : IVec S_ 1 := (fun x v => Host.reduce IntOp.andi x v reducesTo_S28x28x20000_S_d0_1_2 h_S_) main_v26 main_c_9
  let main_v28 : IVec S_ 1 := andi main_v23 main_v27
  let main_v29 : FVec F S14x14x20000 .f32 := Host.absf main_arg6
  let main_cst_10 : FVec F S_ .f32 := constant S_ .f32 0x7F800000#32
  let main_v30 : FVec F S14x14x20000 .f32 := broadcastInDim S14x14x20000 ![] bcast_S_S14x14x20000 main_cst_10
  let main_v31 : IVec S14x14x20000 1 := cmpf .olt main_v29 main_v30
  let main_c_11 : IVec S_ 1 := constantI S_ 1 1#1
  let main_v32 : IVec S_ 1 := (fun x v => Host.reduce IntOp.andi x v reducesTo_S14x14x20000_S_d0_1_2 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8x64x56x56 .f32) (main_arg1 : FVec F S8x128x28x28 .f32) (main_arg2 : FVec F S8x256x14x14 .f32) (main_arg3 : FVec F S8x512x7x7 .f32) (main_arg4 : FVec F S56x56x20000 .f32) (main_arg5 : FVec F S28x28x20000 .f32) (main_arg6 : FVec F S14x14x20000 .f32) (main_arg7 : FVec F S7x7x20000 .f32) (main_arg8 : FVec F S64x20000 .f32) (main_arg9 : FVec F S128x20000 .f32) (main_arg10 : FVec F S256x20000 .f32) (main_arg11 : FVec F S512x20000 .f32) (main_arg12 : IVec S8000 32) : IVec S_ 1 :=
  let main_v0 : FVec F S8x64x56x56 .f32 := Host.absf main_arg0
  let main_cst : FVec F S_ .f32 := constant S_ .f32 0x7F800000#32
  let main_v1 : FVec F S8x64x56x56 .f32 := broadcastInDim S8x64x56x56 ![] bcast_S_S8x64x56x56 main_cst
  let main_v2 : IVec S8x64x56x56 1 := cmpf .olt main_v0 main_v1
  let main_c : IVec S_ 1 := constantI S_ 1 1#1
  let main_v3 : IVec S_ 1 := (fun x v => Host.reduce IntOp.andi x v reducesTo_S8x64x56x56_S_d0_1_2_3 h_S_) main_v2 main_c
  let main_v4 : FVec F S8x128x28x28 .f32 := Host.absf main_arg1
  let main_cst_0 : FVec F S_ .f32 := constant S_ .f32 0x7F800000#32
  let main_v5 : FVec F S8x128x28x28 .f32 := broadcastInDim S8x128x28x28 ![] bcast_S_S8x128x28x28 main_cst_0
  let main_v6 : IVec S8x128x28x28 1 := cmpf .olt main_v4 main_v5
  let main_c_1 : IVec S_ 1 := constantI S_ 1 1#1
  let main_v7 : IVec S_ 1 := (fun x v => Host.reduce IntOp.andi x v reducesTo_S8x128x28x28_S_d0_1_2_3 h_S_) main_v6 main_c_1
  let main_v8 : IVec S_ 1 := andi main_v3 main_v7
  let main_v9 : FVec F S8x256x14x14 .f32 := Host.absf main_arg2
  let main_cst_2 : FVec F S_ .f32 := constant S_ .f32 0x7F800000#32
  let main_v10 : FVec F S8x256x14x14 .f32 := broadcastInDim S8x256x14x14 ![] bcast_S_S8x256x14x14 main_cst_2
  let main_v11 : IVec S8x256x14x14 1 := cmpf .olt main_v9 main_v10
  let main_c_3 : IVec S_ 1 := constantI S_ 1 1#1
  let main_v12 : IVec S_ 1 := (fun x v => Host.reduce IntOp.andi x v reducesTo_S8x256x14x14_S_d0_1_2_3 h_S_) main_v11 main_c_3
  let main_v13 : IVec S_ 1 := andi main_v8 main_v12
  let main_v14 : FVec F S8x512x7x7 .f32 := Host.absf main_arg3
  let main_cst_4 : FVec F S_ .f32 := constant S_ .f32 0x7F800000#32
  let main_v15 : FVec F S8x512x7x7 .f32 := broadcastInDim S8x512x7x7 ![] bcast_S_S8x512x7x7 main_cst_4
  let main_v16 : IVec S8x512x7x7 1 := cmpf .olt main_v14 main_v15
  fn_part1 (F := F) main_arg4 main_arg5 main_arg6 main_arg7 main_arg8 main_arg9 main_arg10 main_arg11 main_arg12 main_v13 main_v16
-- ==== Kernel.lean ====
abbrev S8x64x56x56 : Shape := ⟨4, ![8, 64, 56, 56]⟩
abbrev S8x128x28x28 : Shape := ⟨4, ![8, 128, 28, 28]⟩
abbrev S8x256x14x14 : Shape := ⟨4, ![8, 256, 14, 14]⟩
abbrev S8x512x7x7 : Shape := ⟨4, ![8, 512, 7, 7]⟩
abbrev S56x56x20000 : Shape := ⟨3, ![56, 56, 20000]⟩
abbrev S28x28x20000 : Shape := ⟨3, ![28, 28, 20000]⟩
abbrev S14x14x20000 : Shape := ⟨3, ![14, 14, 20000]⟩
abbrev S7x7x20000 : Shape := ⟨3, ![7, 7, 20000]⟩
abbrev S64x20000 : Shape := ⟨2, ![64, 20000]⟩
abbrev S128x20000 : Shape := ⟨2, ![128, 20000]⟩
abbrev S256x20000 : Shape := ⟨2, ![256, 20000]⟩
abbrev S512x20000 : Shape := ⟨2, ![512, 20000]⟩
abbrev S8000 : Shape := ⟨1, ![8000]⟩
abbrev S_ : Shape := ⟨0, ![]⟩
abbrev S8x960x8000 : Shape := ⟨3, ![8, 960, 8000]⟩
abbrev S8000x1 : Shape := ⟨2, ![8000, 1]⟩
abbrev S1 : Shape := ⟨1, ![1]⟩
abbrev S1x1 : Shape := ⟨2, ![1, 1]⟩
abbrev S56x56x8000 : Shape := ⟨3, ![56, 56, 8000]⟩
abbrev S3136x8000 : Shape := ⟨2, ![3136, 8000]⟩
abbrev S64x8000 : Shape := ⟨2, ![64, 8000]⟩
abbrev S8x64x3136 : Shape := ⟨3, ![8, 64, 3136]⟩
abbrev S3136x1024 : Shape := ⟨2, ![3136, 1024]⟩
abbrev S64x1024 : Shape := ⟨2, ![64, 1024]⟩
abbrev S8x64x1024 : Shape := ⟨3, ![8, 64, 1024]⟩
abbrev S1x64x3136 : Shape := ⟨3, ![1, 64, 3136]⟩
abbrev S64x3136 : Shape := ⟨2, ![64, 3136]⟩
abbrev S1x64x1024 : Shape := ⟨3, ![1, 64, 1024]⟩
abbrev S28x28x8000 : Shape := ⟨3, ![28, 28, 8000]⟩
abbrev S784x8000 : Shape := ⟨2, ![784, 8000]⟩
abbrev S128x8000 : Shape := ⟨2, ![128, 8000]⟩
abbrev S8x128x784 : Shape := ⟨3, ![8, 128, 784]⟩
abbrev S8x64x784 : Shape := ⟨3, ![8, 64, 784]⟩
abbrev S784x1024 : Shape := ⟨2, ![784, 1024]⟩
abbrev S1x64x784 : Shape := ⟨3, ![1, 64, 784]⟩
abbrev S64x784 : Shape := ⟨2, ![64, 784]⟩
abbrev S14x14x8000 : Shape := ⟨3, ![14, 14, 8000]⟩
abbrev S196x8000 : Shape := ⟨2, ![196, 8000]⟩
abbrev S256x8000 : Shape := ⟨2, ![256, 8000]⟩
abbrev S8x256x196 : Shape := ⟨3, ![8, 256, 196]⟩
abbrev S8x64x196 : Shape := ⟨3, ![8, 64, 196]⟩
abbrev S196x512 : Shape := ⟨2, ![196, 512]⟩
abbrev S64x512 : Shape := ⟨2, ![64, 512]⟩
abbrev S8x64x512 : Shape := ⟨3, ![8, 64, 512]⟩
abbrev S1x64x196 : Shape := ⟨3, ![1, 64, 196]⟩
abbrev S64x196 : Shape := ⟨2, ![64, 196]⟩
abbrev S1x64x512 : Shape := ⟨3, ![1, 64, 512]⟩
abbrev S7x7x8000 : Shape := ⟨3, ![7, 7, 8000]⟩
abbrev S49x8000 : Shape := ⟨2, ![49, 8000]⟩
abbrev S512x8000 : Shape := ⟨2, ![512, 8000]⟩
abbrev S8x512x49 : Shape := ⟨3, ![8, 512, 49]⟩
abbrev S8x64x49 : Shape := ⟨3, ![8, 64, 49]⟩
abbrev S49x512 : Shape := ⟨2, ![49, 512]⟩
abbrev S1x64x49 : Shape := ⟨3, ![1, 64, 49]⟩
abbrev S64x49 : Shape := ⟨2, ![64, 49]⟩

abbrev nBuf : Space → Nat
  | .hbm => 251
  | .vmem => 31
  | .smem => 0
  | _ => 0

abbrev hbmTy0_0 (i : Nat) : BufTy := match i % 128 with
  | 0 => ⟨S8x64x56x56, .f32⟩
  | 1 => ⟨S8x128x28x28, .f32⟩
  | 2 => ⟨S8x256x14x14, .f32⟩
  | 3 => ⟨S8x512x7x7, .f32⟩
  | 4 => ⟨S56x56x20000, .f32⟩
  | 5 => ⟨S28x28x20000, .f32⟩
  | 6 => ⟨S14x14x20000, .f32⟩
  | 7 => ⟨S7x7x20000, .f32⟩
  | 8 => ⟨S64x20000, .f32⟩
  | 9 => ⟨S128x20000, .f32⟩
  | 10 => ⟨S256x20000, .f32⟩
  | 11 => ⟨S512x20000, .f32⟩
  | 12 => ⟨S8000, .i32⟩
  | 13 => ⟨S_, .f32⟩
  | 14 => ⟨S8x960x8000, .f32⟩
  | 15 => ⟨S_, .i32⟩
  | 16 => ⟨S8000, .i32⟩
  | 17 => ⟨S8000, .i1⟩
  | 18 => ⟨S_, .i32⟩
  | 19 => ⟨S8000, .i32⟩
  | 20 => ⟨S8000, .i32⟩
  | 21 => ⟨S8000, .i32⟩
  | 22 => ⟨S8000x1, .i32⟩
  | 23 => ⟨S1, .i32⟩
  | 24 => ⟨S_, .i32⟩
  | 25 => ⟨S8000x1, .i32⟩
  | 26 => ⟨S8000x1, .i1⟩
  | 27 => ⟨S1x1, .i32⟩
  | 28 => ⟨S8000x1, .i32⟩
  | 29 => ⟨S8000x1, .i1⟩
  | 30 => ⟨S8000x1, .i1⟩
  | 31 => ⟨S_, .i1⟩
  | 32 => ⟨S8000, .i1⟩
  | 33 => ⟨S56x56x8000, .f32⟩
  | 34 => ⟨S56x56x8000, .i1⟩
  | 35 => ⟨S_, .f32⟩
  | 36 => ⟨S56x56x8000, .f32⟩
  | 37 => ⟨S56x56x8000, .f32⟩
  | 38 => ⟨S3136x8000, .f32⟩
  | 39 => ⟨S_, .f32⟩
  | 40 => ⟨S_, .f32⟩
  | 41 => ⟨S3136x8000, .f32⟩
  | 42 => ⟨S3136x8000, .i1⟩
  | 43 => ⟨S_, .f32⟩
  | 44 => ⟨S3136x8000, .f32⟩
  | 45 => ⟨S3136x8000, .f32⟩
  | 46 => ⟨S3136x8000, .f32⟩
  | 47 => ⟨S3136x8000, .bf16⟩
  | 48 => ⟨S_, .i32⟩
  | 49 => ⟨S8000, .i32⟩
  | 50 => ⟨S8000, .i1⟩
  | 51 => ⟨S_, .i32⟩
  | 52 => ⟨S8000, .i32⟩
  | 53 => ⟨S8000, .i32⟩
  | 54 => ⟨S8000, .i32⟩
  | 55 => ⟨S8000x1, .i32⟩
  | 56 => ⟨S1, .i32⟩
  | 57 => ⟨S_, .i32⟩
  | 58 => ⟨S8000x1, .i32⟩
  | 59 => ⟨S8000x1, .i1⟩
  | 60 => ⟨S1x1, .i32⟩
  | 61 => ⟨S8000x1, .i32⟩
  | 62 => ⟨S8000x1, .i1⟩
  | 63 => ⟨S8000x1, .i1⟩
  | 64 => ⟨S_, .i1⟩
  | 65 => ⟨S8000, .i1⟩
  | 66 => ⟨S64x8000, .f32⟩
  | 67 => ⟨S64x8000, .i1⟩
  | 68 => ⟨S_, .f32⟩
  | 69 => ⟨S64x8000, .f32⟩
  | 70 => ⟨S64x8000, .f32⟩
  | 71 => ⟨S8x64x3136, .f32⟩
  | 72 => ⟨S8x64x3136, .bf16⟩
  | 73 => ⟨S8x960x8000, .f32⟩
  | 74 => ⟨S_, .i32⟩
  | 75 => ⟨S8000, .i32⟩
  | 76 => ⟨S8000, .i1⟩
  | 77 => ⟨S_, .i32⟩
  | 78 => ⟨S8000, .i32⟩
  | 79 => ⟨S8000, .i32⟩
  | 80 => ⟨S8000, .i32⟩
  | 81 => ⟨S8000x1, .i32⟩
  | 82 => ⟨S1, .i32⟩
  | 83 => ⟨S_, .i32⟩
  | 84 => ⟨S8000x1, .i32⟩
  | 85 => ⟨S8000x1, .i1⟩
  | 86 => ⟨S1x1, .i32⟩
  | 87 => ⟨S8000x1, .i32⟩
  | 88 => ⟨S8000x1, .i1⟩
  | 89 => ⟨S8000x1, .i1⟩
  | 90 => ⟨S_, .i1⟩
  | 91 => ⟨S8000, .i1⟩
  | 92 => ⟨S28x28x8000, .f32⟩
  | 93 => ⟨S28x28x8000, .i1⟩
  | 94 => ⟨S_, .f32⟩
  | 95 => ⟨S28x28x8000, .f32⟩
  | 96 => ⟨S28x28x8000, .f32⟩
  | 97 => ⟨S784x8000, .f32⟩
  | 98 => ⟨S_, .f32⟩
  | 99 => ⟨S_, .f32⟩
  | 100 => ⟨S784x8000, .f32⟩
  | 101 => ⟨S784x8000, .i1⟩
  | 102 => ⟨S_, .f32⟩
  | 103 => ⟨S784x8000, .f32⟩
  | 104 => ⟨S784x8000, .f32⟩
  | 105 => ⟨S784x8000, .f32⟩
  | 106 => ⟨S784x8000, .bf16⟩
  | 107 => ⟨S_, .i32⟩
  | 108 => ⟨S8000, .i32⟩
  | 109 => ⟨S8000, .i1⟩
  | 110 => ⟨S_, .i32⟩
  | 111 => ⟨S8000, .i32⟩
  | 112 => ⟨S8000, .i32⟩
  | 113 => ⟨S8000, .i32⟩
  | 114 => ⟨S8000x1, .i32⟩
  | 115 => ⟨S1, .i32⟩
  | 116 => ⟨S_, .i32⟩
  | 117 => ⟨S8000x1, .i32⟩
  | 118 => ⟨S8000x1, .i1⟩
  | 119 => ⟨S1x1, .i32⟩
  | 120 => ⟨S8000x1, .i32⟩
  | 121 => ⟨S8000x1, .i1⟩
  | 122 => ⟨S8000x1, .i1⟩
  | 123 => ⟨S_, .i1⟩
  | 124 => ⟨S8000, .i1⟩
  | 125 => ⟨S128x8000, .f32⟩
  | 126 => ⟨S128x8000, .i1⟩
  | 127 => ⟨S_, .f32⟩
  | _ => ⟨S8x64x56x56, .f32⟩

abbrev hbmTy0_1 (i : Nat) : BufTy := match i % 128 with
  | 0 => ⟨S128x8000, .f32⟩
  | 1 => ⟨S128x8000, .f32⟩
  | 2 => ⟨S8x128x784, .f32⟩
  | 3 => ⟨S8x128x784, .bf16⟩
  | 4 => ⟨S8x960x8000, .f32⟩
  | 5 => ⟨S_, .i32⟩
  | 6 => ⟨S8000, .i32⟩
  | 7 => ⟨S8000, .i1⟩
  | 8 => ⟨S_, .i32⟩
  | 9 => ⟨S8000, .i32⟩
  | 10 => ⟨S8000, .i32⟩
  | 11 => ⟨S8000, .i32⟩
  | 12 => ⟨S8000x1, .i32⟩
  | 13 => ⟨S1, .i32⟩
  | 14 => ⟨S_, .i32⟩
  | 15 => ⟨S8000x1, .i32⟩
  | 16 => ⟨S8000x1, .i1⟩
  | 17 => ⟨S1x1, .i32⟩
  | 18 => ⟨S8000x1, .i32⟩
  | 19 => ⟨S8000x1, .i1⟩
  | 20 => ⟨S8000x1, .i1⟩
  | 21 => ⟨S_, .i1⟩
  | 22 => ⟨S8000, .i1⟩
  | 23 => ⟨S14x14x8000, .f32⟩
  | 24 => ⟨S14x14x8000, .i1⟩
  | 25 => ⟨S_, .f32⟩
  | 26 => ⟨S14x14x8000, .f32⟩
  | 27 => ⟨S14x14x8000, .f32⟩
  | 28 => ⟨S196x8000, .f32⟩
  | 29 => ⟨S_, .f32⟩
  | 30 => ⟨S_, .f32⟩
  | 31 => ⟨S196x8000, .f32⟩
  | 32 => ⟨S196x8000, .i1⟩
  | 33 => ⟨S_, .f32⟩
  | 34 => ⟨S196x8000, .f32⟩
  | 35 => ⟨S196x8000, .f32⟩
  | 36 => ⟨S196x8000, .f32⟩
  | 37 => ⟨S196x8000, .bf16⟩
  | 38 => ⟨S_, .i32⟩
  | 39 => ⟨S8000, .i32⟩
  | 40 => ⟨S8000, .i1⟩
  | 41 => ⟨S_, .i32⟩
  | 42 => ⟨S8000, .i32⟩
  | 43 => ⟨S8000, .i32⟩
  | 44 => ⟨S8000, .i32⟩
  | 45 => ⟨S8000x1, .i32⟩
  | 46 => ⟨S1, .i32⟩
  | 47 => ⟨S_, .i32⟩
  | 48 => ⟨S8000x1, .i32⟩
  | 49 => ⟨S8000x1, .i1⟩
  | 50 => ⟨S1x1, .i32⟩
  | 51 => ⟨S8000x1, .i32⟩
  | 52 => ⟨S8000x1, .i1⟩
  | 53 => ⟨S8000x1, .i1⟩
  | 54 => ⟨S_, .i1⟩
  | 55 => ⟨S8000, .i1⟩
  | 56 => ⟨S256x8000, .f32⟩
  | 57 => ⟨S256x8000, .i1⟩
  | 58 => ⟨S_, .f32⟩
  | 59 => ⟨S256x8000, .f32⟩
  | 60 => ⟨S256x8000, .f32⟩
  | 61 => ⟨S8x256x196, .f32⟩
  | 62 => ⟨S8x256x196, .bf16⟩
  | 63 => ⟨S8x960x8000, .f32⟩
  | 64 => ⟨S_, .i32⟩
  | 65 => ⟨S8000, .i32⟩
  | 66 => ⟨S8000, .i1⟩
  | 67 => ⟨S_, .i32⟩
  | 68 => ⟨S8000, .i32⟩
  | 69 => ⟨S8000, .i32⟩
  | 70 => ⟨S8000, .i32⟩
  | 71 => ⟨S8000x1, .i32⟩
  | 72 => ⟨S1, .i32⟩
  | 73 => ⟨S_, .i32⟩
  | 74 => ⟨S8000x1, .i32⟩
  | 75 => ⟨S8000x1, .i1⟩
  | 76 => ⟨S1x1, .i32⟩
  | 77 => ⟨S8000x1, .i32⟩
  | 78 => ⟨S8000x1, .i1⟩
  | 79 => ⟨S8000x1, .i1⟩
  | 80 => ⟨S_, .i1⟩
  | 81 => ⟨S8000, .i1⟩
  | 82 => ⟨S7x7x8000, .f32⟩
  | 83 => ⟨S7x7x8000, .i1⟩
  | 84 => ⟨S_, .f32⟩
  | 85 => ⟨S7x7x8000, .f32⟩
  | 86 => ⟨S7x7x8000, .f32⟩
  | 87 => ⟨S49x8000, .f32⟩
  | 88 => ⟨S_, .f32⟩
  | 89 => ⟨S_, .f32⟩
  | 90 => ⟨S49x8000, .f32⟩
  | 91 => ⟨S49x8000, .i1⟩
  | 92 => ⟨S_, .f32⟩
  | 93 => ⟨S49x8000, .f32⟩
  | 94 => ⟨S49x8000, .f32⟩
  | 95 => ⟨S49x8000, .f32⟩
  | 96 => ⟨S49x8000, .bf16⟩
  | 97 => ⟨S_, .i32⟩
  | 98 => ⟨S8000, .i32⟩
  | 99 => ⟨S8000, .i1⟩
  | 100 => ⟨S_, .i32⟩
  | 101 => ⟨S8000, .i32⟩
  | 102 => ⟨S8000, .i32⟩
  | 103 => ⟨S8000, .i32⟩
  | 104 => ⟨S8000x1, .i32⟩
  | 105 => ⟨S1, .i32⟩
  | 106 => ⟨S_, .i32⟩
  | 107 => ⟨S8000x1, .i32⟩
  | 108 => ⟨S8000x1, .i1⟩
  | 109 => ⟨S1x1, .i32⟩
  | 110 => ⟨S8000x1, .i32⟩
  | 111 => ⟨S8000x1, .i1⟩
  | 112 => ⟨S8000x1, .i1⟩
  | 113 => ⟨S_, .i1⟩
  | 114 => ⟨S8000, .i1⟩
  | 115 => ⟨S512x8000, .f32⟩
  | 116 => ⟨S512x8000, .i1⟩
  | 117 => ⟨S_, .f32⟩
  | 118 => ⟨S512x8000, .f32⟩
  | 119 => ⟨S512x8000, .f32⟩
  | 120 => ⟨S8x512x49, .f32⟩
  | 121 => ⟨S8x512x49, .bf16⟩
  | 122 => ⟨S8x960x8000, .f32⟩
  | _ => ⟨S8x64x56x56, .f32⟩

abbrev hbmTy (i : Nat) : BufTy := match i / 128 with
  | 0 => hbmTy0_0 i
  | 1 => hbmTy0_1 i
  | _ => ⟨S8x64x56x56, .f32⟩

abbrev bufTy : (tb : Table) → Fin (tcTables nBuf tb) → BufTy
  | .hbm, ⟨i, _⟩ => hbmTy i
  | .local _ .vmem, ⟨0, _⟩ => ⟨S8x64x3136, .bf16⟩
  | .local _ .vmem, ⟨1, _⟩ => ⟨S3136x1024, .bf16⟩
  | .local _ .vmem, ⟨2, _⟩ => ⟨S3136x1024, .bf16⟩
  | .local _ .vmem, ⟨3, _⟩ => ⟨S64x1024, .f32⟩
  | .local _ .vmem, ⟨4, _⟩ => ⟨S64x1024, .f32⟩
  | .local _ .vmem, ⟨5, _⟩ => ⟨S8x64x1024, .f32⟩
  | .local _ .vmem, ⟨6, _⟩ => ⟨S8x64x1024, .f32⟩
  | .local _ .vmem, ⟨7, _⟩ => ⟨S8x64x784, .bf16⟩
  | .local _ .vmem, ⟨8, _⟩ => ⟨S8x64x784, .bf16⟩
  | .local _ .vmem, ⟨9, _⟩ => ⟨S784x1024, .bf16⟩
  | .local _ .vmem, ⟨10, _⟩ => ⟨S784x1024, .bf16⟩
  | .local _ .vmem, ⟨11, _⟩ => ⟨S64x1024, .f32⟩
  | .local _ .vmem, ⟨12, _⟩ => ⟨S64x1024, .f32⟩
  | .local _ .vmem, ⟨13, _⟩ => ⟨S8x64x1024, .f32⟩
  | .local _ .vmem, ⟨14, _⟩ => ⟨S8x64x1024, .f32⟩
  | .local _ .vmem, ⟨15, _⟩ => ⟨S8x64x196, .bf16⟩
  | .local _ .vmem, ⟨16, _⟩ => ⟨S8x64x196, .bf16⟩
  | .local _ .vmem, ⟨17, _⟩ => ⟨S196x512, .bf16⟩
  | .local _ .vmem, ⟨18, _⟩ => ⟨S196x512, .bf16⟩
  | .local _ .vmem, ⟨19, _⟩ => ⟨S64x512, .f32⟩
  | .local _ .vmem, ⟨20, _⟩ => ⟨S64x512, .f32⟩
  | .local _ .vmem, ⟨21, _⟩ => ⟨S8x64x512, .f32⟩
  | .local _ .vmem, ⟨22, _⟩ => ⟨S8x64x512, .f32⟩
  | .local _ .vmem, ⟨23, _⟩ => ⟨S8x64x49, .bf16⟩
  | .local _ .vmem, ⟨24, _⟩ => ⟨S8x64x49, .bf16⟩
  | .local _ .vmem, ⟨25, _⟩ => ⟨S49x512, .bf16⟩
  | .local _ .vmem, ⟨26, _⟩ => ⟨S49x512, .bf16⟩
  | .local _ .vmem, ⟨27, _⟩ => ⟨S64x512, .f32⟩
  | .local _ .vmem, ⟨28, _⟩ => ⟨S64x512, .f32⟩
  | .local _ .vmem, ⟨29, _⟩ => ⟨S8x64x512, .f32⟩
  | .local _ .vmem, ⟨30, _⟩ => ⟨S8x64x512, .f32⟩
  | _, _ => ⟨S8x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v1 : Ref sig .tc := ⟨.hbm, 37, rfl⟩
abbrev main_v2 : Ref sig .tc := ⟨.hbm, 38, rfl⟩
abbrev main_cst_0 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v3 : Ref sig .tc := ⟨.hbm, 46, rfl⟩
abbrev main_v4 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_v14 : Ref sig .tc := ⟨.hbm, 67, rfl⟩
abbrev main_call2_cst : Ref sig .tc := ⟨.hbm, 68, rfl⟩
abbrev main_call2_v15 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v9 : Ref sig .tc := ⟨.hbm, 96, rfl⟩
abbrev main_v10 : Ref sig .tc := ⟨.hbm, 97, rfl⟩
abbrev main_cst_1 : Ref sig .tc := ⟨.hbm, 98, rfl⟩
abbrev main_call4_cst : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v11 : Ref sig .tc := ⟨.hbm, 105, rfl⟩
abbrev main_v12 : Ref sig .tc := ⟨.hbm, 106, rfl⟩
abbrev main_call5_c : Ref sig .tc := ⟨.hbm, 107, rfl⟩
abbrev main_call5_v0 : Ref sig .tc := ⟨.hbm, 108, rfl⟩
abbrev main_call5_v1 : Ref sig .tc := ⟨.hbm, 109, rfl⟩
abbrev main_call5_c_0 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_c_1 : Ref sig .tc := ⟨.hbm, 115, rfl⟩
abbrev main_call5_c_2 : Ref sig .tc := ⟨.hbm, 116, rfl⟩
abbrev main_call5_v6 : Ref sig .tc := ⟨.hbm, 117, rfl⟩
abbrev main_call5_v7 : Ref sig .tc := ⟨.hbm, 118, rfl⟩
abbrev main_call5_v8 : Ref sig .tc := ⟨.hbm, 119, rfl⟩
abbrev main_call5_v9 : Ref sig .tc := ⟨.hbm, 120, rfl⟩
abbrev main_call5_v10 : Ref sig .tc := ⟨.hbm, 121, rfl⟩
abbrev main_call5_v11 : Ref sig .tc := ⟨.hbm, 122, rfl⟩
abbrev main_call5_c_3 : Ref sig .tc := ⟨.hbm, 123, rfl⟩
abbrev main_call5_v12 : Ref sig .tc := ⟨.hbm, 124, rfl⟩
abbrev main_call5_v13 : Ref sig .tc := ⟨.hbm, 125, rfl⟩
abbrev main_call5_v14 : Ref sig .tc := ⟨.hbm, 126, rfl⟩
abbrev main_call5_cst : Ref sig .tc := ⟨.hbm, 127, rfl⟩
abbrev main_call5_v15 : Ref sig .tc := ⟨.hbm, 128, rfl⟩
abbrev main_v13 : Ref sig .tc := ⟨.hbm, 129, rfl⟩
abbrev main_v14 : Ref sig .tc := ⟨.hbm, 130, rfl⟩
abbrev main_v15 : Ref sig .tc := ⟨.hbm, 131, rfl⟩
abbrev main_v16 : Ref sig .tc := ⟨.hbm, 132, rfl⟩
abbrev main_call6_c : Ref sig .tc := ⟨.hbm, 133, rfl⟩
abbrev main_call6_v0 : Ref sig .tc := ⟨.hbm, 134, rfl⟩
abbrev main_call6_v1 : Ref sig .tc := ⟨.hbm, 135, rfl⟩
abbrev main_call6_c_0 : Ref sig .tc := ⟨.hbm, 136, rfl⟩
abbrev main_call6_v2 : Ref sig .tc := ⟨.hbm, 137, rfl⟩
abbrev main_call6_v3 : Ref sig .tc := ⟨.hbm, 138, rfl⟩
abbrev main_call6_v4 : Ref sig .tc := ⟨.hbm, 139, rfl⟩
abbrev main_call6_v5 : Ref sig .tc := ⟨.hbm, 140, rfl⟩
abbrev main_call6_c_1 : Ref sig .tc := ⟨.hbm, 141, rfl⟩
abbrev main_call6_c_2 : Ref sig .tc := ⟨.hbm, 142, rfl⟩
abbrev main_call6_v6 : Ref sig .tc := ⟨.hbm, 143, rfl⟩
abbrev main_call6_v7 : Ref sig .tc := ⟨.hbm, 144, rfl⟩
abbrev main_call6_v8 : Ref sig .tc := ⟨.hbm, 145, rfl⟩
abbrev main_call6_v9 : Ref sig .tc := ⟨.hbm, 146, rfl⟩
abbrev main_call6_v10 : Ref sig .tc := ⟨.hbm, 147, rfl⟩
abbrev main_call6_v11 : Ref sig .tc := ⟨.hbm, 148, rfl⟩
abbrev main_call6_c_3 : Ref sig .tc := ⟨.hbm, 149, rfl⟩
abbrev main_call6_v12 : Ref sig .tc := ⟨.hbm, 150, rfl⟩
abbrev main_call6_v13 : Ref sig .tc := ⟨.hbm, 151, rfl⟩
abbrev main_call6_v14 : Ref sig .tc := ⟨.hbm, 152, rfl⟩
abbrev main_call6_cst : Ref sig .tc := ⟨.hbm, 153, rfl⟩
abbrev main_call6_v15 : Ref sig .tc := ⟨.hbm, 154, rfl⟩
abbrev main_v17 : Ref sig .tc := ⟨.hbm, 155, rfl⟩
abbrev main_v18 : Ref sig .tc := ⟨.hbm, 156, rfl⟩
abbrev main_cst_2 : Ref sig .tc := ⟨.hbm, 157, rfl⟩
abbrev main_call7_cst : Ref sig .tc := ⟨.hbm, 158, rfl⟩
abbrev main_call7_v0 : Ref sig .tc := ⟨.hbm, 159, rfl⟩
abbrev main_call7_v1 : Ref sig .tc := ⟨.hbm, 160, rfl⟩
abbrev main_call7_v2 : Ref sig .tc := ⟨.hbm, 161, rfl⟩
abbrev main_call7_v3 : Ref sig .tc := ⟨.hbm, 162, rfl⟩
abbrev main_call7_v4 : Ref sig .tc := ⟨.hbm, 163, rfl⟩
abbrev main_v19 : Ref sig .tc := ⟨.hbm, 164, rfl⟩
abbrev main_v20 : Ref sig .tc := ⟨.hbm, 165, rfl⟩
abbrev main_call8_c : Ref sig .tc := ⟨.hbm, 166, rfl⟩
abbrev main_call8_v0 : Ref sig .tc := ⟨.hbm, 167, rfl⟩
abbrev main_call8_v1 : Ref sig .tc := ⟨.hbm, 168, rfl⟩
abbrev main_call8_c_0 : Ref sig .tc := ⟨.hbm, 169, rfl⟩
abbrev main_call8_v2 : Ref sig .tc := ⟨.hbm, 170, rfl⟩
abbrev main_call8_v3 : Ref sig .tc := ⟨.hbm, 171, rfl⟩
abbrev main_call8_v4 : Ref sig .tc := ⟨.hbm, 172, rfl⟩
abbrev main_call8_v5 : Ref sig .tc := ⟨.hbm, 173, rfl⟩
abbrev main_call8_c_1 : Ref sig .tc := ⟨.hbm, 174, rfl⟩
abbrev main_call8_c_2 : Ref sig .tc := ⟨.hbm, 175, rfl⟩
abbrev main_call8_v6 : Ref sig .tc := ⟨.hbm, 176, rfl⟩
abbrev main_call8_v7 : Ref sig .tc := ⟨.hbm, 177, rfl⟩
abbrev main_call8_v8 : Ref sig .tc := ⟨.hbm, 178, rfl⟩
abbrev main_call8_v9 : Ref sig .tc := ⟨.hbm, 179, rfl⟩
abbrev main_call8_v10 : Ref sig .tc := ⟨.hbm, 180, rfl⟩
abbrev main_call8_v11 : Ref sig .tc := ⟨.hbm, 181, rfl⟩
abbrev main_call8_c_3 : Ref sig .tc := ⟨.hbm, 182, rfl⟩
abbrev main_call8_v12 : Ref sig .tc := ⟨.hbm, 183, rfl⟩
abbrev main_call8_v13 : Ref sig .tc := ⟨.hbm, 184, rfl⟩
abbrev main_call8_v14 : Ref sig .tc := ⟨.hbm, 185, rfl⟩
abbrev main_call8_cst : Ref sig .tc := ⟨.hbm, 186, rfl⟩
abbrev main_call8_v15 : Ref sig .tc := ⟨.hbm, 187, rfl⟩
abbrev main_v21 : Ref sig .tc := ⟨.hbm, 188, rfl⟩
abbrev main_v22 : Ref sig .tc := ⟨.hbm, 189, rfl⟩
abbrev main_v23 : Ref sig .tc := ⟨.hbm, 190, rfl⟩
abbrev main_v24 : Ref sig .tc := ⟨.hbm, 191, rfl⟩
abbrev main_call9_c : Ref sig .tc := ⟨.hbm, 192, rfl⟩
abbrev main_call9_v0 : Ref sig .tc := ⟨.hbm, 193, rfl⟩
abbrev main_call9_v1 : Ref sig .tc := ⟨.hbm, 194, rfl⟩
abbrev main_call9_c_0 : Ref sig .tc := ⟨.hbm, 195, rfl⟩
abbrev main_call9_v2 : Ref sig .tc := ⟨.hbm, 196, rfl⟩
abbrev main_call9_v3 : Ref sig .tc := ⟨.hbm, 197, rfl⟩
abbrev main_call9_v4 : Ref sig .tc := ⟨.hbm, 198, rfl⟩
abbrev main_call9_v5 : Ref sig .tc := ⟨.hbm, 199, rfl⟩
abbrev main_call9_c_1 : Ref sig .tc := ⟨.hbm, 200, rfl⟩
abbrev main_call9_c_2 : Ref sig .tc := ⟨.hbm, 201, rfl⟩
abbrev main_call9_v6 : Ref sig .tc := ⟨.hbm, 202, rfl⟩
abbrev main_call9_v7 : Ref sig .tc := ⟨.hbm, 203, rfl⟩
abbrev main_call9_v8 : Ref sig .tc := ⟨.hbm, 204, rfl⟩
abbrev main_call9_v9 : Ref sig .tc := ⟨.hbm, 205, rfl⟩
abbrev main_call9_v10 : Ref sig .tc := ⟨.hbm, 206, rfl⟩
abbrev main_call9_v11 : Ref sig .tc := ⟨.hbm, 207, rfl⟩
abbrev main_call9_c_3 : Ref sig .tc := ⟨.hbm, 208, rfl⟩
abbrev main_call9_v12 : Ref sig .tc := ⟨.hbm, 209, rfl⟩
abbrev main_call9_v13 : Ref sig .tc := ⟨.hbm, 210, rfl⟩
abbrev main_call9_v14 : Ref sig .tc := ⟨.hbm, 211, rfl⟩
abbrev main_call9_cst : Ref sig .tc := ⟨.hbm, 212, rfl⟩
abbrev main_call9_v15 : Ref sig .tc := ⟨.hbm, 213, rfl⟩
abbrev main_v25 : Ref sig .tc := ⟨.hbm, 214, rfl⟩
abbrev main_v26 : Ref sig .tc := ⟨.hbm, 215, rfl⟩
abbrev main_cst_3 : Ref sig .tc := ⟨.hbm, 216, rfl⟩
abbrev main_call10_cst : Ref sig .tc := ⟨.hbm, 217, rfl⟩
abbrev main_call10_v0 : Ref sig .tc := ⟨.hbm, 218, rfl⟩
abbrev main_call10_v1 : Ref sig .tc := ⟨.hbm, 219, rfl⟩
abbrev main_call10_v2 : Ref sig .tc := ⟨.hbm, 220, rfl⟩
abbrev main_call10_v3 : Ref sig .tc := ⟨.hbm, 221, rfl⟩
abbrev main_call10_v4 : Ref sig .tc := ⟨.hbm, 222, rfl⟩
abbrev main_v27 : Ref sig .tc := ⟨.hbm, 223, rfl⟩
abbrev main_v28 : Ref sig .tc := ⟨.hbm, 224, rfl⟩
abbrev main_call11_c : Ref sig .tc := ⟨.hbm, 225, rfl⟩
abbrev main_call11_v0 : Ref sig .tc := ⟨.hbm, 226, rfl⟩
abbrev main_call11_v1 : Ref sig .tc := ⟨.hbm, 227, rfl⟩
abbrev main_call11_c_0 : Ref sig .tc := ⟨.hbm, 228, rfl⟩
abbrev main_call11_v2 : Ref sig .tc := ⟨.hbm, 229, rfl⟩
abbrev main_call11_v3 : Ref sig .tc := ⟨.hbm, 230, rfl⟩
abbrev main_call11_v4 : Ref sig .tc := ⟨.hbm, 231, rfl⟩
abbrev main_call11_v5 : Ref sig .tc := ⟨.hbm, 232, rfl⟩
abbrev main_call11_c_1 : Ref sig .tc := ⟨.hbm, 233, rfl⟩
abbrev main_call11_c_2 : Ref sig .tc := ⟨.hbm, 234, rfl⟩
abbrev main_call11_v6 : Ref sig .tc := ⟨.hbm, 235, rfl⟩
abbrev main_call11_v7 : Ref sig .tc := ⟨.hbm, 236, rfl⟩
abbrev main_call11_v8 : Ref sig .tc := ⟨.hbm, 237, rfl⟩
abbrev main_call11_v9 : Ref sig .tc := ⟨.hbm, 238, rfl⟩
abbrev main_call11_v10 : Ref sig .tc := ⟨.hbm, 239, rfl⟩
abbrev main_call11_v11 : Ref sig .tc := ⟨.hbm, 240, rfl⟩
abbrev main_call11_c_3 : Ref sig .tc := ⟨.hbm, 241, rfl⟩
abbrev main_call11_v12 : Ref sig .tc := ⟨.hbm, 242, rfl⟩
abbrev main_call11_v13 : Ref sig .tc := ⟨.hbm, 243, rfl⟩
abbrev main_call11_v14 : Ref sig .tc := ⟨.hbm, 244, rfl⟩
abbrev main_call11_cst : Ref sig .tc := ⟨.hbm, 245, rfl⟩
abbrev main_call11_v15 : Ref sig .tc := ⟨.hbm, 246, rfl⟩
abbrev main_v29 : Ref sig .tc := ⟨.hbm, 247, rfl⟩
abbrev main_v30 : Ref sig .tc := ⟨.hbm, 248, rfl⟩
abbrev main_v31 : Ref sig .tc := ⟨.hbm, 249, rfl⟩
abbrev main_v32 : Ref sig .tc := ⟨.hbm, 250, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat, arg0.toNat]

abbrev stage0_0 : Fin 1 → Memref sig .tc .vmem S8x64x3136 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S3136x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![c0_i32.toNat, v0.toNat, arg0.toNat]

abbrev stage1_0 : Fin 2 → Memref sig .tc .vmem S8x64x784 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S784x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  ![c0_i32.toNat, v0.toNat, arg0.toNat]

abbrev stage2_0 : Fin 2 → Memref sig .tc .vmem S8x64x196 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S196x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S64x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S8x64x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![16, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_4 (i : grid3.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  let c0_i32_0 : BitVec 32 := 0#32
  ![c0_i32.toNat, v0.toNat, arg0.toNat]

abbrev stage3_0 : Fin 2 → Memref sig .tc .vmem S8x64x49 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S49x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S64x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S8x64x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

class Facts₀ : Prop where
  bcast_S_S8x960x8000 : S_.BroadcastsInDim S8x960x8000 (![] : Fin 0 → Fin S8x960x8000.rank)
  bcast_S_S8000 : S_.BroadcastsInDim S8000 (![] : Fin 0 → Fin S8000.rank)
  bcast_S8000_S8000x1_0 : S8000.BroadcastsInDim S8000x1 (![0] : Fin 1 → Fin S8000x1.rank)
  bcast_S_S8000x1 : S_.BroadcastsInDim S8000x1 (![] : Fin 0 → Fin S8000x1.rank)
  bcast_S1_S1x1_1 : S1.BroadcastsInDim S1x1 (![1] : Fin 1 → Fin S1x1.rank)
  bcast_S1x1_S8000x1_0_1 : S1x1.BroadcastsInDim S8000x1 (![0, 1] : Fin 2 → Fin S8000x1.rank)
  reducesTo_S8000x1_S8000_d1 : S8000x1.ReducesTo [1] S8000
  h_S_ : 0 < S_.numel
  bcast_S8000_S56x56x8000_2 : S8000.BroadcastsInDim S56x56x8000 (![2] : Fin 1 → Fin S56x56x8000.rank)
  bcast_S_S56x56x8000 : S_.BroadcastsInDim S56x56x8000 (![] : Fin 0 → Fin S56x56x8000.rank)
  shapeCasts_S56x56x8000_S3136x8000 : S56x56x8000.ShapeCasts S3136x8000
  bcast_S_S3136x8000 : S_.BroadcastsInDim S3136x8000 (![] : Fin 0 → Fin S3136x8000.rank)
  bitsLt_bf16_f32 : FTy.bits .bf16 < FTy.bits .f32
  bcast_S8000_S64x8000_1 : S8000.BroadcastsInDim S64x8000 (![1] : Fin 1 → Fin S64x8000.rank)
  bcast_S_S64x8000 : S_.BroadcastsInDim S64x8000 (![] : Fin 0 → Fin S64x8000.rank)
  shapeCasts_S8x64x56x56_S8x64x3136 : S8x64x56x56.ShapeCasts S8x64x3136
  inb_S3136x1024_S3136x1024_0_0 : ∀ a, (![0, 0] : Fin 2 → Nat) a + S3136x1024.size a ≤ S3136x1024.size a
  h_S3136x1024 : 0 < S3136x1024.numel
  shapeCasts_S3136x1024_S3136x1024 : S3136x1024.ShapeCasts S3136x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S8x64x3136_S1x64x3136_0_0_0 : ∀ a, (![0, 0, 0] : Fin 3 → Nat) a + S1x64x3136.size a ≤ S8x64x3136.size a
  h_S1x64x3136 : 0 < S1x64x3136.numel
  shapeCasts_S1x64x3136_S64x3136 : S1x64x3136.ShapeCasts S64x3136
  inb_S8x64x1024_S1x64x1024_0_0_0 : ∀ a, (![0, 0, 0] : Fin 3 → Nat) a + S1x64x1024.size a ≤ S8x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S8x64x3136_S1x64x3136_1_0_0 : ∀ a, (![1, 0, 0] : Fin 3 → Nat) a + S1x64x3136.size a ≤ S8x64x3136.size a
  inb_S8x64x1024_S1x64x1024_1_0_0 : ∀ a, (![1, 0, 0] : Fin 3 → Nat) a + S1x64x1024.size a ≤ S8x64x1024.size a
  inb_S8x64x3136_S1x64x3136_2_0_0 : ∀ a, (![2, 0, 0] : Fin 3 → Nat) a + S1x64x3136.size a ≤ S8x64x3136.size a
  inb_S8x64x1024_S1x64x1024_2_0_0 : ∀ a, (![2, 0, 0] : Fin 3 → Nat) a + S1x64x1024.size a ≤ S8x64x1024.size a
  inb_S8x64x3136_S1x64x3136_3_0_0 : ∀ a, (![3, 0, 0] : Fin 3 → Nat) a + S1x64x3136.size a ≤ S8x64x3136.size a
  inb_S8x64x1024_S1x64x1024_3_0_0 : ∀ a, (![3, 0, 0] : Fin 3 → Nat) a + S1x64x1024.size a ≤ S8x64x1024.size a
  inb_S8x64x3136_S1x64x3136_4_0_0 : ∀ a, (![4, 0, 0] : Fin 3 → Nat) a + S1x64x3136.size a ≤ S8x64x3136.size a
  inb_S8x64x1024_S1x64x1024_4_0_0 : ∀ a, (![4, 0, 0] : Fin 3 → Nat) a + S1x64x1024.size a ≤ S8x64x1024.size a
  inb_S8x64x3136_S1x64x3136_5_0_0 : ∀ a, (![5, 0, 0] : Fin 3 → Nat) a + S1x64x3136.size a ≤ S8x64x3136.size a
  inb_S8x64x1024_S1x64x1024_5_0_0 : ∀ a, (![5, 0, 0] : Fin 3 → Nat) a + S1x64x1024.size a ≤ S8x64x1024.size a
  inb_S8x64x3136_S1x64x3136_6_0_0 : ∀ a, (![6, 0, 0] : Fin 3 → Nat) a + S1x64x3136.size a ≤ S8x64x3136.size a
  inb_S8x64x1024_S1x64x1024_6_0_0 : ∀ a, (![6, 0, 0] : Fin 3 → Nat) a + S1x64x1024.size a ≤ S8x64x1024.size a
  inb_S8x64x3136_S1x64x3136_7_0_0 : ∀ a, (![7, 0, 0] : Fin 3 → Nat) a + S1x64x3136.size a ≤ S8x64x3136.size a
  inb_S8x64x1024_S1x64x1024_7_0_0 : ∀ a, (![7, 0, 0] : Fin 3 → Nat) a + S1x64x1024.size a ≤ S8x64x1024.size a
  bcast_S8000_S28x28x8000_2 : S8000.BroadcastsInDim S28x28x8000 (![2] : Fin 1 → Fin S28x28x8000.rank)
  bcast_S_S28x28x8000 : S_.BroadcastsInDim S28x28x8000 (![] : Fin 0 → Fin S28x28x8000.rank)
  shapeCasts_S28x28x8000_S784x8000 : S28x28x8000.ShapeCasts S784x8000
  bcast_S_S784x8000 : S_.BroadcastsInDim S784x8000 (![] : Fin 0 → Fin S784x8000.rank)
  bcast_S8000_S128x8000_1 : S8000.BroadcastsInDim S128x8000 (![1] : Fin 1 → Fin S128x8000.rank)
  bcast_S_S128x8000 : S_.BroadcastsInDim S128x8000 (![] : Fin 0 → Fin S128x8000.rank)
  shapeCasts_S8x128x28x28_S8x128x784 : S8x128x28x28.ShapeCasts S8x128x784
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S8x64x784_S1x64x784_0_0_0 : ∀ a, (![0, 0, 0] : Fin 3 → Nat) a + S1x64x784.size a ≤ S8x64x784.size a
  h_S1x64x784 : 0 < S1x64x784.numel
  shapeCasts_S1x64x784_S64x784 : S1x64x784.ShapeCasts S64x784
  inb_S8x64x784_S1x64x784_1_0_0 : ∀ a, (![1, 0, 0] : Fin 3 → Nat) a + S1x64x784.size a ≤ S8x64x784.size a
  inb_S8x64x784_S1x64x784_2_0_0 : ∀ a, (![2, 0, 0] : Fin 3 → Nat) a + S1x64x784.size a ≤ S8x64x784.size a
  inb_S8x64x784_S1x64x784_3_0_0 : ∀ a, (![3, 0, 0] : Fin 3 → Nat) a + S1x64x784.size a ≤ S8x64x784.size a
  inb_S8x64x784_S1x64x784_4_0_0 : ∀ a, (![4, 0, 0] : Fin 3 → Nat) a + S1x64x784.size a ≤ S8x64x784.size a
  inb_S8x64x784_S1x64x784_5_0_0 : ∀ a, (![5, 0, 0] : Fin 3 → Nat) a + S1x64x784.size a ≤ S8x64x784.size a
  inb_S8x64x784_S1x64x784_6_0_0 : ∀ a, (![6, 0, 0] : Fin 3 → Nat) a + S1x64x784.size a ≤ S8x64x784.size a
  inb_S8x64x784_S1x64x784_7_0_0 : ∀ a, (![7, 0, 0] : Fin 3 → Nat) a + S1x64x784.size a ≤ S8x64x784.size a
  bcast_S8000_S14x14x8000_2 : S8000.BroadcastsInDim S14x14x8000 (![2] : Fin 1 → Fin S14x14x8000.rank)
  bcast_S_S14x14x8000 : S_.BroadcastsInDim S14x14x8000 (![] : Fin 0 → Fin S14x14x8000.rank)
  shapeCasts_S14x14x8000_S196x8000 : S14x14x8000.ShapeCasts S196x8000
  bcast_S_S196x8000 : S_.BroadcastsInDim S196x8000 (![] : Fin 0 → Fin S196x8000.rank)
  bcast_S8000_S256x8000_1 : S8000.BroadcastsInDim S256x8000 (![1] : Fin 1 → Fin S256x8000.rank)
  bcast_S_S256x8000 : S_.BroadcastsInDim S256x8000 (![] : Fin 0 → Fin S256x8000.rank)
  shapeCasts_S8x256x14x14_S8x256x196 : S8x256x14x14.ShapeCasts S8x256x196
  inb_S196x512_S196x512_0_0 : ∀ a, (![0, 0] : Fin 2 → Nat) a + S196x512.size a ≤ S196x512.size a
  h_S196x512 : 0 < S196x512.numel
  shapeCasts_S196x512_S196x512 : S196x512.ShapeCasts S196x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S8x64x196_S1x64x196_0_0_0 : ∀ a, (![0, 0, 0] : Fin 3 → Nat) a + S1x64x196.size a ≤ S8x64x196.size a
  h_S1x64x196 : 0 < S1x64x196.numel
  shapeCasts_S1x64x196_S64x196 : S1x64x196.ShapeCasts S64x196
  inb_S8x64x512_S1x64x512_0_0_0 : ∀ a, (![0, 0, 0] : Fin 3 → Nat) a + S1x64x512.size a ≤ S8x64x512.size a
  h_S1x64x512 : 0 < S1x64x512.numel
  shapeCasts_S1x64x512_S64x512 : S1x64x512.ShapeCasts S64x512
  shapeCasts_S64x512_S1x64x512 : S64x512.ShapeCasts S1x64x512
  inb_S8x64x196_S1x64x196_1_0_0 : ∀ a, (![1, 0, 0] : Fin 3 → Nat) a + S1x64x196.size a ≤ S8x64x196.size a
  inb_S8x64x512_S1x64x512_1_0_0 : ∀ a, (![1, 0, 0] : Fin 3 → Nat) a + S1x64x512.size a ≤ S8x64x512.size a
  inb_S8x64x196_S1x64x196_2_0_0 : ∀ a, (![2, 0, 0] : Fin 3 → Nat) a + S1x64x196.size a ≤ S8x64x196.size a
  inb_S8x64x512_S1x64x512_2_0_0 : ∀ a, (![2, 0, 0] : Fin 3 → Nat) a + S1x64x512.size a ≤ S8x64x512.size a
  inb_S8x64x196_S1x64x196_3_0_0 : ∀ a, (![3, 0, 0] : Fin 3 → Nat) a + S1x64x196.size a ≤ S8x64x196.size a
  inb_S8x64x512_S1x64x512_3_0_0 : ∀ a, (![3, 0, 0] : Fin 3 → Nat) a + S1x64x512.size a ≤ S8x64x512.size a
  inb_S8x64x196_S1x64x196_4_0_0 : ∀ a, (![4, 0, 0] : Fin 3 → Nat) a + S1x64x196.size a ≤ S8x64x196.size a
  inb_S8x64x512_S1x64x512_4_0_0 : ∀ a, (![4, 0, 0] : Fin 3 → Nat) a + S1x64x512.size a ≤ S8x64x512.size a
  inb_S8x64x196_S1x64x196_5_0_0 : ∀ a, (![5, 0, 0] : Fin 3 → Nat) a + S1x64x196.size a ≤ S8x64x196.size a
  inb_S8x64x512_S1x64x512_5_0_0 : ∀ a, (![5, 0, 0] : Fin 3 → Nat) a + S1x64x512.size a ≤ S8x64x512.size a
  inb_S8x64x196_S1x64x196_6_0_0 : ∀ a, (![6, 0, 0] : Fin 3 → Nat) a + S1x64x196.size a ≤ S8x64x196.size a
  inb_S8x64x512_S1x64x512_6_0_0 : ∀ a, (![6, 0, 0] : Fin 3 → Nat) a + S1x64x512.size a ≤ S8x64x512.size a
  inb_S8x64x196_S1x64x196_7_0_0 : ∀ a, (![7, 0, 0] : Fin 3 → Nat) a + S1x64x196.size a ≤ S8x64x196.size a
  inb_S8x64x512_S1x64x512_7_0_0 : ∀ a, (![7, 0, 0] : Fin 3 → Nat) a + S1x64x512.size a ≤ S8x64x512.size a
  bcast_S8000_S7x7x8000_2 : S8000.BroadcastsInDim S7x7x8000 (![2] : Fin 1 → Fin S7x7x8000.rank)
  bcast_S_S7x7x8000 : S_.BroadcastsInDim S7x7x8000 (![] : Fin 0 → Fin S7x7x8000.rank)
  shapeCasts_S7x7x8000_S49x8000 : S7x7x8000.ShapeCasts S49x8000
  bcast_S_S49x8000 : S_.BroadcastsInDim S49x8000 (![] : Fin 0 → Fin S49x8000.rank)
  bcast_S8000_S512x8000_1 : S8000.BroadcastsInDim S512x8000 (![1] : Fin 1 → Fin S512x8000.rank)
  bcast_S_S512x8000 : S_.BroadcastsInDim S512x8000 (![] : Fin 0 → Fin S512x8000.rank)
  shapeCasts_S8x512x7x7_S8x512x49 : S8x512x7x7.ShapeCasts S8x512x49
  inb_S49x512_S49x512_0_0 : ∀ a, (![0, 0] : Fin 2 → Nat) a + S49x512.size a ≤ S49x512.size a
  h_S49x512 : 0 < S49x512.numel
  shapeCasts_S49x512_S49x512 : S49x512.ShapeCasts S49x512
  inb_S8x64x49_S1x64x49_0_0_0 : ∀ a, (![0, 0, 0] : Fin 3 → Nat) a + S1x64x49.size a ≤ S8x64x49.size a
  h_S1x64x49 : 0 < S1x64x49.numel
  shapeCasts_S1x64x49_S64x49 : S1x64x49.ShapeCasts S64x49
  inb_S8x64x49_S1x64x49_1_0_0 : ∀ a, (![1, 0, 0] : Fin 3 → Nat) a + S1x64x49.size a ≤ S8x64x49.size a
  inb_S8x64x49_S1x64x49_2_0_0 : ∀ a, (![2, 0, 0] : Fin 3 → Nat) a + S1x64x49.size a ≤ S8x64x49.size a
  inb_S8x64x49_S1x64x49_3_0_0 : ∀ a, (![3, 0, 0] : Fin 3 → Nat) a + S1x64x49.size a ≤ S8x64x49.size a
  inb_S8x64x49_S1x64x49_4_0_0 : ∀ a, (![4, 0, 0] : Fin 3 → Nat) a + S1x64x49.size a ≤ S8x64x49.size a
  inb_S8x64x49_S1x64x49_5_0_0 : ∀ a, (![5, 0, 0] : Fin 3 → Nat) a + S1x64x49.size a ≤ S8x64x49.size a
  inb_S8x64x49_S1x64x49_6_0_0 : ∀ a, (![6, 0, 0] : Fin 3 → Nat) a + S1x64x49.size a ≤ S8x64x49.size a
  inb_S8x64x49_S1x64x49_7_0_0 : ∀ a, (![7, 0, 0] : Fin 3 → Nat) a + S1x64x49.size a ≤ S8x64x49.size a
  gather_S56x56x20000_S8000x1_S56x56x8000_01_2_n_n_2_1_56561_wf : GatherDims.WF S56x56x20000 S8000x1 S56x56x8000 [0, 1] [2] [] [2] [] 1 ![56, 56, 1]
  gather_S64x20000_S8000x1_S64x8000_0_1_n_n_1_1_641_wf : GatherDims.WF S64x20000 S8000x1 S64x8000 [0] [1] [] [1] [] 1 ![64, 1]
  dot_S64x3136_S3136x1024_S64x1024_1_0_0_1_n_n_wf : DotDims.WF S64x3136 S3136x1024 S64x1024 [1] [0] [0] [1] [] []
  gather_S28x28x20000_S8000x1_S28x28x8000_01_2_n_n_2_1_28281_wf : GatherDims.WF S28x28x20000 S8000x1 S28x28x8000 [0, 1] [2] [] [2] [] 1 ![28, 28, 1]
  gather_S128x20000_S8000x1_S128x8000_0_1_n_n_1_1_1281_wf : GatherDims.WF S128x20000 S8000x1 S128x8000 [0] [1] [] [1] [] 1 ![128, 1]
  dot_S64x784_S784x1024_S64x1024_1_0_0_1_n_n_wf : DotDims.WF S64x784 S784x1024 S64x1024 [1] [0] [0] [1] [] []
  gather_S14x14x20000_S8000x1_S14x14x8000_01_2_n_n_2_1_14141_wf : GatherDims.WF S14x14x20000 S8000x1 S14x14x8000 [0, 1] [2] [] [2] [] 1 ![14, 14, 1]
  gather_S256x20000_S8000x1_S256x8000_0_1_n_n_1_1_2561_wf : GatherDims.WF S256x20000 S8000x1 S256x8000 [0] [1] [] [1] [] 1 ![256, 1]
  dot_S64x196_S196x512_S64x512_1_0_0_1_n_n_wf : DotDims.WF S64x196 S196x512 S64x512 [1] [0] [0] [1] [] []
  gather_S7x7x20000_S8000x1_S7x7x8000_01_2_n_n_2_1_771_wf : GatherDims.WF S7x7x20000 S8000x1 S7x7x8000 [0, 1] [2] [] [2] [] 1 ![7, 7, 1]
  gather_S512x20000_S8000x1_S512x8000_0_1_n_n_1_1_5121_wf : GatherDims.WF S512x20000 S8000x1 S512x8000 [0] [1] [] [1] [] 1 ![512, 1]
  dot_S64x49_S49x512_S64x512_1_0_0_1_n_n_wf : DotDims.WF S64x49 S49x512 S64x512 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S8x64x3136.size a ≤ S8x64x3136.size a
  hwx0_0 : ∀ i : grid0.Coords, EltTy.bits .bf16 = 32 ∨ (Rect.block (s := S8x64x3136) S8x64x3136.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3136x1024.size a < S3136x8000.size a
  hwx0_1 : ∀ i : grid0.Coords, EltTy.bits .bf16 = 32 ∨ (Rect.unit (s := S3136x8000) (fun a => cc0_transform_1 i a * S3136x1024.size a) (fun a => (Pipeline.Clip.of (cc0_transform_1 i a) (S3136x1024.size a) (S3136x8000.size a)).extent (S3136x1024.size a)) fun a => Pipeline.Clip.inb (Pipeline.Clip.ok_of (hstart0_1 i a))).WholeWords (EltTy.packing .bf16)
  hwxs0_1 : ∀ i : grid0.Coords, EltTy.bits .bf16 = 32 ∨ (Rect.unit (s := S3136x1024) (fun _ => 0) (fun a => (Pipeline.Clip.of (cc0_transform_1 i a) (S3136x1024.size a) (S3136x8000.size a)).extent (S3136x1024.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x1024.size a < S64x8000.size a
  hwx0_2 : ∀ i : grid0.Coords, EltTy.bits .f32 = 32 ∨ (Rect.unit (s := S64x8000) (fun a => cc0_transform_2 i a * S64x1024.size a) (fun a => (Pipeline.Clip.of (cc0_transform_2 i a) (S64x1024.size a) (S64x8000.size a)).extent (S64x1024.size a)) fun a => Pipeline.Clip.inb (Pipeline.Clip.ok_of (hstart0_2 i a))).WholeWords (EltTy.packing .f32)
  hwxs0_2 : ∀ i : grid0.Coords, EltTy.bits .f32 = 32 ∨ (Rect.unit (s := S64x1024) (fun _ => 0) (fun a => (Pipeline.Clip.of (cc0_transform_2 i a) (S64x1024.size a) (S64x8000.size a)).extent (S64x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hstart0_3 : ∀ (i : grid0.Coords) a, cc0_transform_4 i a * S8x64x1024.size a < S8x960x8000.size a
  hwx0_3 : ∀ i : grid0.Coords, EltTy.bits .f32 = 32 ∨ (Rect.unit (s := S8x960x8000) (fun a => cc0_transform_4 i a * S8x64x1024.size a) (fun a => (Pipeline.Clip.of (cc0_transform_4 i a) (S8x64x1024.size a) (S8x960x8000.size a)).extent (S8x64x1024.size a)) fun a => Pipeline.Clip.inb (Pipeline.Clip.ok_of (hstart0_3 i a))).WholeWords (EltTy.packing .f32)
  hwxs0_3 : ∀ i : grid0.Coords, EltTy.bits .f32 = 32 ∨ (Rect.unit (s := S8x64x1024) (fun _ => 0) (fun a => (Pipeline.Clip.of (cc0_transform_4 i a) (S8x64x1024.size a) (S8x960x8000.size a)).extent (S8x64x1024.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x64x784.size a ≤ S8x128x784.size a
  hwx1_0 : ∀ i : grid1.Coords, EltTy.bits .bf16 = 32 ∨ (Rect.block (s := S8x128x784) S8x64x784.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S784x1024.size a < S784x8000.size a
  hwx1_1 : ∀ i : grid1.Coords, EltTy.bits .bf16 = 32 ∨ (Rect.unit (s := S784x8000) (fun a => cc1_transform_1 i a * S784x1024.size a) (fun a => (Pipeline.Clip.of (cc1_transform_1 i a) (S784x1024.size a) (S784x8000.size a)).extent (S784x1024.size a)) fun a => Pipeline.Clip.inb (Pipeline.Clip.ok_of (hstart1_1 i a))).WholeWords (EltTy.packing .bf16)
  hwxs1_1 : ∀ i : grid1.Coords, EltTy.bits .bf16 = 32 ∨ (Rect.unit (s := S784x1024) (fun _ => 0) (fun a => (Pipeline.Clip.of (cc1_transform_1 i a) (S784x1024.size a) (S784x8000.size a)).extent (S784x1024.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S64x1024.size a < S128x8000.size a
  hwx1_2 : ∀ i : grid1.Coords, EltTy.bits .f32 = 32 ∨ (Rect.unit (s := S128x8000) (fun a => cc1_transform_2 i a * S64x1024.size a) (fun a => (Pipeline.Clip.of (cc1_transform_2 i a) (S64x1024.size a) (S128x8000.size a)).extent (S64x1024.size a)) fun a => Pipeline.Clip.inb (Pipeline.Clip.ok_of (hstart1_2 i a))).WholeWords (EltTy.packing .f32)
  hwxs1_2 : ∀ i : grid1.Coords, EltTy.bits .f32 = 32 ∨ (Rect.unit (s := S64x1024) (fun _ => 0) (fun a => (Pipeline.Clip.of (cc1_transform_2 i a) (S64x1024.size a) (S128x8000.size a)).extent (S64x1024.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_4 i = cc1_transform_4 i'
  hstart1_3 : ∀ (i : grid1.Coords) a, cc1_transform_4 i a * S8x64x1024.size a < S8x960x8000.size a
  hwx1_3 : ∀ i : grid1.Coords, EltTy.bits .f32 = 32 ∨ (Rect.unit (s := S8x960x8000) (fun a => cc1_transform_4 i a * S8x64x1024.size a) (fun a => (Pipeline.Clip.of (cc1_transform_4 i a) (S8x64x1024.size a) (S8x960x8000.size a)).extent (S8x64x1024.size a)) fun a => Pipeline.Clip.inb (Pipeline.Clip.ok_of (hstart1_3 i a))).WholeWords (EltTy.packing .f32)
  hwxs1_3 : ∀ i : grid1.Coords, EltTy.bits .f32 = 32 ∨ (Rect.unit (s := S8x64x1024) (fun _ => 0) (fun a => (Pipeline.Clip.of (cc1_transform_4 i a) (S8x64x1024.size a) (S8x960x8000.size a)).extent (S8x64x1024.size a)) fun a => (Nat.zero_add _).trans_le (Pipeline.Clip.extent_le (Pipeline.Clip.ok_of (hstart1_3 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x64x196.size a ≤ S8x256x196.size a
  hwx2_0 : ∀ i : grid2.Coords, EltTy.bits .bf16 = 32 ∨ (Rect.block (s := S8x256x196) S8x64x196.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S196x512.size a < S196x8000.size a
  hwx2_1 : ∀ i : grid2.Coords, EltTy.bits .bf16 = 32 ∨ (Rect.unit (s := S196x8000) (fun a => cc2_transform_1 i a * S196x512.size a) (fun a => (Pipeline.Clip.of (cc2_transform_1 i a) (S196x512.size a) (S196x8000.size a)).extent (S196x512.size a)) fun a => Pipeline.Clip.inb (Pipeline.Clip.ok_of (hstart2_1 i a))).WholeWords (EltTy.packing .bf16)
  hwxs2_1 : ∀ i : grid2.Coords, EltTy.bits .bf16 = 32 ∨ (Rect.unit (s := S196x512) (fun _ => 0) (fun a => (Pipeline.Clip.of (cc2_transform_1 i a) (S196x512.size a) (S196x8000.size a)).extent (S196x512.size a)) fun a => (Nat.zero_add _).trans_le (Pipeline.Clip.extent_le (Pipeline.Clip.ok_of (hstart2_1 i a)))).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S64x512.size a < S256x8000.size a
  hwx2_2 : ∀ i : grid2.Coords, EltTy.bits .f32 = 32 ∨ (Rect.unit (s := S256x8000) (fun a => cc2_transform_2 i a * S64x512.size a) (fun a => (Pipeline.Clip.of (cc2_transform_2 i a) (S64x512.size a) (S256x8000.size a)).extent (S64x512.size a)) fun a => Pipeline.Clip.inb (Pipeline.Clip.ok_of (hstart2_2 i a))).WholeWords (EltTy.packing .f32)
  hwxs2_2 : ∀ i : grid2.Coords, EltTy.bits .f32 = 32 ∨ (Rect.unit (s := S64x512) (fun _ => 0) (fun a => (Pipeline.Clip.of (cc2_transform_2 i a) (S64x512.size a) (S256x8000.size a)).extent (S64x512.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_4 i = cc2_transform_4 i'
  hstart2_3 : ∀ (i : grid2.Coords) a, cc2_transform_4 i a * S8x64x512.size a < S8x960x8000.size a
  hwx2_3 : ∀ i : grid2.Coords, EltTy.bits .f32 = 32 ∨ (Rect.unit (s := S8x960x8000) (fun a => cc2_transform_4 i a * S8x64x512.size a) (fun a => (Pipeline.Clip.of (cc2_transform_4 i a) (S8x64x512.size a) (S8x960x8000.size a)).extent (S8x64x512.size a)) fun a => Pipeline.Clip.inb (Pipeline.Clip.ok_of (hstart2_3 i a))).WholeWords (EltTy.packing .f32)
  hwxs2_3 : ∀ i : grid2.Coords, EltTy.bits .f32 = 32 ∨ (Rect.unit (s := S8x64x512) (fun _ => 0) (fun a => (Pipeline.Clip.of (cc2_transform_4 i a) (S8x64x512.size a) (S8x960x8000.size a)).extent (S8x64x512.size a)) fun a => (Nat.zero_add _).trans_le (Pipeline.Clip.extent_le (Pipeline.Clip.ok_of (hstart2_3 i a)))).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x64x49.size a ≤ S8x512x49.size a
  hwx3_0 : ∀ i : grid3.Coords, EltTy.bits .bf16 = 32 ∨ (Rect.block (s := S8x512x49) S8x64x49.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S49x512.size a < S49x8000.size a
  hwx3_1 : ∀ i : grid3.Coords, EltTy.bits .bf16 = 32 ∨ (Rect.unit (s := S49x8000) (fun a => cc3_transform_1 i a * S49x512.size a) (fun a => (Pipeline.Clip.of (cc3_transform_1 i a) (S49x512.size a) (S49x8000.size a)).extent (S49x512.size a)) fun a => Pipeline.Clip.inb (Pipeline.Clip.ok_of (hstart3_1 i a))).WholeWords (EltTy.packing .bf16)
  hwxs3_1 : ∀ i : grid3.Coords, EltTy.bits .bf16 = 32 ∨ (Rect.unit (s := S49x512) (fun _ => 0) (fun a => (Pipeline.Clip.of (cc3_transform_1 i a) (S49x512.size a) (S49x8000.size a)).extent (S49x512.size a)) fun a => (Nat.zero_add _).trans_le (Pipeline.Clip.extent_le (Pipeline.Clip.ok_of (hstart3_1 i a)))).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S64x512.size a < S512x8000.size a
  hwx3_2 : ∀ i : grid3.Coords, EltTy.bits .f32 = 32 ∨ (Rect.unit (s := S512x8000) (fun a => cc3_transform_2 i a * S64x512.size a) (fun a => (Pipeline.Clip.of (cc3_transform_2 i a) (S64x512.size a) (S512x8000.size a)).extent (S64x512.size a)) fun a => Pipeline.Clip.inb (Pipeline.Clip.ok_of (hstart3_2 i a))).WholeWords (EltTy.packing .f32)
  hwxs3_2 : ∀ i : grid3.Coords, EltTy.bits .f32 = 32 ∨ (Rect.unit (s := S64x512) (fun _ => 0) (fun a => (Pipeline.Clip.of (cc3_transform_2 i a) (S64x512.size a) (S512x8000.size a)).extent (S64x512.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_4 i = cc3_transform_4 i'
  hstart3_3 : ∀ (i : grid3.Coords) a, cc3_transform_4 i a * S8x64x512.size a < S8x960x8000.size a
  hwx3_3 : ∀ i : grid3.Coords, EltTy.bits .f32 = 32 ∨ (Rect.unit (s := S8x960x8000) (fun a => cc3_transform_4 i a * S8x64x512.size a) (fun a => (Pipeline.Clip.of (cc3_transform_4 i a) (S8x64x512.size a) (S8x960x8000.size a)).extent (S8x64x512.size a)) fun a => Pipeline.Clip.inb (Pipeline.Clip.ok_of (hstart3_3 i a))).WholeWords (EltTy.packing .f32)
  hwxs3_3 : ∀ i : grid3.Coords, EltTy.bits .f32 = 32 ∨ (Rect.unit (s := S8x64x512) (fun _ => 0) (fun a => (Pipeline.Clip.of (cc3_transform_4 i a) (S8x64x512.size a) (S8x960x8000.size a)).extent (S8x64x512.size a)) fun a => (Nat.zero_add _).trans_le (Pipeline.Clip.extent_le (Pipeline.Clip.ok_of (hstart3_3 i a)))).WholeWords (EltTy.packing .f32)

variable [Facts₀]

def gather_S56x56x20000_S8000x1_S56x56x8000_01_2_n_n_2_1_56561 : GatherDims S56x56x20000 S8000x1 S56x56x8000 where
  offsetDims := [0, 1]
  collapsedSliceDims := [2]
  operandBatchingDims := []
  startIndicesBatchingDims := []
  startIndexMap := [2]
  indexVectorDim := 1
  sliceSizes := ![56, 56, 1]
  wf := gather_S56x56x20000_S8000x1_S56x56x8000_01_2_n_n_2_1_56561_wf
def gather_S64x20000_S8000x1_S64x8000_0_1_n_n_1_1_641 : GatherDims S64x20000 S8000x1 S64x8000 where
  offsetDims := [0]
  collapsedSliceDims := [1]
  operandBatchingDims := []
  startIndicesBatchingDims := []
  startIndexMap := [1]
  indexVectorDim := 1
  sliceSizes := ![64, 1]
  wf := gather_S64x20000_S8000x1_S64x8000_0_1_n_n_1_1_641_wf
def dot_S64x3136_S3136x1024_S64x1024_1_0_0_1_n_n : DotDims S64x3136 S3136x1024 S64x1024 where
  lhsContracting := [1]
  rhsContracting := [0]
  lhsNonContracting := [0]
  rhsNonContracting := [1]
  lhsBatch := []
  rhsBatch := []
  wf := dot_S64x3136_S3136x1024_S64x1024_1_0_0_1_n_n_wf
def gather_S28x28x20000_S8000x1_S28x28x8000_01_2_n_n_2_1_28281 : GatherDims S28x28x20000 S8000x1 S28x28x8000 where
  offsetDims := [0, 1]
  collapsedSliceDims := [2]
  operandBatchingDims := []
  startIndicesBatchingDims := []
  startIndexMap := [2]
  indexVectorDim := 1
  sliceSizes := ![28, 28, 1]
  wf := gather_S28x28x20000_S8000x1_S28x28x8000_01_2_n_n_2_1_28281_wf
def gather_S128x20000_S8000x1_S128x8000_0_1_n_n_1_1_1281 : GatherDims S128x20000 S8000x1 S128x8000 where
  offsetDims := [0]
  collapsedSliceDims := [1]
  operandBatchingDims := []
  startIndicesBatchingDims := []
  startIndexMap := [1]
  indexVectorDim := 1
  sliceSizes := ![128, 1]
  wf := gather_S128x20000_S8000x1_S128x8000_0_1_n_n_1_1_1281_wf
def dot_S64x784_S784x1024_S64x1024_1_0_0_1_n_n : DotDims S64x784 S784x1024 S64x1024 where
  lhsContracting := [1]
  rhsContracting := [0]
  lhsNonContracting := [0]
  rhsNonContracting := [1]
  lhsBatch := []
  rhsBatch := []
  wf := dot_S64x784_S784x1024_S64x1024_1_0_0_1_n_n_wf
def gather_S14x14x20000_S8000x1_S14x14x8000_01_2_n_n_2_1_14141 : GatherDims S14x14x20000 S8000x1 S14x14x8000 where
  offsetDims := [0, 1]
  collapsedSliceDims := [2]
  operandBatchingDims := []
  startIndicesBatchingDims := []
  startIndexMap := [2]
  indexVectorDim := 1
  sliceSizes := ![14, 14, 1]
  wf := gather_S14x14x20000_S8000x1_S14x14x8000_01_2_n_n_2_1_14141_wf
def gather_S256x20000_S8000x1_S256x8000_0_1_n_n_1_1_2561 : GatherDims S256x20000 S8000x1 S256x8000 where
  offsetDims := [0]
  collapsedSliceDims := [1]
  operandBatchingDims := []
  startIndicesBatchingDims := []
  startIndexMap := [1]
  indexVectorDim := 1
  sliceSizes := ![256, 1]
  wf := gather_S256x20000_S8000x1_S256x8000_0_1_n_n_1_1_2561_wf
def dot_S64x196_S196x512_S64x512_1_0_0_1_n_n : DotDims S64x196 S196x512 S64x512 where
  lhsContracting := [1]
  rhsContracting := [0]
  lhsNonContracting := [0]
  rhsNonContracting := [1]
  lhsBatch := []
  rhsBatch := []
  wf := dot_S64x196_S196x512_S64x512_1_0_0_1_n_n_wf
def gather_S7x7x20000_S8000x1_S7x7x8000_01_2_n_n_2_1_771 : GatherDims S7x7x20000 S8000x1 S7x7x8000 where
  offsetDims := [0, 1]
  collapsedSliceDims := [2]
  operandBatchingDims := []
  startIndicesBatchingDims := []
  startIndexMap := [2]
  indexVectorDim := 1
  sliceSizes := ![7, 7, 1]
  wf := gather_S7x7x20000_S8000x1_S7x7x8000_01_2_n_n_2_1_771_wf
def gather_S512x20000_S8000x1_S512x8000_0_1_n_n_1_1_5121 : GatherDims S512x20000 S8000x1 S512x8000 where
  offsetDims := [0]
  collapsedSliceDims := [1]
  operandBatchingDims := []
  startIndicesBatchingDims := []
  startIndexMap := [1]
  indexVectorDim := 1
  sliceSizes := ![512, 1]
  wf := gather_S512x20000_S8000x1_S512x8000_0_1_n_n_1_1_5121_wf
def dot_S64x49_S49x512_S64x512_1_0_0_1_n_n : DotDims S64x49 S49x512 S64x512 where
  lhsContracting := [1]
  rhsContracting := [0]
  lhsNonContracting := [0]
  rhsNonContracting := [1]
  lhsBatch := []
  rhsBatch := []
  wf := dot_S64x49_S49x512_S64x512_1_0_0_1_n_n_wf

abbrev win0_0 : Pipeline.Window sig grid0 :=
  Pipeline.Window.ofSpec (Memref.whole main_v7) S8x64x3136.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v4) S3136x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v5) S64x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v8) S8x64x1024.size cc0_transform_4 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S8x64x784.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_v12) S784x1024.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v13) S64x1024.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v16) S8x64x1024.size cc1_transform_4 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S8x64x196.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpecClip (Memref.whole main_v20) S196x512.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v21) S64x512.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v24) S8x64x512.size cc2_transform_4 reads2_3 true false 2 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v31) S8x64x49.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpecClip (Memref.whole main_v28) S49x512.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v29) S64x512.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpecClip (Memref.whole main_v32) S8x64x512.size cc3_transform_4 reads3_3 true false 2 stage3_3 sem3_3
    hrank3 hreads3_3 hstart3_3 nbuf3_3 (Memref.isWhole_whole _) hwx3_3 hwxs3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8x64x56x56 : Shape := ⟨4, ![8, 64, 56, 56]⟩
abbrev S8x128x28x28 : Shape := ⟨4, ![8, 128, 28, 28]⟩
abbrev S8x256x14x14 : Shape := ⟨4, ![8, 256, 14, 14]⟩
abbrev S8x512x7x7 : Shape := ⟨4, ![8, 512, 7, 7]⟩
abbrev S56x56x20000 : Shape := ⟨3, ![56, 56, 20000]⟩
abbrev S28x28x20000 : Shape := ⟨3, ![28, 28, 20000]⟩
abbrev S14x14x20000 : Shape := ⟨3, ![14, 14, 20000]⟩
abbrev S7x7x20000 : Shape := ⟨3, ![7, 7, 20000]⟩
abbrev S64x20000 : Shape := ⟨2, ![64, 20000]⟩
abbrev S128x20000 : Shape := ⟨2, ![128, 20000]⟩
abbrev S256x20000 : Shape := ⟨2, ![256, 20000]⟩
abbrev S512x20000 : Shape := ⟨2, ![512, 20000]⟩
abbrev S8000 : Shape := ⟨1, ![8000]⟩
abbrev S_ : Shape := ⟨0, ![]⟩
abbrev S8000x1 : Shape := ⟨2, ![8000, 1]⟩
abbrev S56x56x8000 : Shape := ⟨3, ![56, 56, 8000]⟩
abbrev S3136x8000 : Shape := ⟨2, ![3136, 8000]⟩
abbrev S8x64x3136 : Shape := ⟨3, ![8, 64, 3136]⟩
abbrev S8x64x8000 : Shape := ⟨3, ![8, 64, 8000]⟩
abbrev S64x8000 : Shape := ⟨2, ![64, 8000]⟩
abbrev S1x64x8000 : Shape := ⟨3, ![1, 64, 8000]⟩
abbrev S28x28x8000 : Shape := ⟨3, ![28, 28, 8000]⟩
abbrev S784x8000 : Shape := ⟨2, ![784, 8000]⟩
abbrev S8x128x784 : Shape := ⟨3, ![8, 128, 784]⟩
abbrev S8x128x8000 : Shape := ⟨3, ![8, 128, 8000]⟩
abbrev S128x8000 : Shape := ⟨2, ![128, 8000]⟩
abbrev S1x128x8000 : Shape := ⟨3, ![1, 128, 8000]⟩
abbrev S14x14x8000 : Shape := ⟨3, ![14, 14, 8000]⟩
abbrev S196x8000 : Shape := ⟨2, ![196, 8000]⟩
abbrev S8x256x196 : Shape := ⟨3, ![8, 256, 196]⟩
abbrev S8x256x8000 : Shape := ⟨3, ![8, 256, 8000]⟩
abbrev S256x8000 : Shape := ⟨2, ![256, 8000]⟩
abbrev S1x256x8000 : Shape := ⟨3, ![1, 256, 8000]⟩
abbrev S7x7x8000 : Shape := ⟨3, ![7, 7, 8000]⟩
abbrev S49x8000 : Shape := ⟨2, ![49, 8000]⟩
abbrev S8x512x49 : Shape := ⟨3, ![8, 512, 49]⟩
abbrev S8x512x8000 : Shape := ⟨3, ![8, 512, 8000]⟩
abbrev S512x8000 : Shape := ⟨2, ![512, 8000]⟩
abbrev S1x512x8000 : Shape := ⟨3, ![1, 512, 8000]⟩
abbrev S8x960x8000 : Shape := ⟨3, ![8, 960, 8000]⟩

abbrev nBuf : Space → Nat
  | .hbm => 142
  | .vmem => 0
  | .smem => 0
  | _ => 0

abbrev hbmTy0_0 (i : Nat) : BufTy := match i % 128 with
  | 0 => ⟨S8x64x56x56, .f32⟩
  | 1 => ⟨S8x128x28x28, .f32⟩
  | 2 => ⟨S8x256x14x14, .f32⟩
  | 3 => ⟨S8x512x7x7, .f32⟩
  | 4 => ⟨S56x56x20000, .f32⟩
  | 5 => ⟨S28x28x20000, .f32⟩
  | 6 => ⟨S14x14x20000, .f32⟩
  | 7 => ⟨S7x7x20000, .f32⟩
  | 8 => ⟨S64x20000, .f32⟩
  | 9 => ⟨S128x20000, .f32⟩
  | 10 => ⟨S256x20000, .f32⟩
  | 11 => ⟨S512x20000, .f32⟩
  | 12 => ⟨S8000, .i32⟩
  | 13 => ⟨S_, .i32⟩
  | 14 => ⟨S8000, .i32⟩
  | 15 => ⟨S8000, .i1⟩
  | 16 => ⟨S_, .i32⟩
  | 17 => ⟨S8000, .i32⟩
  | 18 => ⟨S8000, .i32⟩
  | 19 => ⟨S8000, .i32⟩
  | 20 => ⟨S8000x1, .i32⟩
  | 21 => ⟨S56x56x8000, .f32⟩
  | 22 => ⟨S3136x8000, .f32⟩
  | 23 => ⟨S_, .f32⟩
  | 24 => ⟨S_, .f32⟩
  | 25 => ⟨S3136x8000, .f32⟩
  | 26 => ⟨S3136x8000, .i1⟩
  | 27 => ⟨S_, .f32⟩
  | 28 => ⟨S3136x8000, .f32⟩
  | 29 => ⟨S3136x8000, .f32⟩
  | 30 => ⟨S3136x8000, .f32⟩
  | 31 => ⟨S8x64x3136, .f32⟩
  | 32 => ⟨S8x64x8000, .f32⟩
  | 33 => ⟨S_, .i32⟩
  | 34 => ⟨S8000, .i32⟩
  | 35 => ⟨S8000, .i1⟩
  | 36 => ⟨S_, .i32⟩
  | 37 => ⟨S8000, .i32⟩
  | 38 => ⟨S8000, .i32⟩
  | 39 => ⟨S8000, .i32⟩
  | 40 => ⟨S8000x1, .i32⟩
  | 41 => ⟨S64x8000, .f32⟩
  | 42 => ⟨S1x64x8000, .f32⟩
  | 43 => ⟨S8x64x8000, .f32⟩
  | 44 => ⟨S8x64x8000, .f32⟩
  | 45 => ⟨S_, .i32⟩
  | 46 => ⟨S8000, .i32⟩
  | 47 => ⟨S8000, .i1⟩
  | 48 => ⟨S_, .i32⟩
  | 49 => ⟨S8000, .i32⟩
  | 50 => ⟨S8000, .i32⟩
  | 51 => ⟨S8000, .i32⟩
  | 52 => ⟨S8000x1, .i32⟩
  | 53 => ⟨S28x28x8000, .f32⟩
  | 54 => ⟨S784x8000, .f32⟩
  | 55 => ⟨S_, .f32⟩
  | 56 => ⟨S_, .f32⟩
  | 57 => ⟨S784x8000, .f32⟩
  | 58 => ⟨S784x8000, .i1⟩
  | 59 => ⟨S_, .f32⟩
  | 60 => ⟨S784x8000, .f32⟩
  | 61 => ⟨S784x8000, .f32⟩
  | 62 => ⟨S784x8000, .f32⟩
  | 63 => ⟨S8x128x784, .f32⟩
  | 64 => ⟨S8x128x8000, .f32⟩
  | 65 => ⟨S_, .i32⟩
  | 66 => ⟨S8000, .i32⟩
  | 67 => ⟨S8000, .i1⟩
  | 68 => ⟨S_, .i32⟩
  | 69 => ⟨S8000, .i32⟩
  | 70 => ⟨S8000, .i32⟩
  | 71 => ⟨S8000, .i32⟩
  | 72 => ⟨S8000x1, .i32⟩
  | 73 => ⟨S128x8000, .f32⟩
  | 74 => ⟨S1x128x8000, .f32⟩
  | 75 => ⟨S8x128x8000, .f32⟩
  | 76 => ⟨S8x128x8000, .f32⟩
  | 77 => ⟨S_, .i32⟩
  | 78 => ⟨S8000, .i32⟩
  | 79 => ⟨S8000, .i1⟩
  | 80 => ⟨S_, .i32⟩
  | 81 => ⟨S8000, .i32⟩
  | 82 => ⟨S8000, .i32⟩
  | 83 => ⟨S8000, .i32⟩
  | 84 => ⟨S8000x1, .i32⟩
  | 85 => ⟨S14x14x8000, .f32⟩
  | 86 => ⟨S196x8000, .f32⟩
  | 87 => ⟨S_, .f32⟩
  | 88 => ⟨S_, .f32⟩
  | 89 => ⟨S196x8000, .f32⟩
  | 90 => ⟨S196x8000, .i1⟩
  | 91 => ⟨S_, .f32⟩
  | 92 => ⟨S196x8000, .f32⟩
  | 93 => ⟨S196x8000, .f32⟩
  | 94 => ⟨S196x8000, .f32⟩
  | 95 => ⟨S8x256x196, .f32⟩
  | 96 => ⟨S8x256x8000, .f32⟩
  | 97 => ⟨S_, .i32⟩
  | 98 => ⟨S8000, .i32⟩
  | 99 => ⟨S8000, .i1⟩
  | 100 => ⟨S_, .i32⟩
  | 101 => ⟨S8000, .i32⟩
  | 102 => ⟨S8000, .i32⟩
  | 103 => ⟨S8000, .i32⟩
  | 104 => ⟨S8000x1, .i32⟩
  | 105 => ⟨S256x8000, .f32⟩
  | 106 => ⟨S1x256x8000, .f32⟩
  | 107 => ⟨S8x256x8000, .f32⟩
  | 108 => ⟨S8x256x8000, .f32⟩
  | 109 => ⟨S_, .i32⟩
  | 110 => ⟨S8000, .i32⟩
  | 111 => ⟨S8000, .i1⟩
  | 112 => ⟨S_, .i32⟩
  | 113 => ⟨S8000, .i32⟩
  | 114 => ⟨S8000, .i32⟩
  | 115 => ⟨S8000, .i32⟩
  | 116 => ⟨S8000x1, .i32⟩
  | 117 => ⟨S7x7x8000, .f32⟩
  | 118 => ⟨S49x8000, .f32⟩
  | 119 => ⟨S_, .f32⟩
  | 120 => ⟨S_, .f32⟩
  | 121 => ⟨S49x8000, .f32⟩
  | 122 => ⟨S49x8000, .i1⟩
  | 123 => ⟨S_, .f32⟩
  | 124 => ⟨S49x8000, .f32⟩
  | 125 => ⟨S49x8000, .f32⟩
  | 126 => ⟨S49x8000, .f32⟩
  | 127 => ⟨S8x512x49, .f32⟩
  | _ => ⟨S8x64x56x56, .f32⟩

abbrev hbmTy0_1 (i : Nat) : BufTy := match i % 128 with
  | 0 => ⟨S8x512x8000, .f32⟩
  | 1 => ⟨S_, .i32⟩
  | 2 => ⟨S8000, .i32⟩
  | 3 => ⟨S8000, .i1⟩
  | 4 => ⟨S_, .i32⟩
  | 5 => ⟨S8000, .i32⟩
  | 6 => ⟨S8000, .i32⟩
  | 7 => ⟨S8000, .i32⟩
  | 8 => ⟨S8000x1, .i32⟩
  | 9 => ⟨S512x8000, .f32⟩
  | 10 => ⟨S1x512x8000, .f32⟩
  | 11 => ⟨S8x512x8000, .f32⟩
  | 12 => ⟨S8x512x8000, .f32⟩
  | 13 => ⟨S8x960x8000, .f32⟩
  | _ => ⟨S8x64x56x56, .f32⟩

abbrev hbmTy (i : Nat) : BufTy := match i / 128 with
  | 0 => hbmTy0_0 i
  | 1 => hbmTy0_1 i
  | _ => ⟨S8x64x56x56, .f32⟩

abbrev bufTy : (tb : Table) → Fin (tcTables nBuf tb) → BufTy
  | .hbm, ⟨i, _⟩ => hbmTy i
  | _, _ => ⟨S8x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_5 : Ref sig .tc := ⟨.hbm, 55, rfl⟩
abbrev main_call1_cst : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_6 : Ref sig .tc := ⟨.hbm, 65, rfl⟩
abbrev main_v32 : Ref sig .tc := ⟨.hbm, 66, rfl⟩
abbrev main_v33 : Ref sig .tc := ⟨.hbm, 67, rfl⟩
abbrev main_c_7 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_8 : Ref sig .tc := ⟨.hbm, 77, rfl⟩
abbrev main_v42 : Ref sig .tc := ⟨.hbm, 78, rfl⟩
abbrev main_v43 : Ref sig .tc := ⟨.hbm, 79, rfl⟩
abbrev main_c_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_10 : Ref sig .tc := ⟨.hbm, 87, rfl⟩
abbrev main_call2_cst : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_11 : Ref sig .tc := ⟨.hbm, 97, rfl⟩
abbrev main_v53 : Ref sig .tc := ⟨.hbm, 98, rfl⟩
abbrev main_v54 : Ref sig .tc := ⟨.hbm, 99, rfl⟩
abbrev main_c_12 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_c_13 : Ref sig .tc := ⟨.hbm, 109, rfl⟩
abbrev main_v63 : Ref sig .tc := ⟨.hbm, 110, rfl⟩
abbrev main_v64 : Ref sig .tc := ⟨.hbm, 111, rfl⟩
abbrev main_c_14 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_15 : Ref sig .tc := ⟨.hbm, 119, rfl⟩
abbrev main_call3_cst : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_c_16 : Ref sig .tc := ⟨.hbm, 129, rfl⟩
abbrev main_v74 : Ref sig .tc := ⟨.hbm, 130, rfl⟩
abbrev main_v75 : Ref sig .tc := ⟨.hbm, 131, rfl⟩
abbrev main_c_17 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩

abbrev nD : Nat := 1
abbrev τ : Topo := Topo.v7x

variable {F : FTy → Type} [FloatOps F]

class Facts₀ : Prop where
  bcast_S_S8000 : S_.BroadcastsInDim S8000 (![] : Fin 0 → Fin S8000.rank)
  bcast_S8000_S8000x1_0 : S8000.BroadcastsInDim S8000x1 (![0] : Fin 1 → Fin S8000x1.rank)
  shapeCasts_S56x56x8000_S3136x8000 : S56x56x8000.ShapeCasts S3136x8000
  bcast_S_S3136x8000 : S_.BroadcastsInDim S3136x8000 (![] : Fin 0 → Fin S3136x8000.rank)
  shapeCasts_S8x64x56x56_S8x64x3136 : S8x64x56x56.ShapeCasts S8x64x3136
  bcast_S64x8000_S1x64x8000_1_2 : S64x8000.BroadcastsInDim S1x64x8000 (![1, 2] : Fin 2 → Fin S1x64x8000.rank)
  bcast_S1x64x8000_S8x64x8000_0_1_2 : S1x64x8000.BroadcastsInDim S8x64x8000 (![0, 1, 2] : Fin 3 → Fin S8x64x8000.rank)
  shapeCasts_S28x28x8000_S784x8000 : S28x28x8000.ShapeCasts S784x8000
  bcast_S_S784x8000 : S_.BroadcastsInDim S784x8000 (![] : Fin 0 → Fin S784x8000.rank)
  shapeCasts_S8x128x28x28_S8x128x784 : S8x128x28x28.ShapeCasts S8x128x784
  bcast_S128x8000_S1x128x8000_1_2 : S128x8000.BroadcastsInDim S1x128x8000 (![1, 2] : Fin 2 → Fin S1x128x8000.rank)
  bcast_S1x128x8000_S8x128x8000_0_1_2 : S1x128x8000.BroadcastsInDim S8x128x8000 (![0, 1, 2] : Fin 3 → Fin S8x128x8000.rank)
  shapeCasts_S14x14x8000_S196x8000 : S14x14x8000.ShapeCasts S196x8000
  bcast_S_S196x8000 : S_.BroadcastsInDim S196x8000 (![] : Fin 0 → Fin S196x8000.rank)
  shapeCasts_S8x256x14x14_S8x256x196 : S8x256x14x14.ShapeCasts S8x256x196
  bcast_S256x8000_S1x256x8000_1_2 : S256x8000.BroadcastsInDim S1x256x8000 (![1, 2] : Fin 2 → Fin S1x256x8000.rank)
  bcast_S1x256x8000_S8x256x8000_0_1_2 : S1x256x8000.BroadcastsInDim S8x256x8000 (![0, 1, 2] : Fin 3 → Fin S8x256x8000.rank)
  shapeCasts_S7x7x8000_S49x8000 : S7x7x8000.ShapeCasts S49x8000
  bcast_S_S49x8000 : S_.BroadcastsInDim S49x8000 (![] : Fin 0 → Fin S49x8000.rank)
  shapeCasts_S8x512x7x7_S8x512x49 : S8x512x7x7.ShapeCasts S8x512x49
  bcast_S512x8000_S1x512x8000_1_2 : S512x8000.BroadcastsInDim S1x512x8000 (![1, 2] : Fin 2 → Fin S1x512x8000.rank)
  bcast_S1x512x8000_S8x512x8000_0_1_2 : S1x512x8000.BroadcastsInDim S8x512x8000 (![0, 1, 2] : Fin 3 → Fin S8x512x8000.rank)
  concatenates_S8x64x8000_S8x128x8000_S8x256x8000_S8x512x8000_S8x960x8000_d1 : Shape.Concatenates [S8x64x8000, S8x128x8000, S8x256x8000, S8x512x8000] S8x960x8000 1
  gather_S56x56x20000_S8000x1_S56x56x8000_01_2_n_n_2_1_56561_wf : GatherDims.WF S56x56x20000 S8000x1 S56x56x8000 [0, 1] [2] [] [2] [] 1 ![56, 56, 1]
  dot_S8x64x3136_S3136x8000_S8x64x8000_2_0_01_1_n_n_wf : DotDims.WF S8x64x3136 S3136x8000 S8x64x8000 [2] [0] [0, 1] [1] [] []
  gather_S64x20000_S8000x1_S64x8000_0_1_n_n_1_1_641_wf : GatherDims.WF S64x20000 S8000x1 S64x8000 [0] [1] [] [1] [] 1 ![64, 1]
  gather_S28x28x20000_S8000x1_S28x28x8000_01_2_n_n_2_1_28281_wf : GatherDims.WF S28x28x20000 S8000x1 S28x28x8000 [0, 1] [2] [] [2] [] 1 ![28, 28, 1]
  dot_S8x128x784_S784x8000_S8x128x8000_2_0_01_1_n_n_wf : DotDims.WF S8x128x784 S784x8000 S8x128x8000 [2] [0] [0, 1] [1] [] []
  gather_S128x20000_S8000x1_S128x8000_0_1_n_n_1_1_1281_wf : GatherDims.WF S128x20000 S8000x1 S128x8000 [0] [1] [] [1] [] 1 ![128, 1]
  gather_S14x14x20000_S8000x1_S14x14x8000_01_2_n_n_2_1_14141_wf : GatherDims.WF S14x14x20000 S8000x1 S14x14x8000 [0, 1] [2] [] [2] [] 1 ![14, 14, 1]
  dot_S8x256x196_S196x8000_S8x256x8000_2_0_01_1_n_n_wf : DotDims.WF S8x256x196 S196x8000 S8x256x8000 [2] [0] [0, 1] [1] [] []
  gather_S256x20000_S8000x1_S256x8000_0_1_n_n_1_1_2561_wf : GatherDims.WF S256x20000 S8000x1 S256x8000 [0] [1] [] [1] [] 1 ![256, 1]
  gather_S7x7x20000_S8000x1_S7x7x8000_01_2_n_n_2_1_771_wf : GatherDims.WF S7x7x20000 S8000x1 S7x7x8000 [0, 1] [2] [] [2] [] 1 ![7, 7, 1]
  dot_S8x512x49_S49x8000_S8x512x8000_2_0_01_1_n_n_wf : DotDims.WF S8x512x49 S49x8000 S8x512x8000 [2] [0] [0, 1] [1] [] []
  gather_S512x20000_S8000x1_S512x8000_0_1_n_n_1_1_5121_wf : GatherDims.WF S512x20000 S8000x1 S512x8000 [0] [1] [] [1] [] 1 ![512, 1]

variable [Facts₀]

def gather_S56x56x20000_S8000x1_S56x56x8000_01_2_n_n_2_1_56561 : GatherDims S56x56x20000 S8000x1 S56x56x8000 where
  offsetDims := [0, 1]
  collapsedSliceDims := [2]
  operandBatchingDims := []
  startIndicesBatchingDims := []
  startIndexMap := [2]
  indexVectorDim := 1
  sliceSizes := ![56, 56, 1]
  wf := gather_S56x56x20000_S8000x1_S56x56x8000_01_2_n_n_2_1_56561_wf
def dot_S8x64x3136_S3136x8000_S8x64x8000_2_0_01_1_n_n : DotDims S8x64x3136 S3136x8000 S8x64x8000 where
  lhsContracting := [2]
  rhsContracting := [0]
  lhsNonContracting := [0, 1]
  rhsNonContracting := [1]
  lhsBatch := []
  rhsBatch := []
  wf := dot_S8x64x3136_S3136x8000_S8x64x8000_2_0_01_1_n_n_wf
def gather_S64x20000_S8000x1_S64x8000_0_1_n_n_1_1_641 : GatherDims S64x20000 S8000x1 S64x8000 where
  offsetDims := [0]
  collapsedSliceDims := [1]
  operandBatchingDims := []
  startIndicesBatchingDims := []
  startIndexMap := [1]
  indexVectorDim := 1
  sliceSizes := ![64, 1]
  wf := gather_S64x20000_S8000x1_S64x8000_0_1_n_n_1_1_641_wf
def gather_S28x28x20000_S8000x1_S28x28x8000_01_2_n_n_2_1_28281 : GatherDims S28x28x20000 S8000x1 S28x28x8000 where
  offsetDims := [0, 1]
  collapsedSliceDims := [2]
  operandBatchingDims := []
  startIndicesBatchingDims := []
  startIndexMap := [2]
  indexVectorDim := 1
  sliceSizes := ![28, 28, 1]
  wf := gather_S28x28x20000_S8000x1_S28x28x8000_01_2_n_n_2_1_28281_wf
def dot_S8x128x784_S784x8000_S8x128x8000_2_0_01_1_n_n : DotDims S8x128x784 S784x8000 S8x128x8000 where
  lhsContracting := [2]
  rhsContracting := [0]
  lhsNonContracting := [0, 1]
  rhsNonContracting := [1]
  lhsBatch := []
  rhsBatch := []
  wf := dot_S8x128x784_S784x8000_S8x128x8000_2_0_01_1_n_n_wf
def gather_S128x20000_S8000x1_S128x8000_0_1_n_n_1_1_1281 : GatherDims S128x20000 S8000x1 S128x8000 where
  offsetDims := [0]
  collapsedSliceDims := [1]
  operandBatchingDims := []
  startIndicesBatchingDims := []
  startIndexMap := [1]
  indexVectorDim := 1
  sliceSizes := ![128, 1]
  wf := gather_S128x20000_S8000x1_S128x8000_0_1_n_n_1_1_1281_wf
def gather_S14x14x20000_S8000x1_S14x14x8000_01_2_n_n_2_1_14141 : GatherDims S14x14x20000 S8000x1 S14x14x8000 where
  offsetDims := [0, 1]
  collapsedSliceDims := [2]
  operandBatchingDims := []
  startIndicesBatchingDims := []
  startIndexMap := [2]
  indexVectorDim := 1
  sliceSizes := ![14, 14, 1]
  wf := gather_S14x14x20000_S8000x1_S14x14x8000_01_2_n_n_2_1_14141_wf
def dot_S8x256x196_S196x8000_S8x256x8000_2_0_01_1_n_n : DotDims S8x256x196 S196x8000 S8x256x8000 where
  lhsContracting := [2]
  rhsContracting := [0]
  lhsNonContracting := [0, 1]
  rhsNonContracting := [1]
  lhsBatch := []
  rhsBatch := []
  wf := dot_S8x256x196_S196x8000_S8x256x8000_2_0_01_1_n_n_wf
def gather_S256x20000_S8000x1_S256x8000_0_1_n_n_1_1_2561 : GatherDims S256x20000 S8000x1 S256x8000 where
  offsetDims := [0]
  collapsedSliceDims := [1]
  operandBatchingDims := []
  startIndicesBatchingDims := []
  startIndexMap := [1]
  indexVectorDim := 1
  sliceSizes := ![256, 1]
  wf := gather_S256x20000_S8000x1_S256x8000_0_1_n_n_1_1_2561_wf
def gather_S7x7x20000_S8000x1_S7x7x8000_01_2_n_n_2_1_771 : GatherDims S7x7x20000 S8000x1 S7x7x8000 where
  offsetDims := [0, 1]
  collapsedSliceDims := [2]
  operandBatchingDims := []
  startIndicesBatchingDims := []
  startIndexMap := [2]
  indexVectorDim := 1
  sliceSizes := ![7, 7, 1]
  wf := gather_S7x7x20000_S8000x1_S7x7x8000_01_2_n_n_2_1_771_wf
def dot_S8x512x49_S49x8000_S8x512x8000_2_0_01_1_n_n : DotDims S8x512x49 S49x8000 S8x512x8000 where
  lhsContracting := [2]
  rhsContracting := [0]
  lhsNonContracting := [0, 1]
  rhsNonContracting := [1]
  lhsBatch := []
  rhsBatch := []
  wf := dot_S8x512x49_S49x8000_S8x512x8000_2_0_01_1_n_n_wf
def gather_S512x20000_S8000x1_S512x8000_0_1_n_n_1_1_5121 : GatherDims S512x20000 S8000x1 S512x8000 where
  offsetDims := [0]
  collapsedSliceDims := [1]
  operandBatchingDims := []
  startIndicesBatchingDims := []
  startIndexMap := [1]
  indexVectorDim := 1
  sliceSizes := ![512, 1]
  wf := gather_S512x20000_S8000x1_S512x8000_0_1_n_n_1_1_5121_wf

class Facts : Prop extends Facts₀ where

variable [Facts]
-- ==== Proof.PreIdx.lean ====
/-
  From the precondition to the one fact the value proof uses of it: every index word, read unsigned, is below 20000
  (the signed range 0 ≤ idx < 20000 of a 32-bit word).
-/
import proofs.«420513_j51462298141020_3_alg».proof.Defs
import proofs.«420513_j51462298141020_3_alg».proof.Proof.Gen.Pre_finite_inputs
import Idealize.ShloMosaic.Lib.ValueIdx
import Idealize.ShloMosaic.Lib.ReduceAll

noncomputable section

open Idealize.ShloMosaic Idealize.ShloMosaic.TcCoe Idealize.SL.Sem Idealize.ShloMosaic.ValueIdx

namespace Cert.Hand

/-- The rank-0 shape has one index. -/
instance subsingleton_scalar_idx : Subsingleton Cert.Pre_finite_inputs.S_.Idx := ⟨fun a b => funext fun d => d.elim0⟩

/-- A 32-bit word in the signed range 0 ≤ w < 20000 is, read unsigned, below 20000. -/
theorem toNat_lt_of_signed_range (w : BitVec 32) (h0 : IntOp.cmpi .sge w (0#32) = 1#1) (h1 : IntOp.cmpi .slt w (20000#32) = 1#1) :
    w.toNat < 20000 := by
  rw [IntOp.cmpi_sge] at h0
  rw [IntOp.cmpi_slt] at h1
  have z : (0#32 : BitVec 32).toInt = 0 := by decide
  have k : (20000#32 : BitVec 32).toInt = 20000 := by decide
  rw [z] at h0
  rw [k] at h1
  have hw := w.isLt
  rw [BitVec.toInt_eq_toNat_cond] at h0 h1
  split at h0 <;> omega

/-- The last part of the printed predicate is a conjunction whose last two conjuncts are, each, a conjunction over all
    8000 positions of a comparison of the index word there: with 0 (signed ≥) and with 20000 (signed <). If the part is 1,
    both hold at every position. -/
theorem part3_idx {F : FTy → Type} [FloatOps F] (a11 : FVec F Cert.Pre_finite_inputs.S512x20000 .f32) (a12 : IVec Cert.Pre_finite_inputs.S8000 32)
    (v48 : IVec Cert.Pre_finite_inputs.S_ 1) (v49 v50 : FVec F Cert.Pre_finite_inputs.S256x20000 .f32)
    (h : Cert.Pre_finite_inputs.fn_part3 (F := F) a11 a12 v48 v49 v50 ix0 = 1#1) (v : Fin 8000) : (a12 (ix1 v)).toNat < 20000 := by
  unfold Cert.Pre_finite_inputs.fn_part3 at h
  dsimp only at h
  obtain ⟨h62, h65⟩ := IntOp.andi_eq_one.1 h
  obtain ⟨_, h61⟩ := IntOp.andi_eq_one.1 h62
  have g0 := Host.reduce_andi_all _ _ _ _ _ h61 (ix1 v)
  have g1 := Host.reduce_andi_all _ _ _ _ _ h65 (ix1 v)
  exact toNat_lt_of_signed_range _ g0 g1

/-- Under the precondition every index word names a table column: read unsigned it is below 20000. -/
theorem idx_lt (m : (ℓ : Loc Cert.KernelIdeal.nD Cert.KernelIdeal.τ Cert.KernelIdeal.sig) → Buf (Elt Ideal) ℓ)
    (h : Cert.Pre_KernelIdeal m) (c : Dev Cert.KernelIdeal.nD) (v : Fin 8000) :
    (m ((c.tc : Thread Cert.KernelIdeal.nD Cert.KernelIdeal.τ).loc Cert.KernelIdeal.main_arg12) (ix1 v)).toNat < 20000 := by
  -- the predicate unfolds, part by part, to its last part applied to the index array; read it at the one scalar index
  have e := congrFun (h c) ix0
  exact part3_idx _ _ _ _ _ e v

end Cert.Hand

end
-- ==== Proof.RefTerm.lean ====
/-
  The reference's result as ONE pure term of its thirteen argument arrays: the composition of its host operations.

  Per layer i (C = 64, 128, 256, 512 channels; spatial side h = 56, 28, 14, 7; P = h² positions): the index vector is
  normalised (a negative word has 20000 added), made a column [8000, 1], and gathers 8000 columns of the table
  [h, h, 20000] on its last axis; the gathered table is flattened to [P, 8000] and passed through the leaky ReLU
  (x where x ≥ 0, slope · x elsewhere); the feature map is flattened to [8, C, P] and contracted with it over P;
  the weights [C, 20000] are gathered on their last axis by the same column, spread over the batch axis, and scale the
  contraction. The four layers are stacked on the channel axis.
-/
import proofs.«420513_j51462298141020_3_alg».proof.ReferenceIdeal
import proofs.«420513_j51462298141020_3_alg».proof.Proof.Gen.ReferenceIdeal
import Idealize.ShloMosaic.PureOps.Ideal
import Idealize.ShloMosaic.Lib.ValueIdx

noncomputable section

open Idealize.ShloMosaic Idealize.ShloMosaic.TcCoe Idealize.SL.Sem Idealize.ShloMosaic.ValueIdx

namespace Cert.ReferenceIdeal.Hand

open Cert.ReferenceIdeal Cert.ReferenceIdeal.Facts₀

/-- The normalised index vector: a negative word has 20000 added, any other is kept. -/
def refIdx (a12 : IVec S8000 32) : IVec S8000 32 :=
  select (cmpi .slt a12 (broadcastInDim S8000 ![] bcast_S_S8000 (constantI S_ 32 0#32)))
    (addi a12 (broadcastInDim S8000 ![] bcast_S_S8000 (constantI S_ 32 20000#32))) a12

/-- The normalised index vector as a column of one-component start indices. -/
def refIdxCol (a12 : IVec S8000 32) : IVec S8000x1 32 :=
  broadcastInDim S8000x1 ![0] bcast_S8000_S8000x1_0 (refIdx a12)

/-! ### Layer 0: 64 channels, 56 × 56 positions -/

/-- The table's 8000 gathered columns, the spatial pair flattened: [3136, 8000]. -/
def refTab0 (a4 : FVec Ideal S56x56x20000 .f32) (a12 : IVec S8000 32) : FVec Ideal S3136x8000 .f32 :=
  shapeCast S3136x8000 (Host.gather gather_S56x56x20000_S8000x1_S56x56x8000_01_2_n_n_2_1_56561 a4 (refIdxCol a12)) shapeCasts_S56x56x8000_S3136x8000

/-- The leaky ReLU of the gathered table: x where x ≥ 0, slope · x elsewhere. -/
def refLeaky0 (a4 : FVec Ideal S56x56x20000 .f32) (a12 : IVec S8000 32) : FVec Ideal S3136x8000 .f32 :=
  select (cmpf (F := Ideal) (φ := .f32) .oge (refTab0 a4 a12) (broadcastInDim S3136x8000 ![] bcast_S_S3136x8000 (constant (F := Ideal) S_ .f32 0x00000000#32)))
    (refTab0 a4 a12)
    (mulf (F := Ideal) (φ := .f32) (broadcastInDim S3136x8000 ![] bcast_S_S3136x8000 (constant (F := Ideal) S_ .f32 0x3C23D70A#32)) (refTab0 a4 a12))

/-- The flattened feature map contracted with the leaky table over the 3136 positions: [8, 64, 8000]. -/
def refDot0 (a0 : FVec Ideal S8x64x56x56 .f32) (a4 : FVec Ideal S56x56x20000 .f32) (a12 : IVec S8000 32) : FVec Ideal S8x64x8000 .f32 :=
  Host.dotGeneral (F := Ideal) (φ₁ := .f32) (φ₂ := .f32) dot_S8x64x3136_S3136x8000_S8x64x8000_2_0_01_1_n_n none
    (shapeCast S8x64x3136 a0 shapeCasts_S8x64x56x56_S8x64x3136) (refLeaky0 a4 a12)

/-- The weights' 8000 gathered columns, spread over the batch axis: [8, 64, 8000]. -/
def refW0 (a8 : FVec Ideal S64x20000 .f32) (a12 : IVec S8000 32) : FVec Ideal S8x64x8000 .f32 :=
  broadcastInDim S8x64x8000 ![0, 1, 2] bcast_S1x64x8000_S8x64x8000_0_1_2
    (broadcastInDim S1x64x8000 ![1, 2] bcast_S64x8000_S1x64x8000_1_2 (Host.gather gather_S64x20000_S8000x1_S64x8000_0_1_n_n_1_1_641 a8 (refIdxCol a12)))

/-- Layer 0's output: the contraction scaled by the gathered weights. -/
def refLayer0 (a0 : FVec Ideal S8x64x56x56 .f32) (a4 : FVec Ideal S56x56x20000 .f32) (a8 : FVec Ideal S64x20000 .f32) (a12 : IVec S8000 32) :
    FVec Ideal S8x64x8000 .f32 :=
  mulf (F := Ideal) (φ := .f32) (refDot0 a0 a4 a12) (refW0 a8 a12)

/-! ### Layer 1: 128 channels, 28 × 28 positions -/

/-- The table's 8000 gathered columns, the spatial pair flattened: [784, 8000]. -/
def refTab1 (a5 : FVec Ideal S28x28x20000 .f32) (a12 : IVec S8000 32) : FVec Ideal S784x8000 .f32 :=
  shapeCast S784x8000 (Host.gather gather_S28x28x20000_S8000x1_S28x28x8000_01_2_n_n_2_1_28281 a5 (refIdxCol a12)) shapeCasts_S28x28x8000_S784x8000

/-- The leaky ReLU of the gathered table: x where x ≥ 0, slope · x elsewhere. -/
def refLeaky1 (a5 : FVec Ideal S28x28x20000 .f32) (a12 : IVec S8000 32) : FVec Ideal S784x8000 .f32 :=
  select (cmpf (F := Ideal) (φ := .f32) .oge (refTab1 a5 a12) (broadcastInDim S784x8000 ![] bcast_S_S784x8000 (constant (F := Ideal) S_ .f32 0x00000000#32)))
    (refTab1 a5 a12)
    (mulf (F := Ideal) (φ := .f32) (broadcastInDim S784x8000 ![] bcast_S_S784x8000 (constant (F := Ideal) S_ .f32 0x3C23D70A#32)) (refTab1 a5 a12))

/-- The flattened feature map contracted with the leaky table over the 784 positions: [8, 128, 8000]. -/
def refDot1 (a1 : FVec Ideal S8x128x28x28 .f32) (a5 : FVec Ideal S28x28x20000 .f32) (a12 : IVec S8000 32) : FVec Ideal S8x128x8000 .f32 :=
  Host.dotGeneral (F := Ideal) (φ₁ := .f32) (φ₂ := .f32) dot_S8x128x784_S784x8000_S8x128x8000_2_0_01_1_n_n none
    (shapeCast S8x128x784 a1 shapeCasts_S8x128x28x28_S8x128x784) (refLeaky1 a5 a12)

/-- The weights' 8000 gathered columns, spread over the batch axis: [8, 128, 8000]. -/
def refW1 (a9 : FVec Ideal S128x20000 .f32) (a12 : IVec S8000 32) : FVec Ideal S8x128x8000 .f32 :=
  broadcastInDim S8x128x8000 ![0, 1, 2] bcast_S1x128x8000_S8x128x8000_0_1_2
    (broadcastInDim S1x128x8000 ![1, 2] bcast_S128x8000_S1x128x8000_1_2 (Host.gather gather_S128x20000_S8000x1_S128x8000_0_1_n_n_1_1_1281 a9 (refIdxCol a12)))

/-- Layer 1's output: the contraction scaled by the gathered weights. -/
def refLayer1 (a1 : FVec Ideal S8x128x28x28 .f32) (a5 : FVec Ideal S28x28x20000 .f32) (a9 : FVec Ideal S128x20000 .f32) (a12 : IVec S8000 32) :
    FVec Ideal S8x128x8000 .f32 :=
  mulf (F := Ideal) (φ := .f32) (refDot1 a1 a5 a12) (refW1 a9 a12)

/-! ### Layer 2: 256 channels, 14 × 14 positions -/

/-- The table's 8000 gathered columns, the spatial pair flattened: [196, 8000]. -/
def refTab2 (a6 : FVec Ideal S14x14x20000 .f32) (a12 : IVec S8000 32) : FVec Ideal S196x8000 .f32 :=
  shapeCast S196x8000 (Host.gather gather_S14x14x20000_S8000x1_S14x14x8000_01_2_n_n_2_1_14141 a6 (refIdxCol a12)) shapeCasts_S14x14x8000_S196x8000

/-- The leaky ReLU of the gathered table: x where x ≥ 0, slope · x elsewhere. -/
def refLeaky2 (a6 : FVec Ideal S14x14x20000 .f32) (a12 : IVec S8000 32) : FVec Ideal S196x8000 .f32 :=
  select (cmpf (F := Ideal) (φ := .f32) .oge (refTab2 a6 a12) (broadcastInDim S196x8000 ![] bcast_S_S196x8000 (constant (F := Ideal) S_ .f32 0x00000000#32)))
    (refTab2 a6 a12)
    (mulf (F := Ideal) (φ := .f32) (broadcastInDim S196x8000 ![] bcast_S_S196x8000 (constant (F := Ideal) S_ .f32 0x3C23D70A#32)) (refTab2 a6 a12))

/-- The flattened feature map contracted with the leaky table over the 196 positions: [8, 256, 8000]. -/
def refDot2 (a2 : FVec Ideal S8x256x14x14 .f32) (a6 : FVec Ideal S14x14x20000 .f32) (a12 : IVec S8000 32) : FVec Ideal S8x256x8000 .f32 :=
  Host.dotGeneral (F := Ideal) (φ₁ := .f32) (φ₂ := .f32) dot_S8x256x196_S196x8000_S8x256x8000_2_0_01_1_n_n none
    (shapeCast S8x256x196 a2 shapeCasts_S8x256x14x14_S8x256x196) (refLeaky2 a6 a12)

/-- The weights' 8000 gathered columns, spread over the batch axis: [8, 256, 8000]. -/
def refW2 (a10 : FVec Ideal S256x20000 .f32) (a12 : IVec S8000 32) : FVec Ideal S8x256x8000 .f32 :=
  broadcastInDim S8x256x8000 ![0, 1, 2] bcast_S1x256x8000_S8x256x8000_0_1_2
    (broadcastInDim S1x256x8000 ![1, 2] bcast_S256x8000_S1x256x8000_1_2 (Host.gather gather_S256x20000_S8000x1_S256x8000_0_1_n_n_1_1_2561 a10 (refIdxCol a12)))

/-- Layer 2's output: the contraction scaled by the gathered weights. -/
def refLayer2 (a2 : FVec Ideal S8x256x14x14 .f32) (a6 : FVec Ideal S14x14x20000 .f32) (a10 : FVec Ideal S256x20000 .f32) (a12 : IVec S8000 32) :
    FVec Ideal S8x256x8000 .f32 :=
  mulf (F := Ideal) (φ := .f32) (refDot2 a2 a6 a12) (refW2 a10 a12)

/-! ### Layer 3: 512 channels, 7 × 7 positions -/

/-- The table's 8000 gathered columns, the spatial pair flattened: [49, 8000]. -/
def refTab3 (a7 : FVec Ideal S7x7x20000 .f32) (a12 : IVec S8000 32) : FVec Ideal S49x8000 .f32 :=
  shapeCast S49x8000 (Host.gather gather_S7x7x20000_S8000x1_S7x7x8000_01_2_n_n_2_1_771 a7 (refIdxCol a12)) shapeCasts_S7x7x8000_S49x8000

/-- The leaky ReLU of the gathered table: x where x ≥ 0, slope · x elsewhere. -/
def refLeaky3 (a7 : FVec Ideal S7x7x20000 .f32) (a12 : IVec S8000 32) : FVec Ideal S49x8000 .f32 :=
  select (cmpf (F := Ideal) (φ := .f32) .oge (refTab3 a7 a12) (broadcastInDim S49x8000 ![] bcast_S_S49x8000 (constant (F := Ideal) S_ .f32 0x00000000#32)))
    (refTab3 a7 a12)
    (mulf (F := Ideal) (φ := .f32) (broadcastInDim S49x8000 ![] bcast_S_S49x8000 (constant (F := Ideal) S_ .f32 0x3C23D70A#32)) (refTab3 a7 a12))

/-- The flattened feature map contracted with the leaky table over the 49 positions: [8, 512, 8000]. -/
def refDot3 (a3 : FVec Ideal S8x512x7x7 .f32) (a7 : FVec Ideal S7x7x20000 .f32) (a12 : IVec S8000 32) : FVec Ideal S8x512x8000 .f32 :=
  Host.dotGeneral (F := Ideal) (φ₁ := .f32) (φ₂ := .f32) dot_S8x512x49_S49x8000_S8x512x8000_2_0_01_1_n_n none
    (shapeCast S8x512x49 a3 shapeCasts_S8x512x7x7_S8x512x49) (refLeaky3 a7 a12)

/-- The weights' 8000 gathered columns, spread over the batch axis: [8, 512, 8000]. -/
def refW3 (a11 : FVec Ideal S512x20000 .f32) (a12 : IVec S8000 32) : FVec Ideal S8x512x8000 .f32 :=
  broadcastInDim S8x512x8000 ![0, 1, 2] bcast_S1x512x8000_S8x512x8000_0_1_2
    (broadcastInDim S1x512x8000 ![1, 2] bcast_S512x8000_S1x512x8000_1_2 (Host.gather gather_S512x20000_S8000x1_S512x8000_0_1_n_n_1_1_5121 a11 (refIdxCol a12)))

/-- Layer 3's output: the contraction scaled by the gathered weights. -/
def refLayer3 (a3 : FVec Ideal S8x512x7x7 .f32) (a7 : FVec Ideal S7x7x20000 .f32) (a11 : FVec Ideal S512x20000 .f32) (a12 : IVec S8000 32) :
    FVec Ideal S8x512x8000 .f32 :=
  mulf (F := Ideal) (φ := .f32) (refDot3 a3 a7 a12) (refW3 a11 a12)

/-- The reference's result array as a function of the argument arrays. -/
def refOut (a0 : FVec Ideal S8x64x56x56 .f32) (a1 : FVec Ideal S8x128x28x28 .f32) (a2 : FVec Ideal S8x256x14x14 .f32) (a3 : FVec Ideal S8x512x7x7 .f32)
    (a4 : FVec Ideal S56x56x20000 .f32) (a5 : FVec Ideal S28x28x20000 .f32) (a6 : FVec Ideal S14x14x20000 .f32) (a7 : FVec Ideal S7x7x20000 .f32)
    (a8 : FVec Ideal S64x20000 .f32) (a9 : FVec Ideal S128x20000 .f32) (a10 : FVec Ideal S256x20000 .f32) (a11 : FVec Ideal S512x20000 .f32)
    (a12 : IVec S8000 32) : FVec Ideal S8x960x8000 .f32 :=
  concatenate S8x960x8000 1
    [⟨S8x64x8000, refLayer0 a0 a4 a8 a12⟩, ⟨S8x128x8000, refLayer1 a1 a5 a9 a12⟩,
     ⟨S8x256x8000, refLayer2 a2 a6 a10 a12⟩, ⟨S8x512x8000, refLayer3 a3 a7 a11 a12⟩]
    concatenates_S8x64x8000_S8x128x8000_S8x256x8000_S8x512x8000_S8x960x8000_d1

end Cert.ReferenceIdeal.Hand

end
-- ==== Proof.RefRun.lean ====
/-
  The reference's run: every weakly fair execution of its @main terminates, the result array at the operations'
  composed term of the arguments, the arguments unchanged.

  @main is a straight line of 129 host operations once the four calls of the leaky ReLU (seven operations each: the zero
  and its broadcast, the comparison, the slope converted and broadcast, the product, the select) are listed at their
  call sites: four layers of 32 operations each, then the concatenate. The layers write disjoint buffers and read only
  the arguments, so each layer's result is read off its own 32 operations, and the concatenate's four operands are the
  four layers' results.
-/
import proofs.«420513_j51462298141020_3_alg».proof.ReferenceIdeal
import proofs.«420513_j51462298141020_3_alg».proof.Proof.Gen.ReferenceIdeal
import proofs.«420513_j51462298141020_3_alg».proof.Proof.RefTerm
import Idealize.ShloMosaic.Lib.StableHlo.Run
import Idealize.ShloMosaic.Lib.Pipeline.Frame

noncomputable section

open Idealize.ShloMosaic Idealize.ShloMosaic.TcCoe Idealize.SL.Sem Idealize.ShloMosaic.ValueIdx

namespace Cert.ReferenceIdeal.Hand

open Cert.ReferenceIdeal Cert.ReferenceIdeal.Facts₀ Idealize.ShloMosaic.StableHlo

section Ops

variable {F : FTy → Type} [FloatOps F]

/-- Layer 0's 32 operations: the index normalised and made a column, the table gathered and flattened, the leaky ReLU's
    seven, the feature map flattened and contracted, the index normalised again, the weights gathered and spread, the product. -/
abbrev ops0 : List (HloOp τ sig (Elt F)) :=
  [ nullary main_c (constantI S_ 32 0#32),
    unary main_c main_v0 (broadcastInDim S8000 ![] bcast_S_S8000 : (⟨S_, .i32⟩ : BufTy).Contents (Elt F) → (⟨S8000, .i32⟩ : BufTy).Contents (Elt F)),
    binary main_arg12 main_v0 main_v1 (cmpi .slt : (⟨S8000, .i32⟩ : BufTy).Contents (Elt F) → (⟨S8000, .i32⟩ : BufTy).Contents (Elt F) → (⟨S8000, .i1⟩ : BufTy).Contents (Elt F)),
    nullary main_c_0 (constantI S_ 32 20000#32),
    unary main_c_0 main_v2 (broadcastInDim S8000 ![] bcast_S_S8000 : (⟨S_, .i32⟩ : BufTy).Contents (Elt F) → (⟨S8000, .i32⟩ : BufTy).Contents (Elt F)),
    binary main_arg12 main_v2 main_v3 (addi : (⟨S8000, .i32⟩ : BufTy).Contents (Elt F) → (⟨S8000, .i32⟩ : BufTy).Contents (Elt F) → (⟨S8000, .i32⟩ : BufTy).Contents (Elt F)),
    ternary main_v1 main_v3 main_arg12 main_v4 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    unary main_v4 main_v5 (broadcastInDim S8000x1 ![0] bcast_S8000_S8000x1_0 : (⟨S8000, .i32⟩ : BufTy).Contents (Elt F) → (⟨S8000x1, .i32⟩ : BufTy).Contents (Elt F)),
    binary main_arg4 main_v5 main_v6 ((fun x i => Host.gather gather_S56x56x20000_S8000x1_S56x56x8000_01_2_n_n_2_1_56561 x i) : (⟨S56x56x20000, .f32⟩ : BufTy).Contents (Elt F) → (⟨S8000x1, .i32⟩ : BufTy).Contents (Elt F) → (⟨S56x56x8000, .f32⟩ : BufTy).Contents (Elt F)),
    reshape main_v6 main_v7 rfl shapeCasts_S56x56x8000_S3136x8000,
    nullary main_cst (constant S_ .f32 0x3C23D70A#32),
    TRef.nullary main_call0.cst (constant S_ .f32 0x00000000#32),
    TRef.unary main_call0.cst main_call0.v0 (broadcastInDim S3136x8000 ![] bcast_S_S3136x8000),
    TRef.binary (.of main_v7 : TRef sig ⟨S3136x8000, .f32⟩) main_call0.v0 main_call0.v1 (cmpf .oge),
    TRef.unary (.of main_cst : TRef sig ⟨S_, .f32⟩) main_call0.v2 id,
    TRef.unary main_call0.v2 main_call0.v3 (broadcastInDim S3136x8000 ![] bcast_S_S3136x8000),
    TRef.binary main_call0.v3 (.of main_v7 : TRef sig ⟨S3136x8000, .f32⟩) main_call0.v4 mulf,
    TRef.ternary main_call0.v1 (.of main_v7 : TRef sig ⟨S3136x8000, .f32⟩) main_call0.v4 main_call0.call0.v0 select,
    reshape main_arg0 main_v9 rfl shapeCasts_S8x64x56x56_S8x64x3136,
    binary main_v9 main_v8 main_v10 ((fun l r => Host.dotGeneral dot_S8x64x3136_S3136x8000_S8x64x8000_2_0_01_1_n_n none l r) : (⟨S8x64x3136, .f32⟩ : BufTy).Contents (Elt F) → (⟨S3136x8000, .f32⟩ : BufTy).Contents (Elt F) → (⟨S8x64x8000, .f32⟩ : BufTy).Contents (Elt F)),
    nullary main_c_1 (constantI S_ 32 0#32),
    unary main_c_1 main_v11 (broadcastInDim S8000 ![] bcast_S_S8000 : (⟨S_, .i32⟩ : BufTy).Contents (Elt F) → (⟨S8000, .i32⟩ : BufTy).Contents (Elt F)),
    binary main_arg12 main_v11 main_v12 (cmpi .slt : (⟨S8000, .i32⟩ : BufTy).Contents (Elt F) → (⟨S8000, .i32⟩ : BufTy).Contents (Elt F) → (⟨S8000, .i1⟩ : BufTy).Contents (Elt F)),
    nullary main_c_2 (constantI S_ 32 20000#32),
    unary main_c_2 main_v13 (broadcastInDim S8000 ![] bcast_S_S8000 : (⟨S_, .i32⟩ : BufTy).Contents (Elt F) → (⟨S8000, .i32⟩ : BufTy).Contents (Elt F)),
    binary main_arg12 main_v13 main_v14 (addi : (⟨S8000, .i32⟩ : BufTy).Contents (Elt F) → (⟨S8000, .i32⟩ : BufTy).Contents (Elt F) → (⟨S8000, .i32⟩ : BufTy).Contents (Elt F)),
    ternary main_v12 main_v14 main_arg12 main_v15 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    unary main_v15 main_v16 (broadcastInDim S8000x1 ![0] bcast_S8000_S8000x1_0 : (⟨S8000, .i32⟩ : BufTy).Contents (Elt F) → (⟨S8000x1, .i32⟩ : BufTy).Contents (Elt F)),
    binary main_arg8 main_v16 main_v17 ((fun x i => Host.gather gather_S64x20000_S8000x1_S64x8000_0_1_n_n_1_1_641 x i) : (⟨S64x20000, .f32⟩ : BufTy).Contents (Elt F) → (⟨S8000x1, .i32⟩ : BufTy).Contents (Elt F) → (⟨S64x8000, .f32⟩ : BufTy).Contents (Elt F)),
    unary main_v17 main_v18 (broadcastInDim S1x64x8000 ![1, 2] bcast_S64x8000_S1x64x8000_1_2 : (⟨S64x8000, .f32⟩ : BufTy).Contents (Elt F) → (⟨S1x64x8000, .f32⟩ : BufTy).Contents (Elt F)),
    unary main_v18 main_v19 (broadcastInDim S8x64x8000 ![0, 1, 2] bcast_S1x64x8000_S8x64x8000_0_1_2 : (⟨S1x64x8000, .f32⟩ : BufTy).Contents (Elt F) → (⟨S8x64x8000, .f32⟩ : BufTy).Contents (Elt F)),
    binary main_v10 main_v19 main_v20 (mulf : (⟨S8x64x8000, .f32⟩ : BufTy).Contents (Elt F) → (⟨S8x64x8000, .f32⟩ : BufTy).Contents (Elt F) → (⟨S8x64x8000, .f32⟩ : BufTy).Contents (Elt F)) ]

/-- The references layer 0's operations write. -/
abbrev W0 : List (Ref sig .tc) :=
  [main_c, main_v0, main_v1, main_c_0, main_v2, main_v3, main_v4, main_v5, main_v6, main_v7, main_cst,
   main_call0_cst, main_call0_v0, main_call0_v1, main_call0_v2, main_call0_v3, main_call0_v4, main_v8, main_v9, main_v10,
   main_c_1, main_v11, main_v12, main_c_2, main_v13, main_v14, main_v15, main_v16, main_v17, main_v18, main_v19, main_v20]

/-- Layer 1's 32 operations, in layer 0's order. -/
abbrev ops1 : List (HloOp τ sig (Elt F)) :=
  [
    nullary main_c_3 (constantI S_ 32 0#32),
    unary main_c_3 main_v21 (broadcastInDim S8000 ![] bcast_S_S8000 : (⟨S_, .i32⟩ : BufTy).Contents (Elt F) → (⟨S8000, .i32⟩ : BufTy).Contents (Elt F)),
    binary main_arg12 main_v21 main_v22 (cmpi .slt : (⟨S8000, .i32⟩ : BufTy).Contents (Elt F) → (⟨S8000, .i32⟩ : BufTy).Contents (Elt F) → (⟨S8000, .i1⟩ : BufTy).Contents (Elt F)),
    nullary main_c_4 (constantI S_ 32 20000#32),
    unary main_c_4 main_v23 (broadcastInDim S8000 ![] bcast_S_S8000 : (⟨S_, .i32⟩ : BufTy).Contents (Elt F) → (⟨S8000, .i32⟩ : BufTy).Contents (Elt F)),
    binary main_arg12 main_v23 main_v24 (addi : (⟨S8000, .i32⟩ : BufTy).Contents (Elt F) → (⟨S8000, .i32⟩ : BufTy).Contents (Elt F) → (⟨S8000, .i32⟩ : BufTy).Contents (Elt F)),
    ternary main_v22 main_v24 main_arg12 main_v25 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    unary main_v25 main_v26 (broadcastInDim S8000x1 ![0] bcast_S8000_S8000x1_0 : (⟨S8000, .i32⟩ : BufTy).Contents (Elt F) → (⟨S8000x1, .i32⟩ : BufTy).Contents (Elt F)),
    binary main_arg5 main_v26 main_v27 ((fun x i => Host.gather gather_S28x28x20000_S8000x1_S28x28x8000_01_2_n_n_2_1_28281 x i) : (⟨S28x28x20000, .f32⟩ : BufTy).Contents (Elt F) → (⟨S8000x1, .i32⟩ : BufTy).Contents (Elt F) → (⟨S28x28x8000, .f32⟩ : BufTy).Contents (Elt F)),
    reshape main_v27 main_v28 rfl shapeCasts_S28x28x8000_S784x8000,
    nullary main_cst_5 (constant S_ .f32 0x3C23D70A#32),
    TRef.nullary main_call1.cst (constant S_ .f32 0x00000000#32),
    TRef.unary main_call1.cst main_call1.v0 (broadcastInDim S784x8000 ![] bcast_S_S784x8000),
    TRef.binary (.of main_v28 : TRef sig ⟨S784x8000, .f32⟩) main_call1.v0 main_call1.v1 (cmpf .oge),
    TRef.unary (.of main_cst_5 : TRef sig ⟨S_, .f32⟩) main_call1.v2 id,
    TRef.unary main_call1.v2 main_call1.v3 (broadcastInDim S784x8000 ![] bcast_S_S784x8000),
    TRef.binary main_call1.v3 (.of main_v28 : TRef sig ⟨S784x8000, .f32⟩) main_call1.v4 mulf,
    TRef.ternary main_call1.v1 (.of main_v28 : TRef sig ⟨S784x8000, .f32⟩) main_call1.v4 main_call1.call0.v0 select,
    reshape main_arg1 main_v30 rfl shapeCasts_S8x128x28x28_S8x128x784,
    binary main_v30 main_v29 main_v31 ((fun l r => Host.dotGeneral dot_S8x128x784_S784x8000_S8x128x8000_2_0_01_1_n_n none l r) : (⟨S8x128x784, .f32⟩ : BufTy).Contents (Elt F) → (⟨S784x8000, .f32⟩ : BufTy).Contents (Elt F) → (⟨S8x128x8000, .f32⟩ : BufTy).Contents (Elt F)),
    nullary main_c_6 (constantI S_ 32 0#32),
    unary main_c_6 main_v32 (broadcastInDim S8000 ![] bcast_S_S8000 : (⟨S_, .i32⟩ : BufTy).Contents (Elt F) → (⟨S8000, .i32⟩ : BufTy).Contents (Elt F)),
    binary main_arg12 main_v32 main_v33 (cmpi .slt : (⟨S8000, .i32⟩ : BufTy).Contents (Elt F) → (⟨S8000, .i32⟩ : BufTy).Contents (Elt F) → (⟨S8000, .i1⟩ : BufTy).Contents (Elt F)),
    nullary main_c_7 (constantI S_ 32 20000#32),
    unary main_c_7 main_v34 (broadcastInDim S8000 ![] bcast_S_S8000 : (⟨S_, .i32⟩ : BufTy).Contents (Elt F) → (⟨S8000, .i32⟩ : BufTy).Contents (Elt F)),
    binary main_arg12 main_v34 main_v35 (addi : (⟨S8000, .i32⟩ : BufTy).Contents (Elt F) → (⟨S8000, .i32⟩ : BufTy).Contents (Elt F) → (⟨S8000, .i32⟩ : BufTy).Contents (Elt F)),
    ternary main_v33 main_v35 main_arg12 main_v36 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    unary main_v36 main_v37 (broadcastInDim S8000x1 ![0] bcast_S8000_S8000x1_0 : (⟨S8000, .i32⟩ : BufTy).Contents (Elt F) → (⟨S8000x1, .i32⟩ : BufTy).Contents (Elt F)),
    binary main_arg9 main_v37 main_v38 ((fun x i => Host.gather gather_S128x20000_S8000x1_S128x8000_0_1_n_n_1_1_1281 x i) : (⟨S128x20000, .f32⟩ : BufTy).Contents (Elt F) → (⟨S8000x1, .i32⟩ : BufTy).Contents (Elt F) → (⟨S128x8000, .f32⟩ : BufTy).Contents (Elt F)),
    unary main_v38 main_v39 (broadcastInDim S1x128x8000 ![1, 2] bcast_S128x8000_S1x128x8000_1_2 : (⟨S128x8000, .f32⟩ : BufTy).Contents (Elt F) → (⟨S1x128x8000, .f32⟩ : BufTy).Contents (Elt F)),
    unary main_v39 main_v40 (broadcastInDim S8x128x8000 ![0, 1, 2] bcast_S1x128x8000_S8x128x8000_0_1_2 : (⟨S1x128x8000, .f32⟩ : BufTy).Contents (Elt F) → (⟨S8x128x8000, .f32⟩ : BufTy).Contents (Elt F)),
    binary main_v31 main_v40 main_v41 (mulf : (⟨S8x128x8000, .f32⟩ : BufTy).Contents (Elt F) → (⟨S8x128x8000, .f32⟩ : BufTy).Contents (Elt F) → (⟨S8x128x8000, .f32⟩ : BufTy).Contents (Elt F)) ]

/-- The references layer 1's operations write. -/
abbrev W1 : List (Ref sig .tc) :=
  [main_c_3, main_v21, main_v22, main_c_4, main_v23, main_v24, main_v25, main_v26, main_v27, main_v28, main_cst_5,
   main_call1_cst, main_call1_v0, main_call1_v1, main_call1_v2, main_call1_v3, main_call1_v4, main_v29, main_v30, main_v31,
   main_c_6, main_v32, main_v33, main_c_7, main_v34, main_v35, main_v36, main_v37, main_v38, main_v39, main_v40, main_v41]

/-- Layer 2's 32 operations, in layer 0's order. -/
abbrev ops2 : List (HloOp τ sig (Elt F)) :=
  [
    nullary main_c_8 (constantI S_ 32 0#32),
    unary main_c_8 main_v42 (broadcastInDim S8000 ![] bcast_S_S8000 : (⟨S_, .i32⟩ : BufTy).Contents (Elt F) → (⟨S8000, .i32⟩ : BufTy).Contents (Elt F)),
    binary main_arg12 main_v42 main_v43 (cmpi .slt : (⟨S8000, .i32⟩ : BufTy).Contents (Elt F) → (⟨S8000, .i32⟩ : BufTy).Contents (Elt F) → (⟨S8000, .i1⟩ : BufTy).Contents (Elt F)),
    nullary main_c_9 (constantI S_ 32 20000#32),
    unary main_c_9 main_v44 (broadcastInDim S8000 ![] bcast_S_S8000 : (⟨S_, .i32⟩ : BufTy).Contents (Elt F) → (⟨S8000, .i32⟩ : BufTy).Contents (Elt F)),
    binary main_arg12 main_v44 main_v45 (addi : (⟨S8000, .i32⟩ : BufTy).Contents (Elt F) → (⟨S8000, .i32⟩ : BufTy).Contents (Elt F) → (⟨S8000, .i32⟩ : BufTy).Contents (Elt F)),
    ternary main_v43 main_v45 main_arg12 main_v46 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    unary main_v46 main_v47 (broadcastInDim S8000x1 ![0] bcast_S8000_S8000x1_0 : (⟨S8000, .i32⟩ : BufTy).Contents (Elt F) → (⟨S8000x1, .i32⟩ : BufTy).Contents (Elt F)),
    binary main_arg6 main_v47 main_v48 ((fun x i => Host.gather gather_S14x14x20000_S8000x1_S14x14x8000_01_2_n_n_2_1_14141 x i) : (⟨S14x14x20000, .f32⟩ : BufTy).Contents (Elt F) → (⟨S8000x1, .i32⟩ : BufTy).Contents (Elt F) → (⟨S14x14x8000, .f32⟩ : BufTy).Contents (Elt F)),
    reshape main_v48 main_v49 rfl shapeCasts_S14x14x8000_S196x8000,
    nullary main_cst_10 (constant S_ .f32 0x3C23D70A#32),
    TRef.nullary main_call2.cst (constant S_ .f32 0x00000000#32),
    TRef.unary main_call2.cst main_call2.v0 (broadcastInDim S196x8000 ![] bcast_S_S196x8000),
    TRef.binary (.of main_v49 : TRef sig ⟨S196x8000, .f32⟩) main_call2.v0 main_call2.v1 (cmpf .oge),
    TRef.unary (.of main_cst_10 : TRef sig ⟨S_, .f32⟩) main_call2.v2 id,
    TRef.unary main_call2.v2 main_call2.v3 (broadcastInDim S196x8000 ![] bcast_S_S196x8000),
    TRef.binary main_call2.v3 (.of main_v49 : TRef sig ⟨S196x8000, .f32⟩) main_call2.v4 mulf,
    TRef.ternary main_call2.v1 (.of main_v49 : TRef sig ⟨S196x8000, .f32⟩) main_call2.v4 main_call2.call0.v0 select,
    reshape main_arg2 main_v51 rfl shapeCasts_S8x256x14x14_S8x256x196,
    binary main_v51 main_v50 main_v52 ((fun l r => Host.dotGeneral dot_S8x256x196_S196x8000_S8x256x8000_2_0_01_1_n_n none l r) : (⟨S8x256x196, .f32⟩ : BufTy).Contents (Elt F) → (⟨S196x8000, .f32⟩ : BufTy).Contents (Elt F) → (⟨S8x256x8000, .f32⟩ : BufTy).Contents (Elt F)),
    nullary main_c_11 (constantI S_ 32 0#32),
    unary main_c_11 main_v53 (broadcastInDim S8000 ![] bcast_S_S8000 : (⟨S_, .i32⟩ : BufTy).Contents (Elt F) → (⟨S8000, .i32⟩ : BufTy).Contents (Elt F)),
    binary main_arg12 main_v53 main_v54 (cmpi .slt : (⟨S8000, .i32⟩ : BufTy).Contents (Elt F) → (⟨S8000, .i32⟩ : BufTy).Contents (Elt F) → (⟨S8000, .i1⟩ : BufTy).Contents (Elt F)),
    nullary main_c_12 (constantI S_ 32 20000#32),
    unary main_c_12 main_v55 (broadcastInDim S8000 ![] bcast_S_S8000 : (⟨S_, .i32⟩ : BufTy).Contents (Elt F) → (⟨S8000, .i32⟩ : BufTy).Contents (Elt F)),
    binary main_arg12 main_v55 main_v56 (addi : (⟨S8000, .i32⟩ : BufTy).Contents (Elt F) → (⟨S8000, .i32⟩ : BufTy).Contents (Elt F) → (⟨S8000, .i32⟩ : BufTy).Contents (Elt F)),
    ternary main_v54 main_v56 main_arg12 main_v57 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    unary main_v57 main_v58 (broadcastInDim S8000x1 ![0] bcast_S8000_S8000x1_0 : (⟨S8000, .i32⟩ : BufTy).Contents (Elt F) → (⟨S8000x1, .i32⟩ : BufTy).Contents (Elt F)),
    binary main_arg10 main_v58 main_v59 ((fun x i => Host.gather gather_S256x20000_S8000x1_S256x8000_0_1_n_n_1_1_2561 x i) : (⟨S256x20000, .f32⟩ : BufTy).Contents (Elt F) → (⟨S8000x1, .i32⟩ : BufTy).Contents (Elt F) → (⟨S256x8000, .f32⟩ : BufTy).Contents (Elt F)),
    unary main_v59 main_v60 (broadcastInDim S1x256x8000 ![1, 2] bcast_S256x8000_S1x256x8000_1_2 : (⟨S256x8000, .f32⟩ : BufTy).Contents (Elt F) → (⟨S1x256x8000, .f32⟩ : BufTy).Contents (Elt F)),
    unary main_v60 main_v61 (broadcastInDim S8x256x8000 ![0, 1, 2] bcast_S1x256x8000_S8x256x8000_0_1_2 : (⟨S1x256x8000, .f32⟩ : BufTy).Contents (Elt F) → (⟨S8x256x8000, .f32⟩ : BufTy).Contents (Elt F)),
    binary main_v52 main_v61 main_v62 (mulf : (⟨S8x256x8000, .f32⟩ : BufTy).Contents (Elt F) → (⟨S8x256x8000, .f32⟩ : BufTy).Contents (Elt F) → (⟨S8x256x8000, .f32⟩ : BufTy).Contents (Elt F)) ]

/-- The references layer 2's operations write. -/
abbrev W2 : List (Ref sig .tc) :=
  [main_c_8, main_v42, main_v43, main_c_9, main_v44, main_v45, main_v46, main_v47, main_v48, main_v49, main_cst_10,
   main_call2_cst, main_call2_v0, main_call2_v1, main_call2_v2, main_call2_v3, main_call2_v4, main_v50, main_v51, main_v52,
   main_c_11, main_v53, main_v54, main_c_12, main_v55, main_v56, main_v57, main_v58, main_v59, main_v60, main_v61, main_v62]

/-- Layer 3's 32 operations, in layer 0's order. -/
abbrev ops3 : List (HloOp τ sig (Elt F)) :=
  [
    nullary main_c_13 (constantI S_ 32 0#32),
    unary main_c_13 main_v63 (broadcastInDim S8000 ![] bcast_S_S8000 : (⟨S_, .i32⟩ : BufTy).Contents (Elt F) → (⟨S8000, .i32⟩ : BufTy).Contents (Elt F)),
    binary main_arg12 main_v63 main_v64 (cmpi .slt : (⟨S8000, .i32⟩ : BufTy).Contents (Elt F) → (⟨S8000, .i32⟩ : BufTy).Contents (Elt F) → (⟨S8000, .i1⟩ : BufTy).Contents (Elt F)),
    nullary main_c_14 (constantI S_ 32 20000#32),
    unary main_c_14 main_v65 (broadcastInDim S8000 ![] bcast_S_S8000 : (⟨S_, .i32⟩ : BufTy).Contents (Elt F) → (⟨S8000, .i32⟩ : BufTy).Contents (Elt F)),
    binary main_arg12 main_v65 main_v66 (addi : (⟨S8000, .i32⟩ : BufTy).Contents (Elt F) → (⟨S8000, .i32⟩ : BufTy).Contents (Elt F) → (⟨S8000, .i32⟩ : BufTy).Contents (Elt F)),
    ternary main_v64 main_v66 main_arg12 main_v67 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    unary main_v67 main_v68 (broadcastInDim S8000x1 ![0] bcast_S8000_S8000x1_0 : (⟨S8000, .i32⟩ : BufTy).Contents (Elt F) → (⟨S8000x1, .i32⟩ : BufTy).Contents (Elt F)),
    binary main_arg7 main_v68 main_v69 ((fun x i => Host.gather gather_S7x7x20000_S8000x1_S7x7x8000_01_2_n_n_2_1_771 x i) : (⟨S7x7x20000, .f32⟩ : BufTy).Contents (Elt F) → (⟨S8000x1, .i32⟩ : BufTy).Contents (Elt F) → (⟨S7x7x8000, .f32⟩ : BufTy).Contents (Elt F)),
    reshape main_v69 main_v70 rfl shapeCasts_S7x7x8000_S49x8000,
    nullary main_cst_15 (constant S_ .f32 0x3C23D70A#32),
    TRef.nullary main_call3.cst (constant S_ .f32 0x00000000#32),
    TRef.unary main_call3.cst main_call3.v0 (broadcastInDim S49x8000 ![] bcast_S_S49x8000),
    TRef.binary (.of main_v70 : TRef sig ⟨S49x8000, .f32⟩) main_call3.v0 main_call3.v1 (cmpf .oge),
    TRef.unary (.of main_cst_15 : TRef sig ⟨S_, .f32⟩) main_call3.v2 id,
    TRef.unary main_call3.v2 main_call3.v3 (broadcastInDim S49x8000 ![] bcast_S_S49x8000),
    TRef.binary main_call3.v3 (.of main_v70 : TRef sig ⟨S49x8000, .f32⟩) main_call3.v4 mulf,
    TRef.ternary main_call3.v1 (.of main_v70 : TRef sig ⟨S49x8000, .f32⟩) main_call3.v4 main_call3.call0.v0 select,
    reshape main_arg3 main_v72 rfl shapeCasts_S8x512x7x7_S8x512x49,
    binary main_v72 main_v71 main_v73 ((fun l r => Host.dotGeneral dot_S8x512x49_S49x8000_S8x512x8000_2_0_01_1_n_n none l r) : (⟨S8x512x49, .f32⟩ : BufTy).Contents (Elt F) → (⟨S49x8000, .f32⟩ : BufTy).Contents (Elt F) → (⟨S8x512x8000, .f32⟩ : BufTy).Contents (Elt F)),
    nullary main_c_16 (constantI S_ 32 0#32),
    unary main_c_16 main_v74 (broadcastInDim S8000 ![] bcast_S_S8000 : (⟨S_, .i32⟩ : BufTy).Contents (Elt F) → (⟨S8000, .i32⟩ : BufTy).Contents (Elt F)),
    binary main_arg12 main_v74 main_v75 (cmpi .slt : (⟨S8000, .i32⟩ : BufTy).Contents (Elt F) → (⟨S8000, .i32⟩ : BufTy).Contents (Elt F) → (⟨S8000, .i1⟩ : BufTy).Contents (Elt F)),
    nullary main_c_17 (constantI S_ 32 20000#32),
    unary main_c_17 main_v76 (broadcastInDim S8000 ![] bcast_S_S8000 : (⟨S_, .i32⟩ : BufTy).Contents (Elt F) → (⟨S8000, .i32⟩ : BufTy).Contents (Elt F)),
    binary main_arg12 main_v76 main_v77 (addi : (⟨S8000, .i32⟩ : BufTy).Contents (Elt F) → (⟨S8000, .i32⟩ : BufTy).Contents (Elt F) → (⟨S8000, .i32⟩ : BufTy).Contents (Elt F)),
    ternary main_v75 main_v77 main_arg12 main_v78 (select : (⟨S8000, .i1⟩ : BufTy).Contents (Elt F) → (⟨S8000, .i32⟩ : BufTy).Contents (Elt F) → (⟨S8000, .i32⟩ : BufTy).Contents (Elt F) → (⟨S8000, .i32⟩ : BufTy).Contents (Elt F)),
    unary main_v78 main_v79 (broadcastInDim S8000x1 ![0] bcast_S8000_S8000x1_0 : (⟨S8000, .i32⟩ : BufTy).Contents (Elt F) → (⟨S8000x1, .i32⟩ : BufTy).Contents (Elt F)),
    binary main_arg11 main_v79 main_v80 ((fun x i => Host.gather gather_S512x20000_S8000x1_S512x8000_0_1_n_n_1_1_5121 x i) : (⟨S512x20000, .f32⟩ : BufTy).Contents (Elt F) → (⟨S8000x1, .i32⟩ : BufTy).Contents (Elt F) → (⟨S512x8000, .f32⟩ : BufTy).Contents (Elt F)),
    unary main_v80 main_v81 (broadcastInDim S1x512x8000 ![1, 2] bcast_S512x8000_S1x512x8000_1_2 : (⟨S512x8000, .f32⟩ : BufTy).Contents (Elt F) → (⟨S1x512x8000, .f32⟩ : BufTy).Contents (Elt F)),
    unary main_v81 main_v82 (broadcastInDim S8x512x8000 ![0, 1, 2] bcast_S1x512x8000_S8x512x8000_0_1_2 : (⟨S1x512x8000, .f32⟩ : BufTy).Contents (Elt F) → (⟨S8x512x8000, .f32⟩ : BufTy).Contents (Elt F)),
    binary main_v73 main_v82 main_v83 (mulf : (⟨S8x512x8000, .f32⟩ : BufTy).Contents (Elt F) → (⟨S8x512x8000, .f32⟩ : BufTy).Contents (Elt F) → (⟨S8x512x8000, .f32⟩ : BufTy).Contents (Elt F)) ]

/-- The references layer 3's operations write. -/
abbrev W3 : List (Ref sig .tc) :=
  [main_c_13, main_v63, main_v64, main_c_14, main_v65, main_v66, main_v67, main_v68, main_v69, main_v70, main_cst_15,
   main_call3_cst, main_call3_v0, main_call3_v1, main_call3_v2, main_call3_v3, main_call3_v4, main_v71, main_v72, main_v73,
   main_c_16, main_v74, main_v75, main_c_17, main_v76, main_v77, main_v78, main_v79, main_v80, main_v81, main_v82, main_v83]

/-- The concatenate of the four layers' results on the channel axis. -/
abbrev opCat : HloOp τ sig (Elt F) :=
  nary ![main_v20, main_v41, main_v62, main_v83] main_v84 (fun u => concatenate S8x960x8000 1 [⟨S8x64x8000, u 0⟩, ⟨S8x128x8000, u 1⟩, ⟨S8x256x8000, u 2⟩, ⟨S8x512x8000, u 3⟩] concatenates_S8x64x8000_S8x128x8000_S8x256x8000_S8x512x8000_S8x960x8000_d1)

/-- @main's 129 operations, in order: the four layers, then the concatenate. -/
abbrev ops : List (HloOp τ sig (Elt F)) := ops0 ++ ops1 ++ ops2 ++ ops3 ++ [opCat]

/-- Every buffer layer 0's operations touch is a TensorCore reference. -/
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., binary_bufs_sub .., reshape_bufs_sub .., nullary_bufs_sub ..,
   nullary_bufs_sub .., unary_bufs_sub .., binary_bufs_sub .., unary_bufs_sub .., unary_bufs_sub .., binary_bufs_sub .., ternary_bufs_sub ..,
   reshape_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub .., unary_bufs_sub .., unary_bufs_sub .., binary_bufs_sub ..⟩

/-- Each of layer 0's operations determines its result. -/
theorem ops0_fresh : ∀ op ∈ (ops0 : List (HloOp τ sig (Elt F))), op.fresh = ∅ := by
  intro _ h; (repeat (cases h with | head => rfl | tail _ h => ?_)); exact nomatch h

theorem ops0_writes : (ops0 : List (HloOp τ sig (Elt F))).Forall fun op => op.writes ⊆ (W0.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

/-- A buffer layer 0 does not write keeps its contents across it. -/
theorem ops0_frame (V : Valuation τ sig (Elt F)) (r : Ref sig .tc) (h : r ∉ W0) :
    after ops0 V (Proc.devRef .tc r) = V (Proc.devRef .tc r) :=
  after_of_writes_sub ops0 V ops0_writes h

/-- Every buffer layer 1's operations touch is a TensorCore reference. -/
theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., binary_bufs_sub .., reshape_bufs_sub .., nullary_bufs_sub ..,
   nullary_bufs_sub .., unary_bufs_sub .., binary_bufs_sub .., unary_bufs_sub .., unary_bufs_sub .., binary_bufs_sub .., ternary_bufs_sub ..,
   reshape_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub .., unary_bufs_sub .., unary_bufs_sub .., binary_bufs_sub ..⟩

/-- Each of layer 1's operations determines its result. -/
theorem ops1_fresh : ∀ op ∈ (ops1 : List (HloOp τ sig (Elt F))), op.fresh = ∅ := by
  intro _ h; (repeat (cases h with | head => rfl | tail _ h => ?_)); exact nomatch h

theorem ops1_writes : (ops1 : List (HloOp τ sig (Elt F))).Forall fun op => op.writes ⊆ (W1.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

/-- A buffer layer 1 does not write keeps its contents across it. -/
theorem ops1_frame (V : Valuation τ sig (Elt F)) (r : Ref sig .tc) (h : r ∉ W1) :
    after ops1 V (Proc.devRef .tc r) = V (Proc.devRef .tc r) :=
  after_of_writes_sub ops1 V ops1_writes h

/-- Every buffer layer 2's operations touch is a TensorCore reference. -/
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., binary_bufs_sub .., reshape_bufs_sub .., nullary_bufs_sub ..,
   nullary_bufs_sub .., unary_bufs_sub .., binary_bufs_sub .., unary_bufs_sub .., unary_bufs_sub .., binary_bufs_sub .., ternary_bufs_sub ..,
   reshape_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub .., unary_bufs_sub .., unary_bufs_sub .., binary_bufs_sub ..⟩

/-- Each of layer 2's operations determines its result. -/
theorem ops2_fresh : ∀ op ∈ (ops2 : List (HloOp τ sig (Elt F))), op.fresh = ∅ := by
  intro _ h; (repeat (cases h with | head => rfl | tail _ h => ?_)); exact nomatch h

theorem ops2_writes : (ops2 : List (HloOp τ sig (Elt F))).Forall fun op => op.writes ⊆ (W2.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

/-- A buffer layer 2 does not write keeps its contents across it. -/
theorem ops2_frame (V : Valuation τ sig (Elt F)) (r : Ref sig .tc) (h : r ∉ W2) :
    after ops2 V (Proc.devRef .tc r) = V (Proc.devRef .tc r) :=
  after_of_writes_sub ops2 V ops2_writes h

/-- Every buffer layer 3's operations touch is a TensorCore reference. -/
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub ..,
   ternary_bufs_sub .., unary_bufs_sub .., binary_bufs_sub .., reshape_bufs_sub .., nullary_bufs_sub ..,
   nullary_bufs_sub .., unary_bufs_sub .., binary_bufs_sub .., unary_bufs_sub .., unary_bufs_sub .., binary_bufs_sub .., ternary_bufs_sub ..,
   reshape_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub .., unary_bufs_sub .., unary_bufs_sub .., binary_bufs_sub ..⟩

/-- Each of layer 3's operations determines its result. -/
theorem ops3_fresh : ∀ op ∈ (ops3 : List (HloOp τ sig (Elt F))), op.fresh = ∅ := by
  intro _ h; (repeat (cases h with | head => rfl | tail _ h => ?_)); exact nomatch h

theorem ops3_writes : (ops3 : List (HloOp τ sig (Elt F))).Forall fun op => op.writes ⊆ (W3.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

/-- A buffer layer 3 does not write keeps its contents across it. -/
theorem ops3_frame (V : Valuation τ sig (Elt F)) (r : Ref sig .tc) (h : r ∉ W3) :
    after ops3 V (Proc.devRef .tc r) = V (Proc.devRef .tc r) :=
  after_of_writes_sub ops3 V ops3_writes h

-- 129 sequenced steps: the re-association recurses once per step
set_option maxRecDepth 4096 in
set_option maxHeartbeats 4000000 in
/-- @main is that straight line: the two windows in a row, the leaky ReLU's and its select's definitions unfolded at the
    four calls, both sides one chain of steps once sequencing is reassociated. -/
theorem main_eq (c : Dev nD) : main (F := F) c = seq ops := by
  simp only [main, main_part0, main_part1, fn_leaky_relu.body, fn_where.body, fn_leaky_relu_0.body, fn_where_1.body,
    fn_leaky_relu_2.body, fn_where_3.body, fn_leaky_relu_4.body, fn_where_5.body, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨List.forall_append.mpr ⟨List.forall_append.mpr ⟨List.forall_append.mpr ⟨ops0_sub, ops1_sub⟩, ops2_sub⟩, ops3_sub⟩,
    (nary_bufs_sub .. : (opCat : HloOp τ sig (Elt F)).bufs ⊆ tcRefs τ sig)⟩

theorem ops_fresh : ∀ op ∈ (ops : List (HloOp τ sig (Elt F))), op.fresh = ∅ := by
  intro op h
  rcases List.mem_append.mp h with h | h
  · rcases List.mem_append.mp h with h | h
    · rcases List.mem_append.mp h with h | h
      · rcases List.mem_append.mp h with h | h
        · exact ops0_fresh op h
        · exact ops1_fresh op h
      · exact ops2_fresh op h
    · exact ops3_fresh op h
  · cases h with
    | head => rfl
    | tail _ h => exact nomatch h

/-- A line of one operation is that operation. -/
theorem after_one (op : HloOp τ sig (Elt F)) (V : Valuation τ sig (Elt F)) : after [op] V = op.result V := rfl

/-- A buffer no operation writes keeps its contents across the whole line. -/
theorem ops_frame (V : Valuation τ sig (Elt F)) (r : Ref sig .tc) (h0 : r ∉ W0) (h1 : r ∉ W1) (h2 : r ∉ W2) (h3 : r ∉ W3) (h4 : r ≠ main_v84) :
    after ops V (Proc.devRef .tc r) = V (Proc.devRef .tc r) := by
  show after (ops0 ++ ops1 ++ ops2 ++ ops3 ++ [opCat]) V _ = _
  rw [after_append, after_append, after_append, after_append, after_one]
  rw [nary_result_ne (h := h4), ops3_frame _ r h3, ops2_frame _ r h2, ops1_frame _ r h1, ops0_frame _ r h0]

end Ops

/-! ### Each layer's result, read off its own operations -/

set_option maxHeartbeats 1000000 in
theorem layer0_eq (V : Valuation τ sig (Elt Ideal)) :
    after (ops0 (F := Ideal)) V (main_v20 : DevRef τ sig)
      = refLayer0 (V (main_arg0 : DevRef τ sig)) (V (main_arg4 : DevRef τ sig)) (V (main_arg8 : DevRef τ sig)) (V (main_arg12 : DevRef τ sig)) := by
  after_results_simp
  rfl

set_option maxHeartbeats 1000000 in
theorem layer1_eq (V : Valuation τ sig (Elt Ideal)) :
    after (ops1 (F := Ideal)) V (main_v41 : DevRef τ sig)
      = refLayer1 (V (main_arg1 : DevRef τ sig)) (V (main_arg5 : DevRef τ sig)) (V (main_arg9 : DevRef τ sig)) (V (main_arg12 : DevRef τ sig)) := by
  after_results_simp
  rfl

set_option maxHeartbeats 1000000 in
theorem layer2_eq (V : Valuation τ sig (Elt Ideal)) :
    after (ops2 (F := Ideal)) V (main_v62 : DevRef τ sig)
      = refLayer2 (V (main_arg2 : DevRef τ sig)) (V (main_arg6 : DevRef τ sig)) (V (main_arg10 : DevRef τ sig)) (V (main_arg12 : DevRef τ sig)) := by
  after_results_simp
  rfl

set_option maxHeartbeats 1000000 in
theorem layer3_eq (V : Valuation τ sig (Elt Ideal)) :
    after (ops3 (F := Ideal)) V (main_v83 : DevRef τ sig)
      = refLayer3 (V (main_arg3 : DevRef τ sig)) (V (main_arg7 : DevRef τ sig)) (V (main_arg11 : DevRef τ sig)) (V (main_arg12 : DevRef τ sig)) := by
  after_results_simp
  rfl

/-- The result buffer after the whole line: the concatenate of the four layers' terms of the arguments. Each operand is
    read back past the later layers, which do not write it, to its own layer's operations; the arguments that layer reads
    are read back past the earlier layers, which write no argument. -/
theorem out_eq (V : Valuation τ sig (Elt Ideal)) :
    after (ops (F := Ideal)) V (main_v84 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  have e0 : after ops3 (after ops2 (after ops1 (after ops0 V))) (main_v20 : DevRef τ sig)
      = refLayer0 (V (main_arg0 : DevRef τ sig)) (V (main_arg4 : DevRef τ sig)) (V (main_arg8 : DevRef τ sig)) (V (main_arg12 : DevRef τ sig)) := by
    rw [ops3_frame _ main_v20 (by decide), ops2_frame _ main_v20 (by decide), ops1_frame _ main_v20 (by decide), layer0_eq]
  have e1 : after ops3 (after ops2 (after ops1 (after ops0 V))) (main_v41 : DevRef τ sig)
      = refLayer1 (V (main_arg1 : DevRef τ sig)) (V (main_arg5 : DevRef τ sig)) (V (main_arg9 : DevRef τ sig)) (V (main_arg12 : DevRef τ sig)) := by
    rw [ops3_frame _ main_v41 (by decide), ops2_frame _ main_v41 (by decide), layer1_eq,
      ops0_frame _ main_arg1 (by decide), ops0_frame _ main_arg5 (by decide), ops0_frame _ main_arg9 (by decide), ops0_frame _ main_arg12 (by decide)]
  have e2 : after ops3 (after ops2 (after ops1 (after ops0 V))) (main_v62 : DevRef τ sig)
      = refLayer2 (V (main_arg2 : DevRef τ sig)) (V (main_arg6 : DevRef τ sig)) (V (main_arg10 : DevRef τ sig)) (V (main_arg12 : DevRef τ sig)) := by
    rw [ops3_frame _ main_v62 (by decide), layer2_eq,
      ops1_frame _ main_arg2 (by decide), ops1_frame _ main_arg6 (by decide), ops1_frame _ main_arg10 (by decide), ops1_frame _ main_arg12 (by decide),
      ops0_frame _ main_arg2 (by decide), ops0_frame _ main_arg6 (by decide), ops0_frame _ main_arg10 (by decide), ops0_frame _ main_arg12 (by decide)]
  have e3 : after ops3 (after ops2 (after ops1 (after ops0 V))) (main_v83 : DevRef τ sig)
      = refLayer3 (V (main_arg3 : DevRef τ sig)) (V (main_arg7 : DevRef τ sig)) (V (main_arg11 : DevRef τ sig)) (V (main_arg12 : DevRef τ sig)) := by
    rw [layer3_eq,
      ops2_frame _ main_arg3 (by decide), ops2_frame _ main_arg7 (by decide), ops2_frame _ main_arg11 (by decide), ops2_frame _ main_arg12 (by decide),
      ops1_frame _ main_arg3 (by decide), ops1_frame _ main_arg7 (by decide), ops1_frame _ main_arg11 (by decide), ops1_frame _ main_arg12 (by decide),
      ops0_frame _ main_arg3 (by decide), ops0_frame _ main_arg7 (by decide), ops0_frame _ main_arg11 (by decide), ops0_frame _ main_arg12 (by decide)]
  show after (ops0 ++ ops1 ++ ops2 ++ ops3 ++ [opCat]) V _ = _
  rw [after_append, after_append, after_append, after_append, after_one]
  rw [nary4_result]
  show concatenate S8x960x8000 1
      [⟨S8x64x8000, after ops3 (after ops2 (after ops1 (after ops0 V))) (main_v20 : DevRef τ sig)⟩,
       ⟨S8x128x8000, after ops3 (after ops2 (after ops1 (after ops0 V))) (main_v41 : DevRef τ sig)⟩,
       ⟨S8x256x8000, after ops3 (after ops2 (after ops1 (after ops0 V))) (main_v62 : DevRef τ sig)⟩,
       ⟨S8x512x8000, after ops3 (after ops2 (after ops1 (after ops0 V))) (main_v83 : DevRef τ sig)⟩]
      concatenates_S8x64x8000_S8x128x8000_S8x256x8000_S8x512x8000_S8x960x8000_d1 = _
  rw [e0, e1, e2, e3]
  rfl

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v84) = refOut
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) :=
  (θ_run (Cert.ReferenceIdeal.defs (F := Ideal)) _ _).mono (fun _ h c => ⟨(h c main_v84).trans (out_eq _),
      (h c main_arg0).trans (ops_frame _ main_arg0 (by decide) (by decide) (by decide) (by decide) (by decide)),
      (h c main_arg1).trans (ops_frame _ main_arg1 (by decide) (by decide) (by decide) (by decide) (by decide)),
      (h c main_arg2).trans (ops_frame _ main_arg2 (by decide) (by decide) (by decide) (by decide) (by decide)),
      (h c main_arg3).trans (ops_frame _ main_arg3 (by decide) (by decide) (by decide) (by decide) (by decide)),
      (h c main_arg4).trans (ops_frame _ main_arg4 (by decide) (by decide) (by decide) (by decide) (by decide)),
      (h c main_arg5).trans (ops_frame _ main_arg5 (by decide) (by decide) (by decide) (by decide) (by decide)),
      (h c main_arg6).trans (ops_frame _ main_arg6 (by decide) (by decide) (by decide) (by decide) (by decide)),
      (h c main_arg7).trans (ops_frame _ main_arg7 (by decide) (by decide) (by decide) (by decide) (by decide)),
      (h c main_arg8).trans (ops_frame _ main_arg8 (by decide) (by decide) (by decide) (by decide) (by decide)),
      (h c main_arg9).trans (ops_frame _ main_arg9 (by decide) (by decide) (by decide) (by decide) (by decide)),
      (h c main_arg10).trans (ops_frame _ main_arg10 (by decide) (by decide) (by decide) (by decide) (by decide)),
      (h c main_arg11).trans (ops_frame _ main_arg11 (by decide) (by decide) (by decide) (by decide) (by decide)),
      (h c main_arg12).trans (ops_frame _ main_arg12 (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.Spec.lean ====
/-
  What both programs compute, as ONE function of the argument arrays over the extended reals.

  Four layers i = 0..3 with C_i = 64, 128, 256, 512 channels and a spatial side h_i = 56, 28, 14, 7. Layer i takes a
  feature map f_i : [8, C_i, h_i, h_i], a table r_i : [h_i, h_i, 20000] and weights w_i : [C_i, 20000]; an index
  vector idx : [8000] names, per output column v, one of the 20000 table columns. The layer's output is

      out_i[b, c, v] = ( Σ_{p < h_i²} f_i[b, c, p / h_i, p % h_i] · lrelu (r_i[p / h_i, p % h_i, idx v]) ) · w_i[c, idx v]

  (the spatial pair flattened row-major to p), and the result stacks the four layers on the channel axis at offsets
  0, 64, 192, 448: [8, 960, 8000]. The column is read as idx v modulo 20000, which is idx v itself whenever
  0 ≤ idx v < 20000.
-/
import Idealize.ShloMosaic.PureOps.Ideal
import Idealize.ShloMosaic.Lib.ValueIdx

noncomputable section

namespace Cert.Spec

open Idealize.ShloMosaic Idealize.ShloMosaic.ValueIdx

/-- Leaky ReLU of one extended real: x where x ≥ 0, slope · x elsewhere, the slope the f32 nearest 0.01; spelled by the
    elementwise compare, product and select at the one-element shape. -/
def lrelu (x : EReal) : EReal :=
  (select (cmpf (F := Ideal) .oge (fun _ : (⟨0, ![]⟩ : Shape).Idx => x) (constant (F := Ideal) ⟨0, ![]⟩ .f32 0x00000000#32))
      (fun _ : (⟨0, ![]⟩ : Shape).Idx => x)
      (mulf (F := Ideal) (constant (F := Ideal) ⟨0, ![]⟩ .f32 0x3C23D70A#32) (fun _ : (⟨0, ![]⟩ : Shape).Idx => x))) ix0

/-- The table column an index word names. -/
def col (w : BitVec 32) : Fin 20000 := ⟨w.toNat % 20000, Nat.mod_lt _ (by norm_num)⟩

theorem col_of_lt (w : BitVec 32) (h : w.toNat < 20000) : (col w).val = w.toNat := Nat.mod_eq_of_lt h

/-- Row and column of the flattened spatial position p < h·h. -/
def prow (h : Nat) (p : Fin (h * h)) : Fin h :=
  ⟨p.val / h, Nat.div_lt_of_lt_mul (by have := p.isLt; simpa [Nat.mul_comm] using this)⟩
def pcol (h : Nat) (p : Fin (h * h)) : Fin h :=
  ⟨p.val % h, Nat.mod_lt _ (Nat.pos_of_ne_zero fun e => by have := p.isLt; simp [e] at this)⟩

/-- One layer's output at batch b, channel c, column v. -/
def layer (C h : Nat) (f : (⟨4, ![8, C, h, h]⟩ : Shape).Idx → EReal) (r : (⟨3, ![h, h, 20000]⟩ : Shape).Idx → EReal)
    (w : (⟨2, ![C, 20000]⟩ : Shape).Idx → EReal) (idx : (⟨1, ![8000]⟩ : Shape).Idx → BitVec 32)
    (b : Fin 8) (c : Fin C) (v : Fin 8000) : EReal :=
  (∑ p : Fin (h * h), f (ix4 b c (prow h p) (pcol h p)) * lrelu (r (ix3 (prow h p) (pcol h p) (col (idx (ix1 v))))))
    * w (ix2 c (col (idx (ix1 v))))

/-- The four layers stacked on the channel axis. -/
def G (f0 : (⟨4, ![8, 64, 56, 56]⟩ : Shape).Idx → EReal) (f1 : (⟨4, ![8, 128, 28, 28]⟩ : Shape).Idx → EReal)
    (f2 : (⟨4, ![8, 256, 14, 14]⟩ : Shape).Idx → EReal) (f3 : (⟨4, ![8, 512, 7, 7]⟩ : Shape).Idx → EReal)
    (r0 : (⟨3, ![56, 56, 20000]⟩ : Shape).Idx → EReal) (r1 : (⟨3, ![28, 28, 20000]⟩ : Shape).Idx → EReal)
    (r2 : (⟨3, ![14, 14, 20000]⟩ : Shape).Idx → EReal) (r3 : (⟨3, ![7, 7, 20000]⟩ : Shape).Idx → EReal)
    (w0 : (⟨2, ![64, 20000]⟩ : Shape).Idx → EReal) (w1 : (⟨2, ![128, 20000]⟩ : Shape).Idx → EReal)
    (w2 : (⟨2, ![256, 20000]⟩ : Shape).Idx → EReal) (w3 : (⟨2, ![512, 20000]⟩ : Shape).Idx → EReal)
    (idx : (⟨1, ![8000]⟩ : Shape).Idx → BitVec 32) : (⟨3, ![8, 960, 8000]⟩ : Shape).Idx → EReal := fun j =>
  if h0 : (j 1).val < 64 then layer 64 56 f0 r0 w0 idx (j 0) ⟨(j 1).val, h0⟩ (j 2)
  else if h1 : (j 1).val < 192 then layer 128 28 f1 r1 w1 idx (j 0) ⟨(j 1).val - 64, by omega⟩ (j 2)
  else if h2 : (j 1).val < 448 then layer 256 14 f2 r2 w2 idx (j 0) ⟨(j 1).val - 192, by omega⟩ (j 2)
  else layer 512 7 f3 r3 w3 idx (j 0) ⟨(j 1).val - 448, by have := (j 1).isLt; simp at this; omega⟩ (j 2)

end Cert.Spec

end
-- ==== Proof.LibColGather.lean ====
/-
  Taking entries along the LAST axis of an array with the start index clamped: the gather that x[..., idx] of an
  [C × N] or an [A × B × N] array lowers to, read at an entry, for an ARBITRARY start index.

  With the last axis collapsed and start-indexed and every other axis an offset axis of full width, entry (c, v) of the
  result of the two-axis form is the operand's entry (c, col), and entry (y, x, v) of the result of the three-axis form
  is the operand's entry (y, x, col), where col is start index v read as a signed integer and clamped to [0, N − 1]:
  a negative start index reads column 0, one past the end reads the last column. When the start index read signed is
  a column k < N the clamp is the identity and the entry read is column k itself.
-/
import Idealize.ShloMosaic.Lib.ValueIdx

noncomputable section

namespace Cert.LibColGather

open Idealize.ShloMosaic Idealize.ShloMosaic.ValueIdx

/-- Entry (c, v) of a gather along the last of two axes is the operand's entry (c, col), col being start index v read
    signed and clamped into [0, N − 1]. -/
theorem gather_cols_clamp_apply {α : Type} {C N n w : Nat}
    (d : GatherDims ⟨2, ![C, N]⟩ ⟨2, ![n, 1]⟩ ⟨2, ![C, n]⟩)
    (hoff : d.offsetDims = [0]) (hcol : d.collapsedSliceDims = [1]) (hob : d.operandBatchingDims = [])
    (hsb : d.startIndicesBatchingDims = []) (hmap : d.startIndexMap = [1]) (hiv : d.indexVectorDim = 1)
    (hsl : d.sliceSizes = ![C, 1])
    (x : (⟨2, ![C, N]⟩ : Shape).Idx → α) (idx : IVec ⟨2, ![n, 1]⟩ w) (c : Fin C) (v : Fin n) (hN : 0 < N) :
    Host.gather d x idx (ix2 c v)
      = x (ix2 c (⟨min (idx (ix2 v (0 : Fin 1))).toInt.toNat (N - 1), by omega⟩ : Fin N)) := by
  -- the record's data are the seven printed lists: make them literal so that the axis bookkeeping computes
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the first axis: an offset axis of full width, no start, so the operand's coordinate is the result's
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl
  | ⟨1, _⟩ =>
    -- the last axis: collapsed and start-indexed, so the operand's column is the clamped start index alone
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    -- the start index is read at (v, 0): v from the result's batch axis, 0 on the index vector's axis
    generalize hX : GatherDims.siIdx _ (ix2 c v) _ = X
    have hX' : X = ix2 v (0 : Fin 1) := by
      rw [← hX]
      funext b
      match b with
      | ⟨0, _⟩ => rfl
      | ⟨1, _⟩ => rfl
    rw [hX']
    rfl

/-- Entry (y, x, v) of a gather along the last of three axes is the operand's entry (y, x, col), col being start
    index v read signed and clamped into [0, N − 1]. -/
theorem gather_cols3_clamp_apply {α : Type} {A B N n w : Nat}
    (d : GatherDims ⟨3, ![A, B, N]⟩ ⟨2, ![n, 1]⟩ ⟨3, ![A, B, n]⟩)
    (hoff : d.offsetDims = [0, 1]) (hcol : d.collapsedSliceDims = [2]) (hob : d.operandBatchingDims = [])
    (hsb : d.startIndicesBatchingDims = []) (hmap : d.startIndexMap = [2]) (hiv : d.indexVectorDim = 1)
    (hsl : d.sliceSizes = ![A, B, 1])
    (x : (⟨3, ![A, B, N]⟩ : Shape).Idx → α) (idx : IVec ⟨2, ![n, 1]⟩ w) (y : Fin A) (z : Fin B) (v : Fin n)
    (hN : 0 < N) :
    Host.gather d x idx (ix3 y z v)
      = x (ix3 y z (⟨min (idx (ix2 v (0 : Fin 1))).toInt.toNat (N - 1), by omega⟩ : Fin N)) := by
  obtain ⟨od, cd, obd, sbd, sim, ivd, ss, wf⟩ := d
  dsimp only at hoff hcol hob hsb hmap hiv hsl
  subst hoff hcol hob hsb hmap hiv hsl
  unfold Host.gather
  refine congrArg x (funext fun a => ?_)
  match a with
  | ⟨0, _⟩ =>
    -- the first axis: the first offset axis, of full width
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl
  | ⟨1, _⟩ =>
    -- the second axis: the second offset axis, of full width
    apply Fin.ext
    simp only [GatherDims.operandIdx]
    rw [GatherDims.batchCoord_eq_zero _ _ _ (by exact List.not_mem_nil)]
    unfold GatherDims.start
    rw [dif_neg (by simp)]
    unfold GatherDims.offCoord
    rw [dif_pos (by rw [GatherDims.mem_sKept]; simp)]
    simp only [Nat.zero_add]
    rfl
  | ⟨2, _⟩ =>
    -- the last axis: collapsed and start-indexed
    apply Fin.ext
    simp only [GatherDims.operandIdx]
    rw [GatherDims.batchCoord_eq_zero _ _ _ (by exact List.not_mem_nil),
      GatherDims.offCoord_eq_zero _ _ _ (by rw [GatherDims.mem_sKept]; simp)]
    unfold GatherDims.start
    rw [dif_pos (by simp)]
    generalize hX : GatherDims.siIdx _ (ix3 y z v) _ = X
    have hX' : X = ix2 v (0 : Fin 1) := by
      rw [← hX]
      funext b
      match b with
      | ⟨0, _⟩ => rfl
      | ⟨1, _⟩ => rfl
    rw [hX']
    rfl

/-- The clamp is the identity on a start index that, read signed, is a column k < N. -/
theorem clamp_eq_of_toInt {N w : Nat} (i : BitVec w) (k : Fin N) (hk : i.toInt = (k.val : Int)) :
    min i.toInt.toNat (N - 1) = k.val := by
  have := k.isLt
  rw [hk, Int.toNat_natCast]
  omega

/-- Two axes, start index in range: entry (c, v) is the operand's entry (c, k), k the start index read signed. -/
theorem gather_cols_apply_of_toInt {α : Type} {C N n w : Nat}
    (d : GatherDims ⟨2, ![C, N]⟩ ⟨2, ![n, 1]⟩ ⟨2, ![C, n]⟩)
    (hoff : d.offsetDims = [0]) (hcol : d.collapsedSliceDims = [1]) (hob : d.operandBatchingDims = [])
    (hsb : d.startIndicesBatchingDims = []) (hmap : d.startIndexMap = [1]) (hiv : d.indexVectorDim = 1)
    (hsl : d.sliceSizes = ![C, 1])
    (x : (⟨2, ![C, N]⟩ : Shape).Idx → α) (idx : IVec ⟨2, ![n, 1]⟩ w) (c : Fin C) (v : Fin n) (k : Fin N)
    (hk : (idx (ix2 v (0 : Fin 1))).toInt = (k.val : Int)) :
    Host.gather d x idx (ix2 c v) = x (ix2 c k) := by
  rw [gather_cols_clamp_apply d hoff hcol hob hsb hmap hiv hsl x idx c v (Nat.pos_of_ne_zero fun e => by
    have := k.isLt; omega)]
  exact congrArg (fun q => x (ix2 c q)) (Fin.ext (clamp_eq_of_toInt _ k hk))

/-- Three axes, start index in range: entry (y, x, v) is the operand's entry (y, x, k), k the start index read
    signed. -/
theorem gather_cols3_apply_of_toInt {α : Type} {A B N n w : Nat}
    (d : GatherDims ⟨3, ![A, B, N]⟩ ⟨2, ![n, 1]⟩ ⟨3, ![A, B, n]⟩)
    (hoff : d.offsetDims = [0, 1]) (hcol : d.collapsedSliceDims = [2]) (hob : d.operandBatchingDims = [])
    (hsb : d.startIndicesBatchingDims = []) (hmap : d.startIndexMap = [2]) (hiv : d.indexVectorDim = 1)
    (hsl : d.sliceSizes = ![A, B, 1])
    (x : (⟨3, ![A, B, N]⟩ : Shape).Idx → α) (idx : IVec ⟨2, ![n, 1]⟩ w) (y : Fin A) (z : Fin B) (v : Fin n)
    (k : Fin N) (hk : (idx (ix2 v (0 : Fin 1))).toInt = (k.val : Int)) :
    Host.gather d x idx (ix3 y z v) = x (ix3 y z k) := by
  rw [gather_cols3_clamp_apply d hoff hcol hob hsb hmap hiv hsl x idx y z v (Nat.pos_of_ne_zero fun e => by
    have := k.isLt; omega)]
  exact congrArg (fun q => x (ix3 y z q)) (Fin.ext (clamp_eq_of_toInt _ k hk))

end Cert.LibColGather

end
-- ==== Proof.RefValue.lean ====
/-
  The reference's term IS the specification, index by index, once every index word names a column.

  Read at an index (b, c, v): the stacking on the channel axis reads the layer whose channel range holds c; a layer's
  entry is the product of its contraction and its gathered weight; the contraction is the sum over the flattened
  positions p of the flattened feature map at (b, c, p) times the leaky table at (p, v); a flattened position p is the
  spatial pair (p / h, p % h); the table and the weights are gathered on their last axis at the column the index word
  names, because a word below 20000 is kept by the normalisation, is its own signed reading, and is not clamped.
-/
import proofs.«420513_j51462298141020_3_alg».proof.Proof.RefTerm
import proofs.«420513_j51462298141020_3_alg».proof.Proof.Spec
import proofs.«420513_j51462298141020_3_alg».proof.Proof.LibColGather
import Idealize.ShloMosaic.PureOps.Ideal.Laws
import Idealize.ShloMosaic.Lib.Pipeline.Value

noncomputable section

open Idealize.ShloMosaic Idealize.ShloMosaic.TcCoe Idealize.SL.Sem Idealize.ShloMosaic.ValueIdx

namespace Cert.ReferenceIdeal.Hand

open Cert.ReferenceIdeal

/-! ## The index word -/

/-- A word below 20000 read unsigned is not negative read signed: its signed reading is its unsigned one. -/
theorem toInt_of_lt (w : BitVec 32) (h : w.toNat < 20000) : w.toInt = (w.toNat : Int) := by
  rw [BitVec.toInt_eq_toNat_cond]
  rw [if_pos (by omega)]

/-- Such a word is not below zero in the signed order. -/
theorem slt_zero_of_lt (w : BitVec 32) (h : w.toNat < 20000) : w.slt 0#32 = false := by
  rw [BitVec.slt, toInt_of_lt w h]
  simp

/-- The normalised index word: a word below 20000 is kept (the branch that adds 20000 is for negative words). -/
theorem norm_word (w : BitVec 32) (h : w.toNat < 20000) :
    Scalar.select (IntOp.cmpi .slt w 0#32) (IntOp.addi w 20000#32) w = w := by
  unfold Scalar.select IntOp.cmpi
  simp only [slt_zero_of_lt w h]
  rfl

/-- The normalised index vector is the index vector, under the bound. -/
theorem normIdx_eq (a : IVec S8000 32) (hb : S_.BroadcastsInDim S8000 (![] : Fin 0 → Fin S8000.rank))
    (hidx : ∀ v : Fin 8000, (a (ix1 v)).toNat < 20000) :
    select (cmpi .slt a (broadcastInDim S8000 ![] hb (constantI S_ 32 0#32)))
      (addi a (broadcastInDim S8000 ![] hb (constantI S_ 32 20000#32))) a = a := by
  funext j
  rw [eq_ix1 j]
  exact norm_word _ (hidx (j 0))

/-- The index vector as an [8000, 1] array read at (v, 0). -/
theorem idxCol_apply (a : IVec S8000 32) (hb : S8000.BroadcastsInDim S8000x1 (![0] : Fin 1 → Fin S8000x1.rank)) (v : Fin 8000) :
    broadcastInDim S8000x1 ![0] hb a (ix2 v (0 : Fin 1)) = a (ix1 v) := by
  refine broadcastInDim_apply _ hb a _ (ix1 v) fun a => ?_
  match a with
  | ⟨0, _⟩ => rfl

/-- The start index read signed is the column the word names. -/
theorem start_toInt (a : IVec S8000 32) (hb : S8000.BroadcastsInDim S8000x1 (![0] : Fin 1 → Fin S8000x1.rank)) (v : Fin 8000)
    (h : (a (ix1 v)).toNat < 20000) :
    (broadcastInDim S8000x1 ![0] hb a (ix2 v (0 : Fin 1))).toInt = ((Cert.Spec.col (a (ix1 v))).val : Int) := by
  rw [idxCol_apply, toInt_of_lt _ h, Cert.Spec.col_of_lt _ h]

/-! ## Leaky ReLU at an index -/

/-- The compare, product and select of the leaky ReLU over a whole array, read at an entry, are the leaky ReLU of that
    entry. -/
theorem lrelu_apply {t : Shape} (hb : S_.BroadcastsInDim t (![] : Fin 0 → Fin t.rank)) (x : FVec Ideal t .f32) (i : t.Idx) :
    select (cmpf .oge x (broadcastInDim t ![] hb (constant (F := Ideal) S_ .f32 0x00000000#32))) x
      (mulf (broadcastInDim t ![] hb (constant (F := Ideal) S_ .f32 0x3C23D70A#32)) x) i = Cert.Spec.lrelu (x i) := rfl

/-! ## The reshapes at an index -/

/-- Flattening the leading spatial pair of an [h, h, n] array: row p of the result is the spatial pair (p / h, p % h). -/
theorem reshape_hhn_apply {α : Type} {h n : Nat} (x : (⟨3, ![h, h, n]⟩ : Shape).Idx → α)
    (hsc : (⟨3, ![h, h, n]⟩ : Shape).ShapeCasts ⟨2, ![h * h, n]⟩) (p : Fin (h * h)) (v : Fin n) :
    shapeCast ⟨2, ![h * h, n]⟩ x hsc (ix2 p v) = x (ix3 (Cert.Spec.prow h p) (Cert.Spec.pcol h p) v) := by
  refine shapeCast_apply x hsc _ _ ?_
  rw [Shape.rowMajor_val_three, Shape.rowMajor_val_two]
  show (p.val / h * h + p.val % h) * n + v.val = p.val * n + v.val
  rw [Nat.div_add_mod']

/-- Flattening the trailing spatial pair of a [B, C, h, h] array: position p of the result is the pair (p / h, p % h). -/
theorem reshape_bchh_apply {α : Type} {B C h : Nat} (x : (⟨4, ![B, C, h, h]⟩ : Shape).Idx → α)
    (hsc : (⟨4, ![B, C, h, h]⟩ : Shape).ShapeCasts ⟨3, ![B, C, h * h]⟩) (b : Fin B) (c : Fin C) (p : Fin (h * h)) :
    shapeCast ⟨3, ![B, C, h * h]⟩ x hsc (ix3 b c p) = x (ix4 b c (Cert.Spec.prow h p) (Cert.Spec.pcol h p)) := by
  refine shapeCast_apply x hsc _ _ ?_
  rw [Shape.rowMajor_val_four, Shape.rowMajor_val_three]
  show ((b.val * C + c.val) * h + p.val / h) * h + p.val % h = (b.val * C + c.val) * (h * h) + p.val
  rw [Nat.add_mul, Nat.add_assoc, Nat.div_add_mod', Nat.mul_assoc]

/-! ## The batched product at an index -/

section Dot
variable {B C P V : Nat} {φ₁ φ₂ : FTy}

/-- The literal dimension numbers: contract the left operand's axis 2 with the right operand's axis 0. -/
abbrev dotBCP (wf : DotDims.WF ⟨3, ![B, C, P]⟩ ⟨2, ![P, V]⟩ ⟨3, ![B, C, V]⟩ [2] [0] [0, 1] [1] [] []) :
    DotDims ⟨3, ![B, C, P]⟩ ⟨2, ![P, V]⟩ ⟨3, ![B, C, V]⟩ where
  lhsContracting := [2]
  rhsContracting := [0]
  lhsNonContracting := [0, 1]
  rhsNonContracting := [1]
  lhsBatch := []
  rhsBatch := []
  wf := wf

variable (wf : DotDims.WF ⟨3, ![B, C, P]⟩ ⟨2, ![P, V]⟩ ⟨3, ![B, C, V]⟩ [2] [0] [0, 1] [1] [] [])

/-- The left operand's index at output entry j and contraction step p: (batch of j, channel of j, p). -/
theorem lhsIdx_bcp (j : (⟨3, ![B, C, V]⟩ : Shape).Idx) (p : Fin P) :
    (dotBCP wf).lhsIdx j ((contrEquiv1 (dotBCP wf) P rfl rfl).symm p) = ix3 (j 0) (j 1) p := by
  have hk := contrEquiv1_symm_val (dotBCP wf) P rfl rfl p
  funext a
  apply Fin.ext
  match a with
  | ⟨0, _⟩ => rfl
  | ⟨1, _⟩ => rfl
  | ⟨2, _⟩ => exact ((dotBCP wf).lhsIdx_val_of_single rfl j _).trans hk

/-- The right operand's index at output entry j and contraction step p: (p, column of j). -/
theorem rhsIdx_bcp (j : (⟨3, ![B, C, V]⟩ : Shape).Idx) (p : Fin P) :
    (dotBCP wf).rhsIdx j ((contrEquiv1 (dotBCP wf) P rfl rfl).symm p) = ix2 p (j 2) := by
  have hk := contrEquiv1_symm_val (dotBCP wf) P rfl rfl p
  funext a
  apply Fin.ext
  match a with
  | ⟨0, _⟩ => exact ((dotBCP wf).rhsIdx_val_of_single rfl j _).trans hk
  | ⟨1, _⟩ => rfl

/-- The product at (b, c, v) is the sum over p of left (b, c, p) times right (p, v). -/
theorem dot_bcp_apply (prec : Option ContractPrecision) (l : FVec Ideal ⟨3, ![B, C, P]⟩ φ₁) (r : FVec Ideal ⟨2, ![P, V]⟩ φ₂)
    (b : Fin B) (c : Fin C) (v : Fin V) :
    Host.dotGeneral (dotBCP wf) prec l r (ix3 b c v) = ∑ p : Fin P, l (ix3 b c p) * r (ix2 p v) := by
  simp only [Host.dotGeneral]
  rw [Ideal.dotGeneral_apply, ← Equiv.sum_comp (contrEquiv1 (dotBCP wf) P rfl rfl).symm]
  refine Finset.sum_congr rfl fun p _ => ?_
  rw [lhsIdx_bcp, rhsIdx_bcp]
  rfl

end Dot

/-! ## The weights broadcast over the batch axis -/

/-- A [C, V] array given a unit leading axis and then spread over B batches reads, at (b, c, v), its entry (c, v). -/
theorem bcast_w_apply {α : Type} {B C V : Nat} (x : (⟨2, ![C, V]⟩ : Shape).Idx → α)
    (h1 : (⟨2, ![C, V]⟩ : Shape).BroadcastsInDim ⟨3, ![1, C, V]⟩ (![1, 2] : Fin 2 → Fin 3))
    (h2 : (⟨3, ![1, C, V]⟩ : Shape).BroadcastsInDim ⟨3, ![B, C, V]⟩ (![0, 1, 2] : Fin 3 → Fin 3))
    (hC : C ≠ 1) (hV : V ≠ 1)
    (b : Fin B) (c : Fin C) (v : Fin V) :
    broadcastInDim ⟨3, ![B, C, V]⟩ ![0, 1, 2] h2 (broadcastInDim ⟨3, ![1, C, V]⟩ ![1, 2] h1 x) (ix3 b c v) = x (ix2 c v) := by
  refine (broadcastInDim_apply _ h2 _ (ix3 b c v) (ix3 (0 : Fin 1) c v) fun a => ?_).trans ?_
  · match a with
    | ⟨0, _⟩ => rfl
    | ⟨1, _⟩ => exact (if_neg hC).symm
    | ⟨2, _⟩ => exact (if_neg hV).symm
  · refine broadcastInDim_apply _ h1 x _ (ix2 c v) fun a => ?_
    match a with
    | ⟨0, _⟩ => exact (if_neg hC).symm
    | ⟨1, _⟩ => exact (if_neg hV).symm

/-! ## The four layers stacked on the channel axis -/

/-- The stack of four arrays of 64, 128, 256 and 512 channels read at (b, c, v): the array whose channel range holds c, at
    c less the channels before it. -/
theorem concat4_apply (u0 : FVec Ideal S8x64x8000 .f32) (u1 : FVec Ideal S8x128x8000 .f32) (u2 : FVec Ideal S8x256x8000 .f32)
    (u3 : FVec Ideal S8x512x8000 .f32)
    (hcat : Shape.Concatenates [S8x64x8000, S8x128x8000, S8x256x8000, S8x512x8000] S8x960x8000 1)
    (b : Fin 8) (c : Fin 960) (v : Fin 8000) :
    concatenate S8x960x8000 1 [⟨S8x64x8000, u0⟩, ⟨S8x128x8000, u1⟩, ⟨S8x256x8000, u2⟩, ⟨S8x512x8000, u3⟩] hcat (ix3 b c v)
      = if h0 : c.val < 64 then u0 (ix3 b ⟨c.val, h0⟩ v)
        else if h1 : c.val < 192 then u1 (ix3 b ⟨c.val - 64, by omega⟩ v)
        else if h2 : c.val < 448 then u2 (ix3 b ⟨c.val - 192, by omega⟩ v)
        else u3 (ix3 b ⟨c.val - 448, by have := c.isLt; omega⟩ v) := by
  by_cases h0 : c.val < 64
  · rw [dif_pos h0]
    refine concatenate_apply_piece (t := S8x960x8000) (1 : Fin 3) [⟨S8x64x8000, u0⟩, ⟨S8x128x8000, u1⟩, ⟨S8x256x8000, u2⟩, ⟨S8x512x8000, u3⟩] hcat (ix3 b c v) 0 (by show 0 < 4; omega) S8x64x8000 u0 rfl rfl 0 rfl
      (ix3 b ⟨c.val, h0⟩ v) (fun a ha => ?_) (by show 0 + c.val = c.val; omega)
    match a with
    | ⟨0, _⟩ => rfl
    | ⟨1, _⟩ => exact absurd rfl ha
    | ⟨2, _⟩ => rfl
  rw [dif_neg h0]
  by_cases h1 : c.val < 192
  · rw [dif_pos h1]
    refine concatenate_apply_piece (t := S8x960x8000) (1 : Fin 3) [⟨S8x64x8000, u0⟩, ⟨S8x128x8000, u1⟩, ⟨S8x256x8000, u2⟩, ⟨S8x512x8000, u3⟩] hcat (ix3 b c v) 1 (by show 1 < 4; omega) S8x128x8000 u1 rfl rfl 64 rfl
      (ix3 b ⟨c.val - 64, by omega⟩ v) (fun a ha => ?_) (by show 64 + (c.val - 64) = c.val; omega)
    match a with
    | ⟨0, _⟩ => rfl
    | ⟨1, _⟩ => exact absurd rfl ha
    | ⟨2, _⟩ => rfl
  rw [dif_neg h1]
  by_cases h2 : c.val < 448
  · rw [dif_pos h2]
    refine concatenate_apply_piece (t := S8x960x8000) (1 : Fin 3) [⟨S8x64x8000, u0⟩, ⟨S8x128x8000, u1⟩, ⟨S8x256x8000, u2⟩, ⟨S8x512x8000, u3⟩] hcat (ix3 b c v) 2 (by show 2 < 4; omega) S8x256x8000 u2 rfl rfl 192 rfl
      (ix3 b ⟨c.val - 192, by omega⟩ v) (fun a ha => ?_) (by show 192 + (c.val - 192) = c.val; omega)
    match a with
    | ⟨0, _⟩ => rfl
    | ⟨1, _⟩ => exact absurd rfl ha
    | ⟨2, _⟩ => rfl
  rw [dif_neg h2]
  refine concatenate_apply_piece (t := S8x960x8000) (1 : Fin 3) [⟨S8x64x8000, u0⟩, ⟨S8x128x8000, u1⟩, ⟨S8x256x8000, u2⟩, ⟨S8x512x8000, u3⟩] hcat (ix3 b c v) 3 (by show 3 < 4; omega) S8x512x8000 u3 rfl rfl 448 rfl
    (ix3 b ⟨c.val - 448, by have := c.isLt; omega⟩ v) (fun a ha => ?_) (by show 448 + (c.val - 448) = c.val; omega)
  match a with
  | ⟨0, _⟩ => rfl
  | ⟨1, _⟩ => exact absurd rfl ha
  | ⟨2, _⟩ => rfl

/-! ## One layer at an index -/

/-- A layer's term at (b, c, v) is the specification's layer: the contraction over the flattened positions of the feature
    map times the leaky table's column, times the weight's column, the column being the one the index word names. -/
theorem layer_eq {C h : Nat}
    (f : FVec Ideal ⟨4, ![8, C, h, h]⟩ .f32) (r : FVec Ideal ⟨3, ![h, h, 20000]⟩ .f32) (w : FVec Ideal ⟨2, ![C, 20000]⟩ .f32)
    (idx : IVec S8000 32) (hidx : ∀ v : Fin 8000, (idx (ix1 v)).toNat < 20000) (hC : C ≠ 1)
    (g3 : GatherDims ⟨3, ![h, h, 20000]⟩ S8000x1 ⟨3, ![h, h, 8000]⟩)
    (hoff3 : g3.offsetDims = [0, 1]) (hcol3 : g3.collapsedSliceDims = [2]) (hob3 : g3.operandBatchingDims = [])
    (hsb3 : g3.startIndicesBatchingDims = []) (hmap3 : g3.startIndexMap = [2]) (hiv3 : g3.indexVectorDim = 1)
    (hsl3 : g3.sliceSizes = ![h, h, 1])
    (g2 : GatherDims ⟨2, ![C, 20000]⟩ S8000x1 ⟨2, ![C, 8000]⟩)
    (hoff2 : g2.offsetDims = [0]) (hcol2 : g2.collapsedSliceDims = [1]) (hob2 : g2.operandBatchingDims = [])
    (hsb2 : g2.startIndicesBatchingDims = []) (hmap2 : g2.startIndexMap = [1]) (hiv2 : g2.indexVectorDim = 1)
    (hsl2 : g2.sliceSizes = ![C, 1])
    (wfd : DotDims.WF ⟨3, ![8, C, h * h]⟩ ⟨2, ![h * h, 8000]⟩ ⟨3, ![8, C, 8000]⟩ [2] [0] [0, 1] [1] [] [])
    (hs1 : (⟨3, ![h, h, 8000]⟩ : Shape).ShapeCasts ⟨2, ![h * h, 8000]⟩)
    (hs2 : (⟨4, ![8, C, h, h]⟩ : Shape).ShapeCasts ⟨3, ![8, C, h * h]⟩)
    (hb0 : S_.BroadcastsInDim ⟨2, ![h * h, 8000]⟩ (![] : Fin 0 → Fin 2))
    (hb1 : (⟨2, ![C, 8000]⟩ : Shape).BroadcastsInDim ⟨3, ![1, C, 8000]⟩ (![1, 2] : Fin 2 → Fin 3))
    (hb2 : (⟨3, ![1, C, 8000]⟩ : Shape).BroadcastsInDim ⟨3, ![8, C, 8000]⟩ (![0, 1, 2] : Fin 3 → Fin 3))
    (hbi : S8000.BroadcastsInDim S8000x1 (![0] : Fin 1 → Fin S8000x1.rank))
    (b : Fin 8) (c : Fin C) (v : Fin 8000) :
    mulf (F := Ideal) (φ := .f32)
        (Host.dotGeneral (F := Ideal) (φ₁ := .f32) (φ₂ := .f32) (dotBCP wfd) none (shapeCast ⟨3, ![8, C, h * h]⟩ f hs2)
          (select
            (cmpf (F := Ideal) (φ := .f32) .oge
              (shapeCast ⟨2, ![h * h, 8000]⟩ (Host.gather g3 r (broadcastInDim S8000x1 ![0] hbi idx)) hs1)
              (broadcastInDim ⟨2, ![h * h, 8000]⟩ ![] hb0 (constant (F := Ideal) S_ .f32 0x00000000#32)))
            (shapeCast ⟨2, ![h * h, 8000]⟩ (Host.gather g3 r (broadcastInDim S8000x1 ![0] hbi idx)) hs1)
            (mulf (F := Ideal) (φ := .f32)
              (broadcastInDim ⟨2, ![h * h, 8000]⟩ ![] hb0 (constant (F := Ideal) S_ .f32 0x3C23D70A#32))
              (shapeCast ⟨2, ![h * h, 8000]⟩ (Host.gather g3 r (broadcastInDim S8000x1 ![0] hbi idx)) hs1))))
        (broadcastInDim ⟨3, ![8, C, 8000]⟩ ![0, 1, 2] hb2
          (broadcastInDim ⟨3, ![1, C, 8000]⟩ ![1, 2] hb1 (Host.gather g2 w (broadcastInDim S8000x1 ![0] hbi idx))))
        (ix3 b c v)
      = Cert.Spec.layer C h f r w idx b c v := by
  unfold Cert.Spec.layer
  rw [mulf_apply]
  refine congr (congrArg _ ?_) ?_
  · -- the contraction, position by position
    rw [dot_bcp_apply]
    refine Finset.sum_congr rfl fun p _ => ?_
    rw [reshape_bchh_apply, lrelu_apply, reshape_hhn_apply,
      Cert.LibColGather.gather_cols3_apply_of_toInt g3 hoff3 hcol3 hob3 hsb3 hmap3 hiv3 hsl3 r _ _ _ v
        (Cert.Spec.col (idx (ix1 v))) (start_toInt idx hbi v (hidx v))]
  · -- the gathered weight
    rw [bcast_w_apply _ hb1 hb2 hC (by decide),
      Cert.LibColGather.gather_cols_apply_of_toInt g2 hoff2 hcol2 hob2 hsb2 hmap2 hiv2 hsl2 w _ c v
        (Cert.Spec.col (idx (ix1 v))) (start_toInt idx hbi v (hidx v))]

/-! ## The specification at an index -/

/-- The specification read at (b, c, v), by the channel range. -/
theorem G_apply (a0 : FVec Ideal S8x64x56x56 .f32) (a1 : FVec Ideal S8x128x28x28 .f32) (a2 : FVec Ideal S8x256x14x14 .f32) (a3 : FVec Ideal S8x512x7x7 .f32)
    (a4 : FVec Ideal S56x56x20000 .f32) (a5 : FVec Ideal S28x28x20000 .f32) (a6 : FVec Ideal S14x14x20000 .f32) (a7 : FVec Ideal S7x7x20000 .f32)
    (a8 : FVec Ideal S64x20000 .f32) (a9 : FVec Ideal S128x20000 .f32) (a10 : FVec Ideal S256x20000 .f32) (a11 : FVec Ideal S512x20000 .f32)
    (a12 : IVec S8000 32) (b : Fin 8) (c : Fin 960) (v : Fin 8000) :
    Cert.Spec.G a0 a1 a2 a3 a4 a5 a6 a7 a8 a9 a10 a11 a12 (ix3 b c v)
      = if h0 : c.val < 64 then Cert.Spec.layer 64 56 a0 a4 a8 a12 b ⟨c.val, h0⟩ v
        else if h1 : c.val < 192 then Cert.Spec.layer 128 28 a1 a5 a9 a12 b ⟨c.val - 64, by omega⟩ v
        else if h2 : c.val < 448 then Cert.Spec.layer 256 14 a2 a6 a10 a12 b ⟨c.val - 192, by omega⟩ v
        else Cert.Spec.layer 512 7 a3 a7 a11 a12 b ⟨c.val - 448, by have := c.isLt; omega⟩ v := rfl

/-! ## The four layers of the reference -/

section Layers
open Cert.ReferenceIdeal.Facts₀

variable (a12 : IVec S8000 32) (hidx : ∀ v : Fin 8000, (a12 (ix1 v)).toNat < 20000)
include hidx

/-- Layer 0 of the reference at (b, c, v) is the specification's layer 0. -/
theorem refLayer0_apply (a0 : FVec Ideal S8x64x56x56 .f32) (a4 : FVec Ideal S56x56x20000 .f32) (a8 : FVec Ideal S64x20000 .f32)
    (b : Fin 8) (c : Fin 64) (v : Fin 8000) :
    refLayer0 a0 a4 a8 a12 (ix3 b c v) = Cert.Spec.layer 64 56 a0 a4 a8 a12 b c v := by
  unfold refLayer0 refDot0 refW0 refLeaky0 refTab0 refIdxCol
  rw [show refIdx a12 = a12 from normIdx_eq a12 bcast_S_S8000 hidx]
  exact layer_eq (C := 64) (h := 56) a0 a4 a8 a12 hidx (by decide)
    gather_S56x56x20000_S8000x1_S56x56x8000_01_2_n_n_2_1_56561 rfl rfl rfl rfl rfl rfl rfl
    gather_S64x20000_S8000x1_S64x8000_0_1_n_n_1_1_641 rfl rfl rfl rfl rfl rfl rfl
    dot_S8x64x3136_S3136x8000_S8x64x8000_2_0_01_1_n_n_wf shapeCasts_S56x56x8000_S3136x8000 shapeCasts_S8x64x56x56_S8x64x3136
    bcast_S_S3136x8000 bcast_S64x8000_S1x64x8000_1_2 bcast_S1x64x8000_S8x64x8000_0_1_2 bcast_S8000_S8000x1_0 b c v

/-- Layer 1 of the reference at (b, c, v) is the specification's layer 1. -/
theorem refLayer1_apply (a1 : FVec Ideal S8x128x28x28 .f32) (a5 : FVec Ideal S28x28x20000 .f32) (a9 : FVec Ideal S128x20000 .f32)
    (b : Fin 8) (c : Fin 128) (v : Fin 8000) :
    refLayer1 a1 a5 a9 a12 (ix3 b c v) = Cert.Spec.layer 128 28 a1 a5 a9 a12 b c v := by
  unfold refLayer1 refDot1 refW1 refLeaky1 refTab1 refIdxCol
  rw [show refIdx a12 = a12 from normIdx_eq a12 bcast_S_S8000 hidx]
  exact layer_eq (C := 128) (h := 28) a1 a5 a9 a12 hidx (by decide)
    gather_S28x28x20000_S8000x1_S28x28x8000_01_2_n_n_2_1_28281 rfl rfl rfl rfl rfl rfl rfl
    gather_S128x20000_S8000x1_S128x8000_0_1_n_n_1_1_1281 rfl rfl rfl rfl rfl rfl rfl
    dot_S8x128x784_S784x8000_S8x128x8000_2_0_01_1_n_n_wf shapeCasts_S28x28x8000_S784x8000 shapeCasts_S8x128x28x28_S8x128x784
    bcast_S_S784x8000 bcast_S128x8000_S1x128x8000_1_2 bcast_S1x128x8000_S8x128x8000_0_1_2 bcast_S8000_S8000x1_0 b c v

/-- Layer 2 of the reference at (b, c, v) is the specification's layer 2. -/
theorem refLayer2_apply (a2 : FVec Ideal S8x256x14x14 .f32) (a6 : FVec Ideal S14x14x20000 .f32) (a10 : FVec Ideal S256x20000 .f32)
    (b : Fin 8) (c : Fin 256) (v : Fin 8000) :
    refLayer2 a2 a6 a10 a12 (ix3 b c v) = Cert.Spec.layer 256 14 a2 a6 a10 a12 b c v := by
  unfold refLayer2 refDot2 refW2 refLeaky2 refTab2 refIdxCol
  rw [show refIdx a12 = a12 from normIdx_eq a12 bcast_S_S8000 hidx]
  exact layer_eq (C := 256) (h := 14) a2 a6 a10 a12 hidx (by decide)
    gather_S14x14x20000_S8000x1_S14x14x8000_01_2_n_n_2_1_14141 rfl rfl rfl rfl rfl rfl rfl
    gather_S256x20000_S8000x1_S256x8000_0_1_n_n_1_1_2561 rfl rfl rfl rfl rfl rfl rfl
    dot_S8x256x196_S196x8000_S8x256x8000_2_0_01_1_n_n_wf shapeCasts_S14x14x8000_S196x8000 shapeCasts_S8x256x14x14_S8x256x196
    bcast_S_S196x8000 bcast_S256x8000_S1x256x8000_1_2 bcast_S1x256x8000_S8x256x8000_0_1_2 bcast_S8000_S8000x1_0 b c v

/-- Layer 3 of the reference at (b, c, v) is the specification's layer 3. -/
theorem refLayer3_apply (a3 : FVec Ideal S8x512x7x7 .f32) (a7 : FVec Ideal S7x7x20000 .f32) (a11 : FVec Ideal S512x20000 .f32)
    (b : Fin 8) (c : Fin 512) (v : Fin 8000) :
    refLayer3 a3 a7 a11 a12 (ix3 b c v) = Cert.Spec.layer 512 7 a3 a7 a11 a12 b c v := by
  unfold refLayer3 refDot3 refW3 refLeaky3 refTab3 refIdxCol
  rw [show refIdx a12 = a12 from normIdx_eq a12 bcast_S_S8000 hidx]
  exact layer_eq (C := 512) (h := 7) a3 a7 a11 a12 hidx (by decide)
    gather_S7x7x20000_S8000x1_S7x7x8000_01_2_n_n_2_1_771 rfl rfl rfl rfl rfl rfl rfl
    gather_S512x20000_S8000x1_S512x8000_0_1_n_n_1_1_5121 rfl rfl rfl rfl rfl rfl rfl
    dot_S8x512x49_S49x8000_S8x512x8000_2_0_01_1_n_n_wf shapeCasts_S7x7x8000_S49x8000 shapeCasts_S8x512x7x7_S8x512x49
    bcast_S_S49x8000 bcast_S512x8000_S1x512x8000_1_2 bcast_S1x512x8000_S8x512x8000_0_1_2 bcast_S8000_S8000x1_0 b c v

end Layers

/-! ## The stack -/

/-- The reference's term is the specification, when every index word read unsigned is below 20000. -/
theorem refOut_eq_G (a0 : FVec Ideal S8x64x56x56 .f32) (a1 : FVec Ideal S8x128x28x28 .f32) (a2 : FVec Ideal S8x256x14x14 .f32) (a3 : FVec Ideal S8x512x7x7 .f32)
    (a4 : FVec Ideal S56x56x20000 .f32) (a5 : FVec Ideal S28x28x20000 .f32) (a6 : FVec Ideal S14x14x20000 .f32) (a7 : FVec Ideal S7x7x20000 .f32)
    (a8 : FVec Ideal S64x20000 .f32) (a9 : FVec Ideal S128x20000 .f32) (a10 : FVec Ideal S256x20000 .f32) (a11 : FVec Ideal S512x20000 .f32)
    (a12 : IVec S8000 32)
    (hidx : ∀ v : Fin 8000, (a12 (ix1 v)).toNat < 20000) :
    refOut a0 a1 a2 a3 a4 a5 a6 a7 a8 a9 a10 a11 a12 = Cert.Spec.G a0 a1 a2 a3 a4 a5 a6 a7 a8 a9 a10 a11 a12 := by
  funext j
  obtain ⟨b, c, v, rfl⟩ : ∃ (b : Fin 8) (c : Fin 960) (v : Fin 8000), j = ix3 b c v := ⟨j 0, j 1, j 2, eq_ix3 j⟩
  unfold refOut
  rw [concat4_apply, G_apply]
  -- by the channel range, as the specification does
  by_cases h0 : c.val < 64
  · rw [dif_pos h0, dif_pos h0]
    exact refLayer0_apply a12 hidx a0 a4 a8 b _ v
  rw [dif_neg h0, dif_neg h0]
  by_cases h1 : c.val < 192
  · rw [dif_pos h1, dif_pos h1]
    exact refLayer1_apply a12 hidx a1 a5 a9 b _ v
  rw [dif_neg h1, dif_neg h1]
  by_cases h2 : c.val < 448
  · rw [dif_pos h2, dif_pos h2]
    exact refLayer2_apply a12 hidx a2 a6 a10 b _ v
  rw [dif_neg h2, dif_neg h2]
  exact refLayer3_apply a12 hidx a3 a7 a11 b _ v

end Cert.ReferenceIdeal.Hand

end
-- ==== Proof.KI.Defs.lean ====
/-
  What one region leaves in the shared result array, as a function of the arrays the region finds.

  Region i multiplies a feature array fm : [8, C, P] by a table rs : [P, 8000] over the flattened spatial axis and scales
  by weights ws : [C, 8000]; it writes channels off ≤ c < off + C of the [8, 960, 8000] result and touches nothing else:

      (b, c, v) ↦ (Σ_p fm[b, c − off, p] · rs[p, v]) · ws[c − off, v]   on its channel range,   the entry contents elsewhere.
-/
import proofs.«420513_j51462298141020_3_alg».proof.KernelIdeal
import proofs.«420513_j51462298141020_3_alg».proof.Proof.Gen.KernelIdeal
import Idealize.ShloMosaic.PureOps.Ideal
import Idealize.ShloMosaic.Lib.ValueIdx

noncomputable section

namespace Cert.KernelIdeal.Hand

open Cert.KernelIdeal
open Idealize.ShloMosaic Idealize.ShloMosaic.TcCoe Idealize.SL.Sem Idealize.ShloMosaic.ValueIdx

/-- One layer written into the shared result. -/
def layerInto (C P off : Nat) (fm : FVec Ideal ⟨3, ![8, C, P]⟩ .bf16) (rs : FVec Ideal ⟨2, ![P, 8000]⟩ .bf16)
    (ws : FVec Ideal ⟨2, ![C, 8000]⟩ .f32) (ob : FVec Ideal ⟨3, ![8, 960, 8000]⟩ .f32) :
    FVec Ideal ⟨3, ![8, 960, 8000]⟩ .f32 := fun i =>
  if h : off ≤ (i 1).val ∧ (i 1).val < off + C then
    (∑ p : Fin P, fm (ix3 (i 0) ⟨(i 1).val - off, by omega⟩ p) * rs (ix2 p (i 2))) * ws (ix2 ⟨(i 1).val - off, by omega⟩ (i 2))
  else ob i

/-- The TensorCore's buffer contents on every core at some point of the program. -/
abbrev Vals : Type := (c : Dev nD) → (b : Ref sig .tc) → Buf (Elt Ideal) ((c : Thread nD τ).loc b)

variable (V : Vals)

/-- What region 0 leaves in its result array `main_v8`, from the contents `V` it is entered with. -/
def G0 (c : Dev nD) : FVec Ideal S8x960x8000 .f32 := layerInto 64 3136 0 (V c main_v7) (V c main_v4) (V c main_v5) (V c main_v8)
/-- Region 1: result array `main_v16`. -/
def G1 (c : Dev nD) : FVec Ideal S8x960x8000 .f32 := layerInto 128 784 64 (V c main_v15) (V c main_v12) (V c main_v13) (V c main_v16)
/-- Region 2: result array `main_v24`. -/
def G2 (c : Dev nD) : FVec Ideal S8x960x8000 .f32 := layerInto 256 196 192 (V c main_v23) (V c main_v20) (V c main_v21) (V c main_v24)
/-- Region 3: result array `main_v32`. -/
def G3 (c : Dev nD) : FVec Ideal S8x960x8000 .f32 := layerInto 512 49 448 (V c main_v31) (V c main_v28) (V c main_v29) (V c main_v32)

end Cert.KernelIdeal.Hand

end
-- ==== Proof.KI.RunCond.lean ====
/-
  The launch of the four-region program with every unscoped buffer's final contents named: from one segment record
  per region, entered from the valuation the items before it leave and left at the valuation after it, every weakly
  fair execution terminates and each unscoped buffer of each core ends holding the last valuation.
-/
import proofs.«420513_j51462298141020_3_alg».proof.Proof.Gen.KernelIdeal.Regions
import proofs.«420513_j51462298141020_3_alg».proof.Proof.KI.Defs

set_option maxRecDepth 1640

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

/-! ## The run, given the regions' records: every unscoped buffer read at the end -/

set_option backward.isDefEq.respectTransparency.types false in
/-- From one segment record per region, entered from the valuation before it and left at the one after it, every
    weakly fair execution from memory `m` with zero counters terminates, and in every final memory each unscoped
    buffer of each core holds the last valuation `V29 m outs c`. -/
theorem run_cond {Ix : Type} [DecidableEq Ix] {U : Type} [URA U] {Lvl : Type} [Preorder Lvl]
    (m : (ℓ : Loc nD τ sig) → Buf (Elt Ideal) ℓ)
    (EP : Emb (URounds (GSem nD τ sig) Unit) (MT nD τ sig Ix (Elt Ideal) ℕ U Lvl)) [EP.LandsIn (upEmb : UEmb _ (MT nD τ sig Ix (Elt Ideal) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := Ideal))
    (pdats : (p : Fin 4) → (c : Dev nD) → Dat τ (Elt Ideal) Ix ℕ U Lvl (cfgs p) c)
    (O₀ : Dev nD → CellTallies nD τ sig Ix) (G : Dev nD → sProp (MT nD τ sig Ix (Elt Ideal) ℕ U Lvl)) (u₀ : U)
    (hu₀ : (ownU u₀ : sProp (MT nD τ sig Ix (Elt Ideal) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt Ideal) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt Ideal) ℕ U Lvl)))
    (hE4 : ∀ c : Dev nD, E 4 c ⊢ (iprop(∃ W, owes (c : Thread nD τ) (0 : CellTallies nD τ sig Ix) W) : sProp (MT nD τ sig Ix (Elt Ideal) ℕ U Lvl)))
    (R0 : RegionSeg (pcfgs (F := Ideal)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := Ideal)) adm pdats ι defs₀ 𝒱₀ L lv 1)
    (hpre1 : ∀ c : Dev nD, iprop(StableHlo.held (c : Thread nD τ) (Pipeline.ucRefs τ sig) (V14 m outs c) ∗ E 1 c) ⊢ R1.pre c)
    (hpost1 : ∀ c : Dev nD, R1.post c ⊢ iprop(StableHlo.held (c : Thread nD τ) (Pipeline.ucRefs τ sig) (V15 m outs c) ∗ E 2 c))
    (R2 : RegionSeg (pcfgs (F := Ideal)) adm pdats ι defs₀ 𝒱₀ L lv 2)
    (hpre2 : ∀ c : Dev nD, iprop(StableHlo.held (c : Thread nD τ) (Pipeline.ucRefs τ sig) (V21 m outs c) ∗ E 2 c) ⊢ R2.pre c)
    (hpost2 : ∀ c : Dev nD, R2.post c ⊢ iprop(StableHlo.held (c : Thread nD τ) (Pipeline.ucRefs τ sig) (V22 m outs c) ∗ E 3 c))
    (R3 : RegionSeg (pcfgs (F := Ideal)) adm pdats ι defs₀ 𝒱₀ L lv 3)
    (hpre3 : ∀ c : Dev nD, iprop(StableHlo.held (c : Thread nD τ) (Pipeline.ucRefs τ sig) (V28 m outs c) ∗ E 3 c) ⊢ R3.pre c)
    (hpost3 : ∀ c : Dev nD, R3.post c ⊢ iprop(StableHlo.held (c : Thread nD τ) (Pipeline.ucRefs τ sig) (V29 m outs c) ∗ E 4 c)) :
    θ_run defs (onTc (τ := τ) (main (F := Ideal))) ⟨m, fun _ => 0, ρ⟩ (fun r => ∀ c : Dev nD,
      ∀ b ∈ Pipeline.ucRefs τ sig, r.2.mem ((c : Thread nD τ).1, b) = V29 m outs c b) := by
  refine Pipeline.θ_run_regions_kit_dev (pcfgs (F := Ideal)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0, StableHlo.seq hostOps0_1, StableHlo.seq hostOps0_2, StableHlo.seq hostOps0_3,
          StableHlo.seq hostOps0_4, StableHlo.seq hostOps0_5, StableHlo.seq hostOps0_6,
          Prog.lift (.customCall (Pipeline.entry 0) ()),
          StableHlo.seq hostOps1, StableHlo.seq hostOps1_1, StableHlo.seq hostOps1_2, StableHlo.seq hostOps1_3,
          StableHlo.seq hostOps1_4, StableHlo.seq hostOps1_5,
          Prog.lift (.customCall (Pipeline.entry 1) ()),
          StableHlo.seq hostOps2, StableHlo.seq hostOps2_1, StableHlo.seq hostOps2_2, StableHlo.seq hostOps2_3,
          StableHlo.seq hostOps2_4, StableHlo.seq hostOps2_5,
          Prog.lift (.customCall (Pipeline.entry 2) ()),
          StableHlo.seq hostOps3, StableHlo.seq hostOps3_1, StableHlo.seq hostOps3_2, StableHlo.seq hostOps3_3,
          StableHlo.seq hostOps3_4, StableHlo.seq hostOps3_5,
          Prog.lift (.customCall (Pipeline.entry 3) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V29 m outs c))
    (hch := fun c => ⟨.rfl, .rfl, .rfl, .rfl, .rfl, .rfl, .rfl, hpre0 c, hpost0 c, .rfl, .rfl, .rfl, .rfl, .rfl, hpre1 c, hpost1 c, .rfl, .rfl, .rfl, .rfl, .rfl, hpre2 c, hpost2 c, .rfl, .rfl, .rfl, .rfl, .rfl, hpre3 c, (hpost3 c).trans (sep_mono .rfl (hE4 c))⟩)
    (hinit := ?_)
    (QY := fun c s => ∀ b ∈ Pipeline.ucRefs τ sig, s.mem ((c : Thread nD τ).1, b) = V29 m outs c b)
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt Ideal) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V29 m outs c) s')
    isplitl [Hh] <;> iassumption

end Cert.KernelIdeal.Hand

end
-- ==== Proof.KI.Reg0.lean ====
/-
  Region 0 at the exact-real instance, at the contents `V` the region is entered with.

  The region's column blocks are 1024 columns wide and 8000 = 7 * 1024 + 832, so the last column block of the
  table window (1), the weight window (2) and the result window (3) overhangs its array, and only its 832 columns
  inside the array are moved. The feature window's (0) blocks tile its array and are never cut.

  After the body at a point, each input window's buffer holds the window's block of its array, and the result
  window's buffer holds the block of `G0 V c`; past the array's end each is filled out with the zero word, which
  nothing reads.
-/
import proofs.«420513_j51462298141020_3_alg».proof.Proof.KI.Defs
import proofs.«420513_j51462298141020_3_alg».proof.Proof.Gen.KernelIdeal.Launch
import proofs.«420513_j51462298141020_3_alg».proof.Proof.Gen.KernelIdeal.Skeleton
import proofs.«420513_j51462298141020_3_alg».proof.Proof.Gen.KernelIdeal.Points
import Idealize.ShloMosaic.Lib.Pipeline.FrameBody
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # Region 0 -/

/-! ## What the buffers hold after the body -/

/-- Region 0's data on core `c`: the arrays as the region finds them (`V`); after the body at point `t` each
    input window's buffer at its block of its array and the result window's at the block of `G0 V c`, each
    filled out past the array's end with the zero word; full shares; nothing owed. -/
def dat0 (V : Vals) (c : Dev nD) : Dat τ (Elt Ideal) Unit ℕ (UR sig nD τ) ℕ cfg0 c where
  A w := V c (Pipeline.arrRef spec0 w)
  after w t := match w with
    | ⟨0, _⟩ => (cfg0.win 0).fill (cfg0.grid.coords t) (fun _ => Scalar.ofBits (F := Ideal) .bf16 0#16)
        (((cfg0.win 0).blk t).view.read (Elt Ideal) (V c (Pipeline.arrRef spec0 0)))
    | ⟨1, _⟩ => (cfg0.win 1).fill (cfg0.grid.coords t) (fun _ => Scalar.ofBits (F := Ideal) .bf16 0#16)
        (((cfg0.win 1).blk t).view.read (Elt Ideal) (V c (Pipeline.arrRef spec0 1)))
    | ⟨2, _⟩ => (cfg0.win 2).fill (cfg0.grid.coords t) (fun _ => Scalar.ofBits (F := Ideal) .f32 0#32)
        (((cfg0.win 2).blk t).view.read (Elt Ideal) (V c (Pipeline.arrRef spec0 2)))
    | ⟨3, _⟩ => (cfg0.win 3).fill (cfg0.grid.coords t) (fun _ => Scalar.ofBits (F := Ideal) .f32 0#32)
        (((cfg0.win 3).blk t).view.read (Elt Ideal) (G0 V c))
  Φ _ := Pipeline.ΦA spec0 c
  q _ := fullShare
  owed _ := 0

/-- The data's arrays are the entry contents. -/
theorem A_eq0 (V : Vals) (c : Dev nD) (w : Fin cfg0.W) : (dat0 V c).A w = V c (Pipeline.arrRef spec0 w) := by
  dsimp only [dat0]

/-- What the body leaves, window by window. -/
theorem after0_0 (V : Vals) (c : Dev nD) (t : Fin cfg0.N) :
    (dat0 V c).after 0 t = (cfg0.win 0).fill (cfg0.grid.coords t) (fun _ => Scalar.ofBits (F := Ideal) .bf16 0#16)
      (((cfg0.win 0).blk t).view.read (Elt Ideal) (V c (Pipeline.arrRef spec0 0))) := by dsimp only [dat0]
theorem after0_1 (V : Vals) (c : Dev nD) (t : Fin cfg0.N) :
    (dat0 V c).after 1 t = (cfg0.win 1).fill (cfg0.grid.coords t) (fun _ => Scalar.ofBits (F := Ideal) .bf16 0#16)
      (((cfg0.win 1).blk t).view.read (Elt Ideal) (V c (Pipeline.arrRef spec0 1))) := by dsimp only [dat0]
theorem after0_2 (V : Vals) (c : Dev nD) (t : Fin cfg0.N) :
    (dat0 V c).after 2 t = (cfg0.win 2).fill (cfg0.grid.coords t) (fun _ => Scalar.ofBits (F := Ideal) .f32 0#32)
      (((cfg0.win 2).blk t).view.read (Elt Ideal) (V c (Pipeline.arrRef spec0 2))) := by dsimp only [dat0]
theorem after0_3 (V : Vals) (c : Dev nD) (t : Fin cfg0.N) :
    (dat0 V c).after 3 t = (cfg0.win 3).fill (cfg0.grid.coords t) (fun _ => Scalar.ofBits (F := Ideal) .f32 0#32)
      (((cfg0.win 3).blk t).view.read (Elt Ideal) (G0 V c)) := by dsimp only [dat0]

/-- What the write-back at point `t` writes: the part inside the array of the result window's buffer, which is
    the block of `G0 V c` (the filler lies past the array's end and is cut away). -/
theorem flushed0_3 (V : Vals) (c : Dev nD) (t : Fin cfg0.N) :
    (dat0 V c).flushed 3 t = ((cfg0.win 3).blk t).view.read (Elt Ideal) (G0 V c) := by
  show (cfg0.win 3).cut (cfg0.grid.coords t) ((dat0 V c).after 3 t) = _
  rw [after0_3]; exact (cfg0.win 3).cut_fill _ _ _

/-! ## The body's accesses -/

/-- The feature buffer's eight slabs `[b, 0‥63, 0‥3135]`, the whole table and weight buffers, and the result
    buffer's eight slabs `[b, 0‥63, 0‥1023]`. -/
abbrev r0_a0 : Rect S8x64x3136 := Rect.unit (s := S8x64x3136) ![0, 0, 0] S1x64x3136.size inb_S8x64x3136_S1x64x3136_0_0_0
abbrev r0_a1 : Rect S8x64x3136 := Rect.unit (s := S8x64x3136) ![1, 0, 0] S1x64x3136.size inb_S8x64x3136_S1x64x3136_1_0_0
abbrev r0_a2 : Rect S8x64x3136 := Rect.unit (s := S8x64x3136) ![2, 0, 0] S1x64x3136.size inb_S8x64x3136_S1x64x3136_2_0_0
abbrev r0_a3 : Rect S8x64x3136 := Rect.unit (s := S8x64x3136) ![3, 0, 0] S1x64x3136.size inb_S8x64x3136_S1x64x3136_3_0_0
abbrev r0_a4 : Rect S8x64x3136 := Rect.unit (s := S8x64x3136) ![4, 0, 0] S1x64x3136.size inb_S8x64x3136_S1x64x3136_4_0_0
abbrev r0_a5 : Rect S8x64x3136 := Rect.unit (s := S8x64x3136) ![5, 0, 0] S1x64x3136.size inb_S8x64x3136_S1x64x3136_5_0_0
abbrev r0_a6 : Rect S8x64x3136 := Rect.unit (s := S8x64x3136) ![6, 0, 0] S1x64x3136.size inb_S8x64x3136_S1x64x3136_6_0_0
abbrev r0_a7 : Rect S8x64x3136 := Rect.unit (s := S8x64x3136) ![7, 0, 0] S1x64x3136.size inb_S8x64x3136_S1x64x3136_7_0_0
abbrev r0_b : Rect S3136x1024 := Rect.unit (s := S3136x1024) ![0, 0] S3136x1024.size inb_S3136x1024_S3136x1024_0_0
abbrev r0_w : Rect S64x1024 := Rect.unit (s := S64x1024) ![0, 0] S64x1024.size inb_S64x1024_S64x1024_0_0
abbrev r0_o0 : Rect S8x64x1024 := Rect.unit (s := S8x64x1024) ![0, 0, 0] S1x64x1024.size inb_S8x64x1024_S1x64x1024_0_0_0
abbrev r0_o1 : Rect S8x64x1024 := Rect.unit (s := S8x64x1024) ![1, 0, 0] S1x64x1024.size inb_S8x64x1024_S1x64x1024_1_0_0
abbrev r0_o2 : Rect S8x64x1024 := Rect.unit (s := S8x64x1024) ![2, 0, 0] S1x64x1024.size inb_S8x64x1024_S1x64x1024_2_0_0
abbrev r0_o3 : Rect S8x64x1024 := Rect.unit (s := S8x64x1024) ![3, 0, 0] S1x64x1024.size inb_S8x64x1024_S1x64x1024_3_0_0
abbrev r0_o4 : Rect S8x64x1024 := Rect.unit (s := S8x64x1024) ![4, 0, 0] S1x64x1024.size inb_S8x64x1024_S1x64x1024_4_0_0
abbrev r0_o5 : Rect S8x64x1024 := Rect.unit (s := S8x64x1024) ![5, 0, 0] S1x64x1024.size inb_S8x64x1024_S1x64x1024_5_0_0
abbrev r0_o6 : Rect S8x64x1024 := Rect.unit (s := S8x64x1024) ![6, 0, 0] S1x64x1024.size inb_S8x64x1024_S1x64x1024_6_0_0
abbrev r0_o7 : Rect S8x64x1024 := Rect.unit (s := S8x64x1024) ![7, 0, 0] S1x64x1024.size inb_S8x64x1024_S1x64x1024_7_0_0

/-! ## What the body leaves in the result window's buffer -/

/-- The result window's buffer after the body, from what the three input buffers hold: its eight stores as
    pieces, last first. Slab `b` is the matrix product of the feature buffer's slab `b` (64 × 3136) with the table
    buffer (3136 × 1024), accumulated onto zero, then multiplied entrywise by the weight buffer (64 × 1024). For
    slabs 3 and 7 the feature slab's reshaping to a matrix is a term of its own (`k0_pay7`, `k0_pay12`); for the
    other six it is inside the slab's term. The value is the same for all eight. -/
def out0_3 (X0 : Vec Ideal S8x64x3136 .bf16) (X1 : Vec Ideal S3136x1024 .bf16) (X2 : Vec Ideal S64x1024 .f32) :
    Vec Ideal S8x64x1024 .f32 :=
  View.canon [
    ⟨r0_o7, k0_pay1 (k0_pay2 (View.ld X1 r0_b)) (k0_pay3 (View.ld X2 r0_w)) (k0_pay12 (View.ld X0 r0_a7))⟩,
    ⟨r0_o6, k0_pay11 (k0_pay2 (View.ld X1 r0_b)) (k0_pay3 (View.ld X2 r0_w)) (View.ld X0 r0_a6)⟩,
    ⟨r0_o5, k0_pay10 (k0_pay2 (View.ld X1 r0_b)) (k0_pay3 (View.ld X2 r0_w)) (View.ld X0 r0_a5)⟩,
    ⟨r0_o4, k0_pay9 (k0_pay2 (View.ld X1 r0_b)) (k0_pay3 (View.ld X2 r0_w)) (View.ld X0 r0_a4)⟩,
    ⟨r0_o3, k0_pay8 (k0_pay2 (View.ld X1 r0_b)) (k0_pay3 (View.ld X2 r0_w)) (k0_pay7 (View.ld X0 r0_a3))⟩,
    ⟨r0_o2, k0_pay6 (View.ld X1 r0_b) (View.ld X2 r0_w) (View.ld X0 r0_a2)⟩,
    ⟨r0_o1, k0_pay5 (View.ld X1 r0_b) (View.ld X2 r0_w) (View.ld X0 r0_a1)⟩,
    ⟨r0_o0, k0_pay4 (View.ld X1 r0_b) (View.ld X2 r0_w) (View.ld X0 r0_a0)⟩]

/-- The eight slabs tile the buffer, so they cover it. -/
theorem cover0_3 (p7 p6 p5 p4 p3 p2 p1 p0 : Vec Ideal S1x64x1024 .f32) (y : S8x64x1024.Idx) :
    ∃ pc ∈ ([⟨r0_o7, p7⟩, ⟨r0_o6, p6⟩, ⟨r0_o5, p5⟩, ⟨r0_o4, p4⟩, ⟨r0_o3, p3⟩, ⟨r0_o2, p2⟩, ⟨r0_o1, p1⟩, ⟨r0_o0, p0⟩] : List (View.Piece (Elt Ideal) S8x64x1024 .f32)), y ∈ pc.1.set :=
  View.cover_of_tiled [⟨r0_o7, p7⟩, ⟨r0_o6, p6⟩, ⟨r0_o5, p5⟩, ⟨r0_o4, p4⟩, ⟨r0_o3, p3⟩, ⟨r0_o2, p2⟩, ⟨r0_o1, p1⟩, ⟨r0_o0, p0⟩] S1x64x1024.size (by rfl) y

/-! ## The body's triple -/

set_option maxHeartbeats 4000000 in
/-- The body on whole buffers, the inputs' holding `X0`, `X1`, `X2` and the result's anything, runs to the
    continuation with the inputs' as they were and the result's at `out0_3 X0 X1 X2`. The operand left in the
    outer memory is never touched. -/
theorem sound_kernel0 (c : Dev nD) (E : Set ℕ) (i : grid0.Coords)
    (arg2 : Memref sig .tc .vmem S8x64x3136 .bf16) (harg2 : arg2.IsWhole)
    (arg3 : Memref sig .tc .vmem S3136x1024 .bf16) (harg3 : arg3.IsWhole)
    (arg4 : Memref sig .tc .vmem S64x1024 .f32) (harg4 : arg4.IsWhole)
    (arg5 : Memref sig .tc .hbm S8x960x8000 .f32) (harg5 : arg5.IsWhole)
    (arg6 : Memref sig .tc .vmem S8x64x1024 .f32) (harg6 : arg6.IsWhole)
    (X0 : Vec Ideal S8x64x3136 .bf16) (X1 : Vec Ideal S3136x1024 .bf16) (X2 : Vec Ideal S64x1024 .f32)
    (K : PUnit → sProp 𝕄) :
    iprop(owns (c : Thread nD τ) arg2 fullShare X0 ∗ owns (c : Thread nD τ) arg3 fullShare X1
        ∗ owns (c : Thread nD τ) arg4 fullShare X2 ∗ (∃ d, owns (c : Thread nD τ) arg6 fullShare d)
        ∗ (iprop(owns (c : Thread nD τ) arg2 fullShare X0 ∗ owns (c : Thread nD τ) arg3 fullShare X1
              ∗ owns (c : Thread nD τ) arg4 fullShare X2
              ∗ owns (c : Thread nD τ) arg6 fullShare (out0_3 X0 X1 X2)) -∗ K ⟨⟩))
      ⊢ wp frame (wpE (defs₀ (F := Ideal)) Variants.none c none) E
          (cc0__layer_kernel i arg2 harg2 arg3 harg3 arg4 harg4 arg5 harg5 arg6 harg6) K := by
  simp only [cc0__layer_kernel_eq_skeleton]; unfold cc0__layer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _ _ _ _ _)

/-! ## What the body finds -/

/-- The feature window moves at the first point only, and its buffer is left as found: at every point it holds its
    block, fetched there or not. -/
theorem before0_0 (V : Vals) (c : Dev nD) (t : Fin cfg0.N) (d) :
    (dat0 V c).before 0 t d = (cfg0.win 0).fill (cfg0.grid.coords t) d (((cfg0.win 0).blk t).view.read (Elt Ideal) (V c (Pipeline.arrRef spec0 0))) :=
  ((dat0 V c).before_in_eq_fetched 0 rfl (fun _ => rfl) (fun _ _ _ => rfl)
    (fun t => by rw [after0_0, Window.cut_fill]; unfold Dat.blockOf; rw [A_eq0]) t d).trans
    (by unfold Dat.fetched Dat.blockOf; rw [A_eq0])

/-- The table and weight windows are inputs whose buffers the body leaves as found, and whose cuts depend only on
    the block index: at every point each holds its block on the columns inside the array and `d` past the array's
    end, fetched there or not (unfetched, the block index has not moved). -/
theorem before0_1 (V : Vals) (c : Dev nD) (t : Fin cfg0.N) (d) :
    (dat0 V c).before 1 t d = (cfg0.win 1).fill (cfg0.grid.coords t) d (((cfg0.win 1).blk t).view.read (Elt Ideal) (V c (Pipeline.arrRef spec0 1))) :=
  ((dat0 V c).before_in_eq_fetched 1 rfl (fun _ => rfl)
    (fun t t' h => funext fun a => by
      show Pipeline.Clip.of ((cfg0.win 1).index t a) _ _ = Pipeline.Clip.of ((cfg0.win 1).index t' a) _ _
      rw [h])
    (fun t => by rw [after0_1, Window.cut_fill]; unfold Dat.blockOf; rw [A_eq0]) t d).trans
    (by unfold Dat.fetched Dat.blockOf; rw [A_eq0])
theorem before0_2 (V : Vals) (c : Dev nD) (t : Fin cfg0.N) (d) :
    (dat0 V c).before 2 t d = (cfg0.win 2).fill (cfg0.grid.coords t) d (((cfg0.win 2).blk t).view.read (Elt Ideal) (V c (Pipeline.arrRef spec0 2))) :=
  ((dat0 V c).before_in_eq_fetched 2 rfl (fun _ => rfl)
    (fun t t' h => funext fun a => by
      show Pipeline.Clip.of ((cfg0.win 2).index t a) _ _ = Pipeline.Clip.of ((cfg0.win 2).index t' a) _ _
      rw [h])
    (fun t => by rw [after0_2, Window.cut_fill]; unfold Dat.blockOf; rw [A_eq0]) t d).trans
    (by unfold Dat.fetched Dat.blockOf; rw [A_eq0])

/-- The result window is written back at every point, so its buffer arrives holding anything. -/
theorem before0_3 (V : Vals) (c : Dev nD) (t : Fin cfg0.N) (d) : (dat0 V c).before 3 t d = d :=
  (dat0 V c).before_out_reset 3 rfl t
    (by by_cases h : t.val = 0
        · exact .inl h
        · exact .inr ⟨h, flush0_3 _⟩) d

/-- The feature window is never cut: what fills out its block past the part moved fills nothing. -/
theorem fill0_0_any (V : Vals) (c : Dev nD) (t : Fin cfg0.N) (d d') :
    (cfg0.win 0).fill (cfg0.grid.coords t) d (((cfg0.win 0).blk t).view.read (Elt Ideal) (V c (Pipeline.arrRef spec0 0))) = (cfg0.win 0).fill (cfg0.grid.coords t) d' (((cfg0.win 0).blk t).view.read (Elt Ideal) (V c (Pipeline.arrRef spec0 0))) :=
  Pipeline.fill_of_clip_none (cfg := cfg0) 0 _ (fun _ => rfl) d d' _

end Cert.KernelIdeal.Hand

end
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.KI.Pay0.lean ====
/-
  What the body of region 0 stores, at the exact values, read at an index.

  The body multiplies, for each of the eight batch rows b, the feature slab fm[b] : [64, 3136] by the table block
  rs : [3136, 1024] and scales by the weight block ws : [64, 1024]:

      stored (b, ch, j) = (Σ_p fm[b, ch, p] · rs[p, j]) · ws[ch, j].
-/
import proofs.«420513_j51462298141020_3_alg».proof.Proof.KI.Defs
import proofs.«420513_j51462298141020_3_alg».proof.Proof.Gen.KernelIdeal.Skeleton
import proofs.«420513_j51462298141020_3_alg».proof.Proof.LibPlainDot
import Idealize.ShloMosaic.Lib.Pipeline.Value

noncomputable section

namespace Cert.KernelIdeal.Hand

open Cert.KernelIdeal
open Idealize.ShloMosaic Idealize.ShloMosaic.TcCoe Idealize.SL.Sem Idealize.ShloMosaic.ValueIdx

/-! ## Layout casts between a [1, a, b] slab and an [a, b] matrix, read at coordinates -/

section Casts
variable {α : Type} {n1 n2 : Nat}

/-- A matrix viewed as a one-row slab reads (0, b, c) at (b, c). -/
theorem shapeCast_slab_apply (v : (⟨2, ![n1, n2]⟩ : Shape).Idx → α)
    (h : (⟨2, ![n1, n2]⟩ : Shape).ShapeCasts ⟨3, ![1, n1, n2]⟩) (a : Fin 1) (b : Fin n1) (c : Fin n2) :
    shapeCast ⟨3, ![1, n1, n2]⟩ v h (ix3 a b c) = v (ix2 b c) := by
  refine (shapeCast_addUnit_apply ![n1, n2] v h (ix3 a b c)).trans (congrArg v ?_)
  funext d
  match d with
  | ⟨0, _⟩ => rfl
  | ⟨1, _⟩ => rfl

/-- A one-row slab viewed as a matrix reads (b, c) at (0, b, c). -/
theorem shapeCast_matrix_apply (v : (⟨3, ![1, n1, n2]⟩ : Shape).Idx → α)
    (h : (⟨3, ![1, n1, n2]⟩ : Shape).ShapeCasts ⟨2, ![n1, n2]⟩) (b : Fin n1) (c : Fin n2) :
    shapeCast ⟨2, ![n1, n2]⟩ v h (ix2 b c) = v (ix3 0 b c) := by
  refine (shapeCast_dropUnit_apply ![n1, n2] v h (ix2 b c)).trans (congrArg v ?_)
  funext d
  match d with
  | ⟨0, _⟩ => rfl
  | ⟨1, _⟩ => rfl
  | ⟨2, _⟩ => rfl

end Casts

/-! ## The product of region 0, read at an entry -/

/-- The dimension numbers the body's products carry are the plain ones: rows by contraction times contraction by columns. -/
theorem dot0_eq_plain : dot_S64x3136_S3136x1024_S64x1024_1_0_0_1_n_n = DotDims.plain 64 3136 1024 := rfl

/-- A slab's product with the table block, scaled by the weight block, stored as a one-row slab: at (0, ch, j) it is
    (Σ_p slab (ch, p) · table (p, j)) · weight (ch, j). -/
theorem scaled_product_apply (fm : FVec Ideal S64x3136 .bf16) (rs : FVec Ideal S3136x1024 .bf16) (ws : FVec Ideal S64x1024 .f32)
    (h : S64x1024.ShapeCasts S1x64x1024) (a : Fin 1) (ch : Fin 64) (j : Fin 1024) :
    shapeCast S1x64x1024
        (mulf (matmul dot_S64x3136_S3136x1024_S64x1024_1_0_0_1_n_n none fm rs (constant (F := Ideal) S64x1024 .f32 0x00000000#32)) ws)
        h (ix3 a ch j)
      = (∑ p : Fin 3136, fm (ix2 ch p) * rs (ix2 p j)) * ws (ix2 ch j) := by
  rw [shapeCast_slab_apply, mulf_apply, dot0_eq_plain, PlainDot.matmul_zero_plain_apply]

/-! ## What the body stores, at an index

Each of the eight stores writes the scaled product of one batch row's slab. The slab reaches the product either as loaded
(a [1, 64, 3136] slab viewed as a matrix inside the payload) or already viewed as a matrix; the table and weight blocks
likewise either as loaded or already passed through their identity casts. -/

section Payloads
variable (v0 : Vec Ideal S3136x1024 .bf16) (v2 : Vec Ideal S64x1024 .f32) (v4 : Vec Ideal S1x64x3136 .bf16)
variable (v1 : FVec Ideal S3136x1024 .bf16) (v3 : FVec Ideal S64x1024 .f32) (m : FVec Ideal S64x3136 .bf16)
variable (ch : Fin 64) (j : Fin 1024)

/-- The table block's identity cast. -/
theorem k0_pay2_eq : Gen.k0_pay2 v0 = v0 := by
  unfold Gen.k0_pay2; exact shapeCast_self _ _

/-- The weight block's identity cast. -/
theorem k0_pay3_eq : Gen.k0_pay3 v2 = v2 := by
  unfold Gen.k0_pay3; exact shapeCast_self _ _

/-- A loaded slab viewed as a matrix reads (ch, p) at (0, ch, p). -/
theorem k0_pay7_apply (p : Fin 3136) : Gen.k0_pay7 v4 (ix2 ch p) = v4 (ix3 0 ch p) := by
  unfold Gen.k0_pay7; exact shapeCast_matrix_apply _ _ _ _

theorem k0_pay12_apply (p : Fin 3136) : Gen.k0_pay12 v4 (ix2 ch p) = v4 (ix3 0 ch p) := by
  unfold Gen.k0_pay12; exact shapeCast_matrix_apply _ _ _ _

/-- The store at batch row 0. -/
theorem k0_pay4_apply :
    Gen.k0_pay4 v0 v2 v4 (ix3 0 ch j) = (∑ p : Fin 3136, v4 (ix3 0 ch p) * v0 (ix2 p j)) * v2 (ix2 ch j) := by
  unfold Gen.k0_pay4
  rw [k0_pay2_eq, k0_pay3_eq, scaled_product_apply]
  exact congrArg (· * v2 (ix2 ch j)) (Finset.sum_congr rfl fun p _ => by rw [shapeCast_matrix_apply])

/-- The store at batch row 1. -/
theorem k0_pay5_apply :
    Gen.k0_pay5 v0 v2 v4 (ix3 0 ch j) = (∑ p : Fin 3136, v4 (ix3 0 ch p) * v0 (ix2 p j)) * v2 (ix2 ch j) := by
  unfold Gen.k0_pay5
  rw [k0_pay2_eq, k0_pay3_eq, scaled_product_apply]
  exact congrArg (· * v2 (ix2 ch j)) (Finset.sum_congr rfl fun p _ => by rw [shapeCast_matrix_apply])

/-- The store at batch row 2. -/
theorem k0_pay6_apply :
    Gen.k0_pay6 v0 v2 v4 (ix3 0 ch j) = (∑ p : Fin 3136, v4 (ix3 0 ch p) * v0 (ix2 p j)) * v2 (ix2 ch j) := by
  unfold Gen.k0_pay6
  rw [k0_pay2_eq, k0_pay3_eq, scaled_product_apply]
  exact congrArg (· * v2 (ix2 ch j)) (Finset.sum_congr rfl fun p _ => by rw [shapeCast_matrix_apply])

/-- The store at batch row 3: the slab arrives already viewed as a matrix. -/
theorem k0_pay8_apply :
    Gen.k0_pay8 v1 v3 m (ix3 0 ch j) = (∑ p : Fin 3136, m (ix2 ch p) * v1 (ix2 p j)) * v3 (ix2 ch j) := by
  unfold Gen.k0_pay8
  rw [scaled_product_apply]

/-- The store at batch row 4. -/
theorem k0_pay9_apply :
    Gen.k0_pay9 v1 v3 v4 (ix3 0 ch j) = (∑ p : Fin 3136, v4 (ix3 0 ch p) * v1 (ix2 p j)) * v3 (ix2 ch j) := by
  unfold Gen.k0_pay9
  rw [scaled_product_apply]
  exact congrArg (· * v3 (ix2 ch j)) (Finset.sum_congr rfl fun p _ => by rw [shapeCast_matrix_apply])

/-- The store at batch row 5. -/
theorem k0_pay10_apply :
    Gen.k0_pay10 v1 v3 v4 (ix3 0 ch j) = (∑ p : Fin 3136, v4 (ix3 0 ch p) * v1 (ix2 p j)) * v3 (ix2 ch j) := by
  unfold Gen.k0_pay10
  rw [scaled_product_apply]
  exact congrArg (· * v3 (ix2 ch j)) (Finset.sum_congr rfl fun p _ => by rw [shapeCast_matrix_apply])

/-- The store at batch row 6. -/
theorem k0_pay11_apply :
    Gen.k0_pay11 v1 v3 v4 (ix3 0 ch j) = (∑ p : Fin 3136, v4 (ix3 0 ch p) * v1 (ix2 p j)) * v3 (ix2 ch j) := by
  unfold Gen.k0_pay11
  rw [scaled_product_apply]
  exact congrArg (· * v3 (ix2 ch j)) (Finset.sum_congr rfl fun p _ => by rw [shapeCast_matrix_apply])

/-- The store at batch row 7: the slab arrives already viewed as a matrix. -/
theorem k0_pay1_apply :
    Gen.k0_pay1 v1 v3 m (ix3 0 ch j) = (∑ p : Fin 3136, m (ix2 ch p) * v1 (ix2 p j)) * v3 (ix2 ch j) := by
  unfold Gen.k0_pay1
  rw [scaled_product_apply]

end Payloads

end Cert.KernelIdeal.Hand

end
-- ==== Proof.KI.Out0.lean ====
/-
  The result buffer of region 0's body as one function of the three input buffers.

  The body's eight stores write, batch row by batch row, the scaled product of the feature buffer's row with the table
  buffer, scaled by the weight buffer; the eight rows tile the result buffer. So at every index (b, ch, j) the buffer holds

      (Σ_p features (b, ch, p) · table (p, j)) · weights (ch, j).
-/
import proofs.«420513_j51462298141020_3_alg».proof.Proof.KI.Pay0
import proofs.«420513_j51462298141020_3_alg».proof.Proof.KI.Reg0

noncomputable section

namespace Cert.KernelIdeal.Hand

open Cert.KernelIdeal
open Idealize.ShloMosaic Idealize.ShloMosaic.TcCoe Idealize.SL.Sem Idealize.ShloMosaic.ValueIdx

/-! ## The body's result buffer as one function of the three input buffers -/

/-- Batch row b, channel ch, column j of the result buffer: the feature buffer's row (b, ch, ·) times the table buffer's
    column j, scaled by the weight buffer at (ch, j). -/
def blockFn (X0 : Vec Ideal S8x64x3136 .bf16) (X1 : Vec Ideal S3136x1024 .bf16) (X2 : Vec Ideal S64x1024 .f32) :
    Vec Ideal S8x64x1024 .f32 := fun z =>
  (∑ p : Fin 3136, X0 (ix3 (z 0) (z 1) p) * X1 (ix2 p (z 2))) * X2 (ix2 (z 1) (z 2))

/-- Batch row k of the feature buffer, loaded as a one-row slab, reads (0, ch, p) at (k, ch, p). -/
theorem slab_ld (k : Nat) (hk : k < 8) (inb : ∀ a, (![k, 0, 0] : Fin 3 → Nat) a + S1x64x3136.size a ≤ S8x64x3136.size a)
    (X0 : Vec Ideal S8x64x3136 .bf16) (ch : Fin 64) (p : Fin 3136) :
    View.ld X0 (Rect.unit (s := S8x64x3136) ![k, 0, 0] S1x64x3136.size inb) (ix3 0 ch p) = X0 (ix3 ⟨k, hk⟩ ch p) := by
  refine congrArg X0 (funext fun a => Fin.ext ?_)
  match a with
  | ⟨0, _⟩ => show k + 1 * 0 = k; omega
  | ⟨1, _⟩ => show 0 + 1 * ch.val = ch.val; omega
  | ⟨2, _⟩ => show 0 + 1 * p.val = p.val; omega

/-- A one-row slab stored at batch row k of the result buffer sits at (k, ch, j). -/
theorem slab_emb (k : Nat) (hk : k < 8) (inb : ∀ a, (![k, 0, 0] : Fin 3 → Nat) a + S1x64x1024.size a ≤ S8x64x1024.size a)
    (ch : Fin 64) (j : Fin 1024) :
    (Rect.unit (s := S8x64x1024) ![k, 0, 0] S1x64x1024.size inb).emb (ix3 0 ch j) = ix3 ⟨k, hk⟩ ch j := by
  funext a
  apply Fin.ext
  rw [Rect.emb_apply]
  match a with
  | ⟨0, _⟩ => show k + 1 * 0 = k; omega
  | ⟨1, _⟩ => show 0 + 1 * ch.val = ch.val; omega
  | ⟨2, _⟩ => show 0 + 1 * j.val = j.val; omega

/-- A slab whose entries are the scaled products of batch row k is the result function's piece at batch row k. -/
theorem slab_piece (k : Nat) (hk : k < 8) (inb : ∀ a, (![k, 0, 0] : Fin 3 → Nat) a + S1x64x1024.size a ≤ S8x64x1024.size a)
    (X0 : Vec Ideal S8x64x3136 .bf16) (X1 : Vec Ideal S3136x1024 .bf16) (X2 : Vec Ideal S64x1024 .f32)
    (w : Vec Ideal S1x64x1024 .f32)
    (hw : ∀ (ch : Fin 64) (j : Fin 1024), w (ix3 0 ch j) = (∑ p : Fin 3136, X0 (ix3 ⟨k, hk⟩ ch p) * X1 (ix2 p j)) * X2 (ix2 ch j))
    (x : (Rect.unit (s := S8x64x1024) ![k, 0, 0] S1x64x1024.size inb).shape.Idx) :
    w x = blockFn X0 X1 X2 ((Rect.unit (s := S8x64x1024) ![k, 0, 0] S1x64x1024.size inb).emb x) := by
  obtain ⟨a, ch, j, rfl⟩ : ∃ (a : Fin 1) (ch : Fin 64) (j : Fin 1024), x = ix3 a ch j := ⟨x 0, x 1, x 2, eq_ix3 x⟩
  obtain rfl : a = 0 := Subsingleton.elim _ _
  rw [hw, slab_emb k hk]
  rfl

/-- The loads of the whole table and weight buffers read them. -/
theorem ld_b (X1 : Vec Ideal S3136x1024 .bf16) : View.ld X1 r0_b = X1 :=
  View.ld_unit_zero (funext fun a => by fin_cases a <;> rfl) _ X1
theorem ld_w (X2 : Vec Ideal S64x1024 .f32) : View.ld X2 r0_w = X2 :=
  View.ld_unit_zero (funext fun a => by fin_cases a <;> rfl) _ X2

/-- THE RESULT BUFFER after the body is that function of the input buffers, at every index: each of the eight stores
    writes its batch row of it, and the eight rows tile the buffer. -/
theorem out0_3_apply (X0 : Vec Ideal S8x64x3136 .bf16) (X1 : Vec Ideal S3136x1024 .bf16) (X2 : Vec Ideal S64x1024 .f32)
    (z : S8x64x1024.Idx) : out0_3 X0 X1 X2 z = blockFn X0 X1 X2 z := by
  unfold out0_3
  refine View.canon_apply_of_pieces (blockFn X0 X1 X2) _ ?_ z (cover0_3 _ _ _ _ _ _ _ _ z)
  intro p hp
  simp only [List.mem_cons, List.not_mem_nil, or_false] at hp
  rcases hp with rfl | rfl | rfl | rfl | rfl | rfl | rfl | rfl
  · refine slab_piece 7 (by omega) Gen.inb_S8x64x1024_S1x64x1024_7_0_0 X0 X1 X2 _ fun ch j => ?_
    rw [k0_pay2_eq, k0_pay3_eq, ld_b, ld_w]
    show Gen.k0_pay1 X1 X2 (Gen.k0_pay12 (View.ld X0 r0_a7)) (ix3 0 ch j) = _
    rw [k0_pay1_apply]
    exact congrArg (· * X2 (ix2 ch j)) (Finset.sum_congr rfl fun p _ => by rw [k0_pay12_apply, slab_ld 7 (by omega) Gen.inb_S8x64x3136_S1x64x3136_7_0_0])
  · refine slab_piece 6 (by omega) Gen.inb_S8x64x1024_S1x64x1024_6_0_0 X0 X1 X2 _ fun ch j => ?_
    rw [k0_pay2_eq, k0_pay3_eq, ld_b, ld_w]
    show Gen.k0_pay11 X1 X2 (View.ld X0 r0_a6) (ix3 0 ch j) = _
    rw [k0_pay11_apply]
    exact congrArg (· * X2 (ix2 ch j)) (Finset.sum_congr rfl fun p _ => by rw [slab_ld 6 (by omega) Gen.inb_S8x64x3136_S1x64x3136_6_0_0])
  · refine slab_piece 5 (by omega) Gen.inb_S8x64x1024_S1x64x1024_5_0_0 X0 X1 X2 _ fun ch j => ?_
    rw [k0_pay2_eq, k0_pay3_eq, ld_b, ld_w]
    show Gen.k0_pay10 X1 X2 (View.ld X0 r0_a5) (ix3 0 ch j) = _
    rw [k0_pay10_apply]
    exact congrArg (· * X2 (ix2 ch j)) (Finset.sum_congr rfl fun p _ => by rw [slab_ld 5 (by omega) Gen.inb_S8x64x3136_S1x64x3136_5_0_0])
  · refine slab_piece 4 (by omega) Gen.inb_S8x64x1024_S1x64x1024_4_0_0 X0 X1 X2 _ fun ch j => ?_
    rw [k0_pay2_eq, k0_pay3_eq, ld_b, ld_w]
    show Gen.k0_pay9 X1 X2 (View.ld X0 r0_a4) (ix3 0 ch j) = _
    rw [k0_pay9_apply]
    exact congrArg (· * X2 (ix2 ch j)) (Finset.sum_congr rfl fun p _ => by rw [slab_ld 4 (by omega) Gen.inb_S8x64x3136_S1x64x3136_4_0_0])
  · refine slab_piece 3 (by omega) Gen.inb_S8x64x1024_S1x64x1024_3_0_0 X0 X1 X2 _ fun ch j => ?_
    rw [k0_pay2_eq, k0_pay3_eq, ld_b, ld_w]
    show Gen.k0_pay8 X1 X2 (Gen.k0_pay7 (View.ld X0 r0_a3)) (ix3 0 ch j) = _
    rw [k0_pay8_apply]
    exact congrArg (· * X2 (ix2 ch j)) (Finset.sum_congr rfl fun p _ => by rw [k0_pay7_apply, slab_ld 3 (by omega) Gen.inb_S8x64x3136_S1x64x3136_3_0_0])
  · refine slab_piece 2 (by omega) Gen.inb_S8x64x1024_S1x64x1024_2_0_0 X0 X1 X2 _ fun ch j => ?_
    rw [ld_b, ld_w]
    show Gen.k0_pay6 X1 X2 (View.ld X0 r0_a2) (ix3 0 ch j) = _
    rw [k0_pay6_apply]
    exact congrArg (· * X2 (ix2 ch j)) (Finset.sum_congr rfl fun p _ => by rw [slab_ld 2 (by omega) Gen.inb_S8x64x3136_S1x64x3136_2_0_0])
  · refine slab_piece 1 (by omega) Gen.inb_S8x64x1024_S1x64x1024_1_0_0 X0 X1 X2 _ fun ch j => ?_
    rw [ld_b, ld_w]
    show Gen.k0_pay5 X1 X2 (View.ld X0 r0_a1) (ix3 0 ch j) = _
    rw [k0_pay5_apply]
    exact congrArg (· * X2 (ix2 ch j)) (Finset.sum_congr rfl fun p _ => by rw [slab_ld 1 (by omega) Gen.inb_S8x64x3136_S1x64x3136_1_0_0])
  · refine slab_piece 0 (by omega) Gen.inb_S8x64x1024_S1x64x1024_0_0_0 X0 X1 X2 _ fun ch j => ?_
    rw [ld_b, ld_w]
    show Gen.k0_pay4 X1 X2 (View.ld X0 r0_a0) (ix3 0 ch j) = _
    rw [k0_pay4_apply]
    exact congrArg (· * X2 (ix2 ch j)) (Finset.sum_congr rfl fun p _ => by rw [slab_ld 0 (by omega) Gen.inb_S8x64x3136_S1x64x3136_0_0_0])

/-- The result function with its three operands named: whatever the buffers are known to hold at the operand indices. -/
theorem blockFn_eq (X0 : Vec Ideal S8x64x3136 .bf16) (X1 : Vec Ideal S3136x1024 .bf16) (X2 : Vec Ideal S64x1024 .f32)
    (Z : S8x64x1024.Idx) (A B : Fin 3136 → Ideal .bf16) (C : Ideal .f32)
    (hA : ∀ p, X0 (ix3 (Z 0) (Z 1) p) = A p) (hB : ∀ p, X1 (ix2 p (Z 2)) = B p) (hC : X2 (ix2 (Z 1) (Z 2)) = C) :
    blockFn X0 X1 X2 Z = (∑ p : Fin 3136, A p * B p) * C := by
  unfold blockFn
  rw [hC]
  exact congrArg (· * C) (Finset.sum_congr rfl fun p _ => by rw [hA, hB])

/-! ## A block filled out past the array's end -/

/-- Inside the part a transfer moves, a block filled out past the array's end reads the block, not the filler. -/
theorem fill_of_lt {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  rw [dif_pos ((w.moved_iff i j).mpr h)]

end Cert.KernelIdeal.Hand

end
-- ==== Proof.KI.Val0.lean ====
/-
  Region 0 of the layered product, at the exact values: the block of the layer function under a result block, and the
  in-array part of what the body leaves in the result buffer.

  Read through the windows' blocks at a grid point, the body's scaled product of the feature, table and weight blocks is
  the block of the layer function G0: region 0 has one channel block at channel offset 0, so a result block sits at batch
  block 0, channel block 0 and the point's column block, the feature block is the whole feature array, and the table and
  weight blocks are the same column block.
-/
import proofs.«420513_j51462298141020_3_alg».proof.Proof.KI.Pay0
import proofs.«420513_j51462298141020_3_alg».proof.Proof.KI.Out0
import proofs.«420513_j51462298141020_3_alg».proof.Proof.KI.Reg0
import Idealize.ShloMosaic.Lib.Decide

noncomputable section

namespace Cert.KernelIdeal.Hand

open Cert.KernelIdeal
open Idealize.ShloMosaic Idealize.ShloMosaic.TcCoe Idealize.SL.Sem Idealize.ShloMosaic.ValueIdx

/-! ## The blocks of region 0's windows in their arrays -/

/-- The printed index maps of region 0, decided over its eight points: the result block is batch block 0, channel block 0
    and the point's column block; the feature block is the whole array; the table and weight blocks are the same column block. -/
theorem idx_facts0 : ∀ t : Fin cfg0.N,
    win0_3.index t (0 : Fin 3) = 0 ∧ win0_3.index t (1 : Fin 3) = 0 ∧ win0_3.index t (2 : Fin 3) < 8
    ∧ win0_0.index t (0 : Fin 3) = 0 ∧ win0_0.index t (1 : Fin 3) = 0 ∧ win0_0.index t (2 : Fin 3) = 0
    ∧ win0_1.index t (0 : Fin 2) = 0 ∧ win0_1.index t (1 : Fin 2) = win0_3.index t (2 : Fin 3)
    ∧ win0_2.index t (0 : Fin 2) = 0 ∧ win0_2.index t (1 : Fin 2) = win0_3.index t (2 : Fin 3) :=
  (by decide +kernel : ∀ t : Fin grid0.N, _)

/-- The result block is never cut on the batch and channel axes, and on the column axis it is whole or ends at the array's end. -/
theorem xsize_facts0 : ∀ t : Fin cfg0.N,
    win0_3.xsize (grid0.coords t) (0 : Fin 3) = 8 ∧ win0_3.xsize (grid0.coords t) (1 : Fin 3) = 64
    ∧ (win0_3.xsize (grid0.coords t) (2 : Fin 3) = 1024
        ∨ win0_3.index t (2 : Fin 3) * 1024 + win0_3.xsize (grid0.coords t) (2 : Fin 3) = 8000) :=
  (by decide +kernel : ∀ t : Fin grid0.N, _)

/-- Every column block is some point's. -/
theorem idx_onto0 : ∀ q : Fin 8, ∃ t : Fin cfg0.N, win0_3.index t (2 : Fin 3) = q.val :=
  (by decide +kernel : ∀ q : Fin 8, ∃ t : Fin grid0.N, win0_3.index t (2 : Fin 3) = q.val)

variable (V : Vals) (c : Dev nD)

/-- The arrays region 0 reads, as it finds them: features, table, weights. -/
abbrev fm0 : FVec Ideal S8x64x3136 .bf16 := V c main_v7
abbrev rs0 : FVec Ideal S3136x8000 .bf16 := V c main_v4
abbrev ws0 : FVec Ideal S64x8000 .f32 := V c main_v5

/-- The layer function at an index of a layer-0 channel, with the three operand indices named by their coordinates:
    features (i 0, i 1, p), table (p, i 2), weights (i 1, i 2). -/
theorem G0_at (i : S8x960x8000.Idx) (hc : (i 1).val < 64)
    (u0 : Fin 3136 → S8x64x3136.Idx) (u1 : Fin 3136 → S3136x8000.Idx) (u2 : S64x8000.Idx)
    (h0 : ∀ p, (u0 p 0).val = (i 0).val ∧ (u0 p 1).val = (i 1).val ∧ (u0 p 2).val = p.val)
    (h1 : ∀ p, (u1 p 0).val = p.val ∧ (u1 p 1).val = (i 2).val)
    (h2 : (u2 0).val = (i 1).val ∧ (u2 1).val = (i 2).val) :
    G0 V c i = (∑ p : Fin 3136, fm0 V c (u0 p) * rs0 V c (u1 p)) * ws0 V c u2 := by
  unfold G0 layerInto
  rw [dif_pos ⟨Nat.zero_le _, by omega⟩]
  refine congrArg₂ (· * ·) (Finset.sum_congr rfl fun p _ => congrArg₂ (· * ·) (congrArg _ ?_) (congrArg _ ?_)) (congrArg _ ?_)
  · obtain ⟨a0, a1, a2⟩ := h0 p
    funext a; apply Fin.ext
    match a with
    | ⟨0, _⟩ => exact a0.symm
    | ⟨1, _⟩ => show (i 1).val - 0 = (u0 p 1).val; omega
    | ⟨2, _⟩ => exact a2.symm
  · obtain ⟨a0, a1⟩ := h1 p
    funext a; apply Fin.ext
    match a with
    | ⟨0, _⟩ => exact a0.symm
    | ⟨1, _⟩ => exact a1.symm
  · obtain ⟨a0, a1⟩ := h2
    funext a; apply Fin.ext
    match a with
    | ⟨0, _⟩ => show (i 1).val - 0 = (u2 0).val; omega
    | ⟨1, _⟩ => exact a1.symm

/-- THE BLOCK OF G0. At an element y of the result block at point t, the layer function is the scaled product of the
    feature, table and weight blocks at the matching coordinates: feature (y 0, y 1, p), table (p, y 2), weight (y 1, y 2). -/
theorem G0_blk (t : Fin cfg0.N) (y : ((cfg0.win 3).xblock (cfg0.grid.coords t)).Idx)
    (z0 : Fin 3136 → ((cfg0.win 0).xblock (cfg0.grid.coords t)).Idx)
    (z1 : Fin 3136 → ((cfg0.win 1).xblock (cfg0.grid.coords t)).Idx)
    (z2 : ((cfg0.win 2).xblock (cfg0.grid.coords t)).Idx)
    (h0 : ∀ p, (z0 p 0).val = (y 0).val ∧ (z0 p 1).val = (y 1).val ∧ (z0 p 2).val = p.val)
    (h1 : ∀ p, (z1 p 0).val = p.val ∧ (z1 p 1).val = (y 2).val)
    (h2 : (z2 0).val = (y 1).val ∧ (z2 1).val = (y 2).val) :
    G0 V c (((cfg0.win 3).blk t).view.emb y)
      = (∑ p : Fin 3136, fm0 V c (((cfg0.win 0).blk t).view.emb (z0 p)) * rs0 V c (((cfg0.win 1).blk t).view.emb (z1 p)))
          * ws0 V c (((cfg0.win 2).blk t).view.emb z2) := by
  obtain ⟨i30, i31, i32, i00, i01, i02, i10, i11, i20, i21⟩ := idx_facts0 t
  obtain ⟨x0, x1, -⟩ := xsize_facts0 t
  have hy1 : (y 1).val < 64 := x1 ▸ (y 1).isLt
  have e0 : ((((cfg0.win 3).blk t).view.emb y) 0 : Nat) = win0_3.index t (0 : Fin 3) * 8 + (y 0).val := win0_3.rect_emb_val t y 0
  have e1 : ((((cfg0.win 3).blk t).view.emb y) 1 : Nat) = win0_3.index t (1 : Fin 3) * 64 + (y 1).val := win0_3.rect_emb_val t y 1
  have e2 : ((((cfg0.win 3).blk t).view.emb y) 2 : Nat) = win0_3.index t (2 : Fin 3) * 1024 + (y 2).val := win0_3.rect_emb_val t y 2
  rw [i30] at e0; rw [i31] at e1
  refine G0_at V c _ (by rw [e1]; omega) _ _ _ (fun p => ?_) (fun p => ?_) ?_
  · obtain ⟨a0, a1, a2⟩ := h0 p
    have f0 : ((((cfg0.win 0).blk t).view.emb (z0 p)) 0 : Nat) = win0_0.index t (0 : Fin 3) * 8 + (z0 p 0).val := win0_0.rect_emb_val t (z0 p) 0
    have f1 : ((((cfg0.win 0).blk t).view.emb (z0 p)) 1 : Nat) = win0_0.index t (1 : Fin 3) * 64 + (z0 p 1).val := win0_0.rect_emb_val t (z0 p) 1
    have f2 : ((((cfg0.win 0).blk t).view.emb (z0 p)) 2 : Nat) = win0_0.index t (2 : Fin 3) * 3136 + (z0 p 2).val := win0_0.rect_emb_val t (z0 p) 2
    rw [i00] at f0; rw [i01] at f1; rw [i02] at f2
    refine ⟨?_, ?_, ?_⟩
    · rw [f0, e0]; omega
    · rw [f1, e1]; omega
    · rw [f2]; omega
  · obtain ⟨a0, a1⟩ := h1 p
    have f0 : ((((cfg0.win 1).blk t).view.emb (z1 p)) 0 : Nat) = win0_1.index t (0 : Fin 2) * 3136 + (z1 p 0).val := win0_1.rect_emb_val t (z1 p) 0
    have f1 : ((((cfg0.win 1).blk t).view.emb (z1 p)) 1 : Nat) = win0_1.index t (1 : Fin 2) * 1024 + (z1 p 1).val := win0_1.rect_emb_val t (z1 p) 1
    rw [i10] at f0; rw [i11] at f1
    refine ⟨?_, ?_⟩
    · rw [f0]; omega
    · rw [f1, e2]; omega
  · obtain ⟨a0, a1⟩ := h2
    have f0 : ((((cfg0.win 2).blk t).view.emb z2) 0 : Nat) = win0_2.index t (0 : Fin 2) * 64 + (z2 0).val := win0_2.rect_emb_val t z2 0
    have f1 : ((((cfg0.win 2).blk t).view.emb z2) 1 : Nat) = win0_2.index t (1 : Fin 2) * 1024 + (z2 1).val := win0_2.rect_emb_val t z2 1
    rw [i20] at f0; rw [i21] at f1
    refine ⟨?_, ?_⟩
    · rw [f0, e1]; omega
    · rw [f1, e2]; omega

/-! ## The in-array part of the result buffer is the block of G0 -/

/-- The weight block is never cut on the channel axis. -/
theorem wsize_fact0 : ∀ t : Fin cfg0.N, win0_2.xsize (grid0.coords t) (0 : Fin 2) = 64 :=
  (by decide +kernel : ∀ t : Fin grid0.N, _)

/-- The feature buffer, read inside the moved part, is the feature array through its block. -/
theorem fm_read (t : Fin cfg0.N) (d0 : (cfg0.win 0).block.Idx → Elt Ideal (cfg0.win 0).elt) (j : (cfg0.win 0).block.Idx)
    (h : ∀ a, (j a).val < (cfg0.win 0).xsize (cfg0.grid.coords t) a) :
    (cfg0.win 0).fill (cfg0.grid.coords t) d0 (((cfg0.win 0).blk t).view.read (Elt Ideal) (V c (Pipeline.arrRef spec0 0))) j
      = fm0 V c (((cfg0.win 0).blk t).view.emb fun a => ⟨(j a).val, h a⟩) := by
  rw [fill_of_lt _ _ _ _ j h]
  rfl

/-- The table buffer likewise. -/
theorem rs_read (t : Fin cfg0.N) (d1 : (cfg0.win 1).block.Idx → Elt Ideal (cfg0.win 1).elt) (j : (cfg0.win 1).block.Idx)
    (h : ∀ a, (j a).val < (cfg0.win 1).xsize (cfg0.grid.coords t) a) :
    (cfg0.win 1).fill (cfg0.grid.coords t) d1 (((cfg0.win 1).blk t).view.read (Elt Ideal) (V c (Pipeline.arrRef spec0 1))) j
      = rs0 V c (((cfg0.win 1).blk t).view.emb fun a => ⟨(j a).val, h a⟩) := by
  rw [fill_of_lt _ _ _ _ j h]
  rfl

/-- The weight buffer likewise. -/
theorem ws_read (t : Fin cfg0.N) (d2 : (cfg0.win 2).block.Idx → Elt Ideal (cfg0.win 2).elt) (j : (cfg0.win 2).block.Idx)
    (h : ∀ a, (j a).val < (cfg0.win 2).xsize (cfg0.grid.coords t) a) :
    (cfg0.win 2).fill (cfg0.grid.coords t) d2 (((cfg0.win 2).blk t).view.read (Elt Ideal) (V c (Pipeline.arrRef spec0 2))) j
      = ws0 V c (((cfg0.win 2).blk t).view.emb fun a => ⟨(j a).val, h a⟩) := by
  rw [fill_of_lt _ _ _ _ j h]
  rfl

/-- THE IN-ARRAY PART OF THE BODY'S RESULT BLOCK, computed from the input blocks filled out past the array's end with
    any fillers, is the block of G0: a column inside the array reads, in the table and weight buffers, the blocks and not
    the fillers, and there the body's scaled product is the layer function at the block's place in the array. -/
theorem cut_out0_3 (t : Fin cfg0.N)
    (d0 : (cfg0.win 0).block.Idx → Elt Ideal (cfg0.win 0).elt) (d1 : (cfg0.win 1).block.Idx → Elt Ideal (cfg0.win 1).elt)
    (d2 : (cfg0.win 2).block.Idx → Elt Ideal (cfg0.win 2).elt) :
    (cfg0.win 3).cut (cfg0.grid.coords t)
        (out0_3 ((cfg0.win 0).fill (cfg0.grid.coords t) d0 (((cfg0.win 0).blk t).view.read (Elt Ideal) (V c (Pipeline.arrRef spec0 0))))
          ((cfg0.win 1).fill (cfg0.grid.coords t) d1 (((cfg0.win 1).blk t).view.read (Elt Ideal) (V c (Pipeline.arrRef spec0 1))))
          ((cfg0.win 2).fill (cfg0.grid.coords t) d2 (((cfg0.win 2).blk t).view.read (Elt Ideal) (V c (Pipeline.arrRef spec0 2)))))
      = ((cfg0.win 3).blk t).view.read (Elt Ideal) (G0 V c) := by
  funext y
  obtain ⟨x0, x1, -⟩ := xsize_facts0 t
  have x2 := wsize_fact0 t
  have hy0 : (y 0).val < win0_3.xsize (grid0.coords t) (0 : Fin 3) := (y 0).isLt
  have hy1 : (y 1).val < win0_3.xsize (grid0.coords t) (1 : Fin 3) := (y 1).isLt
  have hy2 : (y 2).val < win0_3.xsize (grid0.coords t) (2 : Fin 3) := (y 2).isLt
  rw [x0] at hy0; rw [x1] at hy1
  show out0_3 _ _ _ ((cfg0.win 3).xinj (cfg0.grid.coords t) y) = G0 V c (((cfg0.win 3).blk t).view.emb y)
  rw [out0_3_apply]
  -- the buffer index under y, and its coordinates
  generalize hZ : (cfg0.win 3).xinj (cfg0.grid.coords t) y = Z
  have Z0 : (Z 0).val = (y 0).val := by rw [← hZ]
  have Z1 : (Z 1).val = (y 1).val := by rw [← hZ]
  have Z2 : (Z 2).val = (y 2).val := by rw [← hZ]
  -- the three operand indices lie inside the parts the fetches moved
  have hz0 : ∀ (p : Fin 3136) (a : Fin 3),
      ((ix3 (Z 0) (Z 1) p : S8x64x3136.Idx) a).val < (cfg0.win 0).xsize (cfg0.grid.coords t) a := by
    intro p a
    match a with
    | ⟨0, _⟩ => show (Z 0).val < 8; omega
    | ⟨1, _⟩ => show (Z 1).val < 64; omega
    | ⟨2, _⟩ => show p.val < 3136; exact p.isLt
  have hz1 : ∀ (p : Fin 3136) (a : Fin 2),
      ((ix2 p (Z 2) : S3136x1024.Idx) a).val < (cfg0.win 1).xsize (cfg0.grid.coords t) a := by
    intro p a
    match a with
    | ⟨0, _⟩ => show p.val < 3136; exact p.isLt
    | ⟨1, _⟩ => show (Z 2).val < win0_3.xsize (grid0.coords t) (2 : Fin 3); omega
  have hz2 : ∀ a : Fin 2, ((ix2 (Z 1) (Z 2) : S64x1024.Idx) a).val < (cfg0.win 2).xsize (cfg0.grid.coords t) a := by
    intro a
    match a with
    | ⟨0, _⟩ => show (Z 1).val < win0_2.xsize (grid0.coords t) (0 : Fin 2); rw [x2]; omega
    | ⟨1, _⟩ => show (Z 2).val < win0_3.xsize (grid0.coords t) (2 : Fin 3); omega
  refine (blockFn_eq _ _ _ Z
    (fun p => fm0 V c (((cfg0.win 0).blk t).view.emb fun a => ⟨((ix3 (Z 0) (Z 1) p : S8x64x3136.Idx) a).val, hz0 p a⟩))
    (fun p => rs0 V c (((cfg0.win 1).blk t).view.emb fun a => ⟨((ix2 p (Z 2) : S3136x1024.Idx) a).val, hz1 p a⟩))
    (ws0 V c (((cfg0.win 2).blk t).view.emb fun a => ⟨((ix2 (Z 1) (Z 2) : S64x1024.Idx) a).val, hz2 a⟩))
    (fun p => fm_read V c t d0 (ix3 (Z 0) (Z 1) p) (hz0 p)) (fun p => rs_read V c t d1 (ix2 p (Z 2)) (hz1 p))
    (ws_read V c t d2 (ix2 (Z 1) (Z 2)) hz2)).trans ?_
  exact (G0_blk V c t y
    (fun p a => ⟨((ix3 (Z 0) (Z 1) p : S8x64x3136.Idx) a).val, hz0 p a⟩)
    (fun p a => ⟨((ix2 p (Z 2) : S3136x1024.Idx) a).val, hz1 p a⟩)
    (fun a => ⟨((ix2 (Z 1) (Z 2) : S64x1024.Idx) a).val, hz2 a⟩)
    (fun p => ⟨Z0, Z1, rfl⟩) (fun p => ⟨rfl, Z2⟩) ⟨Z1, Z2⟩).symm

end Cert.KernelIdeal.Hand

end
-- ==== Proof.KI.Obl0.lean ====
/-
  Region 0's obligation at the exact-real instance: at every point of the region the body, handed each window's
  buffer at what it then holds, leaves each buffer at what the region's data say.

  The one mathematical step is that the part inside the array of what the body leaves in the result buffer is
  the block of `G0 V c`: the matrix product is a plain sum over the spatial axis, so a column of the result
  depends only on the same column of the table and weight buffers, and the columns past the array's end, which
  hold anything, reach no column inside it.
-/
import proofs.«420513_j51462298141020_3_alg».proof.Proof.KI.Reg0
import proofs.«420513_j51462298141020_3_alg».proof.Proof.KI.Val0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The body's obligation -/

/-- At every point the body, handed each window's buffer at what it then holds, leaves the feature buffer at its
    block, the table and weight buffers at their blocks on the columns inside the array, and the result buffer at
    the block of `G0 V c` on the columns inside the array; the invariant and what is owed pass through unread. -/
theorem body_obligation0 (V : Vals) (c : Dev nD) :
    BodyObligationLoose (dat0 V c) (defs₀ (F := Ideal)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3]
  -- the part inside the array of what the body leaves in the result buffer is what the write-back writes
  have hcut : (cfg0.win 3).cut (cfg0.grid.coords t) (out0_3 ((cfg0.win 0).fill (cfg0.grid.coords t) d0 (((cfg0.win 0).blk t).view.read (Elt Ideal) (V c (Pipeline.arrRef spec0 0)))) ((cfg0.win 1).fill (cfg0.grid.coords t) d1 (((cfg0.win 1).blk t).view.read (Elt Ideal) (V c (Pipeline.arrRef spec0 1)))) ((cfg0.win 2).fill (cfg0.grid.coords t) d2 (((cfg0.win 2).blk t).view.read (Elt Ideal) (V c (Pipeline.arrRef spec0 2)))))
      = (cfg0.win 3).cut (cfg0.grid.coords t) ((dat0 V c).after 3 t) :=
    (cut_out0_3 V c t d0 d1 d2).trans (flushed0_3 V c t).symm
  iapply (sound_kernel0 c Set.univ (grid0.coords t) _ _ _ _ _ _ _ _ _ _ ((cfg0.win 0).fill (cfg0.grid.coords t) d0 (((cfg0.win 0).blk t).view.read (Elt Ideal) (V c (Pipeline.arrRef spec0 0)))) ((cfg0.win 1).fill (cfg0.grid.coords t) d1 (((cfg0.win 1).blk t).view.read (Elt Ideal) (V c (Pipeline.arrRef spec0 1)))) ((cfg0.win 2).fill (cfg0.grid.coords t) d2 (((cfg0.win 2).blk t).view.read (Elt Ideal) (V c (Pipeline.arrRef spec0 2)))) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after0_0, fill0_0_any V c t _ d0]; iexact H0
  isplitl [H1]
  · iexists d1
    rw [after0_1, Window.cut_fill]; iexact H1
  isplitl [H2]
  · iexists d2
    rw [after0_2, Window.cut_fill]; iexact H2
  · iexists (out0_3 ((cfg0.win 0).fill (cfg0.grid.coords t) d0 (((cfg0.win 0).blk t).view.read (Elt Ideal) (V c (Pipeline.arrRef spec0 0)))) ((cfg0.win 1).fill (cfg0.grid.coords t) d1 (((cfg0.win 1).blk t).view.read (Elt Ideal) (V c (Pipeline.arrRef spec0 1)))) ((cfg0.win 2).fill (cfg0.grid.coords t) d2 (((cfg0.win 2).blk t).view.read (Elt Ideal) (V c (Pipeline.arrRef spec0 2)))))
    rw [(cfg0.win 3).fill_congr_cut (cfg0.grid.coords t) hcut]; iexact H3

end Cert.KernelIdeal.Hand

end
-- ==== Proof.KI.Val1.lean ====
/-
  Region 1 of the layered product, at the exact values: the layer function read through the windows' blocks.

  Region 1 runs over nv1 column blocks of 1024 columns by nc1 channel blocks of 64 channels, the channel block inner. At
  the point with column block v and channel block k the feature window's block is channels 64 k ≤ ch < 64 k + 64 of the
  feature array, the table window's block is columns 1024 v ≤ j < 1024 v + 1024 of the table, the weight window's block
  is that channel range by that column range of the weights, and the result window's block is the same column range of
  channels choff1 + 64 k ≤ ch < choff1 + 64 k + 64 of the shared result: the layer's channels sit choff1 = 64 chblk1
  channels into the result. Read through these blocks the layer function G1 is the scaled product of the three blocks
  at the matching coordinates; so the part inside the array of what the body stores, computed from the three input
  blocks however they are filled out past the array's end, is the block of G1.
-/
import proofs.«420513_j51462298141020_3_alg».proof.Proof.KI.Reg1
import proofs.«420513_j51462298141020_3_alg».proof.Proof.KI.Pay1
import proofs.«420513_j51462298141020_3_alg».proof.Proof.KI.Out1
import Idealize.ShloMosaic.Lib.Pipeline.Value
import Idealize.ShloMosaic.Lib.Decide

noncomputable section

namespace Cert.KernelIdeal.Hand

open Cert.KernelIdeal
open Idealize.ShloMosaic Idealize.ShloMosaic.TcCoe Idealize.SL.Sem Idealize.ShloMosaic.ValueIdx

/-! ## The sizes of region 1 that other numerals could be mistaken for -/

/-- The first channel of layer 1 in the shared result. -/
abbrev choff1 : Nat := 64
/-- The same in blocks of 64 channels. -/
abbrev chblk1 : Nat := 1
/-- The number of channel blocks. -/
abbrev nc1 : Nat := 2
/-- The number of column blocks. -/
abbrev nv1 : Nat := 8

/-! ## The blocks of region 1's windows in their arrays -/

/-- The printed index maps of region 1, decided over its points. With v the point's column block and k its channel
    block: the result block is batch block 0, channel block chblk1 + k, column block v; the feature block is batch block
    0, channel block k, the whole spatial axis; the table block is every row of column block v; the weight block is
    channel block k of column block v. -/
theorem idx_facts1 : ∀ t : Fin cfg1.N,
    win1_3.index t (0 : Fin 3) = 0 ∧ win1_3.index t (1 : Fin 3) = chblk1 + win1_2.index t (0 : Fin 2)
    ∧ win1_3.index t (2 : Fin 3) < nv1 ∧ win1_2.index t (0 : Fin 2) < nc1
    ∧ win1_0.index t (0 : Fin 3) = 0 ∧ win1_0.index t (1 : Fin 3) = win1_2.index t (0 : Fin 2) ∧ win1_0.index t (2 : Fin 3) = 0
    ∧ win1_1.index t (0 : Fin 2) = 0 ∧ win1_1.index t (1 : Fin 2) = win1_3.index t (2 : Fin 3)
    ∧ win1_2.index t (1 : Fin 2) = win1_3.index t (2 : Fin 3) :=
  (by decide +kernel : ∀ t : Fin grid1.N, _)

/-- The result block is never cut on the batch and channel axes, and on the column axis it is whole or ends at the array's end. -/
theorem xsize_facts1 : ∀ t : Fin cfg1.N,
    win1_3.xsize (grid1.coords t) (0 : Fin 3) = 8 ∧ win1_3.xsize (grid1.coords t) (1 : Fin 3) = 64
    ∧ (win1_3.xsize (grid1.coords t) (2 : Fin 3) = 1024
        ∨ win1_3.index t (2 : Fin 3) * 1024 + win1_3.xsize (grid1.coords t) (2 : Fin 3) = 8000) :=
  (by decide +kernel : ∀ t : Fin grid1.N, _)

/-- Every pair of a column block and a channel block is some point's. -/
theorem idx_onto1 : ∀ (q : Fin nv1) (k : Fin nc1), ∃ t : Fin cfg1.N,
    win1_3.index t (2 : Fin 3) = q.val ∧ win1_2.index t (0 : Fin 2) = k.val :=
  (by decide +kernel : ∀ (q : Fin nv1) (k : Fin nc1), ∃ t : Fin grid1.N,
    win1_3.index t (2 : Fin 3) = q.val ∧ win1_2.index t (0 : Fin 2) = k.val)

variable (V : Vals) (c : Dev nD)

/-- The arrays region 1 reads, as it finds them: features, table, weights. -/
abbrev fm1 : FVec Ideal S8x128x784 .bf16 := V c main_v15
abbrev rs1 : FVec Ideal S784x8000 .bf16 := V c main_v12
abbrev ws1 : FVec Ideal S128x8000 .f32 := V c main_v13

/-- The layer function at an index of a layer-1 channel, with the three operand indices named by their coordinates:
    features (i 0, i 1 − choff1, p), table (p, i 2), weights (i 1 − choff1, i 2). -/
theorem G1_at (i : S8x960x8000.Idx) (hc : choff1 ≤ (i 1).val ∧ (i 1).val < choff1 + 128)
    (u0 : Fin 784 → S8x128x784.Idx) (u1 : Fin 784 → S784x8000.Idx) (u2 : S128x8000.Idx)
    (h0 : ∀ p, (u0 p 0).val = (i 0).val ∧ (u0 p 1).val + choff1 = (i 1).val ∧ (u0 p 2).val = p.val)
    (h1 : ∀ p, (u1 p 0).val = p.val ∧ (u1 p 1).val = (i 2).val)
    (h2 : (u2 0).val + choff1 = (i 1).val ∧ (u2 1).val = (i 2).val) :
    G1 V c i = (∑ p : Fin 784, fm1 V c (u0 p) * rs1 V c (u1 p)) * ws1 V c u2 := by
  unfold G1 layerInto
  rw [dif_pos hc]
  refine congrArg₂ (· * ·) (Finset.sum_congr rfl fun p _ => congrArg₂ (· * ·) (congrArg _ ?_) (congrArg _ ?_)) (congrArg _ ?_)
  · obtain ⟨a0, a1, a2⟩ := h0 p
    funext a; apply Fin.ext
    match a with
    | ⟨0, _⟩ => exact a0.symm
    | ⟨1, _⟩ => show (i 1).val - choff1 = (u0 p 1).val; omega
    | ⟨2, _⟩ => exact a2.symm
  · obtain ⟨a0, a1⟩ := h1 p
    funext a; apply Fin.ext
    match a with
    | ⟨0, _⟩ => exact a0.symm
    | ⟨1, _⟩ => exact a1.symm
  · obtain ⟨a0, a1⟩ := h2
    funext a; apply Fin.ext
    match a with
    | ⟨0, _⟩ => show (i 1).val - choff1 = (u2 0).val; omega
    | ⟨1, _⟩ => exact a1.symm

/-- THE BLOCK OF G1. At an element y of the result block at point t, the layer function is the scaled product of the
    feature, table and weight blocks at the matching coordinates: feature (y 0, y 1, p), table (p, y 2), weight (y 1, y 2). -/
theorem G1_blk (t : Fin cfg1.N) (y : ((cfg1.win 3).xblock (cfg1.grid.coords t)).Idx)
    (z0 : Fin 784 → ((cfg1.win 0).xblock (cfg1.grid.coords t)).Idx)
    (z1 : Fin 784 → ((cfg1.win 1).xblock (cfg1.grid.coords t)).Idx)
    (z2 : ((cfg1.win 2).xblock (cfg1.grid.coords t)).Idx)
    (h0 : ∀ p, (z0 p 0).val = (y 0).val ∧ (z0 p 1).val = (y 1).val ∧ (z0 p 2).val = p.val)
    (h1 : ∀ p, (z1 p 0).val = p.val ∧ (z1 p 1).val = (y 2).val)
    (h2 : (z2 0).val = (y 1).val ∧ (z2 1).val = (y 2).val) :
    G1 V c (((cfg1.win 3).blk t).view.emb y)
      = (∑ p : Fin 784, fm1 V c (((cfg1.win 0).blk t).view.emb (z0 p)) * rs1 V c (((cfg1.win 1).blk t).view.emb (z1 p)))
          * ws1 V c (((cfg1.win 2).blk t).view.emb z2) := by
  obtain ⟨i30, i31, i32, ik, i00, i01, i02, i10, i11, i21⟩ := idx_facts1 t
  obtain ⟨x0, x1, -⟩ := xsize_facts1 t
  have hy1 : (y 1).val < 64 := x1 ▸ (y 1).isLt
  have e0 : ((((cfg1.win 3).blk t).view.emb y) 0 : Nat) = win1_3.index t (0 : Fin 3) * 8 + (y 0).val := win1_3.rect_emb_val t y 0
  have e1 : ((((cfg1.win 3).blk t).view.emb y) 1 : Nat) = win1_3.index t (1 : Fin 3) * 64 + (y 1).val := win1_3.rect_emb_val t y 1
  have e2 : ((((cfg1.win 3).blk t).view.emb y) 2 : Nat) = win1_3.index t (2 : Fin 3) * 1024 + (y 2).val := win1_3.rect_emb_val t y 2
  rw [i30] at e0; rw [i31] at e1
  -- the layer's first channel is chblk1 blocks of 64 channels into the result, and its nc1 blocks are its 128 channels
  have hoff : choff1 = chblk1 * 64 := rfl
  have hnc : nc1 * 64 = 128 := rfl
  refine G1_at V c _ (by omega) _ _ _ (fun p => ?_) (fun p => ?_) ?_
  · obtain ⟨a0, a1, a2⟩ := h0 p
    have f0 : ((((cfg1.win 0).blk t).view.emb (z0 p)) 0 : Nat) = win1_0.index t (0 : Fin 3) * 8 + (z0 p 0).val := win1_0.rect_emb_val t (z0 p) 0
    have f1 : ((((cfg1.win 0).blk t).view.emb (z0 p)) 1 : Nat) = win1_0.index t (1 : Fin 3) * 64 + (z0 p 1).val := win1_0.rect_emb_val t (z0 p) 1
    have f2 : ((((cfg1.win 0).blk t).view.emb (z0 p)) 2 : Nat) = win1_0.index t (2 : Fin 3) * 784 + (z0 p 2).val := win1_0.rect_emb_val t (z0 p) 2
    rw [i00] at f0; rw [i01] at f1; rw [i02] at f2
    refine ⟨?_, ?_, ?_⟩
    · rw [f0, e0]; omega
    · rw [f1, e1]; omega
    · rw [f2]; omega
  · obtain ⟨a0, a1⟩ := h1 p
    have f0 : ((((cfg1.win 1).blk t).view.emb (z1 p)) 0 : Nat) = win1_1.index t (0 : Fin 2) * 784 + (z1 p 0).val := win1_1.rect_emb_val t (z1 p) 0
    have f1 : ((((cfg1.win 1).blk t).view.emb (z1 p)) 1 : Nat) = win1_1.index t (1 : Fin 2) * 1024 + (z1 p 1).val := win1_1.rect_emb_val t (z1 p) 1
    rw [i10] at f0; rw [i11] at f1
    refine ⟨?_, ?_⟩
    · rw [f0]; omega
    · rw [f1, e2]; omega
  · obtain ⟨a0, a1⟩ := h2
    have f0 : ((((cfg1.win 2).blk t).view.emb z2) 0 : Nat) = win1_2.index t (0 : Fin 2) * 64 + (z2 0).val := win1_2.rect_emb_val t z2 0
    have f1 : ((((cfg1.win 2).blk t).view.emb z2) 1 : Nat) = win1_2.index t (1 : Fin 2) * 1024 + (z2 1).val := win1_2.rect_emb_val t z2 1
    rw [i21] at f1
    refine ⟨?_, ?_⟩
    · rw [f0, e1]; omega
    · rw [f1, e2]; omega

/-! ## The in-array part of the result buffer is the block of G1 -/

/-- The weight block is never cut on the channel axis. -/
theorem wsize_fact1 : ∀ t : Fin cfg1.N, win1_2.xsize (grid1.coords t) (0 : Fin 2) = 64 :=
  (by decide +kernel : ∀ t : Fin grid1.N, _)

/-- The feature buffer, read inside the moved part, is the feature array through its block. -/
theorem fm_read1 (t : Fin cfg1.N) (d0 : (cfg1.win 0).block.Idx → Elt Ideal (cfg1.win 0).elt) (j : (cfg1.win 0).block.Idx)
    (h : ∀ a, (j a).val < (cfg1.win 0).xsize (cfg1.grid.coords t) a) :
    (cfg1.win 0).fill (cfg1.grid.coords t) d0 (((cfg1.win 0).blk t).view.read (Elt Ideal) (V c (Pipeline.arrRef spec1 0))) j
      = fm1 V c (((cfg1.win 0).blk t).view.emb fun a => ⟨(j a).val, h a⟩) := by
  rw [fill_of_lt_r1 _ _ _ _ j h]
  rfl

/-- The table buffer likewise. -/
theorem rs_read1 (t : Fin cfg1.N) (d1 : (cfg1.win 1).block.Idx → Elt Ideal (cfg1.win 1).elt) (j : (cfg1.win 1).block.Idx)
    (h : ∀ a, (j a).val < (cfg1.win 1).xsize (cfg1.grid.coords t) a) :
    (cfg1.win 1).fill (cfg1.grid.coords t) d1 (((cfg1.win 1).blk t).view.read (Elt Ideal) (V c (Pipeline.arrRef spec1 1))) j
      = rs1 V c (((cfg1.win 1).blk t).view.emb fun a => ⟨(j a).val, h a⟩) := by
  rw [fill_of_lt_r1 _ _ _ _ j h]
  rfl

/-- The weight buffer likewise. -/
theorem ws_read1 (t : Fin cfg1.N) (d2 : (cfg1.win 2).block.Idx → Elt Ideal (cfg1.win 2).elt) (j : (cfg1.win 2).block.Idx)
    (h : ∀ a, (j a).val < (cfg1.win 2).xsize (cfg1.grid.coords t) a) :
    (cfg1.win 2).fill (cfg1.grid.coords t) d2 (((cfg1.win 2).blk t).view.read (Elt Ideal) (V c (Pipeline.arrRef spec1 2))) j
      = ws1 V c (((cfg1.win 2).blk t).view.emb fun a => ⟨(j a).val, h a⟩) := by
  rw [fill_of_lt_r1 _ _ _ _ j h]
  rfl

/-- THE IN-ARRAY PART OF THE BODY'S RESULT BLOCK, computed from the input blocks filled out past the array's end with
    any fillers, is the block of G1: a column inside the array reads, in the table and weight buffers, the blocks and not
    the fillers, and there the body's scaled product is the layer function at the block's place in the array. -/
theorem cut_out1_3 (t : Fin cfg1.N)
    (d0 : (cfg1.win 0).block.Idx → Elt Ideal (cfg1.win 0).elt) (d1 : (cfg1.win 1).block.Idx → Elt Ideal (cfg1.win 1).elt)
    (d2 : (cfg1.win 2).block.Idx → Elt Ideal (cfg1.win 2).elt) :
    (cfg1.win 3).cut (cfg1.grid.coords t)
        (out1_3 ((cfg1.win 0).fill (cfg1.grid.coords t) d0 (((cfg1.win 0).blk t).view.read (Elt Ideal) (V c (Pipeline.arrRef spec1 0))))
          ((cfg1.win 1).fill (cfg1.grid.coords t) d1 (((cfg1.win 1).blk t).view.read (Elt Ideal) (V c (Pipeline.arrRef spec1 1))))
          ((cfg1.win 2).fill (cfg1.grid.coords t) d2 (((cfg1.win 2).blk t).view.read (Elt Ideal) (V c (Pipeline.arrRef spec1 2)))))
      = ((cfg1.win 3).blk t).view.read (Elt Ideal) (G1 V c) := by
  funext y
  obtain ⟨x0, x1, -⟩ := xsize_facts1 t
  have x2 := wsize_fact1 t
  have hy0 : (y 0).val < win1_3.xsize (grid1.coords t) (0 : Fin 3) := (y 0).isLt
  have hy1 : (y 1).val < win1_3.xsize (grid1.coords t) (1 : Fin 3) := (y 1).isLt
  have hy2 : (y 2).val < win1_3.xsize (grid1.coords t) (2 : Fin 3) := (y 2).isLt
  rw [x0] at hy0; rw [x1] at hy1
  show out1_3 _ _ _ ((cfg1.win 3).xinj (cfg1.grid.coords t) y) = G1 V c (((cfg1.win 3).blk t).view.emb y)
  rw [out1_3_apply]
  -- the buffer index under y, and its coordinates
  generalize hZ : (cfg1.win 3).xinj (cfg1.grid.coords t) y = Z
  have Z0 : (Z 0).val = (y 0).val := by rw [← hZ]
  have Z1 : (Z 1).val = (y 1).val := by rw [← hZ]
  have Z2 : (Z 2).val = (y 2).val := by rw [← hZ]
  -- the three operand indices lie inside the parts the fetches moved
  have hz0 : ∀ (p : Fin 784) (a : Fin 3),
      ((ix3 (Z 0) (Z 1) p : S8x64x784.Idx) a).val < (cfg1.win 0).xsize (cfg1.grid.coords t) a := by
    intro p a
    match a with
    | ⟨0, _⟩ => show (Z 0).val < 8; omega
    | ⟨1, _⟩ => show (Z 1).val < 64; omega
    | ⟨2, _⟩ => show p.val < 784; exact p.isLt
  have hz1 : ∀ (p : Fin 784) (a : Fin 2),
      ((ix2 p (Z 2) : S784x1024.Idx) a).val < (cfg1.win 1).xsize (cfg1.grid.coords t) a := by
    intro p a
    match a with
    | ⟨0, _⟩ => show p.val < 784; exact p.isLt
    | ⟨1, _⟩ => show (Z 2).val < win1_3.xsize (grid1.coords t) (2 : Fin 3); omega
  have hz2 : ∀ a : Fin 2, ((ix2 (Z 1) (Z 2) : S64x1024.Idx) a).val < (cfg1.win 2).xsize (cfg1.grid.coords t) a := by
    intro a
    match a with
    | ⟨0, _⟩ => show (Z 1).val < win1_2.xsize (grid1.coords t) (0 : Fin 2); rw [x2]; omega
    | ⟨1, _⟩ => show (Z 2).val < win1_3.xsize (grid1.coords t) (2 : Fin 3); omega
  refine (blockFn_eq_r1 _ _ _ Z
    (fun p => fm1 V c (((cfg1.win 0).blk t).view.emb fun a => ⟨((ix3 (Z 0) (Z 1) p : S8x64x784.Idx) a).val, hz0 p a⟩))
    (fun p => rs1 V c (((cfg1.win 1).blk t).view.emb fun a => ⟨((ix2 p (Z 2) : S784x1024.Idx) a).val, hz1 p a⟩))
    (ws1 V c (((cfg1.win 2).blk t).view.emb fun a => ⟨((ix2 (Z 1) (Z 2) : S64x1024.Idx) a).val, hz2 a⟩))
    (fun p => fm_read1 V c t d0 (ix3 (Z 0) (Z 1) p) (hz0 p)) (fun p => rs_read1 V c t d1 (ix2 p (Z 2)) (hz1 p))
    (ws_read1 V c t d2 (ix2 (Z 1) (Z 2)) hz2)).trans ?_
  exact (G1_blk V c t y
    (fun p a => ⟨((ix3 (Z 0) (Z 1) p : S8x64x784.Idx) a).val, hz0 p a⟩)
    (fun p a => ⟨((ix2 p (Z 2) : S784x1024.Idx) a).val, hz1 p a⟩)
    (fun a => ⟨((ix2 (Z 1) (Z 2) : S64x1024.Idx) a).val, hz2 a⟩)
    (fun p => ⟨Z0, Z1, rfl⟩) (fun p => ⟨rfl, Z2⟩) ⟨Z1, Z2⟩).symm

end Cert.KernelIdeal.Hand

end
-- ==== Proof.KI.Run.lean ====
/-
  The four-region program run from the launch memory, carrying the buffers' contents.

  Between two items of the program every unscoped buffer of a core holds a named valuation. A host stretch moves it by
  the stretch's own function. Region K moves it at two references only: its result array ends at what the region's
  write-backs leave (the fold of the flushed blocks over the entry contents), and the operand it leaves in HBM is
  unchanged. The contents a region is entered with read what the regions before it left, so the regions' effects are
  named stage by stage, each stage from the valuation the stages before it determine.
-/
import proofs.«420513_j51462298141020_3_alg».proof.Proof.KI.RunCond
import proofs.«420513_j51462298141020_3_alg».proof.Proof.KI.Obl0
import proofs.«420513_j51462298141020_3_alg».proof.Proof.KI.Obl1
import proofs.«420513_j51462298141020_3_alg».proof.Proof.KI.Obl2
import proofs.«420513_j51462298141020_3_alg».proof.Proof.KI.Obl3
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligationLoose)

local notation "𝕄" => MT nD τ sig Unit (Elt Ideal) ℕ (UR sig nD τ) ℕ

/-! ## Small facts of the regions' data -/

/-- Region 0's data hold the class invariant and full shares, owe nothing and bound the recorded pairs by everything. -/
theorem Φ_eq0 (V : Vals) (c : Dev nD) (t : Fin (cfg0.N + 1)) : (dat0 V c).Φ t = Pipeline.ΦA spec0 c := rfl
theorem q_eq0 (V : Vals) (c : Dev nD) (w : Fin cfg0.W) : (dat0 V c).q w = fullShare := rfl
theorem owed_eq0 (V : Vals) (c : Dev nD) (t : Fin (cfg0.N + 1)) : (dat0 V c).owed t = 0 := rfl
theorem recorded_eq0 (V : Vals) (c : Dev nD) (t : Fin (cfg0.N + 1)) : (dat0 V c).recorded t = Set.univ := rfl

/-- Region 1's data hold the class invariant and full shares, owe nothing and bound the recorded pairs by everything. -/
theorem Φ_eq1 (V : Vals) (c : Dev nD) (t : Fin (cfg1.N + 1)) : (dat1 V c).Φ t = Pipeline.ΦA spec1 c := rfl
theorem q_eq1 (V : Vals) (c : Dev nD) (w : Fin cfg1.W) : (dat1 V c).q w = fullShare := rfl
theorem owed_eq1 (V : Vals) (c : Dev nD) (t : Fin (cfg1.N + 1)) : (dat1 V c).owed t = 0 := rfl
theorem recorded_eq1 (V : Vals) (c : Dev nD) (t : Fin (cfg1.N + 1)) : (dat1 V c).recorded t = Set.univ := rfl

/-- Region 2's data hold the class invariant and full shares, owe nothing and bound the recorded pairs by everything. -/
theorem Φ_eq2 (V : Vals) (c : Dev nD) (t : Fin (cfg2.N + 1)) : (dat2 V c).Φ t = Pipeline.ΦA spec2 c := rfl
theorem q_eq2 (V : Vals) (c : Dev nD) (w : Fin cfg2.W) : (dat2 V c).q w = fullShare := rfl
theorem owed_eq2 (V : Vals) (c : Dev nD) (t : Fin (cfg2.N + 1)) : (dat2 V c).owed t = 0 := rfl
theorem recorded_eq2 (V : Vals) (c : Dev nD) (t : Fin (cfg2.N + 1)) : (dat2 V c).recorded t = Set.univ := rfl

/-- Region 3's data hold the class invariant and full shares, owe nothing and bound the recorded pairs by everything. -/
theorem Φ_eq3 (V : Vals) (c : Dev nD) (t : Fin (cfg3.N + 1)) : (dat3 V c).Φ t = Pipeline.ΦA spec3 c := rfl
theorem q_eq3 (V : Vals) (c : Dev nD) (w : Fin cfg3.W) : (dat3 V c).q w = fullShare := rfl
theorem owed_eq3 (V : Vals) (c : Dev nD) (t : Fin (cfg3.N + 1)) : (dat3 V c).owed t = 0 := rfl
theorem recorded_eq3 (V : Vals) (c : Dev nD) (t : Fin (cfg3.N + 1)) : (dat3 V c).recorded t = Set.univ := rfl

variable (m : (ℓ : Loc nD τ sig) → Buf (Elt Ideal) ℓ)

/-! ## What the valuations before a region read of the regions' effects

The valuation region 1 is entered with reads the effects at item 8 only; region 2's at items 8 and 15; region 3's at
items 8, 15 and 22. -/

theorem V8_congr {outs outs' : Outs (F := Ideal)} (h8 : outs 8 = outs' 8) (c : Dev nD) : V8 m outs c = V8 m outs' c := by
  unfold V8; rw [h8]

theorem V14_congr {outs outs' : Outs (F := Ideal)} (h8 : outs 8 = outs' 8) (c : Dev nD) : V14 m outs c = V14 m outs' c :=
  congrArg (fun v => StableHlo.after hostOps1_5 (StableHlo.after hostOps1_4 (StableHlo.after hostOps1_3 (StableHlo.after hostOps1_2
    (StableHlo.after hostOps1_1 (StableHlo.after hostOps1 v)))))) (V8_congr m h8 c)

theorem V15_congr {outs outs' : Outs (F := Ideal)} (h8 : outs 8 = outs' 8) (h15 : outs 15 = outs' 15) (c : Dev nD) :
    V15 m outs c = V15 m outs' c := by
  unfold V15; rw [V14_congr m h8 c, h15]

theorem V21_congr {outs outs' : Outs (F := Ideal)} (h8 : outs 8 = outs' 8) (h15 : outs 15 = outs' 15) (c : Dev nD) :
    V21 m outs c = V21 m outs' c :=
  congrArg (fun v => StableHlo.after hostOps2_5 (StableHlo.after hostOps2_4 (StableHlo.after hostOps2_3 (StableHlo.after hostOps2_2
    (StableHlo.after hostOps2_1 (StableHlo.after hostOps2 v)))))) (V15_congr m h8 h15 c)

theorem V22_congr {outs outs' : Outs (F := Ideal)} (h8 : outs 8 = outs' 8) (h15 : outs 15 = outs' 15) (h22 : outs 22 = outs' 22)
    (c : Dev nD) : V22 m outs c = V22 m outs' c := by
  unfold V22; rw [V21_congr m h8 h15 c, h22]

theorem V28_congr {outs outs' : Outs (F := Ideal)} (h8 : outs 8 = outs' 8) (h15 : outs 15 = outs' 15) (h22 : outs 22 = outs' 22)
    (c : Dev nD) : V28 m outs c = V28 m outs' c :=
  congrArg (fun v => StableHlo.after hostOps3_5 (StableHlo.after hostOps3_4 (StableHlo.after hostOps3_3 (StableHlo.after hostOps3_2
    (StableHlo.after hostOps3_1 (StableHlo.after hostOps3 v)))))) (V22_congr m h8 h15 h22 c)

/-! ## The regions' effects, stage by stage -/

/-- The contents region 0 is entered with: what the first seven items leave. -/
abbrev X0 : Vals := fun c b => V7 m c b
/-- What region 0 leaves: its result array `main_v8` at what its write-backs leave, every other buffer as entered. -/
def row8 (r : Ref sig .tc) (c : Dev nD) : Buf (Elt Ideal) ((c : Thread nD τ).loc r) :=
  Function.update (fun r' : Ref sig .tc => X0 m c r') main_v8 ((dat0 (X0 m) c).arrAt 3 cfg0.N) r
/-- The effects known after region 0. -/
def outsA : Outs (F := Ideal) := fun _ => row8 m

/-- The contents region 1 is entered with. -/
abbrev Y1 : Vals := fun c b => V14 m (outsA m) c b
/-- What region 1 leaves: its result array `main_v16`. -/
def row15 (r : Ref sig .tc) (c : Dev nD) : Buf (Elt Ideal) ((c : Thread nD τ).loc r) :=
  Function.update (fun r' : Ref sig .tc => Y1 m c r') main_v16 ((dat1 (Y1 m) c).arrAt 3 cfg1.N) r
/-- The effects known after region 1. -/
def outsB : Outs (F := Ideal) := fun J => if J = 8 then row8 m else row15 m

/-- The contents region 2 is entered with. -/
abbrev Y2 : Vals := fun c b => V21 m (outsB m) c b
/-- What region 2 leaves: its result array `main_v24`. -/
def row22 (r : Ref sig .tc) (c : Dev nD) : Buf (Elt Ideal) ((c : Thread nD τ).loc r) :=
  Function.update (fun r' : Ref sig .tc => Y2 m c r') main_v24 ((dat2 (Y2 m) c).arrAt 3 cfg2.N) r
/-- The effects known after region 2. -/
def outsC : Outs (F := Ideal) := fun J => if J = 8 then row8 m else if J = 15 then row15 m else row22 m

/-- The contents region 3 is entered with. -/
abbrev Y3 : Vals := fun c b => V28 m (outsC m) c b
/-- What region 3 leaves: its result array `main_v32`. -/
def row29 (r : Ref sig .tc) (c : Dev nD) : Buf (Elt Ideal) ((c : Thread nD τ).loc r) :=
  Function.update (fun r' : Ref sig .tc => Y3 m c r') main_v32 ((dat3 (Y3 m) c).arrAt 3 cfg3.N) r

/-- THE REGIONS' EFFECTS: after item 7, 14, 21, 28 the region's result array at what its write-backs leave, the
    operand left in HBM (and every other buffer) as the region was entered. -/
def outsI : Outs (F := Ideal) := fun J => if J = 8 then row8 m else if J = 15 then row15 m else if J = 22 then row22 m else row29 m

theorem outsI_at8 : outsI m 8 = row8 m := rfl
theorem outsI_at15 : outsI m 15 = row15 m := rfl
theorem outsI_at22 : outsI m 22 = row22 m := rfl
theorem outsI_at29 : outsI m 29 = row29 m := rfl
theorem outsB_at8 : outsB m 8 = row8 m := rfl
theorem outsB_at15 : outsB m 15 = row15 m := rfl
theorem outsC_at8 : outsC m 8 = row8 m := rfl
theorem outsC_at15 : outsC m 15 = row15 m := rfl
theorem outsC_at22 : outsC m 22 = row22 m := rfl
/-- The contents each region is entered with, over the final effects. -/
abbrev X1 : Vals := fun c b => V14 m (outsI m) c b
abbrev X2 : Vals := fun c b => V21 m (outsI m) c b
abbrev X3 : Vals := fun c b => V28 m (outsI m) c b

theorem X1_eq : X1 m = Y1 m := by
  funext c b; exact congrFun (V14_congr m (outs := outsI m) (outs' := outsA m) (outsI_at8 m) c) _
theorem X2_eq : X2 m = Y2 m := by
  funext c b; exact congrFun (V21_congr m (outs := outsI m) (outs' := outsB m) ((outsI_at8 m).trans (outsB_at8 m).symm) ((outsI_at15 m).trans (outsB_at15 m).symm) c) _
theorem X3_eq : X3 m = Y3 m := by
  funext c b; exact congrFun (V28_congr m (outs := outsI m) (outs' := outsC m) ((outsI_at8 m).trans (outsC_at8 m).symm) ((outsI_at15 m).trans (outsC_at15 m).symm) ((outsI_at22 m).trans (outsC_at22 m).symm) c) _

/-! ## Each region's exit valuation: the result array, and everything else -/

/-- Region 0's result array after it. -/
theorem outsI_8 (c : Dev nD) : V8 m (outsI m) c main_v8 = (dat0 (fun c b => V7 m c b) c).arrAt 3 cfg0.N := by
  unfold V8
  rw [Function.update_of_ne (StableHlo.devRef_ne_of_ne (by decide) : (Proc.devRef .tc main_v8 : DevRef τ sig) ≠ Proc.devRef .tc main_v0),
    Function.update_self, outsI_at8]
  unfold row8; rw [Function.update_self]
/-- Every other buffer is as region 0 was entered. -/
theorem V8_rest (c : Dev nD) (b : Ref sig .tc) (hb : b ≠ main_v8) : V8 m (outsI m) c b = V7 m c b := by
  by_cases h0 : b = main_v0
  · rw [h0]
    unfold V8; rw [Function.update_self, outsI_at8]
    unfold row8; exact Function.update_of_ne (show (main_v0 : Ref sig .tc) ≠ main_v8 from by decide) _ _
  · exact V8_of m (outsI m) c b (fun h => by
      rcases List.mem_cons.mp h with h | h
      · exact hb h
      · exact h0 (List.mem_singleton.mp h))
/-- Region 1's result array after it. -/
theorem outsI_15 (c : Dev nD) : V15 m (outsI m) c main_v16 = (dat1 (fun c b => V14 m (outsI m) c b) c).arrAt 3 cfg1.N := by
  unfold V15
  rw [Function.update_of_ne (StableHlo.devRef_ne_of_ne (by decide) : (Proc.devRef .tc main_v16 : DevRef τ sig) ≠ Proc.devRef .tc main_v8),
    Function.update_self, outsI_at15]
  unfold row15; rw [Function.update_self, ← X1_eq m]
/-- Every other buffer is as region 1 was entered. -/
theorem V15_rest (c : Dev nD) (b : Ref sig .tc) (hb : b ≠ main_v16) : V15 m (outsI m) c b = V14 m (outsI m) c b := by
  by_cases h0 : b = main_v8
  · rw [h0]
    unfold V15; rw [Function.update_self, outsI_at15]
    unfold row15
    exact (Function.update_of_ne (show (main_v8 : Ref sig .tc) ≠ main_v16 from by decide) _ _).trans (congrFun (congrFun (X1_eq m).symm c) main_v8)
  · exact V15_of m (outsI m) c b (fun h => by
      rcases List.mem_cons.mp h with h | h
      · exact hb h
      · exact h0 (List.mem_singleton.mp h))
/-- Region 2's result array after it. -/
theorem outsI_22 (c : Dev nD) : V22 m (outsI m) c main_v24 = (dat2 (fun c b => V21 m (outsI m) c b) c).arrAt 3 cfg2.N := by
  unfold V22
  rw [Function.update_of_ne (StableHlo.devRef_ne_of_ne (by decide) : (Proc.devRef .tc main_v24 : DevRef τ sig) ≠ Proc.devRef .tc main_v16),
    Function.update_self, outsI_at22]
  unfold row22; rw [Function.update_self, ← X2_eq m]
/-- Every other buffer is as region 2 was entered. -/
theorem V22_rest (c : Dev nD) (b : Ref sig .tc) (hb : b ≠ main_v24) : V22 m (outsI m) c b = V21 m (outsI m) c b := by
  by_cases h0 : b = main_v16
  · rw [h0]
    unfold V22; rw [Function.update_self, outsI_at22]
    unfold row22
    exact (Function.update_of_ne (show (main_v16 : Ref sig .tc) ≠ main_v24 from by decide) _ _).trans (congrFun (congrFun (X2_eq m).symm c) main_v16)
  · exact V22_of m (outsI m) c b (fun h => by
      rcases List.mem_cons.mp h with h | h
      · exact hb h
      · exact h0 (List.mem_singleton.mp h))
/-- Region 3's result array after it. -/
theorem outsI_29 (c : Dev nD) : V29 m (outsI m) c main_v32 = (dat3 (fun c b => V28 m (outsI m) c b) c).arrAt 3 cfg3.N := by
  unfold V29
  rw [Function.update_of_ne (StableHlo.devRef_ne_of_ne (by decide) : (Proc.devRef .tc main_v32 : DevRef τ sig) ≠ Proc.devRef .tc main_v24),
    Function.update_self, outsI_at29]
  unfold row29; rw [Function.update_self, ← X3_eq m]
/-- Every other buffer is as region 3 was entered. -/
theorem V29_rest (c : Dev nD) (b : Ref sig .tc) (hb : b ≠ main_v32) : V29 m (outsI m) c b = V28 m (outsI m) c b := by
  by_cases h0 : b = main_v24
  · rw [h0]
    unfold V29; rw [Function.update_self, outsI_at29]
    unfold row29
    exact (Function.update_of_ne (show (main_v24 : Ref sig .tc) ≠ main_v32 from by decide) _ _).trans (congrFun (congrFun (X3_eq m).symm c) main_v24)
  · exact V29_of m (outsI m) c b (fun h => by
      rcases List.mem_cons.mp h with h | h
      · exact hb h
      · exact h0 (List.mem_singleton.mp h))

/-! ## The proof data family and what rides beside the buffers -/

/-- Every pipeline's data, each at the contents its region is entered with. -/
def pdats : (p : Fin 4) → (c : Dev nD) → Dat τ (Elt Ideal) Unit ℕ (UR sig nD τ) ℕ (cfgs p) c
  | ⟨0, _⟩ => fun c => dat0 (X0 m) c
  | ⟨1, _⟩ => fun c => dat1 (X1 m) c
  | ⟨2, _⟩ => fun c => dat2 (X2 m) c
  | ⟨3, _⟩ => fun c => dat3 (X3 m) c

/-- No kernel variant. -/
abbrev run𝒱 : Variants := Variants.none
/-- No core owes another anything: no level is assigned. -/
abbrev runL : GSem nD τ sig → Finset Unit := fun _ => ∅
abbrev runLv : GSem nD τ sig → Unit → ℕ := fun _ _ => 0
/-- What rides beside the buffers through every item: the core's generator register at some state (a region's
    invariant takes it in and gives it back) and its dues, at nothing. -/
abbrev runR (c : Dev nD) : sProp 𝕄 := iprop((∃ r, prngReg c r) ∗ ∃ W, owes (c : Thread nD τ) (0 : CellTallies nD τ sig Unit) W)

/-- The valuations the regions are left at, read at the TensorCore's references. -/
abbrev Z0 : Vals := fun c b => V8 m (outsI m) c b
abbrev Z1 : Vals := fun c b => V15 m (outsI m) c b
abbrev Z2 : Vals := fun c b => V22 m (outsI m) c b
abbrev Z3 : Vals := fun c b => V29 m (outsI m) c b

/-- Every element lies in a set that is the whole type. -/
theorem mem_of_eq_univ {α : Type} {s : Set α} (h : s = Set.univ) (x : α) : x ∈ s := h ▸ Set.mem_univ x

/-! ## Region 0 -/

/-- At region 0's exit each of its arrays holds what the pipeline leaves: an input array what it held at entry,
    the result array the write-backs' fold. -/
theorem hF0 (c : Dev nD) (w : Fin 4) : (dat0 (X0 m) c).arrAt w cfg0.N = Z0 m c (Pipeline.arrRef spec0 w) :=
  match w with
  | ⟨0, _⟩ => ((dat0 (X0 m) c).arrAt_in 0 rfl _).trans ((A_eq0 (X0 m) c 0).trans (V8_rest m c main_v7 (by decide)).symm)
  | ⟨1, _⟩ => ((dat0 (X0 m) c).arrAt_in 1 rfl _).trans ((A_eq0 (X0 m) c 1).trans (V8_rest m c main_v4 (by decide)).symm)
  | ⟨2, _⟩ => ((dat0 (X0 m) c).arrAt_in 2 rfl _).trans ((A_eq0 (X0 m) c 2).trans (V8_rest m c main_v5 (by decide)).symm)
  | ⟨3, _⟩ => (outsI_8 m c).symm
/-- Every buffer that is none of region 0's arrays holds at its exit what it held at entry. -/
theorem hrest0 (c : Dev nD) : ∀ b, b ∉ Finset.univ.image (Pipeline.arrRef spec0) → Z0 m c b = X0 m c b :=
  fun b hb => V8_rest m c b fun e => hb (Finset.mem_image.mpr ⟨3, Finset.mem_univ _, e.symm⟩)

set_option backward.isDefEq.respectTransparency.types false in
/-- REGION 0 over the thread state: entered from every unscoped buffer at the valuation the items before it leave,
    left at that valuation moved at the region's result array. Its arrays are split out of the unscoped buffers at entry
    and put back at the exit contents; the generator register passes through the invariant; nothing is owed; the
    kernel has no semaphore of its own. -/
def reg0 : Pipeline.RegionSeg (pcfgs (F := Ideal)) adm (pdats m) () defs₀ run𝒱 runL runLv 0 where
  win := launch0.win.to₀
  block_pos := launch0.block_pos
  stage_whole := launch0.stage_whole
  K := PEmpty
  osem k := k.elim
  ho := Pipeline.OwnSemFacts.none _
  hbody c := body_obligation0 (X0 m) c
  hwaits := Pipeline.hwaits_of_owed_zero _ _ _ _ runL runLv 0 fun c t => owed_eq0 (X0 m) c t
  pre c := iprop(StableHlo.held (c : Thread nD τ) (Pipeline.ucRefs τ sig) (V7 m c) ∗ runR c)
  post c := iprop(StableHlo.held (c : Thread nD τ) (Pipeline.ucRefs τ sig) (V8 m (outsI m) c) ∗ runR c)
  X c := iprop(∃ r, prngReg c r)
  Y c := iprop(∃ r, prngReg c r)
  Z c := Pipeline.unscopedRest (Ix := Unit) (Name := ℕ) (U := UR sig nD τ) (Lvl := ℕ) spec0 c (X0 m c)
  hentry c := by
    rw [Pipeline.ownSems0_none]
    have hsplit := Pipeline.arrays_of_unscopedBufs (p := 0) (pcfgs (F := Ideal)) adm (pdats m) launch0.win launch0.arr_whole c
      ((pdats m 0 c).share_full fun w => q_eq0 (X0 m) c w) (X0 m c) fun w => A_eq0 (X0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (X0 m) c 0]
      icases HO with ⟨%W, HO⟩; iexists W
      isplitr
      · ipureintro
        exact fun x _ => Or.inl (mem_of_eq_univ (show (pdats m 0 c).recorded 0 = Set.univ from recorded_eq0 (X0 m) c 0) x)
      iexact HO
    isplitl [Hp]; · iexact Hp
    iexact Hrest
  hin c := by
    rw [show (pdats m 0 c).Φ 0 = Pipeline.ΦA spec0 c from Φ_eq0 (X0 m) c 0]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from Φ_eq0 (X0 m) c (Fin.last _)]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun w => q_eq0 (X0 m) c w)
      (X0 m c) (Z0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (X0 m) c (Fin.last _)]
    icases HO with ⟨%W, -, HO⟩; iexists W; iexact HO

/-! ## Region 1 -/

/-- At region 1's exit each of its arrays holds what the pipeline leaves: an input array what it held at entry,
    the result array the write-backs' fold. -/
theorem hF1 (c : Dev nD) (w : Fin 4) : (dat1 (X1 m) c).arrAt w cfg1.N = Z1 m c (Pipeline.arrRef spec1 w) :=
  match w with
  | ⟨0, _⟩ => ((dat1 (X1 m) c).arrAt_in 0 rfl _).trans ((A_eq1 (X1 m) c 0).trans (V15_rest m c main_v15 (by decide)).symm)
  | ⟨1, _⟩ => ((dat1 (X1 m) c).arrAt_in 1 rfl _).trans ((A_eq1 (X1 m) c 1).trans (V15_rest m c main_v12 (by decide)).symm)
  | ⟨2, _⟩ => ((dat1 (X1 m) c).arrAt_in 2 rfl _).trans ((A_eq1 (X1 m) c 2).trans (V15_rest m c main_v13 (by decide)).symm)
  | ⟨3, _⟩ => (outsI_15 m c).symm
/-- Every buffer that is none of region 1's arrays holds at its exit what it held at entry. -/
theorem hrest1 (c : Dev nD) : ∀ b, b ∉ Finset.univ.image (Pipeline.arrRef spec1) → Z1 m c b = X1 m c b :=
  fun b hb => V15_rest m c b fun e => hb (Finset.mem_image.mpr ⟨3, Finset.mem_univ _, e.symm⟩)

set_option backward.isDefEq.respectTransparency.types false in
/-- REGION 1 over the thread state: entered from every unscoped buffer at the valuation the items before it leave,
    left at that valuation moved at the region's result array. Its arrays are split out of the unscoped buffers at entry
    and put back at the exit contents; the generator register passes through the invariant; nothing is owed; the
    kernel has no semaphore of its own. -/
def reg1 : Pipeline.RegionSeg (pcfgs (F := Ideal)) adm (pdats m) () defs₀ run𝒱 runL runLv 1 where
  win := launch1.win.to₀
  block_pos := launch1.block_pos
  stage_whole := launch1.stage_whole
  K := PEmpty
  osem k := k.elim
  ho := Pipeline.OwnSemFacts.none _
  hbody c := body_obligation1 (X1 m) c
  hwaits := Pipeline.hwaits_of_owed_zero _ _ _ _ runL runLv 1 fun c t => owed_eq1 (X1 m) c t
  pre c := iprop(StableHlo.held (c : Thread nD τ) (Pipeline.ucRefs τ sig) (V14 m (outsI m) c) ∗ runR c)
  post c := iprop(StableHlo.held (c : Thread nD τ) (Pipeline.ucRefs τ sig) (V15 m (outsI m) c) ∗ runR c)
  X c := iprop(∃ r, prngReg c r)
  Y c := iprop(∃ r, prngReg c r)
  Z c := Pipeline.unscopedRest (Ix := Unit) (Name := ℕ) (U := UR sig nD τ) (Lvl := ℕ) spec1 c (X1 m c)
  hentry c := by
    rw [Pipeline.ownSems0_none]
    have hsplit := Pipeline.arrays_of_unscopedBufs (p := 1) (pcfgs (F := Ideal)) adm (pdats m) launch1.win launch1.arr_whole c
      ((pdats m 1 c).share_full fun w => q_eq1 (X1 m) c w) (X1 m c) fun w => A_eq1 (X1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (X1 m) c 0]
      icases HO with ⟨%W, HO⟩; iexists W
      isplitr
      · ipureintro
        exact fun x _ => Or.inl (mem_of_eq_univ (show (pdats m 1 c).recorded 0 = Set.univ from recorded_eq1 (X1 m) c 0) x)
      iexact HO
    isplitl [Hp]; · iexact Hp
    iexact Hrest
  hin c := by
    rw [show (pdats m 1 c).Φ 0 = Pipeline.ΦA spec1 c from Φ_eq1 (X1 m) c 0]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from Φ_eq1 (X1 m) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun w => q_eq1 (X1 m) c w)
      (X1 m c) (Z1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (X1 m) c (Fin.last _)]
    icases HO with ⟨%W, -, HO⟩; iexists W; iexact HO

/-! ## Region 2 -/

/-- At region 2's exit each of its arrays holds what the pipeline leaves: an input array what it held at entry,
    the result array the write-backs' fold. -/
theorem hF2 (c : Dev nD) (w : Fin 4) : (dat2 (X2 m) c).arrAt w cfg2.N = Z2 m c (Pipeline.arrRef spec2 w) :=
  match w with
  | ⟨0, _⟩ => ((dat2 (X2 m) c).arrAt_in 0 rfl _).trans ((A_eq2 (X2 m) c 0).trans (V22_rest m c main_v23 (by decide)).symm)
  | ⟨1, _⟩ => ((dat2 (X2 m) c).arrAt_in 1 rfl _).trans ((A_eq2 (X2 m) c 1).trans (V22_rest m c main_v20 (by decide)).symm)
  | ⟨2, _⟩ => ((dat2 (X2 m) c).arrAt_in 2 rfl _).trans ((A_eq2 (X2 m) c 2).trans (V22_rest m c main_v21 (by decide)).symm)
  | ⟨3, _⟩ => (outsI_22 m c).symm
/-- Every buffer that is none of region 2's arrays holds at its exit what it held at entry. -/
theorem hrest2 (c : Dev nD) : ∀ b, b ∉ Finset.univ.image (Pipeline.arrRef spec2) → Z2 m c b = X2 m c b :=
  fun b hb => V22_rest m c b fun e => hb (Finset.mem_image.mpr ⟨3, Finset.mem_univ _, e.symm⟩)

set_option backward.isDefEq.respectTransparency.types false in
/-- REGION 2 over the thread state: entered from every unscoped buffer at the valuation the items before it leave,
    left at that valuation moved at the region's result array. Its arrays are split out of the unscoped buffers at entry
    and put back at the exit contents; the generator register passes through the invariant; nothing is owed; the
    kernel has no semaphore of its own. -/
def reg2 : Pipeline.RegionSeg (pcfgs (F := Ideal)) adm (pdats m) () defs₀ run𝒱 runL runLv 2 where
  win := launch2.win.to₀
  block_pos := launch2.block_pos
  stage_whole := launch2.stage_whole
  K := PEmpty
  osem k := k.elim
  ho := Pipeline.OwnSemFacts.none _
  hbody c := body_obligation2 (X2 m) c
  hwaits := Pipeline.hwaits_of_owed_zero _ _ _ _ runL runLv 2 fun c t => owed_eq2 (X2 m) c t
  pre c := iprop(StableHlo.held (c : Thread nD τ) (Pipeline.ucRefs τ sig) (V21 m (outsI m) c) ∗ runR c)
  post c := iprop(StableHlo.held (c : Thread nD τ) (Pipeline.ucRefs τ sig) (V22 m (outsI m) c) ∗ runR c)
  X c := iprop(∃ r, prngReg c r)
  Y c := iprop(∃ r, prngReg c r)
  Z c := Pipeline.unscopedRest (Ix := Unit) (Name := ℕ) (U := UR sig nD τ) (Lvl := ℕ) spec2 c (X2 m c)
  hentry c := by
    rw [Pipeline.ownSems0_none]
    have hsplit := Pipeline.arrays_of_unscopedBufs (p := 2) (pcfgs (F := Ideal)) adm (pdats m) launch2.win launch2.arr_whole c
      ((pdats m 2 c).share_full fun w => q_eq2 (X2 m) c w) (X2 m c) fun w => A_eq2 (X2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed_eq2 (X2 m) c 0]
      icases HO with ⟨%W, HO⟩; iexists W
      isplitr
      · ipureintro
        exact fun x _ => Or.inl (mem_of_eq_univ (show (pdats m 2 c).recorded 0 = Set.univ from recorded_eq2 (X2 m) c 0) x)
      iexact HO
    isplitl [Hp]; · iexact Hp
    iexact Hrest
  hin c := by
    rw [show (pdats m 2 c).Φ 0 = Pipeline.ΦA spec2 c from Φ_eq2 (X2 m) c 0]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from Φ_eq2 (X2 m) c (Fin.last _)]; unfold Pipeline.ΦA
    iintro ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m) ((pdats m 2 c).share_full fun w => q_eq2 (X2 m) c w)
      (X2 m c) (Z2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from owed_eq2 (X2 m) c (Fin.last _)]
    icases HO with ⟨%W, -, HO⟩; iexists W; iexact HO

/-! ## Region 3 -/

/-- At region 3's exit each of its arrays holds what the pipeline leaves: an input array what it held at entry,
    the result array the write-backs' fold. -/
theorem hF3 (c : Dev nD) (w : Fin 4) : (dat3 (X3 m) c).arrAt w cfg3.N = Z3 m c (Pipeline.arrRef spec3 w) :=
  match w with
  | ⟨0, _⟩ => ((dat3 (X3 m) c).arrAt_in 0 rfl _).trans ((A_eq3 (X3 m) c 0).trans (V29_rest m c main_v31 (by decide)).symm)
  | ⟨1, _⟩ => ((dat3 (X3 m) c).arrAt_in 1 rfl _).trans ((A_eq3 (X3 m) c 1).trans (V29_rest m c main_v28 (by decide)).symm)
  | ⟨2, _⟩ => ((dat3 (X3 m) c).arrAt_in 2 rfl _).trans ((A_eq3 (X3 m) c 2).trans (V29_rest m c main_v29 (by decide)).symm)
  | ⟨3, _⟩ => (outsI_29 m c).symm
/-- Every buffer that is none of region 3's arrays holds at its exit what it held at entry. -/
theorem hrest3 (c : Dev nD) : ∀ b, b ∉ Finset.univ.image (Pipeline.arrRef spec3) → Z3 m c b = X3 m c b :=
  fun b hb => V29_rest m c b fun e => hb (Finset.mem_image.mpr ⟨3, Finset.mem_univ _, e.symm⟩)

set_option backward.isDefEq.respectTransparency.types false in
/-- REGION 3 over the thread state: entered from every unscoped buffer at the valuation the items before it leave,
    left at that valuation moved at the region's result array. Its arrays are split out of the unscoped buffers at entry
    and put back at the exit contents; the generator register passes through the invariant; nothing is owed; the
    kernel has no semaphore of its own. -/
def reg3 : Pipeline.RegionSeg (pcfgs (F := Ideal)) adm (pdats m) () defs₀ run𝒱 runL runLv 3 where
  win := launch3.win.to₀
  block_pos := launch3.block_pos
  stage_whole := launch3.stage_whole
  K := PEmpty
  osem k := k.elim
  ho := Pipeline.OwnSemFacts.none _
  hbody c := body_obligation3 (X3 m) c
  hwaits := Pipeline.hwaits_of_owed_zero _ _ _ _ runL runLv 3 fun c t => owed_eq3 (X3 m) c t
  pre c := iprop(StableHlo.held (c : Thread nD τ) (Pipeline.ucRefs τ sig) (V28 m (outsI m) c) ∗ runR c)
  post c := iprop(StableHlo.held (c : Thread nD τ) (Pipeline.ucRefs τ sig) (V29 m (outsI m) c) ∗ runR c)
  X c := iprop(∃ r, prngReg c r)
  Y c := iprop(∃ r, prngReg c r)
  Z c := Pipeline.unscopedRest (Ix := Unit) (Name := ℕ) (U := UR sig nD τ) (Lvl := ℕ) spec3 c (X3 m c)
  hentry c := by
    rw [Pipeline.ownSems0_none]
    have hsplit := Pipeline.arrays_of_unscopedBufs (p := 3) (pcfgs (F := Ideal)) adm (pdats m) launch3.win launch3.arr_whole c
      ((pdats m 3 c).share_full fun w => q_eq3 (X3 m) c w) (X3 m c) fun w => A_eq3 (X3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 3 c).owed 0 = 0 from owed_eq3 (X3 m) c 0]
      icases HO with ⟨%W, HO⟩; iexists W
      isplitr
      · ipureintro
        exact fun x _ => Or.inl (mem_of_eq_univ (show (pdats m 3 c).recorded 0 = Set.univ from recorded_eq3 (X3 m) c 0) x)
      iexact HO
    isplitl [Hp]; · iexact Hp
    iexact Hrest
  hin c := by
    rw [show (pdats m 3 c).Φ 0 = Pipeline.ΦA spec3 c from Φ_eq3 (X3 m) c 0]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from Φ_eq3 (X3 m) c (Fin.last _)]; unfold Pipeline.ΦA
    iintro ⟨Hr, Hp⟩
    isplitl [Hp]; · iexact Hp
    isplitr; · iempintro
    iexact Hr
  hexit c := by
    have hjoin := Pipeline.unscopedBufs_of_arrays (p := 3) (pcfgs (F := Ideal)) adm (Ix := Unit) (Name := ℕ) (U := UR sig nD τ) (Lvl := ℕ)
      launch3.win launch3.arr_whole c (pdats m) ((pdats m 3 c).share_full fun w => q_eq3 (X3 m) c w)
      (X3 m c) (Z3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 3 c).owed (Fin.last _) = 0 from owed_eq3 (X3 m) c (Fin.last _)]
    icases HO with ⟨%W, -, HO⟩; iexists W; iexact HO

/-! ## The launch -/

set_option backward.isDefEq.respectTransparency.types false in
/-- THE RUN: from any memory `m` with zero counters every weakly fair execution of the program terminates, and in every
    final memory each unscoped buffer of each core holds the last valuation over the regions' effects `outsI m`. -/
theorem run_all (ρ : Dev nD → PrngReg) :
    θ_run (defs (F := Ideal)) (onTc (τ := τ) (main (F := Ideal))) ⟨m, fun _ => 0, ρ⟩
      (fun r => ∀ c : Dev nD, ∀ b ∈ Pipeline.ucRefs τ sig, r.2.mem ((c : Thread nD τ).1, b) = V29 m (outsI m) c b) :=
  run_cond m (emb₁ : Emb (UR sig nD τ) 𝕄) () run𝒱 runL runLv (fun _ _ => rfl) ρ (outsI m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => runR c)
    (hE0 := by
      refine Pipeline.initEach runL runLv fun c => ?_
      iintro ⟨⟨-, HO, -, Hp, -⟩, -⟩
      imodintro
      isplitl [Hp]; · iexists _; iexact Hp
      iexists ∅; iexact HO)
    (hE4 := fun c => by iintro ⟨-, H⟩; iexact H)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)

end Cert.KernelIdeal.Hand

end
-- ==== Proof.KI.HostFacts.lean ====
/-
  What the host operations leave in the arrays the four regions read, as statements: region i's feature array is
  argument f_i with its spatial axes flattened; its table is lrelu of the gathered columns of r_i; its weights are the
  gathered columns of w_i; and the shared result passes from one region to the next unchanged.
-/
import proofs.«420513_j51462298141020_3_alg».proof.Proof.Gen.KernelIdeal.Regions
import proofs.«420513_j51462298141020_3_alg».proof.Proof.Spec
import proofs.«420513_j51462298141020_3_alg».proof.Proof.KI.Defs

noncomputable section

namespace Cert.KernelIdeal.Hand

open Cert.KernelIdeal Cert.KernelIdeal.Gen
open Idealize.ShloMosaic Idealize.ShloMosaic.TcCoe Idealize.SL.Sem Idealize.ShloMosaic.ValueIdx

/-- The host side of the kernel's program on core `c`, from the launch memory `m`, whatever the regions leave (`outs`). -/
structure HostFacts (m : (ℓ : Loc nD τ sig) → Buf (Elt Ideal) ℓ) (outs : Outs (F := Ideal)) (c : Dev nD) : Prop where
  /-- Region 0's feature array is argument main_arg0 with its two spatial axes flattened row-major. -/
  fm0 : ∀ (b : Fin 8) (ch : Fin 64) (p : Fin 3136),
    (V7 m c main_v7 : FVec Ideal S8x64x3136 .bf16) (ix3 b ch p) = (m ((c : Thread nD τ).loc main_arg0)) (ix4 b ch (Cert.Spec.prow 56 p) (Cert.Spec.pcol 56 p))
  /-- Region 0's table is the leaky ReLU of argument main_arg4's column named by the index word, spatial axes flattened. -/
  rs0 : ∀ (p : Fin 3136) (v : Fin 8000),
    (V7 m c main_v4 : FVec Ideal S3136x8000 .bf16) (ix2 p v)
      = Cert.Spec.lrelu ((m ((c : Thread nD τ).loc main_arg4)) (ix3 (Cert.Spec.prow 56 p) (Cert.Spec.pcol 56 p) (Cert.Spec.col ((m ((c : Thread nD τ).loc main_arg12)) (ix1 v)))))
  /-- Region 0's weights are argument main_arg8's column named by the index word. -/
  ws0 : ∀ (ch : Fin 64) (v : Fin 8000),
    (V7 m c main_v5 : FVec Ideal S64x8000 .f32) (ix2 ch v) = (m ((c : Thread nD τ).loc main_arg8)) (ix2 ch (Cert.Spec.col ((m ((c : Thread nD τ).loc main_arg12)) (ix1 v))))
  /-- Region 0 is entered with the shared result as the previous item left it. -/
  ob0 : V7 m c main_v8 = V7 m c main_v0
  /-- Region 1's feature array is argument main_arg1 with its two spatial axes flattened row-major. -/
  fm1 : ∀ (b : Fin 8) (ch : Fin 128) (p : Fin 784),
    (V14 m outs c main_v15 : FVec Ideal S8x128x784 .bf16) (ix3 b ch p) = (m ((c : Thread nD τ).loc main_arg1)) (ix4 b ch (Cert.Spec.prow 28 p) (Cert.Spec.pcol 28 p))
  /-- Region 1's table is the leaky ReLU of argument main_arg5's column named by the index word, spatial axes flattened. -/
  rs1 : ∀ (p : Fin 784) (v : Fin 8000),
    (V14 m outs c main_v12 : FVec Ideal S784x8000 .bf16) (ix2 p v)
      = Cert.Spec.lrelu ((m ((c : Thread nD τ).loc main_arg5)) (ix3 (Cert.Spec.prow 28 p) (Cert.Spec.pcol 28 p) (Cert.Spec.col ((m ((c : Thread nD τ).loc main_arg12)) (ix1 v)))))
  /-- Region 1's weights are argument main_arg9's column named by the index word. -/
  ws1 : ∀ (ch : Fin 128) (v : Fin 8000),
    (V14 m outs c main_v13 : FVec Ideal S128x8000 .f32) (ix2 ch v) = (m ((c : Thread nD τ).loc main_arg9)) (ix2 ch (Cert.Spec.col ((m ((c : Thread nD τ).loc main_arg12)) (ix1 v))))
  /-- Region 1 is entered with the shared result as the previous item left it. -/
  ob1 : V14 m outs c main_v16 = V8 m outs c main_v8
  /-- Region 2's feature array is argument main_arg2 with its two spatial axes flattened row-major. -/
  fm2 : ∀ (b : Fin 8) (ch : Fin 256) (p : Fin 196),
    (V21 m outs c main_v23 : FVec Ideal S8x256x196 .bf16) (ix3 b ch p) = (m ((c : Thread nD τ).loc main_arg2)) (ix4 b ch (Cert.Spec.prow 14 p) (Cert.Spec.pcol 14 p))
  /-- Region 2's table is the leaky ReLU of argument main_arg6's column named by the index word, spatial axes flattened. -/
  rs2 : ∀ (p : Fin 196) (v : Fin 8000),
    (V21 m outs c main_v20 : FVec Ideal S196x8000 .bf16) (ix2 p v)
      = Cert.Spec.lrelu ((m ((c : Thread nD τ).loc main_arg6)) (ix3 (Cert.Spec.prow 14 p) (Cert.Spec.pcol 14 p) (Cert.Spec.col ((m ((c : Thread nD τ).loc main_arg12)) (ix1 v)))))
  /-- Region 2's weights are argument main_arg10's column named by the index word. -/
  ws2 : ∀ (ch : Fin 256) (v : Fin 8000),
    (V21 m outs c main_v21 : FVec Ideal S256x8000 .f32) (ix2 ch v) = (m ((c : Thread nD τ).loc main_arg10)) (ix2 ch (Cert.Spec.col ((m ((c : Thread nD τ).loc main_arg12)) (ix1 v))))
  /-- Region 2 is entered with the shared result as the previous item left it. -/
  ob2 : V21 m outs c main_v24 = V15 m outs c main_v16
  /-- Region 3's feature array is argument main_arg3 with its two spatial axes flattened row-major. -/
  fm3 : ∀ (b : Fin 8) (ch : Fin 512) (p : Fin 49),
    (V28 m outs c main_v31 : FVec Ideal S8x512x49 .bf16) (ix3 b ch p) = (m ((c : Thread nD τ).loc main_arg3)) (ix4 b ch (Cert.Spec.prow 7 p) (Cert.Spec.pcol 7 p))
  /-- Region 3's table is the leaky ReLU of argument main_arg7's column named by the index word, spatial axes flattened. -/
  rs3 : ∀ (p : Fin 49) (v : Fin 8000),
    (V28 m outs c main_v28 : FVec Ideal S49x8000 .bf16) (ix2 p v)
      = Cert.Spec.lrelu ((m ((c : Thread nD τ).loc main_arg7)) (ix3 (Cert.Spec.prow 7 p) (Cert.Spec.pcol 7 p) (Cert.Spec.col ((m ((c : Thread nD τ).loc main_arg12)) (ix1 v)))))
  /-- Region 3's weights are argument main_arg11's column named by the index word. -/
  ws3 : ∀ (ch : Fin 512) (v : Fin 8000),
    (V28 m outs c main_v29 : FVec Ideal S512x8000 .f32) (ix2 ch v) = (m ((c : Thread nD τ).loc main_arg11)) (ix2 ch (Cert.Spec.col ((m ((c : Thread nD τ).loc main_arg12)) (ix1 v))))
  /-- Region 3 is entered with the shared result as the previous item left it. -/
  ob3 : V28 m outs c main_v32 = V22 m outs c main_v24

end Cert.KernelIdeal.Hand

end
-- ==== Proof.KI.HostLib.lean ====
/-
  Taking table columns by index words, read at an entry, and the other host operations the four regions share.

  The index vector is normalised (a negative word has 20000 added), laid out as a column, and tested per position for
  0 ≤ index ≤ 19999; the columns are gathered along the last axis at the normalised index and the positions that fail
  the test are overwritten with NaN. When every index word read unsigned is below 20000 the normalised index is the word
  itself, the test is 1 everywhere and the entry taken is the operand's entry in the column the word names. Beside it:
  the two reshapes that flatten a pair of spatial axes row-major (p = y · h + x), the leaky ReLU at an entry, and the
  fact that no item of the program writes an argument array.
-/
import proofs.«420513_j51462298141020_3_alg».proof.Proof.Gen.KernelIdeal.Regions
import proofs.«420513_j51462298141020_3_alg».proof.Proof.Spec
import proofs.«420513_j51462298141020_3_alg».proof.Proof.LibColGather
import Idealize.ShloMosaic.Lib.StableHlo.Run
import Idealize.ShloMosaic.Lib.Pipeline.Value
import Idealize.ShloMosaic.Lib.ValueIdx
import Idealize.ShloMosaic.Lib.StableHlo.Predicate

-- deciding that a reference is not among a stretch's 23 written ones recurses past the default depth
set_option maxRecDepth 1640

noncomputable section

namespace Cert.KernelIdeal.Hand

open Cert.KernelIdeal Cert.KernelIdeal.Gen
open Idealize.ShloMosaic Idealize.ShloMosaic.TcCoe Idealize.SL.Sem Idealize.ShloMosaic.ValueIdx

/-- The index vector normalised: a negative word has 20000 added. -/
def normIdx (idx : IVec S8000 32) : IVec S8000 32 :=
  select (cmpi .slt idx (broadcastInDim S8000 ![] bcast_S_S8000 (constantI S_ 32 0#32)))
    (addi idx (broadcastInDim S8000 ![] bcast_S_S8000 (constantI S_ 32 20000#32))) idx

/-- The normalised index vector as a column. -/
def idxCol (idx : IVec S8000 32) : IVec S8000x1 32 := broadcastInDim S8000x1 ![0] bcast_S8000_S8000x1_0 (normIdx idx)

/-- Per position: is the normalised index within 0 .. 19999. -/
def okMask (idx : IVec S8000 32) : IVec S8000 1 :=
  Host.reduce IntOp.andi
    (andi (cmpi .sge (idxCol idx) (broadcastInDim S8000x1 ![] bcast_S_S8000x1 (constantI S_ 32 0#32)))
          (cmpi .sle (idxCol idx) (broadcastInDim S8000x1 ![0, 1] bcast_S1x1_S8000x1_0_1 (broadcastInDim S1x1 ![1] bcast_S1_S1x1_1 (constantI S1 32 19999#32)))))
    (constantI S_ 1 1#1) reducesTo_S8000x1_S8000_d1 h_S_

/-! ## The index words -/

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    have e : IntOp.andi 1#1 1#1 = 1#1 := by decide
    rw [e]
    exact foldl_andi_one f l (fun n hn => h n (List.mem_cons_of_mem _ hn))

/-- A word that names a column is non-negative, so normalising leaves it. -/
theorem normIdx_apply (idx : IVec S8000 32) (v : Fin 8000) (h : (idx (ix1 v)).toNat < 20000) :
    normIdx idx (ix1 v) = idx (ix1 v) := by
  unfold normIdx
  rw [select_apply]
  have hc : cmpi .slt idx (broadcastInDim S8000 ![] bcast_S_S8000 (constantI S_ 32 0#32)) (ix1 v) = 0#1 := by
    apply eq_zero_of_ne_one
    intro e
    change IntOp.cmpi .slt (idx (ix1 v)) 0#32 = 1#1 at e
    have := (StableHlo.Predicate.slt_iff_toNat (a := idx (ix1 v)) (b := 0#32) (by omega) (by decide)).1 e
    simp at this
  rw [hc, select_zero]

/-- The column form at row v is the normalised word at v. -/
theorem idxCol_apply (idx : IVec S8000 32) (v : Fin 8000) : idxCol idx (ix2 v (0 : Fin 1)) = normIdx idx (ix1 v) := by
  unfold idxCol
  exact broadcastInDim_apply _ _ _ _ _ (fun a => by match a with | ⟨0, _⟩ => rfl)

/-- With every word naming a column the in-range mask is 1 everywhere. -/
theorem okMask_apply (idx : IVec S8000 32) (hidx : ∀ v : Fin 8000, (idx (ix1 v)).toNat < 20000) (j : S8000.Idx) :
    okMask idx j = 1#1 := by
  unfold okMask
  rw [Host.reduce_eq_foldl]
  refine foldl_andi_one _ _ (fun i _ => ?_)
  obtain ⟨a, b, rfl⟩ : ∃ (a : Fin 8000) (b : Fin 1), i = ix2 a b := ⟨i 0, i 1, eq_ix2 i⟩
  have hb : b = (0 : Fin 1) := Subsingleton.elim _ _
  subst hb
  have hv := hidx a
  have hw : idxCol idx (ix2 a (0 : Fin 1)) = idx (ix1 a) := by rw [idxCol_apply, normIdx_apply idx a hv]
  change IntOp.andi (IntOp.cmpi .sge (idxCol idx (ix2 a (0 : Fin 1))) 0#32) (IntOp.cmpi .sle (idxCol idx (ix2 a (0 : Fin 1))) 19999#32) = 1#1
  rw [hw]
  refine IntOp.andi_eq_one.2 ⟨?_, ?_⟩
  · exact (StableHlo.Predicate.sge_iff_toNat (by omega) (by decide)).2 (by simp)
  · exact (StableHlo.Predicate.sle_iff_toNat (by omega) (by decide)).2 (by
      have e : (19999#32 : BitVec 32).toNat = 19999 := by decide
      rw [e]; omega)

/-! ## Reading the taken columns, the reshapes and the leaky ReLU at an entry -/

/-- Three axes: where every index word names a column, entry (y, z, v) of the masked take is the operand's entry
    (y, z, column of word v). -/
theorem take3_apply {A B : Nat} (d : GatherDims ⟨3, ![A, B, 20000]⟩ S8000x1 ⟨3, ![A, B, 8000]⟩)
    (hoff : d.offsetDims = [0, 1]) (hcol : d.collapsedSliceDims = [2]) (hob : d.operandBatchingDims = [])
    (hsb : d.startIndicesBatchingDims = []) (hmap : d.startIndexMap = [2]) (hiv : d.indexVectorDim = 1)
    (hsl : d.sliceSizes = ![A, B, 1])
    (hb : S8000.BroadcastsInDim ⟨3, ![A, B, 8000]⟩ (![2] : Fin 1 → Fin 3))
    (hn : S_.BroadcastsInDim ⟨3, ![A, B, 8000]⟩ (![] : Fin 0 → Fin 3))
    (x : FVec Ideal ⟨3, ![A, B, 20000]⟩ .f32) (idx : IVec S8000 32)
    (hidx : ∀ v : Fin 8000, (idx (ix1 v)).toNat < 20000) (y : Fin A) (z : Fin B) (v : Fin 8000) :
    select (broadcastInDim ⟨3, ![A, B, 8000]⟩ ![2] hb (okMask idx)) (Host.gather d x (idxCol idx))
        (broadcastInDim ⟨3, ![A, B, 8000]⟩ ![] hn (constant (F := Ideal) S_ .f32 0x7FC00000#32)) (ix3 y z v)
      = x (ix3 y z (Cert.Spec.col (idx (ix1 v)))) := by
  rw [select_apply]
  have hm : broadcastInDim ⟨3, ![A, B, 8000]⟩ ![2] hb (okMask idx) (ix3 y z v) = 1#1 := okMask_apply idx hidx _
  rw [hm, select_one]
  refine Cert.LibColGather.gather_cols3_apply_of_toInt d hoff hcol hob hsb hmap hiv hsl x (idxCol idx) y z v
    (Cert.Spec.col (idx (ix1 v))) ?_
  rw [idxCol_apply, normIdx_apply idx v (hidx v), StableHlo.Predicate.toInt_eq_toNat_of_lt (by have := hidx v; omega),
    Cert.Spec.col_of_lt _ (hidx v)]

/-- Two axes: entry (c, v) of the masked take is the operand's entry (c, column of word v). -/
theorem take2_apply {C : Nat} (d : GatherDims ⟨2, ![C, 20000]⟩ S8000x1 ⟨2, ![C, 8000]⟩)
    (hoff : d.offsetDims = [0]) (hcol : d.collapsedSliceDims = [1]) (hob : d.operandBatchingDims = [])
    (hsb : d.startIndicesBatchingDims = []) (hmap : d.startIndexMap = [1]) (hiv : d.indexVectorDim = 1)
    (hsl : d.sliceSizes = ![C, 1])
    (hb : S8000.BroadcastsInDim ⟨2, ![C, 8000]⟩ (![1] : Fin 1 → Fin 2))
    (hn : S_.BroadcastsInDim ⟨2, ![C, 8000]⟩ (![] : Fin 0 → Fin 2))
    (x : FVec Ideal ⟨2, ![C, 20000]⟩ .f32) (idx : IVec S8000 32)
    (hidx : ∀ v : Fin 8000, (idx (ix1 v)).toNat < 20000) (c : Fin C) (v : Fin 8000) :
    select (broadcastInDim ⟨2, ![C, 8000]⟩ ![1] hb (okMask idx)) (Host.gather d x (idxCol idx))
        (broadcastInDim ⟨2, ![C, 8000]⟩ ![] hn (constant (F := Ideal) S_ .f32 0x7FC00000#32)) (ix2 c v)
      = x (ix2 c (Cert.Spec.col (idx (ix1 v)))) := by
  rw [select_apply]
  have hm : broadcastInDim ⟨2, ![C, 8000]⟩ ![1] hb (okMask idx) (ix2 c v) = 1#1 := okMask_apply idx hidx _
  rw [hm, select_one]
  refine Cert.LibColGather.gather_cols_apply_of_toInt d hoff hcol hob hsb hmap hiv hsl x (idxCol idx) c v
    (Cert.Spec.col (idx (ix1 v))) ?_
  rw [idxCol_apply, normIdx_apply idx v (hidx v), StableHlo.Predicate.toInt_eq_toNat_of_lt (by have := hidx v; omega),
    Cert.Spec.col_of_lt _ (hidx v)]

/-- The printed leaky ReLU at an entry is the specification's scalar one. -/
theorem lrelu_apply {T : Shape} (hb : S_.BroadcastsInDim T (![] : Fin 0 → Fin T.rank)) (x : FVec Ideal T .f32) (i : T.Idx) :
    select (cmpf .oge x (broadcastInDim T ![] hb (constant (F := Ideal) S_ .f32 0x00000000#32))) x
        (mulf (broadcastInDim T ![] hb (constant (F := Ideal) S_ .f32 0x3C23D70A#32)) x) i = Cert.Spec.lrelu (x i) := rfl

/-- [h, h, n] flattened to [P, n]: entry (p, v) is entry (p / h, p % h, v). -/
theorem flat_rs_apply {α : Type} {h P n : Nat} (sc : (⟨3, ![h, h, n]⟩ : Shape).ShapeCasts ⟨2, ![P, n]⟩)
    (x : (⟨3, ![h, h, n]⟩ : Shape).Idx → α) (p : Fin P) (v : Fin n) (y z : Fin h)
    (hy : y.val = p.val / h) (hz : z.val = p.val % h) :
    shapeCast ⟨2, ![P, n]⟩ x sc (ix2 p v) = x (ix3 y z v) := by
  refine shapeCast_apply x sc (ix2 p v) (ix3 y z v) ?_
  rw [Shape.rowMajor_val_three, Shape.rowMajor_val_two]
  show (y.val * h + z.val) * n + v.val = p.val * n + v.val
  rw [hy, hz, Nat.div_add_mod']

/-- [B, C, h, h] flattened to [B, C, P], P = h · h: entry (b, c, p) is entry (b, c, p / h, p % h). -/
theorem flat_fm_apply {α : Type} {B C h P : Nat} (hP : P = h * h) (sc : (⟨4, ![B, C, h, h]⟩ : Shape).ShapeCasts ⟨3, ![B, C, P]⟩)
    (x : (⟨4, ![B, C, h, h]⟩ : Shape).Idx → α) (b : Fin B) (c : Fin C) (p : Fin P) (y z : Fin h)
    (hy : y.val = p.val / h) (hz : z.val = p.val % h) :
    shapeCast ⟨3, ![B, C, P]⟩ x sc (ix3 b c p) = x (ix4 b c y z) := by
  refine shapeCast_apply x sc (ix3 b c p) (ix4 b c y z) ?_
  rw [Shape.rowMajor_val_four, Shape.rowMajor_val_three]
  show ((b.val * C + c.val) * h + y.val) * h + z.val = (b.val * C + c.val) * P + p.val
  have e : y.val * h + z.val = p.val := by rw [hy, hz, Nat.div_add_mod']
  rw [← e, hP, Nat.add_mul, Nat.mul_assoc, Nat.add_assoc]

/-! ## The argument arrays stay as launched -/

/-- The thirteen argument arrays. -/
abbrev argRefs : List (Ref sig .tc) :=
  [main_arg0, main_arg1, main_arg2, main_arg3, main_arg4, main_arg5, main_arg6, main_arg7, main_arg8, main_arg9, main_arg10,
    main_arg11, main_arg12]

section Args

variable (m : (ℓ : Loc nD τ sig) → Buf (Elt Ideal) ℓ) (outs : Outs (F := Ideal)) (c : Dev nD)

/-! No item writes an argument array, so after item J − 1 it still holds its launch contents (`arg_VJ`), item by item. -/
theorem arg_V1 (r : Ref sig .tc) (h : r ∈ argRefs) : V1 m c r = m ((c : Thread nD τ).loc r) :=
  (V1_of m c r ((by decide : ∀ a ∈ argRefs, a ∉ hostOps0_W) r h))
theorem arg_V2 (r : Ref sig .tc) (h : r ∈ argRefs) : V2 m c r = m ((c : Thread nD τ).loc r) :=
  (V2_of m c r ((by decide : ∀ a ∈ argRefs, a ∉ hostOps0_1_W) r h)).trans (arg_V1 m c r h)
theorem arg_V3 (r : Ref sig .tc) (h : r ∈ argRefs) : V3 m c r = m ((c : Thread nD τ).loc r) :=
  (V3_of m c r ((by decide : ∀ a ∈ argRefs, a ∉ hostOps0_2_W) r h)).trans (arg_V2 m c r h)
theorem arg_V4 (r : Ref sig .tc) (h : r ∈ argRefs) : V4 m c r = m ((c : Thread nD τ).loc r) :=
  (V4_of m c r ((by decide : ∀ a ∈ argRefs, a ∉ hostOps0_3_W) r h)).trans (arg_V3 m c r h)
theorem arg_V5 (r : Ref sig .tc) (h : r ∈ argRefs) : V5 m c r = m ((c : Thread nD τ).loc r) :=
  (V5_of m c r ((by decide : ∀ a ∈ argRefs, a ∉ hostOps0_4_W) r h)).trans (arg_V4 m c r h)
theorem arg_V6 (r : Ref sig .tc) (h : r ∈ argRefs) : V6 m c r = m ((c : Thread nD τ).loc r) :=
  (V6_of m c r ((by decide : ∀ a ∈ argRefs, a ∉ hostOps0_5_W) r h)).trans (arg_V5 m c r h)
theorem arg_V7 (r : Ref sig .tc) (h : r ∈ argRefs) : V7 m c r = m ((c : Thread nD τ).loc r) :=
  (V7_of m c r ((by decide : ∀ a ∈ argRefs, a ∉ hostOps0_6_W) r h)).trans (arg_V6 m c r h)
theorem arg_V8 (r : Ref sig .tc) (h : r ∈ argRefs) : V8 m outs c r = m ((c : Thread nD τ).loc r) :=
  (V8_of m outs c r ((by decide : ∀ a ∈ argRefs, a ∉ ([main_v8, main_v0] : List (Ref sig .tc))) r h)).trans (arg_V7 m c r h)
theorem arg_V9 (r : Ref sig .tc) (h : r ∈ argRefs) : V9 m outs c r = m ((c : Thread nD τ).loc r) :=
  (V9_of m outs c r ((by decide : ∀ a ∈ argRefs, a ∉ hostOps1_W) r h)).trans (arg_V8 m outs c r h)
theorem arg_V10 (r : Ref sig .tc) (h : r ∈ argRefs) : V10 m outs c r = m ((c : Thread nD τ).loc r) :=
  (V10_of m outs c r ((by decide : ∀ a ∈ argRefs, a ∉ hostOps1_1_W) r h)).trans (arg_V9 m outs c r h)
theorem arg_V11 (r : Ref sig .tc) (h : r ∈ argRefs) : V11 m outs c r = m ((c : Thread nD τ).loc r) :=
  (V11_of m outs c r ((by decide : ∀ a ∈ argRefs, a ∉ hostOps1_2_W) r h)).trans (arg_V10 m outs c r h)
theorem arg_V12 (r : Ref sig .tc) (h : r ∈ argRefs) : V12 m outs c r = m ((c : Thread nD τ).loc r) :=
  (V12_of m outs c r ((by decide : ∀ a ∈ argRefs, a ∉ hostOps1_3_W) r h)).trans (arg_V11 m outs c r h)
theorem arg_V13 (r : Ref sig .tc) (h : r ∈ argRefs) : V13 m outs c r = m ((c : Thread nD τ).loc r) :=
  (V13_of m outs c r ((by decide : ∀ a ∈ argRefs, a ∉ hostOps1_4_W) r h)).trans (arg_V12 m outs c r h)
theorem arg_V14 (r : Ref sig .tc) (h : r ∈ argRefs) : V14 m outs c r = m ((c : Thread nD τ).loc r) :=
  (V14_of m outs c r ((by decide : ∀ a ∈ argRefs, a ∉ hostOps1_5_W) r h)).trans (arg_V13 m outs c r h)
theorem arg_V15 (r : Ref sig .tc) (h : r ∈ argRefs) : V15 m outs c r = m ((c : Thread nD τ).loc r) :=
  (V15_of m outs c r ((by decide : ∀ a ∈ argRefs, a ∉ ([main_v16, main_v8] : List (Ref sig .tc))) r h)).trans (arg_V14 m outs c r h)
theorem arg_V16 (r : Ref sig .tc) (h : r ∈ argRefs) : V16 m outs c r = m ((c : Thread nD τ).loc r) :=
  (V16_of m outs c r ((by decide : ∀ a ∈ argRefs, a ∉ hostOps2_W) r h)).trans (arg_V15 m outs c r h)
theorem arg_V17 (r : Ref sig .tc) (h : r ∈ argRefs) : V17 m outs c r = m ((c : Thread nD τ).loc r) :=
  (V17_of m outs c r ((by decide : ∀ a ∈ argRefs, a ∉ hostOps2_1_W) r h)).trans (arg_V16 m outs c r h)
theorem arg_V18 (r : Ref sig .tc) (h : r ∈ argRefs) : V18 m outs c r = m ((c : Thread nD τ).loc r) :=
  (V18_of m outs c r ((by decide : ∀ a ∈ argRefs, a ∉ hostOps2_2_W) r h)).trans (arg_V17 m outs c r h)
theorem arg_V19 (r : Ref sig .tc) (h : r ∈ argRefs) : V19 m outs c r = m ((c : Thread nD τ).loc r) :=
  (V19_of m outs c r ((by decide : ∀ a ∈ argRefs, a ∉ hostOps2_3_W) r h)).trans (arg_V18 m outs c r h)
theorem arg_V20 (r : Ref sig .tc) (h : r ∈ argRefs) : V20 m outs c r = m ((c : Thread nD τ).loc r) :=
  (V20_of m outs c r ((by decide : ∀ a ∈ argRefs, a ∉ hostOps2_4_W) r h)).trans (arg_V19 m outs c r h)
theorem arg_V21 (r : Ref sig .tc) (h : r ∈ argRefs) : V21 m outs c r = m ((c : Thread nD τ).loc r) :=
  (V21_of m outs c r ((by decide : ∀ a ∈ argRefs, a ∉ hostOps2_5_W) r h)).trans (arg_V20 m outs c r h)
theorem arg_V22 (r : Ref sig .tc) (h : r ∈ argRefs) : V22 m outs c r = m ((c : Thread nD τ).loc r) :=
  (V22_of m outs c r ((by decide : ∀ a ∈ argRefs, a ∉ ([main_v24, main_v16] : List (Ref sig .tc))) r h)).trans (arg_V21 m outs c r h)
theorem arg_V23 (r : Ref sig .tc) (h : r ∈ argRefs) : V23 m outs c r = m ((c : Thread nD τ).loc r) :=
  (V23_of m outs c r ((by decide : ∀ a ∈ argRefs, a ∉ hostOps3_W) r h)).trans (arg_V22 m outs c r h)
theorem arg_V24 (r : Ref sig .tc) (h : r ∈ argRefs) : V24 m outs c r = m ((c : Thread nD τ).loc r) :=
  (V24_of m outs c r ((by decide : ∀ a ∈ argRefs, a ∉ hostOps3_1_W) r h)).trans (arg_V23 m outs c r h)
theorem arg_V25 (r : Ref sig .tc) (h : r ∈ argRefs) : V25 m outs c r = m ((c : Thread nD τ).loc r) :=
  (V25_of m outs c r ((by decide : ∀ a ∈ argRefs, a ∉ hostOps3_2_W) r h)).trans (arg_V24 m outs c r h)
theorem arg_V26 (r : Ref sig .tc) (h : r ∈ argRefs) : V26 m outs c r = m ((c : Thread nD τ).loc r) :=
  (V26_of m outs c r ((by decide : ∀ a ∈ argRefs, a ∉ hostOps3_3_W) r h)).trans (arg_V25 m outs c r h)
theorem arg_V27 (r : Ref sig .tc) (h : r ∈ argRefs) : V27 m outs c r = m ((c : Thread nD τ).loc r) :=
  (V27_of m outs c r ((by decide : ∀ a ∈ argRefs, a ∉ hostOps3_4_W) r h)).trans (arg_V26 m outs c r h)

end Args

end Cert.KernelIdeal.Hand

end
-- ==== Proof.KI.Host0.lean ====
/-
  Region 0 of the kernel's program: what the host operations leave in the arrays it reads, for any effects of the earlier
  regions. Its feature array is main_arg0 : [8, 64, 56, 56] with the two spatial axes flattened row-major to [8, 64, 3136];
  its table is the leaky ReLU of main_arg4 : [56, 56, 20000]'s columns named by the index words main_arg12, the spatial axes
  flattened to [3136, 8000]; its weights are main_arg8 : [64, 20000]'s columns named by the index words; and the shared
  result main_v8 arrives as the copy of main_v0. The casts to bf16 are the identity on extended reals.
-/
import proofs.«420513_j51462298141020_3_alg».proof.Proof.Gen.KernelIdeal.Regions
import proofs.«420513_j51462298141020_3_alg».proof.Proof.Spec
import proofs.«420513_j51462298141020_3_alg».proof.Proof.KI.HostLib

-- deciding that a reference is not among a stretch's 23 written ones recurses past the default depth
set_option maxRecDepth 1640

noncomputable section

namespace Cert.KernelIdeal.Hand

open Cert.KernelIdeal Cert.KernelIdeal.Gen
open Idealize.ShloMosaic Idealize.ShloMosaic.TcCoe Idealize.SL.Sem Idealize.ShloMosaic.ValueIdx

/-! ## The operations' terms -/

/-- The table columns taken: the gathered columns where the index is in range, NaN elsewhere. -/
private def takeR (x : FVec Ideal S56x56x20000 .f32) (idx : IVec S8000 32) : FVec Ideal S56x56x8000 .f32 :=
  select (broadcastInDim S56x56x8000 ![2] bcast_S8000_S56x56x8000_2 (okMask idx))
    (Host.gather gather_S56x56x20000_S8000x1_S56x56x8000_01_2_n_n_2_1_56561 x (idxCol idx))
    (broadcastInDim S56x56x8000 ![] bcast_S_S56x56x8000 (constant (F := Ideal) S_ .f32 0x7FC00000#32))

/-- The weight columns taken likewise. -/
private def takeW (x : FVec Ideal S64x20000 .f32) (idx : IVec S8000 32) : FVec Ideal S64x8000 .f32 :=
  select (broadcastInDim S64x8000 ![1] bcast_S8000_S64x8000_1 (okMask idx))
    (Host.gather gather_S64x20000_S8000x1_S64x8000_0_1_n_n_1_1_641 x (idxCol idx))
    (broadcastInDim S64x8000 ![] bcast_S_S64x8000 (constant (F := Ideal) S_ .f32 0x7FC00000#32))

/-- The leaky ReLU of the flattened table, the slope a scalar array. -/
private def lreluT (x : FVec Ideal S3136x8000 .f32) (a : FVec Ideal S_ .f32) : FVec Ideal S3136x8000 .f32 :=
  select (cmpf .oge x (broadcastInDim S3136x8000 ![] bcast_S_S3136x8000 (constant (F := Ideal) S_ .f32 0x00000000#32)))
    x (mulf (broadcastInDim S3136x8000 ![] bcast_S_S3136x8000 a) x)

/-! ## What each stretch writes, from any contents before it

Each is the stretch's fold unrolled; the gather and the reduction stay folded meanwhile (the equation never looks inside
them). -/

section Stretches

variable (V : Valuation τ sig (Elt Ideal))

attribute [local irreducible] Host.reduce Host.gather in
private theorem s_1 : (StableHlo.after hostOps0_1 V main_v1 : FVec Ideal S56x56x8000 .f32) = takeR (V main_arg4) (V main_arg12) := by
  simp only [StableHlo.after_cons, StableHlo.after_nil]
  rfl

private theorem s_2 : (StableHlo.after hostOps0_2 V main_v2 : FVec Ideal S3136x8000 .f32)
    = shapeCast S3136x8000 (V main_v1 : FVec Ideal S56x56x8000 .f32) shapeCasts_S56x56x8000_S3136x8000 := by
  simp only [StableHlo.after_cons, StableHlo.after_nil]
  rfl

private theorem s_2c : (StableHlo.after hostOps0_2 V main_cst_0 : FVec Ideal S_ .f32) = constant (F := Ideal) S_ .f32 0x3C23D70A#32 := by
  simp only [StableHlo.after_cons, StableHlo.after_nil]
  rfl

private theorem s_3 : (StableHlo.after hostOps0_3 V main_v3 : FVec Ideal S3136x8000 .f32) = lreluT (V main_v2) (V main_cst_0) := by
  simp only [StableHlo.after_cons, StableHlo.after_nil]
  rfl

private theorem s_4 : (StableHlo.after hostOps0_4 V main_v4 : FVec Ideal S3136x8000 .bf16)
    = (truncf (F := Ideal) .bf16 (V main_v3 : FVec Ideal S3136x8000 .f32) bitsLt_bf16_f32 : FVec Ideal S3136x8000 .bf16) := by
  simp only [StableHlo.after_cons, StableHlo.after_nil]
  rfl

attribute [local irreducible] Host.reduce Host.gather in
private theorem s_5 : (StableHlo.after hostOps0_5 V main_v5 : FVec Ideal S64x8000 .f32) = takeW (V main_arg8) (V main_arg12) := by
  simp only [StableHlo.after_cons, StableHlo.after_nil]
  rfl

private theorem s_6 : (StableHlo.after hostOps0_6 V main_v7 : FVec Ideal S8x64x3136 .bf16)
    = (truncf (F := Ideal) .bf16 (shapeCast S8x64x3136 (V main_arg0 : FVec Ideal S8x64x56x56 .f32) shapeCasts_S8x64x56x56_S8x64x3136) bitsLt_bf16_f32 : FVec Ideal S8x64x3136 .bf16) := by
  simp only [StableHlo.after_cons, StableHlo.after_nil]
  rfl

private theorem s_6o : StableHlo.after hostOps0_6 V main_v8 = V main_v0 := by
  simp only [StableHlo.after_cons, StableHlo.after_nil]
  rfl

end Stretches

/-! ## The arrays the region reads, at an entry -/

variable (m : (ℓ : Loc nD τ sig) → Buf (Elt Ideal) ℓ) (outs : Outs (F := Ideal)) (c : Dev nD)

/-- The feature array is main_arg0 with its two spatial axes flattened row-major. -/
theorem host_fm0 (b : Fin 8) (ch : Fin 64) (p : Fin 3136) :
    (V7 m c main_v7 : FVec Ideal S8x64x3136 .bf16) (ix3 b ch p)
      = (m ((c : Thread nD τ).loc main_arg0)) (ix4 b ch (Cert.Spec.prow 56 p) (Cert.Spec.pcol 56 p)) := by
  have e : (V7 m c main_v7 : FVec Ideal S8x64x3136 .bf16) = _ := s_6 (V6 m c)
  have a : (V6 m c main_arg0 : FVec Ideal S8x64x56x56 .f32) = m ((c : Thread nD τ).loc main_arg0) := arg_V6 m c main_arg0 (by decide)
  rw [e, truncf_apply, a]
  exact flat_fm_apply (h := 56) rfl shapeCasts_S8x64x56x56_S8x64x3136 _ b ch p _ _ rfl rfl

/-- The table is the leaky ReLU of main_arg4's column named by the index word, the spatial axes flattened. -/
theorem host_rs0 (hidx : ∀ v : Fin 8000, (m ((c : Thread nD τ).loc main_arg12) (ix1 v)).toNat < 20000) (p : Fin 3136) (v : Fin 8000) :
    (V7 m c main_v4 : FVec Ideal S3136x8000 .bf16) (ix2 p v)
      = Cert.Spec.lrelu ((m ((c : Thread nD τ).loc main_arg4)) (ix3 (Cert.Spec.prow 56 p) (Cert.Spec.pcol 56 p) (Cert.Spec.col ((m ((c : Thread nD τ).loc main_arg12)) (ix1 v))))) := by
  have e7 : (V7 m c main_v4 : FVec Ideal S3136x8000 .bf16) = V5 m c main_v4 :=
    (V7_of m c main_v4 (by decide)).trans <| (V6_of m c main_v4 (by decide))
  have e5 : (V5 m c main_v4 : FVec Ideal S3136x8000 .bf16) = _ := s_4 (V4 m c)
  have e4 : (V4 m c main_v3 : FVec Ideal S3136x8000 .f32) = _ := s_3 (V3 m c)
  have e3 : (V3 m c main_v2 : FVec Ideal S3136x8000 .f32) = _ := s_2 (V2 m c)
  have e3c : (V3 m c main_cst_0 : FVec Ideal S_ .f32) = _ := s_2c (V2 m c)
  have e2 : (V2 m c main_v1 : FVec Ideal S56x56x8000 .f32) = _ := s_1 (V1 m c)
  have ar : (V1 m c main_arg4 : FVec Ideal S56x56x20000 .f32) = m ((c : Thread nD τ).loc main_arg4) := arg_V1 m c main_arg4 (by decide)
  have ai : (V1 m c main_arg12 : IVec S8000 32) = m ((c : Thread nD τ).loc main_arg12) := arg_V1 m c main_arg12 (by decide)
  rw [e7, e5, truncf_apply, e4, e3c]
  unfold lreluT
  rw [lrelu_apply, e3, flat_rs_apply shapeCasts_S56x56x8000_S3136x8000 _ p v (Cert.Spec.prow 56 p) (Cert.Spec.pcol 56 p) rfl rfl, e2, ar, ai]
  unfold takeR
  exact congrArg Cert.Spec.lrelu (take3_apply (A := 56) (B := 56) gather_S56x56x20000_S8000x1_S56x56x8000_01_2_n_n_2_1_56561 rfl rfl rfl rfl rfl rfl rfl
    bcast_S8000_S56x56x8000_2 bcast_S_S56x56x8000 _ _ hidx (Cert.Spec.prow 56 p) (Cert.Spec.pcol 56 p) v)

/-- The weights are main_arg8's column named by the index word. -/
theorem host_ws0 (hidx : ∀ v : Fin 8000, (m ((c : Thread nD τ).loc main_arg12) (ix1 v)).toNat < 20000) (ch : Fin 64) (v : Fin 8000) :
    (V7 m c main_v5 : FVec Ideal S64x8000 .f32) (ix2 ch v)
      = (m ((c : Thread nD τ).loc main_arg8)) (ix2 ch (Cert.Spec.col ((m ((c : Thread nD τ).loc main_arg12)) (ix1 v)))) := by
  have e7 : (V7 m c main_v5 : FVec Ideal S64x8000 .f32) = V6 m c main_v5 := V7_of m c main_v5 (by decide)
  have e6 : (V6 m c main_v5 : FVec Ideal S64x8000 .f32) = _ := s_5 (V5 m c)
  have aw : (V5 m c main_arg8 : FVec Ideal S64x20000 .f32) = m ((c : Thread nD τ).loc main_arg8) := arg_V5 m c main_arg8 (by decide)
  have ai : (V5 m c main_arg12 : IVec S8000 32) = m ((c : Thread nD τ).loc main_arg12) := arg_V5 m c main_arg12 (by decide)
  rw [e7, e6, aw, ai]
  unfold takeW
  exact take2_apply (C := 64) gather_S64x20000_S8000x1_S64x8000_0_1_n_n_1_1_641 rfl rfl rfl rfl rfl rfl rfl
    bcast_S8000_S64x8000_1 bcast_S_S64x8000 _ _ hidx ch v

/-- The shared result main_v8 is entered as main_v0 stood before the region's first stretch: the stretches between write
    neither. -/
theorem host_ob0 : V7 m c main_v8 = V1 m c main_v0 :=
  (s_6o (V6 m c)).trans <| (V6_of m c main_v0 (by decide)).trans <| (V5_of m c main_v0 (by decide)).trans <|
    (V4_of m c main_v0 (by decide)).trans <| (V3_of m c main_v0 (by decide)).trans <| (V2_of m c main_v0 (by decide))

end Cert.KernelIdeal.Hand

end
-- ==== Proof.KI.Host.lean ====
/-
  What the host operations leave in the arrays the four regions read, region by region, as the one record the run reads:
  for any effects of the regions, and whenever every index word names a table column.
-/
import proofs.«420513_j51462298141020_3_alg».proof.Proof.KI.HostFacts
import proofs.«420513_j51462298141020_3_alg».proof.Proof.KI.Host0
import proofs.«420513_j51462298141020_3_alg».proof.Proof.KI.Host1
import proofs.«420513_j51462298141020_3_alg».proof.Proof.KI.Host2
import proofs.«420513_j51462298141020_3_alg».proof.Proof.KI.Host3

-- deciding that a reference is not among a stretch's 23 written ones recurses past the default depth
set_option maxRecDepth 1640

noncomputable section

namespace Cert.KernelIdeal.Hand

open Cert.KernelIdeal Cert.KernelIdeal.Gen
open Idealize.ShloMosaic Idealize.ShloMosaic.TcCoe Idealize.SL.Sem Idealize.ShloMosaic.ValueIdx

/-- The four regions' arrays together. Region 0's shared result is the zero array main_v0, which no stretch before the
    region writes after the first, so it may be read at the region's entry as well. -/
theorem hostFacts (m : (ℓ : Loc nD τ sig) → Buf (Elt Ideal) ℓ) (outs : Outs (F := Ideal)) (c : Dev nD)
    (hidx : ∀ v : Fin 8000, (m ((c : Thread nD τ).loc main_arg12) (ix1 v)).toNat < 20000) : HostFacts m outs c where
  fm0 := host_fm0 m c
  rs0 := host_rs0 m c hidx
  ws0 := host_ws0 m c hidx
  ob0 := (host_ob0 m c).trans <| Eq.symm <|
    (V7_of m c main_v0 (by decide)).trans <| (V6_of m c main_v0 (by decide)).trans <| (V5_of m c main_v0 (by decide)).trans <|
      (V4_of m c main_v0 (by decide)).trans <| (V3_of m c main_v0 (by decide)).trans <| (V2_of m c main_v0 (by decide))
  fm1 := host_fm1 m outs c
  rs1 := host_rs1 m outs c hidx
  ws1 := host_ws1 m outs c hidx
  ob1 := host_ob1 m outs c
  fm2 := host_fm2 m outs c
  rs2 := host_rs2 m outs c hidx
  ws2 := host_ws2 m outs c hidx
  ob2 := host_ob2 m outs c
  fm3 := host_fm3 m outs c
  rs3 := host_rs3 m outs c hidx
  ws3 := host_ws3 m outs c hidx
  ob3 := host_ob3 m outs c

end Cert.KernelIdeal.Hand

end
-- ==== Proof.KI.Final.lean ====
/-
  The four regions' results, chained, are the specification's function of the argument arrays.

  Region K leaves layer K's sums on its own channel range of the shared [8, 960, 8000] result and, on every other channel,
  what it was entered with; it is entered with what region K − 1 left. The channel ranges 0..63, 64..191, 192..447,
  448..959 cover all 960 channels, so at every index the final result is the sum of exactly one layer, and that sum agrees
  term by term with the specification's, the regions' arrays being the flattened feature map, the leaky ReLU of the
  gathered table columns and the gathered weight columns.
-/
import proofs.«420513_j51462298141020_3_alg».proof.Proof.KI.HostFacts

noncomputable section

namespace Cert.KernelIdeal.Hand

open Cert.KernelIdeal Cert.KernelIdeal.Gen
open Idealize.ShloMosaic Idealize.ShloMosaic.TcCoe Idealize.SL.Sem Idealize.ShloMosaic.ValueIdx

/-- On its own channel range a layer written into the shared result is the specification's layer, when the feature array is
    the feature map with its spatial axes flattened row-major, the table is the leaky ReLU of the table's column named by
    the index word, and the weights are the weight column named by it. -/
theorem layerInto_eq_layer (C h off : Nat)
    (f : (⟨4, ![8, C, h, h]⟩ : Shape).Idx → EReal) (r : (⟨3, ![h, h, 20000]⟩ : Shape).Idx → EReal)
    (w : (⟨2, ![C, 20000]⟩ : Shape).Idx → EReal) (idx : (⟨1, ![8000]⟩ : Shape).Idx → BitVec 32)
    (fm : FVec Ideal ⟨3, ![8, C, h * h]⟩ .bf16) (rs : FVec Ideal ⟨2, ![h * h, 8000]⟩ .bf16)
    (ws : FVec Ideal ⟨2, ![C, 8000]⟩ .f32) (ob : FVec Ideal ⟨3, ![8, 960, 8000]⟩ .f32)
    (hfm : ∀ (b : Fin 8) (ch : Fin C) (p : Fin (h * h)), fm (ix3 b ch p) = f (ix4 b ch (Cert.Spec.prow h p) (Cert.Spec.pcol h p)))
    (hrs : ∀ (p : Fin (h * h)) (v : Fin 8000),
      rs (ix2 p v) = Cert.Spec.lrelu (r (ix3 (Cert.Spec.prow h p) (Cert.Spec.pcol h p) (Cert.Spec.col (idx (ix1 v))))))
    (hws : ∀ (ch : Fin C) (v : Fin 8000), ws (ix2 ch v) = w (ix2 ch (Cert.Spec.col (idx (ix1 v)))))
    (i : (⟨3, ![8, 960, 8000]⟩ : Shape).Idx) (hi : off ≤ (i 1).val ∧ (i 1).val < off + C) :
    layerInto C (h * h) off fm rs ws ob i = Cert.Spec.layer C h f r w idx (i 0) ⟨(i 1).val - off, by omega⟩ (i 2) := by
  unfold layerInto Cert.Spec.layer
  rw [dif_pos hi]
  congr 1
  · exact Finset.sum_congr rfl fun p _ => congrArg₂ (· * ·) (hfm _ _ p) (hrs p _)
  · exact hws _ _

/-- Off its own channel range a layer written into the shared result leaves what was there. -/
theorem layerInto_of_not (C P off : Nat) (fm : FVec Ideal ⟨3, ![8, C, P]⟩ .bf16) (rs : FVec Ideal ⟨2, ![P, 8000]⟩ .bf16)
    (ws : FVec Ideal ⟨2, ![C, 8000]⟩ .f32) (ob : FVec Ideal ⟨3, ![8, 960, 8000]⟩ .f32)
    (i : (⟨3, ![8, 960, 8000]⟩ : Shape).Idx) (hi : ¬(off ≤ (i 1).val ∧ (i 1).val < off + C)) :
    layerInto C P off fm rs ws ob i = ob i := by
  unfold layerInto
  rw [dif_neg hi]

/-- The result array after the last region is the specification's function of the argument arrays. -/
theorem result_eq_G (m : (ℓ : Loc nD τ sig) → Buf (Elt Ideal) ℓ) (outs : Outs (F := Ideal)) (c : Dev nD)
    (hH : HostFacts m outs c)
    (h8  : V8 m outs c main_v8   = G0 (fun c b => V7 m c b) c)
    (h15 : V15 m outs c main_v16 = G1 (fun c b => V14 m outs c b) c)
    (h22 : V22 m outs c main_v24 = G2 (fun c b => V21 m outs c b) c)
    (h29 : V29 m outs c main_v32 = G3 (fun c b => V28 m outs c b) c) :
    V29 m outs c main_v32 = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext i
  have hlt : (i 1).val < 960 := (i 1).isLt
  by_cases c3 : 448 ≤ (i 1).val
  · -- channels 448..959: layer 3, written by the last region
    rw [h29]
    refine (layerInto_eq_layer 512 7 448 (m ((c : Thread nD τ).loc main_arg3)) (m ((c : Thread nD τ).loc main_arg7))
      (m ((c : Thread nD τ).loc main_arg11)) (m ((c : Thread nD τ).loc main_arg12)) _ _ _ _ hH.fm3 hH.rs3 hH.ws3 i ⟨c3, by omega⟩).trans ?_
    unfold Cert.Spec.G
    rw [dif_neg (by omega), dif_neg (by omega), dif_neg (by omega)]
  · -- below 448 the last region leaves what the third left
    have e3 : V29 m outs c main_v32 i = V22 m outs c main_v24 i := by
      rw [h29]
      exact (layerInto_of_not 512 49 448 _ _ _ _ i (fun h => c3 h.1)).trans (congrFun hH.ob3 i)
    rw [e3]
    by_cases c2 : 192 ≤ (i 1).val
    · -- channels 192..447: layer 2
      rw [h22]
      refine (layerInto_eq_layer 256 14 192 (m ((c : Thread nD τ).loc main_arg2)) (m ((c : Thread nD τ).loc main_arg6))
        (m ((c : Thread nD τ).loc main_arg10)) (m ((c : Thread nD τ).loc main_arg12)) _ _ _ _ hH.fm2 hH.rs2 hH.ws2 i ⟨c2, by omega⟩).trans ?_
      unfold Cert.Spec.G
      rw [dif_neg (by omega), dif_neg (by omega), dif_pos (by omega)]
    · have e2 : V22 m outs c main_v24 i = V15 m outs c main_v16 i := by
        rw [h22]
        exact (layerInto_of_not 256 196 192 _ _ _ _ i (fun h => c2 h.1)).trans (congrFun hH.ob2 i)
      rw [e2]
      by_cases c1 : 64 ≤ (i 1).val
      · -- channels 64..191: layer 1
        rw [h15]
        refine (layerInto_eq_layer 128 28 64 (m ((c : Thread nD τ).loc main_arg1)) (m ((c : Thread nD τ).loc main_arg5))
          (m ((c : Thread nD τ).loc main_arg9)) (m ((c : Thread nD τ).loc main_arg12)) _ _ _ _ hH.fm1 hH.rs1 hH.ws1 i ⟨c1, by omega⟩).trans ?_
        unfold Cert.Spec.G
        rw [dif_neg (by omega), dif_pos (by omega)]
      · have e1 : V15 m outs c main_v16 i = V8 m outs c main_v8 i := by
          rw [h15]
          exact (layerInto_of_not 128 784 64 _ _ _ _ i (fun h => c1 h.1)).trans (congrFun hH.ob1 i)
        rw [e1, h8]
        -- channels 0..63: layer 0; no channel lies below the first range
        refine (layerInto_eq_layer 64 56 0 (m ((c : Thread nD τ).loc main_arg0)) (m ((c : Thread nD τ).loc main_arg4))
          (m ((c : Thread nD τ).loc main_arg8)) (m ((c : Thread nD τ).loc main_arg12)) _ _ _ _ hH.fm0 hH.rs0 hH.ws0 i ⟨Nat.zero_le _, by omega⟩).trans ?_
        unfold Cert.Spec.G
        rw [dif_pos (by omega)]
        -- the channel less the offset 0 is the channel
        rfl

end Cert.KernelIdeal.Hand

end
-- ==== Proof.KI.Arr0.lean ====
/-
  The array region 0 leaves in the shared result.

  The eight result blocks (one per column block, each cut at the array's end where it overhangs) cover exactly the
  channels 0 ≤ c < 64; each is written back holding its block of the layer function G0, and every other index keeps
  the entry contents, which is what G0 is there. So the array ends holding G0.
-/
import proofs.«420513_j51462298141020_3_alg».proof.Proof.KI.Val0

noncomputable section

namespace Cert.KernelIdeal.Hand

open Cert.KernelIdeal
open Idealize.ShloMosaic Idealize.ShloMosaic.TcCoe Idealize.SL.Sem Idealize.ShloMosaic.ValueIdx

variable (V : Vals) (c : Dev nD)

/-- An index of the result array is in point t's block iff each coordinate is in the block's range on its axis, the
    range cut at the array's end. -/
theorem mem_blk0 (t : Fin cfg0.N) (i : S8x960x8000.Idx) :
    i ∈ ((cfg0.win 3).blk t).view.set ↔ ∀ a : Fin 3, win0_3.index t a * S8x64x1024.size a ≤ (i a).val
      ∧ (i a).val < win0_3.index t a * S8x64x1024.size a + win0_3.xsize (grid0.coords t) a := by
  show i ∈ ((View.whole main_v8).slice (win0_3.rect t)).set ↔ _
  rw [View.set_slice_whole, Rect.mem_set_unit]
  exact Iff.rfl

/-- The column blocks cover the channels of layer 0: an index whose channel is below 64 lies in the block of the point
    whose column block holds its column. -/
theorem cover0 (i : S8x960x8000.Idx) (hc : (i 1).val < 64) :
    ∃ t : Fin cfg0.N, (cfg0.win 3).flush t = true ∧ i ∈ ((cfg0.win 3).blk t).view.set := by
  have hi0 : (i 0).val < 8 := (i 0).isLt
  have hi2 : (i 2).val < 8000 := (i 2).isLt
  obtain ⟨t, ht⟩ := idx_onto0 ⟨(i 2).val / 1024, by omega⟩
  have ht' : win0_3.index t (2 : Fin 3) = (i 2).val / 1024 := ht
  obtain ⟨i30, i31, i32, -⟩ := idx_facts0 t
  -- the block's extent on the column axis: whole, or cut at the array's end
  obtain ⟨x0, x1, hx⟩ := xsize_facts0 t
  refine ⟨t, Gen.flush0_3 t, ?_⟩
  rw [mem_blk0]
  intro a
  match a with
  | ⟨0, _⟩ => show win0_3.index t (0 : Fin 3) * 8 ≤ (i 0).val ∧ (i 0).val < win0_3.index t (0 : Fin 3) * 8 + win0_3.xsize (grid0.coords t) (0 : Fin 3); rw [i30, x0]; omega
  | ⟨1, _⟩ => show win0_3.index t (1 : Fin 3) * 64 ≤ (i 1).val ∧ (i 1).val < win0_3.index t (1 : Fin 3) * 64 + win0_3.xsize (grid0.coords t) (1 : Fin 3); rw [i31, x1]; omega
  | ⟨2, _⟩ => show win0_3.index t (2 : Fin 3) * 1024 ≤ (i 2).val ∧ (i 2).val < win0_3.index t (2 : Fin 3) * 1024 + win0_3.xsize (grid0.coords t) (2 : Fin 3); omega

/-- THE ARRAY REGION 0 LEAVES is the layer function of what it found: the written blocks cover exactly the channels of
    layer 0, and elsewhere the layer function is the entry contents. -/
theorem arr0 : (dat0 V c).arrAt 3 cfg0.N = G0 V c := by
  funext i
  rw [(dat0 V c).arrAt_eq_piecewise 3 (G0 V c) (fun t _ => flushed0_3 V c t) i]
  split
  · rfl
  · rename_i hno
    rw [A_eq0]
    unfold G0 layerInto
    rw [dif_neg fun h => hno (cover0 i (by omega))]

end Cert.KernelIdeal.Hand

end
-- ==== Proof.KI.Arr1.lean ====
/-
  The array region 1 leaves in the shared result.

  The result blocks (one per column block and channel block, each cut at the array's end where its columns overhang)
  cover exactly the channels choff1 ≤ ch < choff1 + 128; each is written back holding its block of the layer function
  G1, and every other index keeps the entry contents, which is what G1 is there. So the array ends holding G1.
-/
import proofs.«420513_j51462298141020_3_alg».proof.Proof.KI.Val1

noncomputable section

namespace Cert.KernelIdeal.Hand

open Cert.KernelIdeal
open Idealize.ShloMosaic Idealize.ShloMosaic.TcCoe Idealize.SL.Sem Idealize.ShloMosaic.ValueIdx

variable (V : Vals) (c : Dev nD)

/-- An index of the result array is in point t's block iff each coordinate is in the block's range on its axis, the
    range cut at the array's end. -/
theorem mem_blk1 (t : Fin cfg1.N) (i : S8x960x8000.Idx) :
    i ∈ ((cfg1.win 3).blk t).view.set ↔ ∀ a : Fin 3, win1_3.index t a * S8x64x1024.size a ≤ (i a).val
      ∧ (i a).val < win1_3.index t a * S8x64x1024.size a + win1_3.xsize (grid1.coords t) a := by
  show i ∈ ((View.whole main_v16).slice (win1_3.rect t)).set ↔ _
  rw [View.set_slice_whole, Rect.mem_set_unit]
  exact Iff.rfl

/-- The blocks cover the channels of layer 1: an index whose channel is one of the layer's lies in the block of the
    point whose column block holds its column and whose channel block holds its channel. -/
theorem cover1 (i : S8x960x8000.Idx) (hc : choff1 ≤ (i 1).val ∧ (i 1).val < choff1 + 128) :
    ∃ t : Fin cfg1.N, (cfg1.win 3).flush t = true ∧ i ∈ ((cfg1.win 3).blk t).view.set := by
  have hi0 : (i 0).val < 8 := (i 0).isLt
  have hi2 : (i 2).val < 8000 := (i 2).isLt
  -- the layer's first channel is chblk1 blocks of 64 channels into the result; its nc1 blocks are its 128 channels;
  -- the nv1 column blocks reach past the last column
  have hoff : choff1 = chblk1 * 64 := rfl
  have hnc : nc1 * 64 = 128 := rfl
  have hnv : 8000 ≤ nv1 * 1024 := by decide
  obtain ⟨t, ht2, ht0⟩ := idx_onto1 ⟨(i 2).val / 1024, by omega⟩ ⟨((i 1).val - choff1) / 64, by omega⟩
  have ht2' : win1_3.index t (2 : Fin 3) = (i 2).val / 1024 := ht2
  have ht0' : win1_2.index t (0 : Fin 2) = ((i 1).val - choff1) / 64 := ht0
  obtain ⟨i30, i31, -⟩ := idx_facts1 t
  -- the block's extent on the column axis: whole, or cut at the array's end
  obtain ⟨x0, x1, hx⟩ := xsize_facts1 t
  refine ⟨t, Gen.flush1_3 t, ?_⟩
  rw [mem_blk1]
  intro a
  match a with
  | ⟨0, _⟩ => show win1_3.index t (0 : Fin 3) * 8 ≤ (i 0).val ∧ (i 0).val < win1_3.index t (0 : Fin 3) * 8 + win1_3.xsize (grid1.coords t) (0 : Fin 3); rw [i30, x0]; omega
  | ⟨1, _⟩ => show win1_3.index t (1 : Fin 3) * 64 ≤ (i 1).val ∧ (i 1).val < win1_3.index t (1 : Fin 3) * 64 + win1_3.xsize (grid1.coords t) (1 : Fin 3); rw [i31, x1, ht0']; omega
  | ⟨2, _⟩ => show win1_3.index t (2 : Fin 3) * 1024 ≤ (i 2).val ∧ (i 2).val < win1_3.index t (2 : Fin 3) * 1024 + win1_3.xsize (grid1.coords t) (2 : Fin 3); omega

/-- THE ARRAY REGION 1 LEAVES is the layer function of what it found: the written blocks cover exactly the channels of
    layer 1, and elsewhere the layer function is the entry contents. -/
theorem arr1 : (dat1 V c).arrAt 3 cfg1.N = G1 V c := by
  funext i
  rw [(dat1 V c).arrAt_eq_piecewise 3 (G1 V c) (fun t _ => flushed1_3 V c t) i]
  split
  · rfl
  · rename_i hno
    rw [A_eq1]
    unfold G1 layerInto
    rw [dif_neg fun h => hno (cover1 i h)]

end Cert.KernelIdeal.Hand

end
-- ==== Proof.KIRun.lean ====
/-
  The idealized kernel's run: it terminates, the result array holds the specification of the arguments, the arguments
  are unchanged, whenever every index word names a column.

  The launch ends with every unscoped buffer of a core at the last named valuation. There the result array is what the
  fourth region leaves; each region leaves the layer function of the arrays it finds; those arrays are what the host
  operations make of the arguments; chained over the four channel ranges this is the specification. The argument arrays
  are written by no item, so the last valuation holds them as launched.
-/
import proofs.«420513_j51462298141020_3_alg».proof.KernelIdeal
import proofs.«420513_j51462298141020_3_alg».proof.Proof.Gen.KernelIdeal
import proofs.«420513_j51462298141020_3_alg».proof.Proof.Spec
import proofs.«420513_j51462298141020_3_alg».proof.Proof.KI.Run
import proofs.«420513_j51462298141020_3_alg».proof.Proof.KI.Host
import proofs.«420513_j51462298141020_3_alg».proof.Proof.KI.Final
import proofs.«420513_j51462298141020_3_alg».proof.Proof.KI.Arr0
import proofs.«420513_j51462298141020_3_alg».proof.Proof.KI.Arr1
import proofs.«420513_j51462298141020_3_alg».proof.Proof.KI.Arr2
import proofs.«420513_j51462298141020_3_alg».proof.Proof.KI.Arr3

-- decided memberships among the program's references recurse past the default depth
set_option maxRecDepth 1640

noncomputable section

open Idealize.ShloMosaic Idealize.ShloMosaic.TcCoe Idealize.SL.Sem Idealize.ShloMosaic.ValueIdx

namespace Cert.KernelIdeal.Hand

open Cert.KernelIdeal Cert.KernelIdeal.Gen

theorem run_value (m : (ℓ : Loc Cert.KernelIdeal.nD Cert.KernelIdeal.τ Cert.KernelIdeal.sig) → Buf (Elt Ideal) ℓ) (ρ : Dev Cert.KernelIdeal.nD → PrngReg)
    (hidx : ∀ (c : Dev Cert.KernelIdeal.nD) (v : Fin 8000), (m ((c.tc : Thread Cert.KernelIdeal.nD Cert.KernelIdeal.τ).loc Cert.KernelIdeal.main_arg12) (ix1 v)).toNat < 20000) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v32) = Cert.Spec.G
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8))
          (m ((c.tc : Thread Cert.KernelIdeal.nD Cert.KernelIdeal.τ).loc Cert.KernelIdeal.main_arg9))
          (m ((c.tc : Thread Cert.KernelIdeal.nD Cert.KernelIdeal.τ).loc Cert.KernelIdeal.main_arg10))
          (m ((c.tc : Thread Cert.KernelIdeal.nD Cert.KernelIdeal.τ).loc Cert.KernelIdeal.main_arg11))
          (m ((c.tc : Thread Cert.KernelIdeal.nD Cert.KernelIdeal.τ).loc Cert.KernelIdeal.main_arg12))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run (Cert.KernelIdeal.defs (F := Ideal)) _ _).mono (fun r h c =>
    ⟨(h c (Proc.devRef .tc main_v32) (Finset.mem_filter.mpr ⟨StableHlo.devRef_mem_tcRefs main_v32, by decide⟩)).trans
        (result_eq_G m (outsI m) c (hostFacts m (outsI m) c (hidx c))
          ((outsI_8 m c).trans (arr0 _ c)) ((outsI_15 m c).trans (arr1 _ c))
          ((outsI_22 m c).trans (arr2 _ c)) ((outsI_29 m c).trans (arr3 _ c))),
      (h c (Proc.devRef .tc main_arg0) (Finset.mem_filter.mpr ⟨StableHlo.devRef_mem_tcRefs main_arg0, by decide⟩)).trans (V29_main_arg0 m (outsI m) c),
      (h c (Proc.devRef .tc main_arg1) (Finset.mem_filter.mpr ⟨StableHlo.devRef_mem_tcRefs main_arg1, by decide⟩)).trans (V29_main_arg1 m (outsI m) c),
      (h c (Proc.devRef .tc main_arg2) (Finset.mem_filter.mpr ⟨StableHlo.devRef_mem_tcRefs main_arg2, by decide⟩)).trans (V29_main_arg2 m (outsI m) c),
      (h c (Proc.devRef .tc main_arg3) (Finset.mem_filter.mpr ⟨StableHlo.devRef_mem_tcRefs main_arg3, by decide⟩)).trans (V29_main_arg3 m (outsI m) c),
      (h c (Proc.devRef .tc main_arg4) (Finset.mem_filter.mpr ⟨StableHlo.devRef_mem_tcRefs main_arg4, by decide⟩)).trans (V29_main_arg4 m (outsI m) c),
      (h c (Proc.devRef .tc main_arg5) (Finset.mem_filter.mpr ⟨StableHlo.devRef_mem_tcRefs main_arg5, by decide⟩)).trans (V29_main_arg5 m (outsI m) c),
      (h c (Proc.devRef .tc main_arg6) (Finset.mem_filter.mpr ⟨StableHlo.devRef_mem_tcRefs main_arg6, by decide⟩)).trans (V29_main_arg6 m (outsI m) c),
      (h c (Proc.devRef .tc main_arg7) (Finset.mem_filter.mpr ⟨StableHlo.devRef_mem_tcRefs main_arg7, by decide⟩)).trans (V29_main_arg7 m (outsI m) c),
      (h c (Proc.devRef .tc main_arg8) (Finset.mem_filter.mpr ⟨StableHlo.devRef_mem_tcRefs main_arg8, by decide⟩)).trans (V29_main_arg8 m (outsI m) c),
      (h c (Proc.devRef .tc main_arg9) (Finset.mem_filter.mpr ⟨StableHlo.devRef_mem_tcRefs main_arg9, by decide⟩)).trans (V29_main_arg9 m (outsI m) c),
      (h c (Proc.devRef .tc main_arg10) (Finset.mem_filter.mpr ⟨StableHlo.devRef_mem_tcRefs main_arg10, by decide⟩)).trans (V29_main_arg10 m (outsI m) c),
      (h c (Proc.devRef .tc main_arg11) (Finset.mem_filter.mpr ⟨StableHlo.devRef_mem_tcRefs main_arg11, by decide⟩)).trans (V29_main_arg11 m (outsI m) c),
      (h c (Proc.devRef .tc main_arg12) (Finset.mem_filter.mpr ⟨StableHlo.devRef_mem_tcRefs main_arg12, by decide⟩)).trans (V29_main_arg12 m (outsI m) c)⟩)
    (run_all m ρ)

end Cert.KernelIdeal.Hand

end
-- ==== Proof.KB.Run.lean ====
/-
  The word-level kernel's launch for the frame. At the word level a clipped result block's part inside the array is no
  function of the arguments, so what a region leaves in the shared result array is not determined, and the next region's
  proof data (which name the arrays' contents at entry) cannot be fixed before the run. Here the thread state between two
  items of @main holds every unscoped buffer at SOME contents that keep the thirteen arguments; every item, host stretch
  or kernel region, is a segment from such a state to such a state; a region's proof data are chosen at its entry, from
  the contents found there, and its cells' ghost state comes from a second copy of the rounds algebra that the thread
  state carries from the launch.
-/
import proofs.«420513_j51462298141020_3_alg».proof.Proof.Gen.Kernel.Regions
import Idealize.ShloMosaic.Lib.Pipeline.Frame
import Idealize.ShloMosaic.Lib.Pipeline.Regions

set_option maxRecDepth 1640

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (HostSeg)
open Cert.Kernel Cert.Kernel.Gen

variable {F : FTy → Type} [FloatOps F]

/-- The thirteen argument arrays. -/
abbrev argRefs : List (Ref sig .tc) :=
  [main_arg0, main_arg1, main_arg2, main_arg3, main_arg4, main_arg5, main_arg6, main_arg7, main_arg8, main_arg9,
    main_arg10, main_arg11, main_arg12]

variable (m : (ℓ : Loc nD τ sig) → Buf (Elt F) ℓ)

/-- A valuation of core `c`'s unscoped buffers holds every argument array as launched. -/
def Args (c : Dev nD) (V : Valuation τ sig (Elt F)) : Prop :=
  ∀ r ∈ argRefs, V r = m ((c : Thread nD τ).loc r)

section Segs

variable {Ix : Type} [DecidableEq Ix] {U : Type} [URA U] {Lvl : Type} [Preorder Lvl]
variable (𝒱₀ : Variants) (L : GSem nD τ sig → Finset Ix) (lv : GSem nD τ sig → Ix → Lvl)

/-- The thread state between two items of @main: the unscoped buffers whole at SOME contents that keep the arguments,
    beside a rest. -/
def TS (Rs : Dev nD → sProp (MT nD τ sig Ix (Elt F) ℕ U Lvl)) (c : Dev nD) : sProp (MT nD τ sig Ix (Elt F) ℕ U Lvl) :=
  iprop(∃ V : Valuation τ sig (Elt F), ⌜Args m c V⌝ ∗ StableHlo.held (c : Thread nD τ) (Pipeline.ucRefs τ sig) V ∗ Rs c)

/-- A host stretch that writes no argument, run from the buffers at some contents that keep the arguments. -/
def xhost (ops : List (HloOp τ sig (Elt F))) (hsub : ops.Forall fun op => op.bufs ⊆ StableHlo.tcRefs τ sig)
    (hfresh : ops.Forall fun op => op.fresh = ∅) (W : List (Ref sig .tc))
    (hW : ops.Forall fun op => op.writes ⊆ (W.map (Proc.devRef (τ := τ) .tc)).toFinset)
    (hargs : ∀ r ∈ argRefs, r ∉ W)
    (Rs : Dev nD → sProp (MT nD τ sig Ix (Elt F) ℕ U Lvl)) :
    HostSeg (Ix := Ix) (Name := ℕ) (U := U) (Lvl := Lvl) (pcfgs (F := F)) defs₀ 𝒱₀ L lv where
  prog := StableHlo.seq ops
  pre := TS m Rs
  post := TS m Rs
  run c {β} k K := by
    unfold TS
    iintro ⟨Hk, Hbd, HT, Hla⟩
    icases HT with ⟨%V, %hV, Hh, HR⟩
    have hrun := (HostSeg.ofOps (pcfgs (F := F)) defs₀ 𝒱₀ L lv (Pipeline.ucRefs τ sig) ops
      (fun op h => Pipeline.sub_ucRefs op ((List.forall_iff_forall_mem.mp hsub) op h))
      (fun op h => (List.forall_iff_forall_mem.mp hfresh) op h) (fun _ => V) Rs).run c k K
    simp only [HostSeg.ofOps] at hrun
    iapply hrun
    isplitl [Hk]
    · iintro ⟨Hbd, Hh, HR⟩
      iapply Hk
      isplitl [Hbd]; · iexact Hbd
      iexists (StableHlo.after ops V)
      isplitr
      · ipureintro
        exact fun r hr => (StableHlo.after_of_writes_sub ops V hW (hargs r hr)).trans (hV r hr)
      isplitl [Hh]; · iexact Hh
      iexact HR
    isplitl [Hbd]; · iexact Hbd
    isplitl [Hh HR]
    · isplitl [Hh]; · iexact Hh
      iexact HR
    iexact Hla

variable (ι : Ix) (EP' : Emb (URounds (GSem nD τ sig) Unit) (MT nD τ sig Ix (Elt F) ℕ U Lvl)) [EP'.LandsIn (upEmb : UEmb _ (MT nD τ sig Ix (Elt F) ℕ U Lvl))]

set_option backward.isDefEq.respectTransparency.types false in
/-- A kernel region as a host segment: entered from the buffers at SOME contents `V` that keep the arguments, beside the
    rounds ghost state of the pipelines `S` not yet entered (a second copy of the rounds algebra, which the thread state
    carries) and the rest `RestX`; the region's record is taken at the proof data chosen FROM `V`, inside the weakest
    precondition. It leaves the buffers at some contents that agree with `V` off `X`, hence keep the arguments. -/
def xregion (p : Fin 4) (S : Finset (Fin 4)) (hp : p ∈ S) (X : List (Ref sig .tc)) (hX : ∀ r ∈ argRefs, r ∉ X)
    (RestX : Dev nD → sProp (MT nD τ sig Ix (Elt F) ℕ U Lvl))
    (fam : Valuation τ sig (Elt F) → (q : Fin 4) → (c : Dev nD) → Pipeline.RDat τ (Elt F) Ix ℕ U Lvl (cfgs q) c)
    (Rg : (V : Valuation τ sig (Elt F)) → Pipeline.RDat.RegionSeg (pcfgs (F := F)) adm (fam V) ι defs₀ 𝒱₀ L lv p)
    (hpre : ∀ (V : Valuation τ sig (Elt F)) (c : Dev nD),
      iprop(StableHlo.held (c : Thread nD τ) (Pipeline.ucRefs τ sig) V ∗ RestX c) ⊢ (Rg V).pre c)
    (hpost : ∀ (V : Valuation τ sig (Elt F)) (c : Dev nD), (Rg V).post c
      ⊢ iprop(∃ V' : Valuation τ sig (Elt F), ⌜∀ r : Ref sig .tc, r ∉ X → V' r = V r⌝
          ∗ StableHlo.held (c : Thread nD τ) (Pipeline.ucRefs τ sig) V' ∗ RestX c)) :
    HostSeg (Ix := Ix) (Name := ℕ) (U := U) (Lvl := Lvl) (pcfgs (F := F)) defs₀ 𝒱₀ L lv where
  prog := Prog.lift (.customCall (Pipeline.entry p) ())
  pre := TS m fun c => iprop(Pipeline.ghostOn (pcfgs (F := F)) adm EP' S c ∗ RestX c)
  post := TS m fun c => iprop(Pipeline.ghostOn (pcfgs (F := F)) adm EP' (S.erase p) c ∗ RestX c)
  run c {β} k K := by
    unfold TS
    beta_reduce
    rw [show (Prog.lift (.customCall (Pipeline.entry p) ()) >>= k
          : Prog (TpuEff nD τ sig (Elt F) (Pipeline.Sig Λ₀ (Fin 4) fun p => (pcfgs (F := F) p).Adm) .tc) β)
        = .op (.customCall (Pipeline.entry p) ()) k from rfl,
      show (Pipeline.ghostOn (pcfgs (F := F)) adm EP' S c : sProp (MT nD τ sig Ix (Elt F) ℕ U Lvl))
        = iprop((Pipeline.cellsGhost (Pipeline.pin (pcfgs (F := F)) adm) EP' p c ∗ Pipeline.toksInit (Pipeline.pin (pcfgs (F := F)) adm) EP' p c)
            ∗ Pipeline.ghostOn (pcfgs (F := F)) adm EP' (S.erase p) c)
        from Pipeline.PerCore.ghostOn_erase (pcfgs (F := F)) (fun _ => adm) EP' hp c]
    iintro ⟨Hk, Hbd, HT, #Hla⟩
    icases HT with ⟨%V, %hV, Hh, ⟨⟨Hg, Ht⟩, Hrest⟩, HR⟩
    iapply (Pipeline.RDat.RegionSeg.wp (pcfgs (F := F)) adm (fam V) ι cellOf_inj EP' defs₀ 𝒱₀ L lv (Rg V) c none
      (fun u h => nomatch h) k K)
    isplitr [Hbd Hh HR Hg Ht]
    · iintro ⟨Hbd, Hpost⟩
      ihave H := (hpost V c) $$ Hpost
      icases H with ⟨%V', %hV', Hh, HR⟩
      iapply Hk
      isplitl [Hbd]; · iexact Hbd
      iexists V'
      isplitr
      · ipureintro
        exact fun r hr => (hV' r (hX r hr)).trans (hV r hr)
      isplitl [Hh]; · iexact Hh
      isplitl [Hrest]; · iexact Hrest
      iexact HR
    isplitl [Hbd]; · iexact Hbd
    isplitl [Hh HR]
    · iapply (hpre V c)
      isplitl [Hh]; · iexact Hh
      iexact HR
    isplitr; · iexact Hla
    isplitl [Hg]; · iexact Hg
    iexact Ht

end Segs

/-! ## The frame, given the regions' relational records -/

section Frame

variable {Ix : Type} [DecidableEq Ix] {U : Type} [URA U] {Lvl : Type} [Preorder Lvl]

/-- What rides beside the buffers through every item: the generator register at some state, the core owing nothing. -/
abbrev RestX (c : Dev nD) : sProp (MT nD τ sig Ix (Elt F) ℕ U Lvl) :=
  iprop((∃ r, prngReg c r) ∗ ∃ W, owes (c : Thread nD τ) (0 : CellTallies nD τ sig Ix) W)

/-- Contents that agree with `V` off ONE array agree with it off the list of that array alone. -/
theorem post_of_ne (a : Ref sig .tc) (V : Valuation τ sig (Elt F)) (c : Dev nD) :
    (iprop(∃ W' : Valuation τ sig (Elt F), ⌜∀ r : Ref sig .tc, r ≠ a → W' r = V r⌝
        ∗ StableHlo.held (c : Thread nD τ) (Pipeline.ucRefs τ sig) W' ∗ RestX c) : sProp (MT nD τ sig Ix (Elt F) ℕ U Lvl))
      ⊢ iprop(∃ V' : Valuation τ sig (Elt F), ⌜∀ r : Ref sig .tc, r ∉ ([a] : List (Ref sig .tc)) → V' r = V r⌝
        ∗ StableHlo.held (c : Thread nD τ) (Pipeline.ucRefs τ sig) V' ∗ RestX c) := by
  iintro ⟨%W', %h, H⟩
  iexists W'
  isplitr
  · ipureintro; exact fun r hr => h r fun e => hr (List.mem_singleton.mpr e)
  · iexact H

variable (EP' : Emb (URounds (GSem nD τ sig) Unit) (MT nD τ sig Ix (Elt F) ℕ U Lvl))

/-- The rest of the thread state while the pipelines `S` are still to be entered. -/
abbrev RestG (S : Finset (Fin 4)) : Dev nD → sProp (MT nD τ sig Ix (Elt F) ℕ U Lvl) :=
  fun c => iprop(Pipeline.ghostOn (pcfgs (F := F)) adm EP' S c ∗ RestX c)

abbrev PS0 : Finset (Fin 4) := Finset.univ
abbrev PS1 : Finset (Fin 4) := PS0.erase 0
abbrev PS2 : Finset (Fin 4) := PS1.erase 1
abbrev PS3 : Finset (Fin 4) := PS2.erase 2
abbrev PS4 : Finset (Fin 4) := PS3.erase 3

/-- Proof data the launch theorem is stated over and no segment uses: every region takes its own, chosen at its entry. -/
def rdats₀ (p : Fin 4) (c : Dev nD) : Pipeline.RDat τ (Elt F) Ix ℕ U Lvl (cfgs p) c where
  A w := m _
  after _ _ _ _ := True
  Φ _ := iprop(emp)
  q _ := fullShare
  owed _ := 0

set_option backward.isDefEq.respectTransparency.types false in
/-- THE CONDITIONAL FRAME, relational. The thread state between two items of @main holds every unscoped buffer whole at
    SOME contents that keep the thirteen arguments (no item writes one), the rounds ghost state of the pipelines not yet
    entered (a second copy `EP'` of the rounds algebra, dealt at launch: `hu₀`), the generator register and the core
    owing nothing. GIVEN, per region K and for ANY entry contents `V`, a segment record over proof data chosen from
    `V`, entered from the buffers at `V` and left at contents that agree with `V` off `XK` (no argument in it): every
    weakly fair execution of @main from memory `m` with zero counters terminates and every final memory holds each
    argument as launched. -/
theorem rframe_cond
    (EP : Emb (URounds (GSem nD τ sig) Unit) (MT nD τ sig Ix (Elt F) ℕ U Lvl)) [EP.LandsIn (upEmb : UEmb _ (MT nD τ sig Ix (Elt F) ℕ U Lvl))]
    [EP'.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj)))
      ∗ bigSep Finset.univ fun c : Dev nD => Pipeline.ghostOn (pcfgs (F := F)) adm EP' Finset.univ c))
    (X0 : List (Ref sig .tc)) (hX0 : ∀ r ∈ argRefs, r ∉ X0)
    (fam0 : Valuation τ sig (Elt F) → (q : Fin 4) → (c : Dev nD) → Pipeline.RDat τ (Elt F) Ix ℕ U Lvl (cfgs q) c)
    (R0 : (V : Valuation τ sig (Elt F)) → Pipeline.RDat.RegionSeg (pcfgs (F := F)) adm (fam0 V) ι defs₀ 𝒱₀ L lv 0)
    (hpre0 : ∀ (V : Valuation τ sig (Elt F)) (c : Dev nD),
      iprop(StableHlo.held (c : Thread nD τ) (Pipeline.ucRefs τ sig) V ∗ RestX c) ⊢ (R0 V).pre c)
    (hpost0 : ∀ (V : Valuation τ sig (Elt F)) (c : Dev nD), (R0 V).post c
      ⊢ iprop(∃ V' : Valuation τ sig (Elt F), ⌜∀ r : Ref sig .tc, r ∉ X0 → V' r = V r⌝
          ∗ StableHlo.held (c : Thread nD τ) (Pipeline.ucRefs τ sig) V' ∗ RestX c))
    (X1 : List (Ref sig .tc)) (hX1 : ∀ r ∈ argRefs, r ∉ X1)
    (fam1 : Valuation τ sig (Elt F) → (q : Fin 4) → (c : Dev nD) → Pipeline.RDat τ (Elt F) Ix ℕ U Lvl (cfgs q) c)
    (R1 : (V : Valuation τ sig (Elt F)) → Pipeline.RDat.RegionSeg (pcfgs (F := F)) adm (fam1 V) ι defs₀ 𝒱₀ L lv 1)
    (hpre1 : ∀ (V : Valuation τ sig (Elt F)) (c : Dev nD),
      iprop(StableHlo.held (c : Thread nD τ) (Pipeline.ucRefs τ sig) V ∗ RestX c) ⊢ (R1 V).pre c)
    (hpost1 : ∀ (V : Valuation τ sig (Elt F)) (c : Dev nD), (R1 V).post c
      ⊢ iprop(∃ V' : Valuation τ sig (Elt F), ⌜∀ r : Ref sig .tc, r ∉ X1 → V' r = V r⌝
          ∗ StableHlo.held (c : Thread nD τ) (Pipeline.ucRefs τ sig) V' ∗ RestX c))
    (X2 : List (Ref sig .tc)) (hX2 : ∀ r ∈ argRefs, r ∉ X2)
    (fam2 : Valuation τ sig (Elt F) → (q : Fin 4) → (c : Dev nD) → Pipeline.RDat τ (Elt F) Ix ℕ U Lvl (cfgs q) c)
    (R2 : (V : Valuation τ sig (Elt F)) → Pipeline.RDat.RegionSeg (pcfgs (F := F)) adm (fam2 V) ι defs₀ 𝒱₀ L lv 2)
    (hpre2 : ∀ (V : Valuation τ sig (Elt F)) (c : Dev nD),
      iprop(StableHlo.held (c : Thread nD τ) (Pipeline.ucRefs τ sig) V ∗ RestX c) ⊢ (R2 V).pre c)
    (hpost2 : ∀ (V : Valuation τ sig (Elt F)) (c : Dev nD), (R2 V).post c
      ⊢ iprop(∃ V' : Valuation τ sig (Elt F), ⌜∀ r : Ref sig .tc, r ∉ X2 → V' r = V r⌝
          ∗ StableHlo.held (c : Thread nD τ) (Pipeline.ucRefs τ sig) V' ∗ RestX c))
    (X3 : List (Ref sig .tc)) (hX3 : ∀ r ∈ argRefs, r ∉ X3)
    (fam3 : Valuation τ sig (Elt F) → (q : Fin 4) → (c : Dev nD) → Pipeline.RDat τ (Elt F) Ix ℕ U Lvl (cfgs q) c)
    (R3 : (V : Valuation τ sig (Elt F)) → Pipeline.RDat.RegionSeg (pcfgs (F := F)) adm (fam3 V) ι defs₀ 𝒱₀ L lv 3)
    (hpre3 : ∀ (V : Valuation τ sig (Elt F)) (c : Dev nD),
      iprop(StableHlo.held (c : Thread nD τ) (Pipeline.ucRefs τ sig) V ∗ RestX c) ⊢ (R3 V).pre c)
    (hpost3 : ∀ (V : Valuation τ sig (Elt F)) (c : Dev nD), (R3 V).post c
      ⊢ iprop(∃ V' : Valuation τ sig (Elt F), ⌜∀ r : Ref sig .tc, r ∉ X3 → V' r = V r⌝
          ∗ StableHlo.held (c : Thread nD τ) (Pipeline.ucRefs τ sig) V' ∗ RestX c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.RDat.θ_run_regions_kit_dev (pcfgs (F := F)) adm (rdats₀ m) ι cellOf_inj EP defs₀ 𝒱₀ L lv m ρ main
    (fun _ => [
      .host (xhost m 𝒱₀ L lv hostOps0 hostOps0_sub hostOps0_fresh hostOps0_W hostOps0_writes (by decide) (RestG EP' PS0)),
      .host (xhost m 𝒱₀ L lv hostOps0_1 hostOps0_1_sub hostOps0_1_fresh hostOps0_1_W hostOps0_1_writes (by decide) (RestG EP' PS0)),
      .host (xhost m 𝒱₀ L lv hostOps0_2 hostOps0_2_sub hostOps0_2_fresh hostOps0_2_W hostOps0_2_writes (by decide) (RestG EP' PS0)),
      .host (xhost m 𝒱₀ L lv hostOps0_3 hostOps0_3_sub hostOps0_3_fresh hostOps0_3_W hostOps0_3_writes (by decide) (RestG EP' PS0)),
      .host (xhost m 𝒱₀ L lv hostOps0_4 hostOps0_4_sub hostOps0_4_fresh hostOps0_4_W hostOps0_4_writes (by decide) (RestG EP' PS0)),
      .host (xhost m 𝒱₀ L lv hostOps0_5 hostOps0_5_sub hostOps0_5_fresh hostOps0_5_W hostOps0_5_writes (by decide) (RestG EP' PS0)),
      .host (xhost m 𝒱₀ L lv hostOps0_6 hostOps0_6_sub hostOps0_6_fresh hostOps0_6_W hostOps0_6_writes (by decide) (RestG EP' PS0)),
      .host (xregion m 𝒱₀ L lv ι EP' 0 PS0 (by decide) X0 hX0 RestX fam0 R0 hpre0 hpost0),
      .host (xhost m 𝒱₀ L lv hostOps1 hostOps1_sub hostOps1_fresh hostOps1_W hostOps1_writes (by decide) (RestG EP' PS1)),
      .host (xhost m 𝒱₀ L lv hostOps1_1 hostOps1_1_sub hostOps1_1_fresh hostOps1_1_W hostOps1_1_writes (by decide) (RestG EP' PS1)),
      .host (xhost m 𝒱₀ L lv hostOps1_2 hostOps1_2_sub hostOps1_2_fresh hostOps1_2_W hostOps1_2_writes (by decide) (RestG EP' PS1)),
      .host (xhost m 𝒱₀ L lv hostOps1_3 hostOps1_3_sub hostOps1_3_fresh hostOps1_3_W hostOps1_3_writes (by decide) (RestG EP' PS1)),
      .host (xhost m 𝒱₀ L lv hostOps1_4 hostOps1_4_sub hostOps1_4_fresh hostOps1_4_W hostOps1_4_writes (by decide) (RestG EP' PS1)),
      .host (xhost m 𝒱₀ L lv hostOps1_5 hostOps1_5_sub hostOps1_5_fresh hostOps1_5_W hostOps1_5_writes (by decide) (RestG EP' PS1)),
      .host (xregion m 𝒱₀ L lv ι EP' 1 PS1 (by decide) X1 hX1 RestX fam1 R1 hpre1 hpost1),
      .host (xhost m 𝒱₀ L lv hostOps2 hostOps2_sub hostOps2_fresh hostOps2_W hostOps2_writes (by decide) (RestG EP' PS2)),
      .host (xhost m 𝒱₀ L lv hostOps2_1 hostOps2_1_sub hostOps2_1_fresh hostOps2_1_W hostOps2_1_writes (by decide) (RestG EP' PS2)),
      .host (xhost m 𝒱₀ L lv hostOps2_2 hostOps2_2_sub hostOps2_2_fresh hostOps2_2_W hostOps2_2_writes (by decide) (RestG EP' PS2)),
      .host (xhost m 𝒱₀ L lv hostOps2_3 hostOps2_3_sub hostOps2_3_fresh hostOps2_3_W hostOps2_3_writes (by decide) (RestG EP' PS2)),
      .host (xhost m 𝒱₀ L lv hostOps2_4 hostOps2_4_sub hostOps2_4_fresh hostOps2_4_W hostOps2_4_writes (by decide) (RestG EP' PS2)),
      .host (xhost m 𝒱₀ L lv hostOps2_5 hostOps2_5_sub hostOps2_5_fresh hostOps2_5_W hostOps2_5_writes (by decide) (RestG EP' PS2)),
      .host (xregion m 𝒱₀ L lv ι EP' 2 PS2 (by decide) X2 hX2 RestX fam2 R2 hpre2 hpost2),
      .host (xhost m 𝒱₀ L lv hostOps3 hostOps3_sub hostOps3_fresh hostOps3_W hostOps3_writes (by decide) (RestG EP' PS3)),
      .host (xhost m 𝒱₀ L lv hostOps3_1 hostOps3_1_sub hostOps3_1_fresh hostOps3_1_W hostOps3_1_writes (by decide) (RestG EP' PS3)),
      .host (xhost m 𝒱₀ L lv hostOps3_2 hostOps3_2_sub hostOps3_2_fresh hostOps3_2_W hostOps3_2_writes (by decide) (RestG EP' PS3)),
      .host (xhost m 𝒱₀ L lv hostOps3_3 hostOps3_3_sub hostOps3_3_fresh hostOps3_3_W hostOps3_3_writes (by decide) (RestG EP' PS3)),
      .host (xhost m 𝒱₀ L lv hostOps3_4 hostOps3_4_sub hostOps3_4_fresh hostOps3_4_W hostOps3_4_writes (by decide) (RestG EP' PS3)),
      .host (xhost m 𝒱₀ L lv hostOps3_5 hostOps3_5_sub hostOps3_5_fresh hostOps3_5_W hostOps3_5_writes (by decide) (RestG EP' PS3)),
      .host (xregion m 𝒱₀ L lv ι EP' 3 PS3 (by decide) X3 hX3 RestX fam3 R3 hpre3 hpost3)])
    (fun c Q => by
      rewrite [main_chain c, Pipeline.RDat.Seg.run_eq_chain]
      simp only [List.map_cons, List.map_nil, Pipeline.RDat.Seg.prog, xhost, xregion]
      exact .rfl)
    (fun c => List.nodup_nil) (fun _ => 0) hL (fun c => Pipeline.ghostOn (pcfgs (F := F)) adm EP' Finset.univ c) u₀ hu₀
    (T₀ := TS m (RestG EP' PS0))
    (Tₙ := TS m (fun c => iprop(∃ r, prngReg c r)))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, ?_⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the last item's exit: the ghost state of no pipeline is left over, the `owes` set beside
    show TS m (RestG EP' PS4) c ⊢ iprop(TS m (fun c => iprop(∃ r, prngReg c r)) c ∗ ∃ W, owes (c.tc : Thread nD τ) (0 : CellTallies nD τ sig Ix) W)
    unfold TS
    iintro ⟨%V, %hV, Hh, -, Hp, HO⟩
    isplitr [HO]
    · iexists V
      isplitr; · ipureintro; exact hV
      isplitl [Hh]; · iexact Hh
      iexact Hp
    · iexact HO
  · -- the launch: the unscoped buffers are held at the launch contents, which keep the arguments
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    unfold TS
    iintro ⟨⟨Hh, -, HO, -, Hp, HG⟩, -⟩
    imodintro
    iexists (V0 m c)
    isplitr; · ipureintro; exact fun r _ => rfl
    isplitl [Hh]; · iexact Hh
    isplitl [HG]; · iexact HG
    isplitl [Hp]; · iexists _; iexact Hp
    iexists ∅; iexact HO
  · -- the end: each argument's buffer read off the last contents
    unfold TS StableHlo.held
    iintro ⟨⟨%V, %hV, Hh, -⟩, HSI⟩
    ihave Hr := (pointsTo_read_all (Pipeline.ucRefs τ sig) (fun b => ((c : Thread nD τ).1, b)) V s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (hV main_arg0 (by decide)),
        (h (Proc.devRef .tc main_arg1) (Finset.mem_filter.mpr ⟨StableHlo.devRef_mem_tcRefs main_arg1, by decide⟩)).trans (hV main_arg1 (by decide)),
        (h (Proc.devRef .tc main_arg2) (Finset.mem_filter.mpr ⟨StableHlo.devRef_mem_tcRefs main_arg2, by decide⟩)).trans (hV main_arg2 (by decide)),
        (h (Proc.devRef .tc main_arg3) (Finset.mem_filter.mpr ⟨StableHlo.devRef_mem_tcRefs main_arg3, by decide⟩)).trans (hV main_arg3 (by decide)),
        (h (Proc.devRef .tc main_arg4) (Finset.mem_filter.mpr ⟨StableHlo.devRef_mem_tcRefs main_arg4, by decide⟩)).trans (hV main_arg4 (by decide)),
        (h (Proc.devRef .tc main_arg5) (Finset.mem_filter.mpr ⟨StableHlo.devRef_mem_tcRefs main_arg5, by decide⟩)).trans (hV main_arg5 (by decide)),
        (h (Proc.devRef .tc main_arg6) (Finset.mem_filter.mpr ⟨StableHlo.devRef_mem_tcRefs main_arg6, by decide⟩)).trans (hV main_arg6 (by decide)),
        (h (Proc.devRef .tc main_arg7) (Finset.mem_filter.mpr ⟨StableHlo.devRef_mem_tcRefs main_arg7, by decide⟩)).trans (hV main_arg7 (by decide)),
        (h (Proc.devRef .tc main_arg8) (Finset.mem_filter.mpr ⟨StableHlo.devRef_mem_tcRefs main_arg8, by decide⟩)).trans (hV main_arg8 (by decide)),
        (h (Proc.devRef .tc main_arg9) (Finset.mem_filter.mpr ⟨StableHlo.devRef_mem_tcRefs main_arg9, by decide⟩)).trans (hV main_arg9 (by decide)),
        (h (Proc.devRef .tc main_arg10) (Finset.mem_filter.mpr ⟨StableHlo.devRef_mem_tcRefs main_arg10, by decide⟩)).trans (hV main_arg10 (by decide)),
        (h (Proc.devRef .tc main_arg11) (Finset.mem_filter.mpr ⟨StableHlo.devRef_mem_tcRefs main_arg11, by decide⟩)).trans (hV main_arg11 (by decide)),
        (h (Proc.devRef .tc main_arg12) (Finset.mem_filter.mpr ⟨StableHlo.devRef_mem_tcRefs main_arg12, by decide⟩)).trans (hV main_arg12 (by decide))⟩
    · iexact HSI

end Frame

/-! ## The algebra: two copies of the rounds algebra -/

section Inst

/-- No core owes another anything: no level is assigned. -/
abbrev L₀ : GSem nD τ sig → Finset Unit := fun _ => ∅
abbrev lv₀ : GSem nD τ sig → Unit → ℕ := fun _ _ => 0

/-- The rounds library's launch element at the staging cells of the four pipelines. -/
abbrev u₁ : UR sig nD τ := initOf (Pipeline.cells cfgs cellOf_inj) (Pipeline.launchToks cfgs cellOf_inj)

local notation "𝕄₂" => MT nD τ sig Unit (Elt F) ℕ (UR sig nD τ × UR sig nD τ) ℕ

/-- The launch element of the pair algebra deals the launch theorem's copy (left) and, from the right copy, every
    pipeline's cells' ghost state and duty tokens on every core: what the regions are entered with. -/
theorem hu₂ : (ownU ((u₁, u₁) : UR sig nD τ × UR sig nD τ) : sProp 𝕄₂)
    ⊢ |={Set.univ}=> iprop(BI.own ((embL : Emb (UR sig nD τ) 𝕄₂) u₁)
      ∗ bigSep Finset.univ fun c : Dev nD => Pipeline.ghostOn (pcfgs (F := F)) adm (embR : Emb (UR sig nD τ) 𝕄₂) Finset.univ c) := by
  have hgroup : iprop((bigSep Finset.univ fun c : Dev nD => bigSep Finset.univ fun p : Fin 4 =>
          Pipeline.PerCore.cellsGhost (Pipeline.pinD (pcfgs (F := F)) fun _ => adm) (embR : Emb (UR sig nD τ) 𝕄₂) p c)
        ∗ (bigSep Finset.univ fun c : Dev nD => bigSep Finset.univ fun p : Fin 4 =>
          (Pipeline.PerCore.toksInit (Pipeline.pinD (pcfgs (F := F)) fun _ => adm) (embR : Emb (UR sig nD τ) 𝕄₂) p c : sProp 𝕄₂)))
      ⊢ bigSep Finset.univ fun c : Dev nD => Pipeline.ghostOn (pcfgs (F := F)) adm (embR : Emb (UR sig nD τ) 𝕄₂) Finset.univ c := by
    rw [← bigSep_sep']
    exact bigSep_mono fun c _ => show iprop((bigSep Finset.univ fun p : Fin 4 =>
            Pipeline.PerCore.cellsGhost (Pipeline.pinD (pcfgs (F := F)) fun _ => adm) (embR : Emb (UR sig nD τ) 𝕄₂) p c)
          ∗ bigSep Finset.univ fun p : Fin 4 =>
            (Pipeline.PerCore.toksInit (Pipeline.pinD (pcfgs (F := F)) fun _ => adm) (embR : Emb (UR sig nD τ) 𝕄₂) p c : sProp 𝕄₂))
        ⊢ Pipeline.ghostOn (pcfgs (F := F)) adm (embR : Emb (UR sig nD τ) 𝕄₂) Finset.univ c
      from Entails.of_eq (by unfold Pipeline.ghostOn Pipeline.PerCore.ghostOn; rw [bigSep_sep'])
  iintro Hu
  ihave H := (ownU_pair (nD := nD) (τ := τ) (sig := sig) (Ix := Unit) (Val := Elt F) (Name := ℕ) (Lvl := ℕ) u₁ u₁) $$ Hu
  icases H with ⟨Hl, Hr⟩
  imod (Pipeline.PerCore.fund_ghost (Pipeline.pinD (pcfgs (F := F)) fun _ => adm) (embR : Emb (UR sig nD τ) 𝕄₂) cellOf_inj) $$ Hr with ⟨Hg, Ht⟩
  imodintro
  isplitl [Hl]; · iexact Hl
  iapply hgroup
  isplitl [Hg]; · iexact Hg
  iexact Ht

set_option backward.isDefEq.respectTransparency.types false in
/-- THE FRAME from the regions' relational records, at the pair algebra: no level, no launch dues, the launch theorem's
    copy of the rounds algebra on the left, the regions' on the right. -/
theorem rframe (ρ : Dev nD → PrngReg)
    (X0 : List (Ref sig .tc)) (hX0 : ∀ r ∈ argRefs, r ∉ X0)
    (fam0 : Valuation τ sig (Elt F) → (q : Fin 4) → (c : Dev nD) → Pipeline.RDat τ (Elt F) Unit ℕ (UR sig nD τ × UR sig nD τ) ℕ (cfgs q) c)
    (R0 : (V : Valuation τ sig (Elt F)) → Pipeline.RDat.RegionSeg (pcfgs (F := F)) adm (fam0 V) () defs₀ Variants.none L₀ lv₀ 0)
    (hpre0 : ∀ (V : Valuation τ sig (Elt F)) (c : Dev nD),
      iprop(StableHlo.held (c : Thread nD τ) (Pipeline.ucRefs τ sig) V ∗ RestX c) ⊢ (R0 V).pre c)
    (hpost0 : ∀ (V : Valuation τ sig (Elt F)) (c : Dev nD), (R0 V).post c
      ⊢ iprop(∃ V' : Valuation τ sig (Elt F), ⌜∀ r : Ref sig .tc, r ∉ X0 → V' r = V r⌝
          ∗ StableHlo.held (c : Thread nD τ) (Pipeline.ucRefs τ sig) V' ∗ RestX c))
    (X1 : List (Ref sig .tc)) (hX1 : ∀ r ∈ argRefs, r ∉ X1)
    (fam1 : Valuation τ sig (Elt F) → (q : Fin 4) → (c : Dev nD) → Pipeline.RDat τ (Elt F) Unit ℕ (UR sig nD τ × UR sig nD τ) ℕ (cfgs q) c)
    (R1 : (V : Valuation τ sig (Elt F)) → Pipeline.RDat.RegionSeg (pcfgs (F := F)) adm (fam1 V) () defs₀ Variants.none L₀ lv₀ 1)
    (hpre1 : ∀ (V : Valuation τ sig (Elt F)) (c : Dev nD),
      iprop(StableHlo.held (c : Thread nD τ) (Pipeline.ucRefs τ sig) V ∗ RestX c) ⊢ (R1 V).pre c)
    (hpost1 : ∀ (V : Valuation τ sig (Elt F)) (c : Dev nD), (R1 V).post c
      ⊢ iprop(∃ V' : Valuation τ sig (Elt F), ⌜∀ r : Ref sig .tc, r ∉ X1 → V' r = V r⌝
          ∗ StableHlo.held (c : Thread nD τ) (Pipeline.ucRefs τ sig) V' ∗ RestX c))
    (X2 : List (Ref sig .tc)) (hX2 : ∀ r ∈ argRefs, r ∉ X2)
    (fam2 : Valuation τ sig (Elt F) → (q : Fin 4) → (c : Dev nD) → Pipeline.RDat τ (Elt F) Unit ℕ (UR sig nD τ × UR sig nD τ) ℕ (cfgs q) c)
    (R2 : (V : Valuation τ sig (Elt F)) → Pipeline.RDat.RegionSeg (pcfgs (F := F)) adm (fam2 V) () defs₀ Variants.none L₀ lv₀ 2)
    (hpre2 : ∀ (V : Valuation τ sig (Elt F)) (c : Dev nD),
      iprop(StableHlo.held (c : Thread nD τ) (Pipeline.ucRefs τ sig) V ∗ RestX c) ⊢ (R2 V).pre c)
    (hpost2 : ∀ (V : Valuation τ sig (Elt F)) (c : Dev nD), (R2 V).post c
      ⊢ iprop(∃ V' : Valuation τ sig (Elt F), ⌜∀ r : Ref sig .tc, r ∉ X2 → V' r = V r⌝
          ∗ StableHlo.held (c : Thread nD τ) (Pipeline.ucRefs τ sig) V' ∗ RestX c))
    (X3 : List (Ref sig .tc)) (hX3 : ∀ r ∈ argRefs, r ∉ X3)
    (fam3 : Valuation τ sig (Elt F) → (q : Fin 4) → (c : Dev nD) → Pipeline.RDat τ (Elt F) Unit ℕ (UR sig nD τ × UR sig nD τ) ℕ (cfgs q) c)
    (R3 : (V : Valuation τ sig (Elt F)) → Pipeline.RDat.RegionSeg (pcfgs (F := F)) adm (fam3 V) () defs₀ Variants.none L₀ lv₀ 3)
    (hpre3 : ∀ (V : Valuation τ sig (Elt F)) (c : Dev nD),
      iprop(StableHlo.held (c : Thread nD τ) (Pipeline.ucRefs τ sig) V ∗ RestX c) ⊢ (R3 V).pre c)
    (hpost3 : ∀ (V : Valuation τ sig (Elt F)) (c : Dev nD), (R3 V).post c
      ⊢ iprop(∃ V' : Valuation τ sig (Elt F), ⌜∀ r : Ref sig .tc, r ∉ X3 → V' r = V r⌝
          ∗ StableHlo.held (c : Thread nD τ) (Pipeline.ucRefs τ sig) V' ∗ RestX c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  rframe_cond (m := m) (EP' := (embR : Emb (UR sig nD τ) 𝕄₂)) (EP := (embL : Emb (UR sig nD τ) 𝕄₂)) () Variants.none L₀ lv₀
    (fun _ _ => rfl) ρ ((u₁, u₁) : UR sig nD τ × UR sig nD τ) hu₂
    X0 hX0 fam0 R0 hpre0 hpost0 X1 hX1 fam1 R1 hpre1 hpost1 X2 hX2 fam2 R2 hpre2 hpost2 X3 hX3 fam3 R3 hpre3 hpost3

end Inst

end Cert.Kernel.Hand

end
-- ==== Proof.KB.Reg0.lean ====
/-
  Region 0 of the word-level kernel, for the frame: the body's triple (the inputs' staging buffers come back as they
  were, the result's at some contents), the relational proof data of its pipeline and the body obligation, and the
  region's record over the held unscoped buffers.
-/
import proofs.«420513_j51462298141020_3_alg».proof.Proof.Gen.Kernel.Launch
import proofs.«420513_j51462298141020_3_alg».proof.Proof.Gen.Kernel.Skeleton
import proofs.«420513_j51462298141020_3_alg».proof.Proof.Gen.Kernel.Points
import proofs.«420513_j51462298141020_3_alg».proof.Proof.Gen.Kernel.Regions
import Idealize.ShloMosaic.Lib.Pipeline.FrameBody
import Idealize.ShloMosaic.Lib.Pipeline.Regions
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Kernel Cert.Kernel.Gen

variable {F : FTy → Type} [FloatOps F]

variable {U : Type} [URA U]

local notation "𝕄" => MT nD τ sig Unit (Elt F) ℕ U ℕ

/-! ## The body's triple -/

set_option maxHeartbeats 4000000 in
/-- The body on whole staging memrefs: from the three inputs' at any contents and the result's at any contents it runs
    to the continuation holding the inputs' as they were and the result's at some contents. It neither reads nor
    writes the operand left in HBM. -/
theorem sound_kernel0 (c : Dev nD) (E : Set ℕ) (i : grid0.Coords)
    (arg2 : Memref sig .tc .vmem S8x64x3136 .bf16) (harg2 : arg2.IsWhole)
    (arg3 : Memref sig .tc .vmem S3136x1024 .bf16) (harg3 : arg3.IsWhole)
    (arg4 : Memref sig .tc .vmem S64x1024 .f32) (harg4 : arg4.IsWhole)
    (arg5 : Memref sig .tc .hbm S8x960x8000 .f32) (harg5 : arg5.IsWhole)
    (arg6 : Memref sig .tc .vmem S8x64x1024 .f32) (harg6 : arg6.IsWhole)
    (x0 : Vec F S8x64x3136 .bf16) (x1 : Vec F S3136x1024 .bf16) (x2 : Vec F S64x1024 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ (∃ d, owns (c : Thread nD τ) arg6 fullShare d)) -∗ K ⟨⟩))
      ⊢ wp frame (wpE (defs₀ (F := F)) Variants.none c none) E
          (cc0__layer_kernel i arg2 harg2 arg3 harg3 arg4 harg4 arg5 harg5 arg6 harg6) K := by
  simp only [cc0__layer_kernel_eq_skeleton]; unfold cc0__layer_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro; rfl

/-! ## The pipeline's relational proof data -/

section Data

-- the TensorCore's buffer contents when the region is entered
variable (V : (c : Dev nD) → (b : Ref sig .tc) → Buf (Elt F) ((c : Thread nD τ).loc b))

/-- The relational proof data of pipeline 0 on core `c`: the arrays as the region finds them (`V`); the body hands
    an input window's buffer back as it found it, and of what it leaves in the result window's buffer nothing is
    said; the invariant is the scoped rest and the generator register, untouched; nothing owed; full shares. -/
def rdat0 (c : Dev nD) : RDat τ (Elt F) Unit ℕ U ℕ cfg0 c where
  A w := V c (Pipeline.arrRef spec0 w)
  after w _ Y X := (cfg0.win w).isOut = false → X = Y
  Φ _ := Pipeline.ΦA spec0 c
  q _ := fullShare
  owed _ := 0

theorem A_eq0 (c : Dev nD) (w : Fin cfg0.W) : (rdat0 (U := U) V c).A w = V c (Pipeline.arrRef spec0 w) := rfl

theorem owed0 (c : Dev nD) (t : Fin (cfg0.N + 1)) : (rdat0 (U := U) V c).owed t = 0 := rfl

/-! ## The body obligation -/

/-- The body at any point, from whatever the four current staging buffers hold: `sound_kernel0`; the invariant and
    the core's `owes` pass through unread. -/
theorem sound_body0 (c : Dev nD) (t : Fin cfg0.N)
    (Y : (w : Fin cfg0.W) → (cfg0.win w).block.Idx → Elt F (cfg0.win w).elt) :
    iprop((rdat0 (U := U) V c).Φ t.castSucc ∗ (rdat0 (U := U) V c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3))
      ⊢ wp frame (wpE (defs₀ (F := F)) Variants.none c none) Set.univ (bodyAt0 t) (fun _ =>
          iprop((rdat0 (U := U) V c).Φ t.succ ∗ (rdat0 (U := U) V c).owesAt () t.succ
            ∗ (∃ X, ⌜(rdat0 (U := U) V c).after 0 t (Y 0) X⌝ ∗ owns (c : Thread nD τ) (st0_0 t) fullShare X)
            ∗ (∃ X, ⌜(rdat0 (U := U) V c).after 1 t (Y 1) X⌝ ∗ owns (c : Thread nD τ) (st0_1 t) fullShare X)
            ∗ (∃ X, ⌜(rdat0 (U := U) V c).after 2 t (Y 2) X⌝ ∗ owns (c : Thread nD τ) (st0_2 t) fullShare X)
            ∗ (∃ X, ⌜(rdat0 (U := U) V c).after 3 t (Y 3) X⌝ ∗ owns (c : Thread nD τ) (st0_3 t) fullShare X))) := by
  unfold bodyAt0
  rw [show (rdat0 (U := U) V c).Φ t.succ = (rdat0 (U := U) V c).Φ t.castSucc from rfl,
    show (rdat0 (U := U) V c).owesAt () t.succ = (rdat0 (U := U) V c).owesAt () t.castSucc from rfl]
  iintro ⟨HΦ, Ho, H0, H1, H2, H3⟩
  iapply (sound_kernel0 c Set.univ _ _ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, ⟨%d, H3⟩⟩
  isplitl [HΦ]; · iexact HΦ
  isplitl [Ho]; · iexact Ho
  isplitl [H0]
  · iexists (Y 0); isplitr; · ipureintro; exact fun _ => rfl
    iexact H0
  isplitl [H1]
  · iexists (Y 1); isplitr; · ipureintro; exact fun _ => rfl
    iexact H1
  isplitl [H2]
  · iexists (Y 2); isplitr; · ipureintro; exact fun _ => rfl
    iexact H2
  iexists d; isplitr; · ipureintro; exact fun h => absurd h (by decide)
  iexact H3

/-- The library's body obligation of the relational data, at every point: nothing of what the buffers may hold is
    used. -/
theorem body_obligation0 (c : Dev nD) :
    (rdat0 (F := F) (U := U) V c).BodyObligation (defs₀ (F := F)) Variants.none () Set.univ := fun t Y _ => by
  rw [bigSep_W0, bigSep_W0]
  exact sound_body0 V c t Y

end Data

/-! ## The region's record -/

section Record

-- every unscoped buffer's contents when the region is entered
variable (W : Dev nD → Valuation τ sig (Elt F))

/-- This region's pipeline among the program's four. -/
abbrev pipe0 : Fin 4 := 0

/-- No core owes another anything: no level is assigned. -/
abbrev L0 : GSem nD τ sig → Finset Unit := fun _ => ∅
abbrev lv0 : GSem nD τ sig → Unit → ℕ := fun _ _ => 0

/-- What rides beside the buffers through the region: the generator register at some state, nothing owed. -/
abbrev Rst (c : Dev nD) : sProp 𝕄 :=
  iprop((∃ r, prngReg c r) ∗ ∃ T, owes (c : Thread nD τ) (0 : CellTallies nD τ sig Unit) T)

/-- The contents at the region's exit: as at entry but for the result window's array, at what the write-backs left. -/
abbrev exit0 (c : Dev nD) (G : Buf (Elt F) ((c : Thread nD τ).loc (Pipeline.arrRef spec0 3))) : Valuation τ sig (Elt F) :=
  Function.update (W c) (Pipeline.arrRef spec0 3) G

/-- A reference other than the result array reads the entry contents at exit. -/
theorem exit0_of_ne (c : Dev nD) (G : Buf (Elt F) ((c : Thread nD τ).loc (Pipeline.arrRef spec0 3))) (r : Ref sig .tc)
    (h : r ≠ Pipeline.arrRef spec0 3) : exit0 W c G r = W c r :=
  Function.update_of_ne (fun e => h (Proc.devRef_injective _ e)) _ _

/-- The proof data over the program's four pipelines: this region's at its own, nothing said of the others. -/
abbrev fam0 : (p : Fin 4) → (c : Dev nD) → RDat τ (Elt F) Unit ℕ U ℕ (Pipeline.pin (pcfgs (F := F)) adm p) c :=
  Pipeline.RDat.familyOf (pcfgs (F := F)) adm pipe0 (rdat0 (U := U) fun c b => W c b)

/-- Every array is held at the full share. -/
theorem share0 (c : Dev nD) (w : Fin cfg0.W) : (rdat0 (U := U) (fun c b => W c b) c).share w = fullShare := by
  unfold Pipeline.RDat.share; split <;> rfl

/-- The family at this pipeline is this region's data. -/
theorem fam0_self (c : Dev nD) : fam0 (U := U) W pipe0 c = rdat0 (U := U) (fun c b => W c b) c :=
  Pipeline.RDat.familyOf_self (pcfgs (F := F)) adm pipe0 (rdat0 (U := U) fun c b => W c b) c

/-- EXIT, the join: the four arrays at the exit contents and the unscoped rest at the entry contents are every unscoped
    buffer at the exit contents (they differ at the result array only, which is no part of the rest). -/
theorem exit_join0 (c : Dev nD) (G : Buf (Elt F) ((c : Thread nD τ).loc (Pipeline.arrRef spec0 3))) :
    iprop((rdat0 (U := U) (fun c b => W c b) c).arrays (fun w => exit0 W c G (Pipeline.arrRef spec0 w))
        ∗ Pipeline.unscopedRest (Ix := Unit) (Name := ℕ) (U := U) (Lvl := ℕ) spec0 c (fun b => W c b))
      ⊢ (StableHlo.held (c : Thread nD τ) (Pipeline.ucRefs τ sig) (exit0 W c G) : sProp 𝕄) := by
  have harr := Pipeline.RDat.arrays_eq (pcfgs (F := F)) adm (fam0 (U := U) W) pipe0 c arr_whole0
    (fun w => by rw [fam0_self]; exact share0 W c w) (fun w => exit0 W c G (Pipeline.arrRef spec0 w))
  rw [fam0_self] at harr
  rw [← Pipeline.unscopedBufs_held, Pipeline.unscopedBufs_split cfgs pipe0 winFacts0.arr_unscoped winFacts0.arr_inj c]
  refine sep_mono (Entails.of_eq harr) (Entails.of_eq ?_)
  unfold Pipeline.unscopedRest
  refine bigSep_congr fun b hb => ?_
  have hne : b ≠ Pipeline.arrRef spec0 3 := fun e =>
    (Finset.mem_sdiff.mp hb).2 (Finset.mem_image.mpr ⟨3, Finset.mem_univ _, e.symm⟩)
  beta_reduce
  rw [exit0_of_ne W c G b hne]

set_option maxHeartbeats 2000000 in
/-- EXIT, the arrays: after every write-back the three inputs' arrays hold what they held at entry (no write-back is
    theirs) and the result's holds something. -/
theorem exit_arrays0 (c : Dev nD) :
    (rdat0 (U := U) (fun c b => W c b) c).arraysAt cfg0.N
      ⊢ (iprop(∃ G : Buf (Elt F) ((c : Thread nD τ).loc (Pipeline.arrRef spec0 3)),
          (rdat0 (U := U) (fun c b => W c b) c).arrays (fun w => exit0 W c G (Pipeline.arrRef spec0 w))) : sProp 𝕄) := by
  have ea := (rdat0 (U := U) (fun c b => W c b) c).ArrAt_in 0 (by decide) cfg0.N
  have eb := (rdat0 (U := U) (fun c b => W c b) c).ArrAt_in 1 (by decide) cfg0.N
  have ec := (rdat0 (U := U) (fun c b => W c b) c).ArrAt_in 2 (by decide) cfg0.N
  unfold Pipeline.RDat.arraysAt
  rw [bigSep_W0]
  iintro ⟨⟨%Fa, %ha, Ha⟩, ⟨%Fb, %hb, Hb⟩, ⟨%Fc, %hc, Hc⟩, ⟨%Fd, -, Hd⟩⟩
  rw [ea] at ha; rw [eb] at hb; rw [ec] at hc
  subst ha; subst hb; subst hc
  iexists Fd
  unfold Pipeline.RDat.arrays
  rw [bigSep_W0]
  beta_reduce
  rw [exit0_of_ne W c Fd (Pipeline.arrRef spec0 0) (by decide), exit0_of_ne W c Fd (Pipeline.arrRef spec0 1) (by decide),
    exit0_of_ne W c Fd (Pipeline.arrRef spec0 2) (by decide),
    show exit0 W c Fd (Pipeline.arrRef spec0 3) = Fd from Function.update_self _ _ _]
  isplitl [Ha]; · iexact Ha
  isplitl [Hb]; · iexact Hb
  isplitl [Hc]; · iexact Hc
  iexact Hd

set_option backward.isDefEq.respectTransparency.types false in
/-- REGION 0 over the thread state "every unscoped buffer at a valuation, the generator register at some state, nothing
    owed": entered from the valuation `W`, left at one that differs from it at most at the result window's array. -/
def reg0 : Pipeline.RDat.RegionSeg (pcfgs (F := F)) adm (fam0 (U := U) W) () defs₀ Variants.none L0 lv0 pipe0 where
  win := launch0.win.to₀
  block_pos := launch0.block_pos
  stage_whole := launch0.stage_whole
  K := PEmpty
  osem k := k.elim
  ho := Pipeline.OwnSemFacts.none _
  hbody c := by rw [fam0_self]; exact body_obligation0 _ c
  hwaits := Pipeline.RDat.hwaits_of_owed_zero _ _ _ _ L0 lv0 pipe0 fun c t => by rw [fam0_self]; rfl
  pre c := iprop(StableHlo.held (c : Thread nD τ) (Pipeline.ucRefs τ sig) (W c) ∗ Rst c)
  post c := iprop(∃ W' : Valuation τ sig (Elt F),
      ⌜∀ r : Ref sig .tc, r ≠ Pipeline.arrRef spec0 3 → W' r = W c r⌝
      ∗ StableHlo.held (c : Thread nD τ) (Pipeline.ucRefs τ sig) W' ∗ Rst c)
  X c := iprop(∃ r, prngReg c r)
  Y c := iprop(∃ r, prngReg c r)
  Z c := Pipeline.unscopedRest (Ix := Unit) (Name := ℕ) (U := U) (Lvl := ℕ) spec0 c (fun b => W c b)
  hentry c := by
    have hsplit := Pipeline.RDat.arrays_of_unscopedBufs (p := pipe0) (pcfgs (F := F)) adm (fam0 (U := U) W) winFacts0 arr_whole0 c
      (fun w => by rw [fam0_self]; exact share0 W c w) (fun b => W c b)
      (fun w => by rw [fam0_self]; rfl)
    rw [Pipeline.unscopedBufs_held] at hsplit
    rw [Pipeline.ownSems0_none]
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · rw [fam0_self]
      unfold Pipeline.RDat.owesAt Pipeline.owesWithin
      icases HO with ⟨%T, HO⟩; iexists T; isplitr; · ipureintro; exact fun _ _ => Or.inl trivial
      iexact HO
    isplitl [Hp]; · iexact Hp
    iexact Hrest
  hin c := by
    rw [fam0_self]
    show _ ⊢ Pipeline.ΦA spec0 c
    unfold Pipeline.ΦA
    iintro ⟨Hp, -, Hr⟩
    isplitl [Hr]; · iexact Hr
    iexact Hp
  hout c := by
    rw [fam0_self, Pipeline.ownSems0_none]
    show Pipeline.ΦA spec0 c ⊢ _
    unfold Pipeline.ΦA
    iintro ⟨Hr, Hp⟩
    isplitl [Hp]; · iexact Hp
    isplitr; · iempintro
    iexact Hr
  hexit c := by
    rw [fam0_self]
    iintro ⟨Ha, HO, HY, Hrest⟩
    ihave Ha' := (exit_arrays0 W c) $$ Ha
    icases Ha' with ⟨%G, Ha'⟩
    imodintro
    iexists (exit0 W c G)
    isplitr
    · ipureintro
      exact fun r hr => exit0_of_ne W c G r hr
    isplitl [Ha' Hrest]
    · iapply (exit_join0 W c G); isplitl [Ha'] <;> iassumption
    isplitl [HY]; · iexact HY
    unfold Pipeline.RDat.owesAt Pipeline.owesWithin
    icases HO with ⟨%T, -, HO⟩; iexists T; iexact HO

end Record

end Cert.Kernel.Hand

end
-- ==== Proof.KBFrame.lean ====
/-
  The word-level kernel's frame: from any memory it terminates, nothing faults, and the thirteen argument arrays end
  as launched. Nothing is said of the result array.
-/
import proofs.«420513_j51462298141020_3_alg».proof.Kernel
import proofs.«420513_j51462298141020_3_alg».proof.Proof.Gen.Kernel
import proofs.«420513_j51462298141020_3_alg».proof.Proof.KB.Run
import proofs.«420513_j51462298141020_3_alg».proof.Proof.KB.Reg0
import proofs.«420513_j51462298141020_3_alg».proof.Proof.KB.Reg1
import proofs.«420513_j51462298141020_3_alg».proof.Proof.KB.Reg2
import proofs.«420513_j51462298141020_3_alg».proof.Proof.KB.Reg3
import Idealize.ShloMosaic.Lib.ValueIdx
import Idealize.ShloMosaic.PureOps.BitExact

set_option maxRecDepth 16384

noncomputable section

open Idealize.ShloMosaic Idealize.ShloMosaic.TcCoe Idealize.SL.Sem Idealize.ShloMosaic.ValueIdx

namespace Cert.Kernel.Hand

open Cert.Kernel Cert.Kernel.Gen

set_option backward.isDefEq.respectTransparency.types false in
/-- Each region's record is taken at the contents found at its entry, whatever the regions before it left in the shared
    result array; it leaves every buffer as found but for its own result array, which is no argument. -/
theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)) :=
  rframe (F := Bits) m ρ
    ([Pipeline.arrRef spec0 3] : List (Ref sig .tc)) (by decide)
      (fun V => fam0 (U := UR sig nD τ × UR sig nD τ) fun _ => V) (fun V => reg0 fun _ => V)
      (fun V c => .rfl) (fun V c => post_of_ne (Pipeline.arrRef spec0 3) V c)
    ([Pipeline.arrRef spec1 3] : List (Ref sig .tc)) (by decide)
      (fun V => fam1 (U := UR sig nD τ × UR sig nD τ) fun _ => V) (fun V => reg1 fun _ => V)
      (fun V c => .rfl) (fun V c => post_of_ne (Pipeline.arrRef spec1 3) V c)
    ([Pipeline.arrRef spec2 3] : List (Ref sig .tc)) (by decide)
      (fun V => fam2 (U := UR sig nD τ × UR sig nD τ) fun _ => V) (fun V => reg2 fun _ => V)
      (fun V c => .rfl) (fun V c => post_of_ne (Pipeline.arrRef spec2 3) V c)
    ([Pipeline.arrRef spec3 3] : List (Ref sig .tc)) (by decide)
      (fun V => fam3 (U := UR sig nD τ × UR sig nD τ) fun _ => V) (fun V => reg3 fun _ => V)
      (fun V c => .rfl) (fun V c => post_of_ne (Pipeline.arrRef spec3 3) V c)

end Cert.Kernel.Hand

end
-- ==== Proof.lean ====
/-
  The certificate. The kernel computes, per layer i of four, out_i[b, c, v] = (Σ_p f_i[b, c, p] · lrelu (r_i[p, idx v])) · w_i[c, idx v]
  with the table column chosen by an index word, and stacks the layers on the channel axis; the reference computes the
  same sums, in the same grouping, by one gather, one product over the flattened spatial axis and one scaling per
  layer. On the extended reals a change of float format is the identity, so the two results are equal index by index
  once each index word names one of the 20000 columns: the kernel's gather fills an out-of-range column with a
  not-a-number while the reference's clamps it, so outside that range the two differ, and the claim carries the
  conjunct 0 ≤ idx < 20000, the range in which the reference's own indexing is defined. No law beyond the shape of the
  sums is used, so finiteness of the float inputs is never opened.

  The three frames: the word-level kernel's by its four regions run in turn; the idealized kernel's and the
  reference's are their value runs with the result dropped.
-/
import proofs.«420513_j51462298141020_3_alg».proof.Defs
import proofs.«420513_j51462298141020_3_alg».proof.Proof.Gen.Kernel
import proofs.«420513_j51462298141020_3_alg».proof.Proof.Gen.KernelIdeal
import proofs.«420513_j51462298141020_3_alg».proof.Proof.Gen.ReferenceIdeal
import proofs.«420513_j51462298141020_3_alg».proof.Proof.Gen.Pre_finite_inputs
import proofs.«420513_j51462298141020_3_alg».proof.Proof.PreIdx
import proofs.«420513_j51462298141020_3_alg».proof.Proof.RefRun
import proofs.«420513_j51462298141020_3_alg».proof.Proof.RefValue
import proofs.«420513_j51462298141020_3_alg».proof.Proof.KIRun
import proofs.«420513_j51462298141020_3_alg».proof.Proof.KBFrame

noncomputable section

namespace Cert.Proof

open Idealize.ShloMosaic Idealize.ShloMosaic.TcCoe Idealize.SL.Sem Idealize.ShloMosaic.ValueIdx

/-- The word-level kernel terminates and leaves its arguments as launched. -/
theorem frame_k : Cert.frame_Kernel := fun m ρ _ => Cert.Kernel.Hand.frame m ρ

/-- The idealized kernel's frame is its value run with the result dropped. -/
theorem frame_ki : Cert.frame_KernelIdeal := fun m ρ h =>
  (θ_run Cert.KernelIdeal.defs _ _).mono (fun _ hr c => (hr c).2)
    (Cert.KernelIdeal.Hand.run_value m ρ (Cert.Hand.idx_lt m h))

/-- The reference's frame is its run with the result dropped. -/
theorem frame_ri : Cert.frame_ReferenceIdeal := fun m ρ _ =>
  (θ_run Cert.ReferenceIdeal.defs _ _).mono (fun _ hr c => (hr c).2) (Cert.ReferenceIdeal.Hand.run m ρ)

/-- The ideal pass rewrote nothing. -/
theorem preserves : Cert.preserves_Kernel_KernelIdeal := trivial

/-- Both programs end with the specification of the shared arguments in their result arrays. -/
theorem algebraic : Cert.algebraic_KernelIdeal_ReferenceIdeal := by
  intro m ρ m' ρ' hpre hagree
  refine ⟨_, Cert.KernelIdeal.Hand.run_value m ρ (Cert.Hand.idx_lt m hpre), ?_⟩
  refine (θ_run Cert.ReferenceIdeal.defs _ _).mono (fun _ hr c => ⟨(hr c).1.trans ?_, (hr c).2⟩)
    (Cert.ReferenceIdeal.Hand.run m' ρ')
  obtain ⟨h0, h1, h2, h3, h4, h5, h6, h7, h8, h9, h10, h11, h12⟩ := hagree c
  rw [Cert.ReferenceIdeal.Hand.refOut_eq_G _ _ _ _ _ _ _ _ _ _ _ _ _
    (fun v => by rw [h12]; exact Cert.Hand.idx_lt m hpre c v)]
  rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
